-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S2048x1024 : Shape := ⟨2, ![2048, 1024]⟩
abbrev S1x1024 : Shape := ⟨2, ![1, 1024]⟩
abbrev S256x1024 : Shape := ⟨2, ![256, 1024]⟩
abbrev S32x1024 : Shape := ⟨2, ![32, 1024]⟩
abbrev S31 : Shape := ⟨1, ![31]⟩
abbrev S_ : Shape := ⟨0, ![]⟩
abbrev S1024 : Shape := ⟨1, ![1024]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S32x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 32
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v13 : BitVec 32 := Scalar.addi v2 c1_i32_4
  let c32_i32_5 : BitVec 32 := 32#32
  let v14 : BitVec 32 := Scalar.remsi v13 c32_i32_5
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let v18 : BitVec 32 := Scalar.remsi v17 c32_i32_9
  let c1_i32_11 : BitVec 32 := 1#32
  let v19 : BitVec 32 := Scalar.muli v18 c1_i32_11
  let v20 : BitVec 32 := Scalar.addi c0_i32_12 v19
  v20.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v21 : BitVec 32 := Scalar.addi v2 c3_i32
  let c32_i32_13 : BitVec 32 := 32#32
  let v22 : BitVec 32 := Scalar.remsi v21 c32_i32_13
  let c1_i32_15 : BitVec 32 := 1#32
  let v23 : BitVec 32 := Scalar.muli v22 c1_i32_15
  let v24 : BitVec 32 := Scalar.addi c0_i32_16 v23
  v24.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v25 : BitVec 32 := Scalar.addi v2 c4_i32
  let c32_i32_17 : BitVec 32 := 32#32
  let v26 : BitVec 32 := Scalar.remsi v25 c32_i32_17
  let c1_i32_19 : BitVec 32 := 1#32
  let v27 : BitVec 32 := Scalar.muli v26 c1_i32_19
  let v28 : BitVec 32 := Scalar.addi c0_i32_20 v27
  v28.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v29 : BitVec 32 := Scalar.addi v2 c5_i32
  let c32_i32_21 : BitVec 32 := 32#32
  let v30 : BitVec 32 := Scalar.remsi v29 c32_i32_21
  let c1_i32_23 : BitVec 32 := 1#32
  let v31 : BitVec 32 := Scalar.muli v30 c1_i32_23
  let v32 : BitVec 32 := Scalar.addi c0_i32_24 v31
  v32.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v33 : BitVec 32 := Scalar.addi v2 c6_i32
  let c32_i32_25 : BitVec 32 := 32#32
  let v34 : BitVec 32 := Scalar.remsi v33 c32_i32_25
  let c1_i32_27 : BitVec 32 := 1#32
  let v35 : BitVec 32 := Scalar.muli v34 c1_i32_27
  let v36 : BitVec 32 := Scalar.addi c0_i32_28 v35
  v36.toNat
def k0_dev7 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_29 : BitVec 32 := 7#32
  let v37 : BitVec 32 := Scalar.addi v2 c7_i32_29
  let c32_i32_30 : BitVec 32 := 32#32
  let v38 : BitVec 32 := Scalar.remsi v37 c32_i32_30
  let c1_i32_32 : BitVec 32 := 1#32
  let v39 : BitVec 32 := Scalar.muli v38 c1_i32_32
  let v40 : BitVec 32 := Scalar.addi c0_i32_33 v39
  v40.toNat
def k0_dev8 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v41 : BitVec 32 := Scalar.addi v2 c8_i32
  let c32_i32_34 : BitVec 32 := 32#32
  let v42 : BitVec 32 := Scalar.remsi v41 c32_i32_34
  let c1_i32_36 : BitVec 32 := 1#32
  let v43 : BitVec 32 := Scalar.muli v42 c1_i32_36
  let v44 : BitVec 32 := Scalar.addi c0_i32_37 v43
  v44.toNat
def k0_dev9 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v45 : BitVec 32 := Scalar.addi v2 c9_i32
  let c32_i32_38 : BitVec 32 := 32#32
  let v46 : BitVec 32 := Scalar.remsi v45 c32_i32_38
  let c1_i32_40 : BitVec 32 := 1#32
  let v47 : BitVec 32 := Scalar.muli v46 c1_i32_40
  let v48 : BitVec 32 := Scalar.addi c0_i32_41 v47
  v48.toNat
def k0_dev10 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v49 : BitVec 32 := Scalar.addi v2 c10_i32
  let c32_i32_42 : BitVec 32 := 32#32
  let v50 : BitVec 32 := Scalar.remsi v49 c32_i32_42
  let c1_i32_44 : BitVec 32 := 1#32
  let v51 : BitVec 32 := Scalar.muli v50 c1_i32_44
  let v52 : BitVec 32 := Scalar.addi c0_i32_45 v51
  v52.toNat
def k0_dev11 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v53 : BitVec 32 := Scalar.addi v2 c11_i32
  let c32_i32_46 : BitVec 32 := 32#32
  let v54 : BitVec 32 := Scalar.remsi v53 c32_i32_46
  let c1_i32_48 : BitVec 32 := 1#32
  let v55 : BitVec 32 := Scalar.muli v54 c1_i32_48
  let v56 : BitVec 32 := Scalar.addi c0_i32_49 v55
  v56.toNat
def k0_dev12 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v57 : BitVec 32 := Scalar.addi v2 c12_i32
  let c32_i32_50 : BitVec 32 := 32#32
  let v58 : BitVec 32 := Scalar.remsi v57 c32_i32_50
  let c1_i32_52 : BitVec 32 := 1#32
  let v59 : BitVec 32 := Scalar.muli v58 c1_i32_52
  let v60 : BitVec 32 := Scalar.addi c0_i32_53 v59
  v60.toNat
def k0_dev13 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v61 : BitVec 32 := Scalar.addi v2 c13_i32
  let c32_i32_54 : BitVec 32 := 32#32
  let v62 : BitVec 32 := Scalar.remsi v61 c32_i32_54
  let c1_i32_56 : BitVec 32 := 1#32
  let v63 : BitVec 32 := Scalar.muli v62 c1_i32_56
  let v64 : BitVec 32 := Scalar.addi c0_i32_57 v63
  v64.toNat
def k0_dev14 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v65 : BitVec 32 := Scalar.addi v2 c14_i32
  let c32_i32_58 : BitVec 32 := 32#32
  let v66 : BitVec 32 := Scalar.remsi v65 c32_i32_58
  let c1_i32_60 : BitVec 32 := 1#32
  let v67 : BitVec 32 := Scalar.muli v66 c1_i32_60
  let v68 : BitVec 32 := Scalar.addi c0_i32_61 v67
  v68.toNat
def k0_dev15 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v69 : BitVec 32 := Scalar.addi v2 c15_i32
  let c32_i32_62 : BitVec 32 := 32#32
  let v70 : BitVec 32 := Scalar.remsi v69 c32_i32_62
  let c1_i32_64 : BitVec 32 := 1#32
  let v71 : BitVec 32 := Scalar.muli v70 c1_i32_64
  let v72 : BitVec 32 := Scalar.addi c0_i32_65 v71
  v72.toNat
def k0_dev16 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v73 : BitVec 32 := Scalar.addi v2 c16_i32
  let c32_i32_66 : BitVec 32 := 32#32
  let v74 : BitVec 32 := Scalar.remsi v73 c32_i32_66
  let c1_i32_68 : BitVec 32 := 1#32
  let v75 : BitVec 32 := Scalar.muli v74 c1_i32_68
  let v76 : BitVec 32 := Scalar.addi c0_i32_69 v75
  v76.toNat
def k0_dev17 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v77 : BitVec 32 := Scalar.addi v2 c17_i32
  let c32_i32_70 : BitVec 32 := 32#32
  let v78 : BitVec 32 := Scalar.remsi v77 c32_i32_70
  let c1_i32_72 : BitVec 32 := 1#32
  let v79 : BitVec 32 := Scalar.muli v78 c1_i32_72
  let v80 : BitVec 32 := Scalar.addi c0_i32_73 v79
  v80.toNat
def k0_dev18 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v81 : BitVec 32 := Scalar.addi v2 c18_i32
  let c32_i32_74 : BitVec 32 := 32#32
  let v82 : BitVec 32 := Scalar.remsi v81 c32_i32_74
  let c1_i32_76 : BitVec 32 := 1#32
  let v83 : BitVec 32 := Scalar.muli v82 c1_i32_76
  let v84 : BitVec 32 := Scalar.addi c0_i32_77 v83
  v84.toNat
def k0_dev19 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v85 : BitVec 32 := Scalar.addi v2 c19_i32
  let c32_i32_78 : BitVec 32 := 32#32
  let v86 : BitVec 32 := Scalar.remsi v85 c32_i32_78
  let c1_i32_80 : BitVec 32 := 1#32
  let v87 : BitVec 32 := Scalar.muli v86 c1_i32_80
  let v88 : BitVec 32 := Scalar.addi c0_i32_81 v87
  v88.toNat
def k0_dev20 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v89 : BitVec 32 := Scalar.addi v2 c20_i32
  let c32_i32_82 : BitVec 32 := 32#32
  let v90 : BitVec 32 := Scalar.remsi v89 c32_i32_82
  let c1_i32_84 : BitVec 32 := 1#32
  let v91 : BitVec 32 := Scalar.muli v90 c1_i32_84
  let v92 : BitVec 32 := Scalar.addi c0_i32_85 v91
  v92.toNat
def k0_dev21 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v93 : BitVec 32 := Scalar.addi v2 c21_i32
  let c32_i32_86 : BitVec 32 := 32#32
  let v94 : BitVec 32 := Scalar.remsi v93 c32_i32_86
  let c1_i32_88 : BitVec 32 := 1#32
  let v95 : BitVec 32 := Scalar.muli v94 c1_i32_88
  let v96 : BitVec 32 := Scalar.addi c0_i32_89 v95
  v96.toNat
def k0_dev22 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v97 : BitVec 32 := Scalar.addi v2 c22_i32
  let c32_i32_90 : BitVec 32 := 32#32
  let v98 : BitVec 32 := Scalar.remsi v97 c32_i32_90
  let c1_i32_92 : BitVec 32 := 1#32
  let v99 : BitVec 32 := Scalar.muli v98 c1_i32_92
  let v100 : BitVec 32 := Scalar.addi c0_i32_93 v99
  v100.toNat
def k0_dev23 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v101 : BitVec 32 := Scalar.addi v2 c23_i32
  let c32_i32_94 : BitVec 32 := 32#32
  let v102 : BitVec 32 := Scalar.remsi v101 c32_i32_94
  let c1_i32_96 : BitVec 32 := 1#32
  let v103 : BitVec 32 := Scalar.muli v102 c1_i32_96
  let v104 : BitVec 32 := Scalar.addi c0_i32_97 v103
  v104.toNat
def k0_dev24 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v105 : BitVec 32 := Scalar.addi v2 c24_i32
  let c32_i32_98 : BitVec 32 := 32#32
  let v106 : BitVec 32 := Scalar.remsi v105 c32_i32_98
  let c1_i32_100 : BitVec 32 := 1#32
  let v107 : BitVec 32 := Scalar.muli v106 c1_i32_100
  let v108 : BitVec 32 := Scalar.addi c0_i32_101 v107
  v108.toNat
def k0_dev25 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v109 : BitVec 32 := Scalar.addi v2 c25_i32
  let c32_i32_102 : BitVec 32 := 32#32
  let v110 : BitVec 32 := Scalar.remsi v109 c32_i32_102
  let c1_i32_104 : BitVec 32 := 1#32
  let v111 : BitVec 32 := Scalar.muli v110 c1_i32_104
  let v112 : BitVec 32 := Scalar.addi c0_i32_105 v111
  v112.toNat
def k0_dev26 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v113 : BitVec 32 := Scalar.addi v2 c26_i32
  let c32_i32_106 : BitVec 32 := 32#32
  let v114 : BitVec 32 := Scalar.remsi v113 c32_i32_106
  let c1_i32_108 : BitVec 32 := 1#32
  let v115 : BitVec 32 := Scalar.muli v114 c1_i32_108
  let v116 : BitVec 32 := Scalar.addi c0_i32_109 v115
  v116.toNat
def k0_dev27 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v117 : BitVec 32 := Scalar.addi v2 c27_i32
  let c32_i32_110 : BitVec 32 := 32#32
  let v118 : BitVec 32 := Scalar.remsi v117 c32_i32_110
  let c1_i32_112 : BitVec 32 := 1#32
  let v119 : BitVec 32 := Scalar.muli v118 c1_i32_112
  let v120 : BitVec 32 := Scalar.addi c0_i32_113 v119
  v120.toNat
def k0_dev28 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v121 : BitVec 32 := Scalar.addi v2 c28_i32
  let c32_i32_114 : BitVec 32 := 32#32
  let v122 : BitVec 32 := Scalar.remsi v121 c32_i32_114
  let c1_i32_116 : BitVec 32 := 1#32
  let v123 : BitVec 32 := Scalar.muli v122 c1_i32_116
  let v124 : BitVec 32 := Scalar.addi c0_i32_117 v123
  v124.toNat
def k0_dev29 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v125 : BitVec 32 := Scalar.addi v2 c29_i32
  let c32_i32_118 : BitVec 32 := 32#32
  let v126 : BitVec 32 := Scalar.remsi v125 c32_i32_118
  let c1_i32_120 : BitVec 32 := 1#32
  let v127 : BitVec 32 := Scalar.muli v126 c1_i32_120
  let v128 : BitVec 32 := Scalar.addi c0_i32_121 v127
  v128.toNat
def k0_dev30 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v129 : BitVec 32 := Scalar.addi v2 c30_i32
  let c32_i32_122 : BitVec 32 := 32#32
  let v130 : BitVec 32 := Scalar.remsi v129 c32_i32_122
  let c1_i32_124 : BitVec 32 := 1#32
  let v131 : BitVec 32 := Scalar.muli v130 c1_i32_124
  let v132 : BitVec 32 := Scalar.addi c0_i32_125 v131
  v132.toNat
def k0_dev31 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v133 : BitVec 32 := Scalar.addi v2 c31_i32
  let c32_i32_126 : BitVec 32 := 32#32
  let v134 : BitVec 32 := Scalar.remsi v133 c32_i32_126
  let c1_i32_128 : BitVec 32 := 1#32
  let v135 : BitVec 32 := Scalar.muli v134 c1_i32_128
  let v136 : BitVec 32 := Scalar.addi c0_i32_129 v135
  v136.toNat
def k0_cond3 (i : grid0.Coords) : BitVec 1 :=
  let arg0 : BitVec 32 := BitVec.ofNat 32 (i 0).val
  let c7_i32 : BitVec 32 := 7#32
  let v10 : BitVec 1 := Scalar.cmpi .eq arg0 c7_i32
  let v11 : BitVec 32 := Scalar.extui v10
  let c0_i32_3 : BitVec 32 := 0#32
  let v12 : BitVec 1 := Scalar.cmpi .ne v11 c0_i32_3
  v12

def k0_dev32 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v13 : BitVec 32 := Scalar.addi v2 c1_i32_4
  let c32_i32_5 : BitVec 32 := 32#32
  let v14 : BitVec 32 := Scalar.remsi v13 c32_i32_5
  let c1_i32_8 : BitVec 32 := 1#32
  let v15 : BitVec 32 := Scalar.muli v14 c1_i32_8
  let v16 : BitVec 32 := Scalar.addi c0_i32_9 v15
  v16.toNat
def k0_dev33 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v23 : BitVec 32 := Scalar.addi v2 c2_i32
  let c32_i32_14 : BitVec 32 := 32#32
  let v24 : BitVec 32 := Scalar.remsi v23 c32_i32_14
  let c1_i32_17 : BitVec 32 := 1#32
  let v25 : BitVec 32 := Scalar.muli v24 c1_i32_17
  let v26 : BitVec 32 := Scalar.addi c0_i32_18 v25
  v26.toNat
def k0_dev34 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v33 : BitVec 32 := Scalar.addi v2 c3_i32
  let c32_i32_23 : BitVec 32 := 32#32
  let v34 : BitVec 32 := Scalar.remsi v33 c32_i32_23
  let c1_i32_26 : BitVec 32 := 1#32
  let v35 : BitVec 32 := Scalar.muli v34 c1_i32_26
  let v36 : BitVec 32 := Scalar.addi c0_i32_27 v35
  v36.toNat
def k0_dev35 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_32 : BitVec 32 := 32#32
  let v44 : BitVec 32 := Scalar.remsi v43 c32_i32_32
  let c1_i32_35 : BitVec 32 := 1#32
  let v45 : BitVec 32 := Scalar.muli v44 c1_i32_35
  let v46 : BitVec 32 := Scalar.addi c0_i32_36 v45
  v46.toNat
def k0_dev36 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v53 : BitVec 32 := Scalar.addi v2 c5_i32
  let c32_i32_41 : BitVec 32 := 32#32
  let v54 : BitVec 32 := Scalar.remsi v53 c32_i32_41
  let c1_i32_44 : BitVec 32 := 1#32
  let v55 : BitVec 32 := Scalar.muli v54 c1_i32_44
  let v56 : BitVec 32 := Scalar.addi c0_i32_45 v55
  v56.toNat
def k0_dev37 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v63 : BitVec 32 := Scalar.addi v2 c6_i32
  let c32_i32_50 : BitVec 32 := 32#32
  let v64 : BitVec 32 := Scalar.remsi v63 c32_i32_50
  let c1_i32_53 : BitVec 32 := 1#32
  let v65 : BitVec 32 := Scalar.muli v64 c1_i32_53
  let v66 : BitVec 32 := Scalar.addi c0_i32_54 v65
  v66.toNat
def k0_dev38 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_59 : BitVec 32 := 7#32
  let v73 : BitVec 32 := Scalar.addi v2 c7_i32_59
  let c32_i32_60 : BitVec 32 := 32#32
  let v74 : BitVec 32 := Scalar.remsi v73 c32_i32_60
  let c1_i32_63 : BitVec 32 := 1#32
  let v75 : BitVec 32 := Scalar.muli v74 c1_i32_63
  let v76 : BitVec 32 := Scalar.addi c0_i32_64 v75
  v76.toNat
def k0_dev39 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v83 : BitVec 32 := Scalar.addi v2 c8_i32
  let c32_i32_69 : BitVec 32 := 32#32
  let v84 : BitVec 32 := Scalar.remsi v83 c32_i32_69
  let c1_i32_72 : BitVec 32 := 1#32
  let v85 : BitVec 32 := Scalar.muli v84 c1_i32_72
  let v86 : BitVec 32 := Scalar.addi c0_i32_73 v85
  v86.toNat
def k0_dev40 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v93 : BitVec 32 := Scalar.addi v2 c9_i32
  let c32_i32_78 : BitVec 32 := 32#32
  let v94 : BitVec 32 := Scalar.remsi v93 c32_i32_78
  let c1_i32_81 : BitVec 32 := 1#32
  let v95 : BitVec 32 := Scalar.muli v94 c1_i32_81
  let v96 : BitVec 32 := Scalar.addi c0_i32_82 v95
  v96.toNat
def k0_dev41 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v103 : BitVec 32 := Scalar.addi v2 c10_i32
  let c32_i32_87 : BitVec 32 := 32#32
  let v104 : BitVec 32 := Scalar.remsi v103 c32_i32_87
  let c1_i32_90 : BitVec 32 := 1#32
  let v105 : BitVec 32 := Scalar.muli v104 c1_i32_90
  let v106 : BitVec 32 := Scalar.addi c0_i32_91 v105
  v106.toNat
def k0_dev42 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v113 : BitVec 32 := Scalar.addi v2 c11_i32
  let c32_i32_96 : BitVec 32 := 32#32
  let v114 : BitVec 32 := Scalar.remsi v113 c32_i32_96
  let c1_i32_99 : BitVec 32 := 1#32
  let v115 : BitVec 32 := Scalar.muli v114 c1_i32_99
  let v116 : BitVec 32 := Scalar.addi c0_i32_100 v115
  v116.toNat
def k0_dev43 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v123 : BitVec 32 := Scalar.addi v2 c12_i32
  let c32_i32_105 : BitVec 32 := 32#32
  let v124 : BitVec 32 := Scalar.remsi v123 c32_i32_105
  let c1_i32_108 : BitVec 32 := 1#32
  let v125 : BitVec 32 := Scalar.muli v124 c1_i32_108
  let v126 : BitVec 32 := Scalar.addi c0_i32_109 v125
  v126.toNat
def k0_dev44 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v133 : BitVec 32 := Scalar.addi v2 c13_i32
  let c32_i32_114 : BitVec 32 := 32#32
  let v134 : BitVec 32 := Scalar.remsi v133 c32_i32_114
  let c1_i32_117 : BitVec 32 := 1#32
  let v135 : BitVec 32 := Scalar.muli v134 c1_i32_117
  let v136 : BitVec 32 := Scalar.addi c0_i32_118 v135
  v136.toNat
def k0_dev45 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v143 : BitVec 32 := Scalar.addi v2 c14_i32
  let c32_i32_123 : BitVec 32 := 32#32
  let v144 : BitVec 32 := Scalar.remsi v143 c32_i32_123
  let c1_i32_126 : BitVec 32 := 1#32
  let v145 : BitVec 32 := Scalar.muli v144 c1_i32_126
  let v146 : BitVec 32 := Scalar.addi c0_i32_127 v145
  v146.toNat
def k0_dev46 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v153 : BitVec 32 := Scalar.addi v2 c15_i32
  let c32_i32_132 : BitVec 32 := 32#32
  let v154 : BitVec 32 := Scalar.remsi v153 c32_i32_132
  let c1_i32_135 : BitVec 32 := 1#32
  let v155 : BitVec 32 := Scalar.muli v154 c1_i32_135
  let v156 : BitVec 32 := Scalar.addi c0_i32_136 v155
  v156.toNat
def k0_dev47 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v163 : BitVec 32 := Scalar.addi v2 c16_i32
  let c32_i32_141 : BitVec 32 := 32#32
  let v164 : BitVec 32 := Scalar.remsi v163 c32_i32_141
  let c1_i32_144 : BitVec 32 := 1#32
  let v165 : BitVec 32 := Scalar.muli v164 c1_i32_144
  let v166 : BitVec 32 := Scalar.addi c0_i32_145 v165
  v166.toNat
def k0_dev48 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v173 : BitVec 32 := Scalar.addi v2 c17_i32
  let c32_i32_150 : BitVec 32 := 32#32
  let v174 : BitVec 32 := Scalar.remsi v173 c32_i32_150
  let c1_i32_153 : BitVec 32 := 1#32
  let v175 : BitVec 32 := Scalar.muli v174 c1_i32_153
  let v176 : BitVec 32 := Scalar.addi c0_i32_154 v175
  v176.toNat
def k0_dev49 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v183 : BitVec 32 := Scalar.addi v2 c18_i32
  let c32_i32_159 : BitVec 32 := 32#32
  let v184 : BitVec 32 := Scalar.remsi v183 c32_i32_159
  let c1_i32_162 : BitVec 32 := 1#32
  let v185 : BitVec 32 := Scalar.muli v184 c1_i32_162
  let v186 : BitVec 32 := Scalar.addi c0_i32_163 v185
  v186.toNat
def k0_dev50 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v193 : BitVec 32 := Scalar.addi v2 c19_i32
  let c32_i32_168 : BitVec 32 := 32#32
  let v194 : BitVec 32 := Scalar.remsi v193 c32_i32_168
  let c1_i32_171 : BitVec 32 := 1#32
  let v195 : BitVec 32 := Scalar.muli v194 c1_i32_171
  let v196 : BitVec 32 := Scalar.addi c0_i32_172 v195
  v196.toNat
def k0_dev51 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v203 : BitVec 32 := Scalar.addi v2 c20_i32
  let c32_i32_177 : BitVec 32 := 32#32
  let v204 : BitVec 32 := Scalar.remsi v203 c32_i32_177
  let c1_i32_180 : BitVec 32 := 1#32
  let v205 : BitVec 32 := Scalar.muli v204 c1_i32_180
  let v206 : BitVec 32 := Scalar.addi c0_i32_181 v205
  v206.toNat
def k0_dev52 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v213 : BitVec 32 := Scalar.addi v2 c21_i32
  let c32_i32_186 : BitVec 32 := 32#32
  let v214 : BitVec 32 := Scalar.remsi v213 c32_i32_186
  let c1_i32_189 : BitVec 32 := 1#32
  let v215 : BitVec 32 := Scalar.muli v214 c1_i32_189
  let v216 : BitVec 32 := Scalar.addi c0_i32_190 v215
  v216.toNat
def k0_dev53 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v223 : BitVec 32 := Scalar.addi v2 c22_i32
  let c32_i32_195 : BitVec 32 := 32#32
  let v224 : BitVec 32 := Scalar.remsi v223 c32_i32_195
  let c1_i32_198 : BitVec 32 := 1#32
  let v225 : BitVec 32 := Scalar.muli v224 c1_i32_198
  let v226 : BitVec 32 := Scalar.addi c0_i32_199 v225
  v226.toNat
def k0_dev54 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v233 : BitVec 32 := Scalar.addi v2 c23_i32
  let c32_i32_204 : BitVec 32 := 32#32
  let v234 : BitVec 32 := Scalar.remsi v233 c32_i32_204
  let c1_i32_207 : BitVec 32 := 1#32
  let v235 : BitVec 32 := Scalar.muli v234 c1_i32_207
  let v236 : BitVec 32 := Scalar.addi c0_i32_208 v235
  v236.toNat
def k0_dev55 (d0 : Dev nD) : Nat :=
  let c0_i32_217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v243 : BitVec 32 := Scalar.addi v2 c24_i32
  let c32_i32_213 : BitVec 32 := 32#32
  let v244 : BitVec 32 := Scalar.remsi v243 c32_i32_213
  let c1_i32_216 : BitVec 32 := 1#32
  let v245 : BitVec 32 := Scalar.muli v244 c1_i32_216
  let v246 : BitVec 32 := Scalar.addi c0_i32_217 v245
  v246.toNat
def k0_dev56 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v253 : BitVec 32 := Scalar.addi v2 c25_i32
  let c32_i32_222 : BitVec 32 := 32#32
  let v254 : BitVec 32 := Scalar.remsi v253 c32_i32_222
  let c1_i32_225 : BitVec 32 := 1#32
  let v255 : BitVec 32 := Scalar.muli v254 c1_i32_225
  let v256 : BitVec 32 := Scalar.addi c0_i32_226 v255
  v256.toNat
def k0_dev57 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v263 : BitVec 32 := Scalar.addi v2 c26_i32
  let c32_i32_231 : BitVec 32 := 32#32
  let v264 : BitVec 32 := Scalar.remsi v263 c32_i32_231
  let c1_i32_234 : BitVec 32 := 1#32
  let v265 : BitVec 32 := Scalar.muli v264 c1_i32_234
  let v266 : BitVec 32 := Scalar.addi c0_i32_235 v265
  v266.toNat
def k0_dev58 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v273 : BitVec 32 := Scalar.addi v2 c27_i32
  let c32_i32_240 : BitVec 32 := 32#32
  let v274 : BitVec 32 := Scalar.remsi v273 c32_i32_240
  let c1_i32_243 : BitVec 32 := 1#32
  let v275 : BitVec 32 := Scalar.muli v274 c1_i32_243
  let v276 : BitVec 32 := Scalar.addi c0_i32_244 v275
  v276.toNat
def k0_dev59 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v283 : BitVec 32 := Scalar.addi v2 c28_i32
  let c32_i32_249 : BitVec 32 := 32#32
  let v284 : BitVec 32 := Scalar.remsi v283 c32_i32_249
  let c1_i32_252 : BitVec 32 := 1#32
  let v285 : BitVec 32 := Scalar.muli v284 c1_i32_252
  let v286 : BitVec 32 := Scalar.addi c0_i32_253 v285
  v286.toNat
def k0_dev60 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v293 : BitVec 32 := Scalar.addi v2 c29_i32
  let c32_i32_258 : BitVec 32 := 32#32
  let v294 : BitVec 32 := Scalar.remsi v293 c32_i32_258
  let c1_i32_261 : BitVec 32 := 1#32
  let v295 : BitVec 32 := Scalar.muli v294 c1_i32_261
  let v296 : BitVec 32 := Scalar.addi c0_i32_262 v295
  v296.toNat
def k0_dev61 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v303 : BitVec 32 := Scalar.addi v2 c30_i32
  let c32_i32_267 : BitVec 32 := 32#32
  let v304 : BitVec 32 := Scalar.remsi v303 c32_i32_267
  let c1_i32_270 : BitVec 32 := 1#32
  let v305 : BitVec 32 := Scalar.muli v304 c1_i32_270
  let v306 : BitVec 32 := Scalar.addi c0_i32_271 v305
  v306.toNat
def k0_dev62 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_276 : BitVec 32 := 31#32
  let v313 : BitVec 32 := Scalar.addi v2 c31_i32_276
  let c32_i32_277 : BitVec 32 := 32#32
  let v314 : BitVec 32 := Scalar.remsi v313 c32_i32_277
  let c1_i32_280 : BitVec 32 := 1#32
  let v315 : BitVec 32 := Scalar.muli v314 c1_i32_280
  let v316 : BitVec 32 := Scalar.addi c0_i32_281 v315
  v316.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  hamt_1 : (1#32 : BitVec 32).msb = false
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S1024 : S256x1024.Reduces [0] S1024
  inb_S32x1024_S1x1024_0_0 : ∀ a, (![0, 0] : Fin 2 → Nat) a + S1x1024.size a ≤ S32x1024.size a
  h_S1x1024 : 0 < S1x1024.numel
  shapeCasts_S1x1024_S1024 : S1x1024.ShapeCasts S1024
  shapeCasts_S1024_S1x1024 : S1024.ShapeCasts S1x1024
  hamt_31 : (31#32 : BitVec 32).msb = false
  inb_S31_S1_0 : ∀ a, (![0] : Fin 1 → Nat) a + S1.size a ≤ S31.size a
  squeezes_S1_S_ : S1.Squeezes S_
  inb_S32x1024_S1x1024_1_0 : ∀ a, (![1, 0] : Fin 2 → Nat) a + S1x1024.size a ≤ S32x1024.size a
  inb_S31_S1_1 : ∀ a, (![1] : Fin 1 → Nat) a + S1.size a ≤ S31.size a
  inb_S32x1024_S1x1024_2_0 : ∀ a, (![2, 0] : Fin 2 → Nat) a + S1x1024.size a ≤ S32x1024.size a
  inb_S31_S1_2 : ∀ a, (![2] : Fin 1 → Nat) a + S1.size a ≤ S31.size a
  inb_S32x1024_S1x1024_3_0 : ∀ a, (![3, 0] : Fin 2 → Nat) a + S1x1024.size a ≤ S32x1024.size a
  inb_S31_S1_3 : ∀ a, (![3] : Fin 1 → Nat) a + S1.size a ≤ S31.size a
  inb_S32x1024_S1x1024_4_0 : ∀ a, (![4, 0] : Fin 2 → Nat) a + S1x1024.size a ≤ S32x1024.size a
  inb_S31_S1_4 : ∀ a, (![4] : Fin 1 → Nat) a + S1.size a ≤ S31.size a
  inb_S32x1024_S1x1024_5_0 : ∀ a, (![5, 0] : Fin 2 → Nat) a + S1x1024.size a ≤ S32x1024.size a
  inb_S31_S1_5 : ∀ a, (![5] : Fin 1 → Nat) a + S1.size a ≤ S31.size a
  inb_S32x1024_S1x1024_6_0 : ∀ a, (![6, 0] : Fin 2 → Nat) a + S1x1024.size a ≤ S32x1024.size a
  inb_S31_S1_6 : ∀ a, (![6] : Fin 1 → Nat) a + S1.size a ≤ S31.size a
  inb_S32x1024_S1x1024_7_0 : ∀ a, (![7, 0] : Fin 2 → Nat) a + S1x1024.size a ≤ S32x1024.size a
  inb_S31_S1_7 : ∀ a, (![7] : Fin 1 → Nat) a + S1.size a ≤ S31.size a
  inb_S32x1024_S1x1024_8_0 : ∀ a, (![8, 0] : Fin 2 → Nat) a + S1x1024.size a ≤ S32x1024.size a
  inb_S31_S1_8 : ∀ a, (![8] : Fin 1 → Nat) a + S1.size a ≤ S31.size a
  inb_S32x1024_S1x1024_9_0 : ∀ a, (![9, 0] : Fin 2 → Nat) a + S1x1024.size a ≤ S32x1024.size a
  inb_S31_S1_9 : ∀ a, (![9] : Fin 1 → Nat) a + S1.size a ≤ S31.size a
  inb_S32x1024_S1x1024_10_0 : ∀ a, (![10, 0] : Fin 2 → Nat) a + S1x1024.size a ≤ S32x1024.size a
  inb_S31_S1_10 : ∀ a, (![10] : Fin 1 → Nat) a + S1.size a ≤ S31.size a
  inb_S32x1024_S1x1024_11_0 : ∀ a, (![11, 0] : Fin 2 → Nat) a + S1x1024.size a ≤ S32x1024.size a
  inb_S31_S1_11 : ∀ a, (![11] : Fin 1 → Nat) a + S1.size a ≤ S31.size a
  inb_S32x1024_S1x1024_12_0 : ∀ a, (![12, 0] : Fin 2 → Nat) a + S1x1024.size a ≤ S32x1024.size a
  inb_S31_S1_12 : ∀ a, (![12] : Fin 1 → Nat) a + S1.size a ≤ S31.size a
  inb_S32x1024_S1x1024_13_0 : ∀ a, (![13, 0] : Fin 2 → Nat) a + S1x1024.size a ≤ S32x1024.size a
  inb_S31_S1_13 : ∀ a, (![13] : Fin 1 → Nat) a + S1.size a ≤ S31.size a
  inb_S32x1024_S1x1024_14_0 : ∀ a, (![14, 0] : Fin 2 → Nat) a + S1x1024.size a ≤ S32x1024.size a
  inb_S31_S1_14 : ∀ a, (![14] : Fin 1 → Nat) a + S1.size a ≤ S31.size a
  inb_S32x1024_S1x1024_15_0 : ∀ a, (![15, 0] : Fin 2 → Nat) a + S1x1024.size a ≤ S32x1024.size a
  inb_S31_S1_15 : ∀ a, (![15] : Fin 1 → Nat) a + S1.size a ≤ S31.size a
  inb_S32x1024_S1x1024_16_0 : ∀ a, (![16, 0] : Fin 2 → Nat) a + S1x1024.size a ≤ S32x1024.size a
  inb_S31_S1_16 : ∀ a, (![16] : Fin 1 → Nat) a + S1.size a ≤ S31.size a
  inb_S32x1024_S1x1024_17_0 : ∀ a, (![17, 0] : Fin 2 → Nat) a + S1x1024.size a ≤ S32x1024.size a
  inb_S31_S1_17 : ∀ a, (![17] : Fin 1 → Nat) a + S1.size a ≤ S31.size a
  inb_S32x1024_S1x1024_18_0 : ∀ a, (![18, 0] : Fin 2 → Nat) a + S1x1024.size a ≤ S32x1024.size a
  inb_S31_S1_18 : ∀ a, (![18] : Fin 1 → Nat) a + S1.size a ≤ S31.size a
  inb_S32x1024_S1x1024_19_0 : ∀ a, (![19, 0] : Fin 2 → Nat) a + S1x1024.size a ≤ S32x1024.size a
  inb_S31_S1_19 : ∀ a, (![19] : Fin 1 → Nat) a + S1.size a ≤ S31.size a
  inb_S32x1024_S1x1024_20_0 : ∀ a, (![20, 0] : Fin 2 → Nat) a + S1x1024.size a ≤ S32x1024.size a
  inb_S31_S1_20 : ∀ a, (![20] : Fin 1 → Nat) a + S1.size a ≤ S31.size a
  inb_S32x1024_S1x1024_21_0 : ∀ a, (![21, 0] : Fin 2 → Nat) a + S1x1024.size a ≤ S32x1024.size a
  inb_S31_S1_21 : ∀ a, (![21] : Fin 1 → Nat) a + S1.size a ≤ S31.size a
  inb_S32x1024_S1x1024_22_0 : ∀ a, (![22, 0] : Fin 2 → Nat) a + S1x1024.size a ≤ S32x1024.size a
  inb_S31_S1_22 : ∀ a, (![22] : Fin 1 → Nat) a + S1.size a ≤ S31.size a
  inb_S32x1024_S1x1024_23_0 : ∀ a, (![23, 0] : Fin 2 → Nat) a + S1x1024.size a ≤ S32x1024.size a
  inb_S31_S1_23 : ∀ a, (![23] : Fin 1 → Nat) a + S1.size a ≤ S31.size a
  inb_S32x1024_S1x1024_24_0 : ∀ a, (![24, 0] : Fin 2 → Nat) a + S1x1024.size a ≤ S32x1024.size a
  inb_S31_S1_24 : ∀ a, (![24] : Fin 1 → Nat) a + S1.size a ≤ S31.size a
  inb_S32x1024_S1x1024_25_0 : ∀ a, (![25, 0] : Fin 2 → Nat) a + S1x1024.size a ≤ S32x1024.size a
  inb_S31_S1_25 : ∀ a, (![25] : Fin 1 → Nat) a + S1.size a ≤ S31.size a
  inb_S32x1024_S1x1024_26_0 : ∀ a, (![26, 0] : Fin 2 → Nat) a + S1x1024.size a ≤ S32x1024.size a
  inb_S31_S1_26 : ∀ a, (![26] : Fin 1 → Nat) a + S1.size a ≤ S31.size a
  inb_S32x1024_S1x1024_27_0 : ∀ a, (![27, 0] : Fin 2 → Nat) a + S1x1024.size a ≤ S32x1024.size a
  inb_S31_S1_27 : ∀ a, (![27] : Fin 1 → Nat) a + S1.size a ≤ S31.size a
  inb_S32x1024_S1x1024_28_0 : ∀ a, (![28, 0] : Fin 2 → Nat) a + S1x1024.size a ≤ S32x1024.size a
  inb_S31_S1_28 : ∀ a, (![28] : Fin 1 → Nat) a + S1.size a ≤ S31.size a
  inb_S32x1024_S1x1024_29_0 : ∀ a, (![29, 0] : Fin 2 → Nat) a + S1x1024.size a ≤ S32x1024.size a
  inb_S31_S1_29 : ∀ a, (![29] : Fin 1 → Nat) a + S1.size a ≤ S31.size a
  inb_S32x1024_S1x1024_30_0 : ∀ a, (![30, 0] : Fin 2 → Nat) a + S1x1024.size a ≤ S32x1024.size a
  inb_S31_S1_30 : ∀ a, (![30] : Fin 1 → Nat) a + S1.size a ≤ S31.size a
  inb_S32x1024_S1x1024_31_0 : ∀ a, (![31, 0] : Fin 2 → Nat) a + S1x1024.size a ≤ S32x1024.size a
  inb_S32x1024_S32x1024_0_0 : ∀ a, (![0, 0] : Fin 2 → Nat) a + S32x1024.size a ≤ S32x1024.size a
  h_S32x1024 : 0 < S32x1024.numel
  reduces_S32x1024_S1024 : S32x1024.Reduces [0] S1024
  inb_S1x1024_S1x1024_0_0 : ∀ a, (![0, 0] : Fin 2 → Nat) a + S1x1024.size a ≤ S1x1024.size a
  hcc0_scratch1 : 3 + S31.numel ≤ 65
  hcc0_scratch2 : 34 + S31.numel ≤ 65
  hrank0 : 0 < grid0.rank
  k0_dev1_lt : ∀ (i : grid0.Coords) (d0 : Dev nD), ∀ (k0_h1 : k0_cond1 i = 1#1), (k0_dev1 d0) < nD
  k0_dev2_lt : ∀ (i : grid0.Coords) (d0 : Dev nD), ∀ (k0_h1 : k0_cond1 i = 1#1), (k0_dev2 d0) < nD
  k0_dev3_lt : ∀ (i : grid0.Coords) (d0 : Dev nD), ∀ (k0_h1 : k0_cond1 i = 1#1), (k0_dev3 d0) < nD
  k0_dev4_lt : ∀ (i : grid0.Coords) (d0 : Dev nD), ∀ (k0_h1 : k0_cond1 i = 1#1), (k0_dev4 d0) < nD
  k0_dev5_lt : ∀ (i : grid0.Coords) (d0 : Dev nD), ∀ (k0_h1 : k0_cond1 i = 1#1), (k0_dev5 d0) < nD
  k0_dev6_lt : ∀ (i : grid0.Coords) (d0 : Dev nD), ∀ (k0_h1 : k0_cond1 i = 1#1), (k0_dev6 d0) < nD
  k0_dev7_lt : ∀ (i : grid0.Coords) (d0 : Dev nD), ∀ (k0_h1 : k0_cond1 i = 1#1), (k0_dev7 d0) < nD
  k0_dev8_lt : ∀ (i : grid0.Coords) (d0 : Dev nD), ∀ (k0_h1 : k0_cond1 i = 1#1), (k0_dev8 d0) < nD
  k0_dev9_lt : ∀ (i : grid0.Coords) (d0 : Dev nD), ∀ (k0_h1 : k0_cond1 i = 1#1), (k0_dev9 d0) < nD
  k0_dev10_lt : ∀ (i : grid0.Coords) (d0 : Dev nD), ∀ (k0_h1 : k0_cond1 i = 1#1), (k0_dev10 d0) < nD
  k0_dev11_lt : ∀ (i : grid0.Coords) (d0 : Dev nD), ∀ (k0_h1 : k0_cond1 i = 1#1), (k0_dev11 d0) < nD
  k0_dev12_lt : ∀ (i : grid0.Coords) (d0 : Dev nD), ∀ (k0_h1 : k0_cond1 i = 1#1), (k0_dev12 d0) < nD
  k0_dev13_lt : ∀ (i : grid0.Coords) (d0 : Dev nD), ∀ (k0_h1 : k0_cond1 i = 1#1), (k0_dev13 d0) < nD
  k0_dev14_lt : ∀ (i : grid0.Coords) (d0 : Dev nD), ∀ (k0_h1 : k0_cond1 i = 1#1), (k0_dev14 d0) < nD
  k0_dev15_lt : ∀ (i : grid0.Coords) (d0 : Dev nD), ∀ (k0_h1 : k0_cond1 i = 1#1), (k0_dev15 d0) < nD
  k0_dev16_lt : ∀ (i : grid0.Coords) (d0 : Dev nD), ∀ (k0_h1 : k0_cond1 i = 1#1), (k0_dev16 d0) < nD
  k0_dev17_lt : ∀ (i : grid0.Coords) (d0 : Dev nD), ∀ (k0_h1 : k0_cond1 i = 1#1), (k0_dev17 d0) < nD
  k0_dev18_lt : ∀ (i : grid0.Coords) (d0 : Dev nD), ∀ (k0_h1 : k0_cond1 i = 1#1), (k0_dev18 d0) < nD
  k0_dev19_lt : ∀ (i : grid0.Coords) (d0 : Dev nD), ∀ (k0_h1 : k0_cond1 i = 1#1), (k0_dev19 d0) < nD
  k0_dev20_lt : ∀ (i : grid0.Coords) (d0 : Dev nD), ∀ (k0_h1 : k0_cond1 i = 1#1), (k0_dev20 d0) < nD
  k0_dev21_lt : ∀ (i : grid0.Coords) (d0 : Dev nD), ∀ (k0_h1 : k0_cond1 i = 1#1), (k0_dev21 d0) < nD
  k0_dev22_lt : ∀ (i : grid0.Coords) (d0 : Dev nD), ∀ (k0_h1 : k0_cond1 i = 1#1), (k0_dev22 d0) < nD
  k0_dev23_lt : ∀ (i : grid0.Coords) (d0 : Dev nD), ∀ (k0_h1 : k0_cond1 i = 1#1), (k0_dev23 d0) < nD
  k0_dev24_lt : ∀ (i : grid0.Coords) (d0 : Dev nD), ∀ (k0_h1 : k0_cond1 i = 1#1), (k0_dev24 d0) < nD
  k0_dev25_lt : ∀ (i : grid0.Coords) (d0 : Dev nD), ∀ (k0_h1 : k0_cond1 i = 1#1), (k0_dev25 d0) < nD
  k0_dev26_lt : ∀ (i : grid0.Coords) (d0 : Dev nD), ∀ (k0_h1 : k0_cond1 i = 1#1), (k0_dev26 d0) < nD
  k0_dev27_lt : ∀ (i : grid0.Coords) (d0 : Dev nD), ∀ (k0_h1 : k0_cond1 i = 1#1), (k0_dev27 d0) < nD
  k0_dev28_lt : ∀ (i : grid0.Coords) (d0 : Dev nD), ∀ (k0_h1 : k0_cond1 i = 1#1), (k0_dev28 d0) < nD
  k0_dev29_lt : ∀ (i : grid0.Coords) (d0 : Dev nD), ∀ (k0_h1 : k0_cond1 i = 1#1), (k0_dev29 d0) < nD
  k0_dev30_lt : ∀ (i : grid0.Coords) (d0 : Dev nD), ∀ (k0_h1 : k0_cond1 i = 1#1), (k0_dev30 d0) < nD
  k0_dev31_lt : ∀ (i : grid0.Coords) (d0 : Dev nD), ∀ (k0_h1 : k0_cond1 i = 1#1), (k0_dev31 d0) < nD
  k0_dev32_lt : ∀ (i : grid0.Coords) (d0 : Dev nD), ∀ (k0_h3 : k0_cond3 i = 1#1), (k0_dev32 d0) < nD
  k0_dev33_lt : ∀ (i : grid0.Coords) (d0 : Dev nD), ∀ (k0_h3 : k0_cond3 i = 1#1), (k0_dev33 d0) < nD
  k0_dev34_lt : ∀ (i : grid0.Coords) (d0 : Dev nD), ∀ (k0_h3 : k0_cond3 i = 1#1), (k0_dev34 d0) < nD
  k0_dev35_lt : ∀ (i : grid0.Coords) (d0 : Dev nD), ∀ (k0_h3 : k0_cond3 i = 1#1), (k0_dev35 d0) < nD
  k0_dev36_lt : ∀ (i : grid0.Coords) (d0 : Dev nD), ∀ (k0_h3 : k0_cond3 i = 1#1), (k0_dev36 d0) < nD
  k0_dev37_lt : ∀ (i : grid0.Coords) (d0 : Dev nD), ∀ (k0_h3 : k0_cond3 i = 1#1), (k0_dev37 d0) < nD
  k0_dev38_lt : ∀ (i : grid0.Coords) (d0 : Dev nD), ∀ (k0_h3 : k0_cond3 i = 1#1), (k0_dev38 d0) < nD
  k0_dev39_lt : ∀ (i : grid0.Coords) (d0 : Dev nD), ∀ (k0_h3 : k0_cond3 i = 1#1), (k0_dev39 d0) < nD
  k0_dev40_lt : ∀ (i : grid0.Coords) (d0 : Dev nD), ∀ (k0_h3 : k0_cond3 i = 1#1), (k0_dev40 d0) < nD
  k0_dev41_lt : ∀ (i : grid0.Coords) (d0 : Dev nD), ∀ (k0_h3 : k0_cond3 i = 1#1), (k0_dev41 d0) < nD
  k0_dev42_lt : ∀ (i : grid0.Coords) (d0 : Dev nD), ∀ (k0_h3 : k0_cond3 i = 1#1), (k0_dev42 d0) < nD
  k0_dev43_lt : ∀ (i : grid0.Coords) (d0 : Dev nD), ∀ (k0_h3 : k0_cond3 i = 1#1), (k0_dev43 d0) < nD
  k0_dev44_lt : ∀ (i : grid0.Coords) (d0 : Dev nD), ∀ (k0_h3 : k0_cond3 i = 1#1), (k0_dev44 d0) < nD
  k0_dev45_lt : ∀ (i : grid0.Coords) (d0 : Dev nD), ∀ (k0_h3 : k0_cond3 i = 1#1), (k0_dev45 d0) < nD
  k0_dev46_lt : ∀ (i : grid0.Coords) (d0 : Dev nD), ∀ (k0_h3 : k0_cond3 i = 1#1), (k0_dev46 d0) < nD
  k0_dev47_lt : ∀ (i : grid0.Coords) (d0 : Dev nD), ∀ (k0_h3 : k0_cond3 i = 1#1), (k0_dev47 d0) < nD
  k0_dev48_lt : ∀ (i : grid0.Coords) (d0 : Dev nD), ∀ (k0_h3 : k0_cond3 i = 1#1), (k0_dev48 d0) < nD
  k0_dev49_lt : ∀ (i : grid0.Coords) (d0 : Dev nD), ∀ (k0_h3 : k0_cond3 i = 1#1), (k0_dev49 d0) < nD
  k0_dev50_lt : ∀ (i : grid0.Coords) (d0 : Dev nD), ∀ (k0_h3 : k0_cond3 i = 1#1), (k0_dev50 d0) < nD
  k0_dev51_lt : ∀ (i : grid0.Coords) (d0 : Dev nD), ∀ (k0_h3 : k0_cond3 i = 1#1), (k0_dev51 d0) < nD
  k0_dev52_lt : ∀ (i : grid0.Coords) (d0 : Dev nD), ∀ (k0_h3 : k0_cond3 i = 1#1), (k0_dev52 d0) < nD
  k0_dev53_lt : ∀ (i : grid0.Coords) (d0 : Dev nD), ∀ (k0_h3 : k0_cond3 i = 1#1), (k0_dev53 d0) < nD
  k0_dev54_lt : ∀ (i : grid0.Coords) (d0 : Dev nD), ∀ (k0_h3 : k0_cond3 i = 1#1), (k0_dev54 d0) < nD
  k0_dev55_lt : ∀ (i : grid0.Coords) (d0 : Dev nD), ∀ (k0_h3 : k0_cond3 i = 1#1), (k0_dev55 d0) < nD
  k0_dev56_lt : ∀ (i : grid0.Coords) (d0 : Dev nD), ∀ (k0_h3 : k0_cond3 i = 1#1), (k0_dev56 d0) < nD
  k0_dev57_lt : ∀ (i : grid0.Coords) (d0 : Dev nD), ∀ (k0_h3 : k0_cond3 i = 1#1), (k0_dev57 d0) < nD
  k0_dev58_lt : ∀ (i : grid0.Coords) (d0 : Dev nD), ∀ (k0_h3 : k0_cond3 i = 1#1), (k0_dev58 d0) < nD
  k0_dev59_lt : ∀ (i : grid0.Coords) (d0 : Dev nD), ∀ (k0_h3 : k0_cond3 i = 1#1), (k0_dev59 d0) < nD
  k0_dev60_lt : ∀ (i : grid0.Coords) (d0 : Dev nD), ∀ (k0_h3 : k0_cond3 i = 1#1), (k0_dev60 d0) < nD
  k0_dev61_lt : ∀ (i : grid0.Coords) (d0 : Dev nD), ∀ (k0_h3 : k0_cond3 i = 1#1), (k0_dev61 d0) < nD
  k0_dev62_lt : ∀ (i : grid0.Coords) (d0 : Dev nD), ∀ (k0_h3 : k0_cond3 i = 1#1), (k0_dev62 d0) < nD
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)

variable [Facts₀]

abbrev cc0_scratch1 : DmaSems sig S31 := SemArray.consecutive 3 S31 hcc0_scratch1
abbrev cc0_scratch2 : DmaSems sig S31 := SemArray.consecutive 34 S31 hcc0_scratch2

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond3 i == 1#1) | ⟨_ + 2, h⟩ => absurd h (Nat.not_lt.2 (Nat.le_add_left _ _))

class Facts : Prop extends Facts₀ where

variable [Facts]
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S65536x1024_S1024_d0 : S65536x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.Spec.lean ====
/-
  The mesh arithmetic and the values the kernel computes, stated over abstract blocks.

  Thirty-two devices on a ring of offsets: `peer c d` is the device `d` places after `c`, `back c d` the device
  `d` places before it.  Device `c` sums the rows of its eight 256-row blocks into one row of 1024 columns
  (`accAt`: the running sum after each grid point; `part`: the sum after the last), sends that row to row `d` of
  device `peer c d` for `d = 1 … 31`, and so ends with a 32-row table whose row `d` is the partial sum of
  `back c d` (`table`); its result is the column sums of that table (`outRow`).
-/
import proofs.«901084_g7700000000001085_dist_sum_ax0_shard0_i_m2048_n1024_v7x_i32_bf16_1_alg».proof.Proof.Gen.KernelIdeal.Skeleton
import Idealize.ShloMosaic.Lib.ValueIdx

noncomputable section

namespace Cert.KernelIdeal.AllSum

open Cert.KernelIdeal Cert.KernelIdeal.Gen
open Idealize.ShloMosaic Idealize.ShloMosaic.ValueIdx

variable {F : FTy → Type} [FloatOps F]

/-! ## The ring of offsets -/

/-- The device `d` places after `c` on the ring of 32. -/
def peer (c : Dev nD) (d : ℕ) : Dev nD := ⟨(c.val + d) % 32, Nat.mod_lt _ (by decide)⟩
/-- The device `d` places before `c`. -/
def back (c : Dev nD) (d : ℕ) : Dev nD := ⟨(c.val + (32 - d % 32)) % 32, Nat.mod_lt _ (by decide)⟩

theorem back_peer (c : Dev nD) (d : ℕ) : back (peer c d) d = c := by
  apply Fin.ext; have hc : c.val < 32 := c.isLt; simp only [back, peer]; omega
theorem peer_back (c : Dev nD) (d : ℕ) : peer (back c d) d = c := by
  apply Fin.ext; have hc : c.val < 32 := c.isLt; simp only [back, peer]; omega
theorem back_zero (c : Dev nD) : back c 0 = c := by
  apply Fin.ext; have hc : c.val < 32 := c.isLt; simp only [back]; omega
theorem peer_ne (c : Dev nD) {d : ℕ} (h1 : 1 ≤ d) (h2 : d ≤ 31) : peer c d ≠ c := by
  intro h; have h' := congrArg Fin.val h; have hc : c.val < 32 := c.isLt; simp only [peer] at h'; omega
theorem peer_peer_comp (c : Dev nD) {d : ℕ} (h1 : 1 ≤ d) (h2 : d ≤ 31) : peer (peer c d) (32 - d) = c := by
  apply Fin.ext; have hc : c.val < 32 := c.isLt; simp only [peer]; omega
/-- The offset from `o` to `p`: `peer o (dist o p) = p`. -/
def dist (o p : Dev nD) : ℕ := (p.val + 32 - o.val) % 32
theorem peer_dist (o p : Dev nD) : peer o (dist o p) = p := by
  apply Fin.ext; have ho : o.val < 32 := o.isLt; have hp : p.val < 32 := p.isLt; simp only [peer, dist]; omega
theorem dist_peer (c : Dev nD) {d : ℕ} (h2 : d ≤ 31) : dist c (peer c d) = d := by
  have hc : c.val < 32 := c.isLt; simp only [peer, dist]; omega
theorem dist_peer_rev (c : Dev nD) {d : ℕ} (h1 : 1 ≤ d) (h2 : d ≤ 31) : dist (peer c d) c = 32 - d := by
  have hc : c.val < 32 := c.isLt; simp only [peer, dist]; omega

/-! ## The values -/

variable (xb : Dev nD → ℕ → Vec F S256x1024 .f32)

/-- Row 0 of device `c`'s table after grid point `n`: the column sums of block 0, then each later block's added. -/
def accAt (c : Dev nD) : ℕ → Vec F S1x1024 .f32
  | 0 => k0_pay1 (xb c 0)
  | n + 1 => k0_pay2 (accAt c n) (xb c (n + 1))

/-- Device `c`'s partial sum: its row after the eighth point. -/
def part (c : Dev nD) : Vec F S1x1024 .f32 := accAt xb c 7

/-- The 32-row table device `c` ends with: row `d` is the partial sum of the device `d` places before it. -/
def table (c : Dev nD) : Vec F S32x1024 .f32 := fun i => part xb (back c (i 0).val) (ix2 (0 : Fin 1) (i 1))

/-- A 32-row table all of whose rows are device `c`'s running sum after point `n` (only row 0 is read). -/
def accTable (c : Dev nD) (n : ℕ) : Vec F S32x1024 .f32 := fun i => accAt xb c n (ix2 (0 : Fin 1) (i 1))

/-- Device `c`'s result: the column sums of its table. -/
def outRow (c : Dev nD) : Vec F S1x1024 .f32 := k0_pay3 (k0_pay4 (table xb c))

end Cert.KernelIdeal.AllSum

end
-- ==== Proof.Proto.lean ====
/-
  The protocol of the 32-device sum, as data for the rounds discipline.

  Semaphores of device `c`: the barrier semaphore (one round of 31 unit duties, one per other device `p`; the duty
  paid by `p` hands `c` the row of `p`'s table that `c` will write, row `dist c p`), 31 send semaphores (one duty each,
  paid by `c`'s own transfer number `d`: a share of `c`'s row 0 comes back) and 31 receive semaphores (one duty each,
  paid by the transfer of `back c d`: row `d` of `c`'s table now holds that device's partial sum).
-/
import proofs.«901084_g7700000000001085_dist_sum_ax0_shard0_i_m2048_n1024_v7x_i32_bf16_1_alg».proof.Proof.Spec
import proofs.«901084_g7700000000001085_dist_sum_ax0_shard0_i_m2048_n1024_v7x_i32_bf16_1_alg».proof.Proof.Gen.KernelIdeal
import proofs.«901084_g7700000000001085_dist_sum_ax0_shard0_i_m2048_n1024_v7x_i32_bf16_1_alg».proof.Proof.Gen.KernelIdeal.Launch
import proofs.«901084_g7700000000001085_dist_sum_ax0_shard0_i_m2048_n1024_v7x_i32_bf16_1_alg».proof.Proof.Gen.KernelIdeal.Points
import proofs.«901084_g7700000000001085_dist_sum_ax0_shard0_i_m2048_n1024_v7x_i32_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

/-! ## The resource algebra: the pipeline's copy beside the protocol's (duties named by the paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Memrefs, semaphores, cells -/

abbrev scrM : Memref sig .tc .vmem S32x1024 .f32 := Memref.whole cc0_scratch0

theorem row_inb (d : ℕ) : ∀ a, (![d % 32, 0] : Fin 2 → Nat) a + S1x1024.size a ≤ S32x1024.size a := by
  intro a
  have h : d % 32 < 32 := Nat.mod_lt _ (by decide)
  fin_cases a
  · show d % 32 + 1 ≤ 32; omega
  · show 0 + 1024 ≤ 1024; omega

/-- Row `d` of the 32-row table, as the kernel slices it. -/
def rowM (d : ℕ) : Memref sig .tc .vmem S1x1024 .f32 :=
  scrM.slice (Rect.unit (s := S32x1024) ![d % 32, 0] S1x1024.size (row_inb d)) (fun _ => rfl)

abbrev barS : Sem sig := (SemArray.scalar (sig.barrier 0 rfl) : Sems sig S_).sem
/-- The send semaphore of transfer `d` (`d = 1 … 31`): entry `d - 1` of the first semaphore array. -/
def sendS (d : ℕ) : DmaSem sig := ⟨(2 + d) % 65, Nat.mod_lt _ (by decide)⟩
/-- The receive semaphore of transfer `d`: entry `d - 1` of the second. -/
def recvS (d : ℕ) : DmaSem sig := ⟨(33 + d) % 65, Nat.mod_lt _ (by decide)⟩

abbrev barCell (c : Dev nD) : GSem nD τ sig := ((c : Thread nD τ), .reg barS)
abbrev sendCell (c : Dev nD) (d : ℕ) : GSem nD τ sig := ((c : Thread nD τ), .dma (sendS d))
abbrev recvCell (c : Dev nD) (d : ℕ) : GSem nD τ sig := ((c : Thread nD τ), .dma (recvS d))

/-- Which transfer a send semaphore belongs to. -/
def sendIdx : SemLoc sig → Option ℕ
  | .dma q => if 3 ≤ q.val ∧ q.val ≤ 33 then some (q.val - 2) else none
  | _ => none
/-- Which transfer a receive semaphore belongs to. -/
def recvIdx : SemLoc sig → Option ℕ
  | .dma q => if 34 ≤ q.val ∧ q.val ≤ 64 then some (q.val - 33) else none
  | _ => none

/-- The credit of one row's transfer. -/
abbrev N : ℕ := (rowM 0).view.dmaCredit

/-! ## Contents -/

/-- Block `n` of device `c`'s argument, as the region finds it. -/
def xb (c : Dev nD) (n : ℕ) : Vec F S256x1024 .f32 := iblk m c 0 ⟨n % 8, Nat.mod_lt _ (by decide)⟩

abbrev Tbl : Type := (cc0_scratch0 : Ref sig .tc).ty.Contents (Elt F)

/-- The table device `c` ends with, and its table while it still accumulates. -/
def tblFin (c : Dev nD) : Tbl (F := F) := table (xb m) c
def tblAcc (c : Dev nD) (n : ℕ) : Tbl (F := F) := accTable (xb m) c n

/-! ## Shares of row 0: one per transfer, split off a remainder -/

def remSh : ℕ → PosShare TreeShare
  | 0 => fullShare
  | n + 1 => (remSh n).right
/-- The share transfer `d` reads row 0 through. -/
def qs (d : ℕ) : PosShare TreeShare := (remSh (d - 1)).left

theorem remSh_split (n : ℕ) : remSh n ∈ qs (n + 1) ·? remSh (n + 1) := by
  show remSh n ∈ (remSh n).left ·? (remSh n).right
  exact PosShare.mem_left_op_right _

/-! ## Points-to of a row -/

def rowPts (c : Dev nD) (d : ℕ) (q : PosShare TreeShare) (f : Buf (Elt F) ((rowM d).view.loc (c : Thread nD τ))) : sProp 𝕄 :=
  (rowM d).view.loc (c : Thread nD τ) ↦[(rowM d).view.set]{q} f

/-! ## The schedule -/

/-- What device `p`'s signal hands `o`: the row of `p`'s table that `o` writes, and that `p` is at round 0 of the
    receive cell `o`'s transfer credits. -/
def barPay (o p : Dev nD) : sProp 𝕄 :=
  iprop((∃ f, rowPts p (dist o p) fullShare f) ∗ reached ER (recvCell p (dist o p)) 0)
/-- What the send cell of transfer `d` returns: the share of row 0 the transfer read through. -/
def sendPay (c : Dev nD) (d : ℕ) : sProp 𝕄 := rowPts c 0 (qs d) (tblFin m c)
/-- What the receive cell of transfer `d` delivers: row `d` holding the sender's partial sum. -/
def recvPay (c : Dev nD) (d : ℕ) : sProp 𝕄 := rowPts c d fullShare (tblFin m c)

def xferPay (c : Dev nD) (s : SemLoc sig) : sProp 𝕄 :=
  match sendIdx s, recvIdx s with
  | some d, _ => sendPay m c d
  | none, some d => recvPay m c d
  | none, none => iprop(emp)

/-- One round: a barrier cell has one unit duty per other device; a send or receive cell the one duty named by
    device 0, of a row's credit. -/
def Rd : Rounds.Schedule (GSem nD τ sig) (Dev nD) 𝕄 where
  duties g r :=
    if r = 0 ∧ g.1.2 = .tc then
      (if g.2 = .reg barS then Finset.univ.erase g.1.1
       else if (sendIdx g.2).isSome ∨ (recvIdx g.2).isSome then {0} else ∅)
    else ∅
  unitless _ := False
  amount g _ _ := if g.2 = .reg barS then 1 else N
  payload g _ p := if g.2 = .reg barS then barPay g.1.1 p else xferPay m g.1.1 g.2
  amount_pos g _ _ _ := by
    by_cases h : g.2 = .reg barS
    · rw [if_pos h]; exact Nat.one_pos
    · rw [if_neg h]; exact View.dmaCredit_pos _ (by decide)

end Cert.KernelIdeal.AllSum

end
-- ==== Proof.RefSum.lean ====
/-
  The reference's result, read at an index: the column sums of the whole array.
-/
import proofs.«901084_g7700000000001085_dist_sum_ax0_shard0_i_m2048_n1024_v7x_i32_bf16_1_alg».proof.Proof.Gen.ReferenceIdeal.Run
import proofs.«901084_g7700000000001085_dist_sum_ax0_shard0_i_m2048_n1024_v7x_i32_bf16_1_alg».proof.Proof.Gen.ReferenceIdeal.Read
import Idealize.ShloMosaic.Lib.ValueIdx
import Idealize.ShloMosaic.PureOps.Ideal.Laws

noncomputable section

namespace Cert.ReferenceIdeal.RefSum

open Cert.ReferenceIdeal Cert.ReferenceIdeal.Gen
open Idealize.ShloMosaic Idealize.ShloMosaic.TcCoe Idealize.SL.Sem Idealize.ShloMosaic.StableHlo
open Idealize.ShloMosaic.ValueIdx

/-- Column `j` of the reference's one-row result is the sum of column `j` of the whole array over its 65536 rows:
    the broadcast reads the reduced vector at `j`, the reduction there is the zero it starts from plus the sum over
    the rows, and the zero word is the extended real `0`. -/
theorem ref_apply (X : (⟨Cert.ReferenceIdeal.S65536x1024, .f32⟩ : BufTy).Contents (Elt Ideal)) (j : Fin 1024) :
    (broadcastInDim Cert.ReferenceIdeal.S1x1024 ![1] Cert.ReferenceIdeal.Gen.bcast_S1024_S1x1024_1 (Host.reduceAdd (F := Ideal) X (constant Cert.ReferenceIdeal.S_ .f32 0x00000000#32) Cert.ReferenceIdeal.Gen.reducesTo_S65536x1024_S1024_d0 Cert.ReferenceIdeal.Gen.h_S_) (ValueIdx.ix2 (0 : Fin 1) j) : EReal)
      = ∑ R : Fin 65536, (X (ValueIdx.ix2 R j) : EReal) := by
  rw [Read.val_main_v1_eq, Read.val_main_v1_apply, Read.val_main_v0_apply, Read.val_main_cst_apply]
  rw [Ideal.ofBits_def, Ideal.ofBits_zero_f32, zero_add]
  refine Finset.sum_congr rfl fun R _ => congrArg X (funext fun a => Fin.ext ?_)
  match a with
  | ⟨0, _⟩ => rfl
  | ⟨1, _⟩ => rfl

/-- info: 'Cert.ReferenceIdeal.RefSum.ref_apply' depends on axioms: [propext, Classical.choice, Quot.sound] -/
#guard_msgs in #print axioms ref_apply

end Cert.ReferenceIdeal.RefSum

end
-- ==== Proof.ValueSum.lean ====
/-
  The value of the kernel's result, as a plain sum.

  Each operation of the payloads is read at one column `j`: a column sum over the 256 rows of a block, or over the
  32 rows of the table, is a finite sum over the rows; a cast between `[1024]` and `[1, 1024]` keeps the column.
  So the running sum after grid point `n` is the sum over the blocks `0 … n` of their column sums, a device's partial
  sum is the sum over its eight blocks, and the result of device `c` sums the partial sums of the devices
  `back c d`, `d = 0 … 31`.  As `d ↦ back c d` is a bijection of the ring, this is the sum over every device,
  every block and every row.
-/
import proofs.«901084_g7700000000001085_dist_sum_ax0_shard0_i_m2048_n1024_v7x_i32_bf16_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.KernelIdeal.AllSum

open Cert.KernelIdeal Cert.KernelIdeal.Gen
open Idealize.ShloMosaic Idealize.ShloMosaic.ValueIdx
open scoped BigOperators

/-! ## One operation at one column -/

/-- The column sums of a 256-row block, at column `j`: the sum over its rows. -/
theorem colsum256_apply (v : Vec Ideal S256x1024 .f32) (h : S256x1024.Reduces [0] S1024) (hφ : FKind.Formats .f32)
    (hacc : (0x00000000#32 : BitVec 32) = FKind.add.neutral .f32 hφ) (j : Fin 1024) :
    (multiReduction (F := Ideal) .add [0] S1024 v 0x00000000#32 h hφ hacc (ix1 j) : EReal)
      = ∑ r : Fin 256, (v (ix2 r j) : EReal) := by
  rw [Ideal.multiReduction_add_single v _ h hφ hacc (ix1 j)]
  refine Finset.sum_congr rfl fun r _ => congrArg v ?_
  funext a; match a with | ⟨0, _⟩ => exact Fin.ext rfl | ⟨1, _⟩ => exact Fin.ext rfl

/-- The column sums of a 32-row table, at column `j`: the sum over its rows. -/
theorem colsum32_apply (T : Vec Ideal S32x1024 .f32) (h : S32x1024.Reduces [0] S1024) (hφ : FKind.Formats .f32)
    (hacc : (0x00000000#32 : BitVec 32) = FKind.add.neutral .f32 hφ) (j : Fin 1024) :
    (multiReduction (F := Ideal) .add [0] S1024 T 0x00000000#32 h hφ hacc (ix1 j) : EReal)
      = ∑ d : Fin 32, (T (ix2 d j) : EReal) := by
  rw [Ideal.multiReduction_add_single T _ h hφ hacc (ix1 j)]
  refine Finset.sum_congr rfl fun d _ => congrArg T ?_
  funext a; match a with | ⟨0, _⟩ => exact Fin.ext rfl | ⟨1, _⟩ => exact Fin.ext rfl

/-- The first block's payload at column `j`. -/
theorem pay1_apply (v : Vec Ideal S256x1024 .f32) (j : Fin 1024) :
    (k0_pay1 (F := Ideal) v (ix2 (0 : Fin 1) j) : EReal) = ∑ r : Fin 256, (v (ix2 r j) : EReal) := by
  unfold k0_pay1
  rw [shapeCast_a_1a_apply, shapeCast_self]
  exact colsum256_apply v _ _ _ j

/-- A later block's payload at column `j`: the row so far plus the block's column sum. -/
theorem pay2_apply (a : Vec Ideal S1x1024 .f32) (v : Vec Ideal S256x1024 .f32) (j : Fin 1024) :
    (k0_pay2 (F := Ideal) a v (ix2 (0 : Fin 1) j) : EReal)
      = (a (ix2 (0 : Fin 1) j) : EReal) + ∑ r : Fin 256, (v (ix2 r j) : EReal) := by
  unfold k0_pay2
  rw [shapeCast_a_1a_apply, addf_apply, shapeCast_1a_a_apply, shapeCast_self]
  exact congrArg (fun t : EReal => (a (ix2 (0 : Fin 1) j) : EReal) + t) (colsum256_apply v _ _ _ j)

/-- The last payloads at column `j`: the sum over the table's rows. -/
theorem pay34_apply (T : Vec Ideal S32x1024 .f32) (j : Fin 1024) :
    (k0_pay3 (F := Ideal) (k0_pay4 (F := Ideal) T) (ix2 (0 : Fin 1) j) : EReal) = ∑ d : Fin 32, (T (ix2 d j) : EReal) := by
  unfold k0_pay3 k0_pay4
  rw [shapeCast_a_1a_apply]
  exact colsum32_apply T _ _ _ j

/-! ## The running sum, the partial sum, the table -/

/-- The running sum of device `c` after grid point `n`, at column `j`: the blocks `0 … n` summed over their rows. -/
theorem accAt_apply (xb : Dev nD → ℕ → Vec Ideal S256x1024 .f32) (c : Dev nD) (n : ℕ) (j : Fin 1024) :
    (accAt (F := Ideal) xb c n (ix2 (0 : Fin 1) j) : EReal)
      = ∑ k ∈ Finset.range (n + 1), ∑ r : Fin 256, (xb c k (ix2 r j) : EReal) := by
  induction n with
  | zero =>
    show (k0_pay1 (F := Ideal) (xb c 0) (ix2 (0 : Fin 1) j) : EReal) = _
    rw [pay1_apply, Finset.sum_range_one]
  | succ n ih =>
    show (k0_pay2 (F := Ideal) (accAt (F := Ideal) xb c n) (xb c (n + 1)) (ix2 (0 : Fin 1) j) : EReal) = _
    rw [pay2_apply, ih, Finset.sum_range_succ _ (n + 1)]

/-- The partial sum of device `c` at column `j`: its eight blocks summed over their rows. -/
theorem part_apply (xb : Dev nD → ℕ → Vec Ideal S256x1024 .f32) (c : Dev nD) (j : Fin 1024) :
    (part (F := Ideal) xb c (ix2 (0 : Fin 1) j) : EReal)
      = ∑ n : Fin 8, ∑ r : Fin 256, (xb c n.val (ix2 r j) : EReal) := by
  show (accAt (F := Ideal) xb c 7 (ix2 (0 : Fin 1) j) : EReal) = _
  rw [accAt_apply, Fin.sum_univ_eq_sum_range (fun k => ∑ r : Fin 256, (xb c k (ix2 r j) : EReal)) 8]

/-- Row `d` of device `c`'s table at column `j`: the partial sum of the device `d` places before `c`. -/
theorem table_apply (xb : Dev nD → ℕ → Vec Ideal S256x1024 .f32) (c : Dev nD) (d : Fin 32) (j : Fin 1024) :
    (table (F := Ideal) xb c (ix2 d j) : EReal) = (part (F := Ideal) xb (back c d.val) (ix2 (0 : Fin 1) j) : EReal) := by
  rfl

/-! ## The ring re-indexed -/

/-- `d ↦ back c d` as a bijection of the 32 devices (its inverse: the offset from a device to `c`). -/
def backEquiv (c : Dev nD) : Fin 32 ≃ Dev nD where
  toFun d := back c d.val
  invFun p := ⟨dist p c, Nat.mod_lt _ (by decide)⟩
  left_inv d := by
    apply Fin.ext
    have hc : c.val < 32 := c.isLt; have hd : d.val < 32 := d.isLt
    simp only [back, dist]; omega
  right_inv p := by
    apply Fin.ext
    have hc : c.val < 32 := c.isLt; have hp : p.val < 32 := p.isLt
    simp only [back, dist]; omega

/-- A sum over the offsets `d` of a function of `back c d` is the sum over every device. -/
theorem sum_back (c : Dev nD) (f : Dev nD → EReal) : ∑ d : Fin 32, f (back c d.val) = ∑ p : Fin 32, f p :=
  Equiv.sum_comp (backEquiv c) f

/-! ## The result -/

/-- Device `c`'s result at column `j`: the sum over every device, every block and every row. -/
theorem outRow_apply (xb : Dev nD → ℕ → Vec Ideal S256x1024 .f32) (c : Dev nD) (j : Fin 1024) :
    (outRow (F := Ideal) xb c (ix2 (0 : Fin 1) j) : EReal)
      = ∑ p : Fin 32, ∑ n : Fin 8, ∑ r : Fin 256, (xb p n.val (ix2 r j) : EReal) := by
  unfold outRow
  rw [pay34_apply]
  simp only [table_apply, part_apply]
  exact sum_back c fun p => ∑ n : Fin 8, ∑ r : Fin 256, (xb p n.val (ix2 r j) : EReal)

/-- info: 'Cert.KernelIdeal.AllSum.outRow_apply' depends on axioms: [propext, Classical.choice, Quot.sound] -/
#guard_msgs in #print axioms outRow_apply

end Cert.KernelIdeal.AllSum

end
-- ==== Proof.Bridge.lean ====
/-
  From the kernel's value to the reference's: each device's argument is its block of 2048 rows of the whole array,
  a grid block is a run of 256 rows of that argument, and so the sum over devices, grid blocks and rows of a column
  is the sum of that column over all 65536 rows of the whole array, which is what the reference computes.
-/
import proofs.«901084_g7700000000001085_dist_sum_ax0_shard0_i_m2048_n1024_v7x_i32_bf16_1_alg».proof.Proof.Proto
import proofs.«901084_g7700000000001085_dist_sum_ax0_shard0_i_m2048_n1024_v7x_i32_bf16_1_alg».proof.Proof.RefSum
import proofs.«901084_g7700000000001085_dist_sum_ax0_shard0_i_m2048_n1024_v7x_i32_bf16_1_alg».proof.Proof.ValueSum
import Idealize.ShloMosaic.Lib.Layout
import Idealize.ShloMosaic.Lib.ValueIdx
import Mathlib.Logic.Equiv.Fin.Basic
import Mathlib.Algebra.BigOperators.Fin

noncomputable section

namespace Cert.KernelIdeal.AllSum

open Cert.KernelIdeal Cert.KernelIdeal.Gen
open Idealize.ShloMosaic Idealize.ShloMosaic.TcCoe Idealize.ShloMosaic.ValueIdx
open Idealize.SL Idealize.SL.Sem

/-! ## A sum over `Fin (m * n)` as a double sum -/

/-- A sum over `N = m * n` consecutive indices is the sum over `m` runs of `n`: index `n * a + b` is place `b` of
    run `a`. -/
theorem sum_fin_runs {M : Type*} [AddCommMonoid M] {m n N : ℕ} (h : m * n = N) (f : Fin N → M) :
    ∑ k : Fin N, f k = ∑ a : Fin m, ∑ b : Fin n, f ⟨n * a.val + b.val, by
      have ha := a.isLt; have hb := b.isLt
      calc n * a.val + b.val < n * a.val + n := by omega
        _ = n * (a.val + 1) := by rw [Nat.mul_succ]
        _ ≤ n * m := Nat.mul_le_mul_left _ ha
        _ = N := by rw [Nat.mul_comm, h]⟩ := by
  subst h
  rw [← Equiv.sum_comp finProdFinEquiv f, Fintype.sum_prod_type]
  refine Finset.sum_congr rfl fun a _ => Finset.sum_congr rfl fun b _ => congrArg f (Fin.ext ?_)
  show b.val + n * a.val = n * a.val + b.val
  omega

/-! ## A grid block inside the device's argument -/

/-- The block index of the argument's window at grid point `t` is `t` along the rows -/
theorem index0_rows : ∀ t : Fin cfg0.N, win0_0.index t (0 : Fin 2) = t.val := by decide
/-- and `0` along the columns. -/
theorem index0_cols : ∀ t : Fin cfg0.N, win0_0.index t (1 : Fin 2) = 0 := by decide

/-- Row `r` of block `n` of device `c`'s argument is row `256 n + r` of the argument: the block at grid point `n` starts
    at block index `n` times the block's 256 rows, in the same column. -/
theorem xb_apply (m : (ℓ : Loc nD τ sig) → Buf (Elt Ideal) ℓ) (c : Dev nD) (n : Fin 8) (r : Fin 256) (j : Fin 1024) :
    xb m c n.val (ix2 r j) = m ((c.tc : Thread nD τ).loc main_arg0) (ix2 (⟨256 * n.val + r.val, by omega⟩ : Fin 2048) j) := by
  unfold xb Gen.iblk
  rw [View.read_apply]
  generalize hT : (⟨n.val % 8, Nat.mod_lt _ (by decide)⟩ : Fin cfg0.N) = t
  have ht : t.val = n.val := by rw [← hT]; exact Nat.mod_eq_of_lt n.isLt
  show V m c (Pipeline.arrRef spec0 0) (((cfg0.win 0).blk t).view.emb (ix2 r j)) = _
  refine congrArg (m ((c.tc : Thread nD τ).loc main_arg0)) (funext fun a => Fin.ext ?_)
  match a with
  | ⟨0, _⟩ =>
    show win0_0.index t (0 : Fin 2) * 256 + 1 * r.val = 256 * n.val + r.val
    rw [index0_rows, ht]
    omega
  | ⟨1, _⟩ =>
    show win0_0.index t (1 : Fin 2) * 1024 + 1 * j.val = j.val
    rw [index0_cols]
    omega

/-! ## The kernel's result is the reference's -/

/-- Every device's result is the reference's: column `j` of the kernel's row is the sum over the 32 devices, the 8
    blocks of each and the 256 rows of each block of column `j`; device `p`'s row `256 n + r` is row
    `2048 p + 256 n + r` of the whole array, and these run through its 65536 rows once each. -/
theorem kernel_eq_reference (m : (ℓ : Loc nD τ sig) → Buf (Elt Ideal) ℓ)
    (X : (⟨Cert.ReferenceIdeal.S65536x1024, .f32⟩ : BufTy).Contents (Elt Ideal))
    (hagree : ∀ c : Dev nD, m ((c.tc : Thread nD τ).loc main_arg0) = Layout.block ⟨2, ![2048, 1024]⟩ ⟨2, ![65536, 1024]⟩ 0 32 c X) (c : Dev nD) :
    (outRow (F := Ideal) (xb m) c : S1x1024.Idx → EReal)
      = broadcastInDim Cert.ReferenceIdeal.S1x1024 ![1] Cert.ReferenceIdeal.Gen.bcast_S1024_S1x1024_1 (Host.reduceAdd (F := Ideal) X (constant Cert.ReferenceIdeal.S_ .f32 0x00000000#32) Cert.ReferenceIdeal.Gen.reducesTo_S65536x1024_S1024_d0 Cert.ReferenceIdeal.Gen.h_S_) := by
  funext i
  obtain ⟨a, j, rfl⟩ : ∃ (a : Fin 1) (j : Fin 1024), i = ix2 a j := ⟨i 0, i 1, eq_ix2 i⟩
  obtain rfl : a = 0 := Subsingleton.elim _ _
  refine (outRow_apply (xb m) c j).trans (Eq.trans ?_ (Cert.ReferenceIdeal.RefSum.ref_apply X j).symm)
  rw [sum_fin_runs (m := 32) (n := 2048) (N := 65536) (by norm_num)]
  refine Finset.sum_congr rfl fun p _ => ?_
  rw [sum_fin_runs (m := 8) (n := 256) (N := 2048) (by norm_num)]
  refine Finset.sum_congr rfl fun n _ => Finset.sum_congr rfl fun r _ => ?_
  rw [xb_apply, hagree p, Layout.block_apply]
  refine congrArg X (funext fun b => Fin.ext ?_)
  match b with
  | ⟨0, _⟩ =>
    show p.val * 2048 + (256 * n.val + r.val) = 2048 * p.val + (256 * n.val + r.val)
    omega
  | ⟨1, _⟩ => rfl

/-- info: 'Cert.KernelIdeal.AllSum.kernel_eq_reference' depends on axioms: [propext, Classical.choice, Quot.sound] -/
#guard_msgs in #print axioms kernel_eq_reference

end Cert.KernelIdeal.AllSum

end
-- ==== Proof.Data.lean ====
/-
  What each device owes, the levels, the ghost state it carries, and the proof data over the eight grid points.

  Before point 0 a device owes a unit to every other device's barrier cell and a row's credit to the receive cell of
  each of its 31 transfers; the signals go out at point 0, the transfers at point 7.  Between the points it carries
  row 0 of its table at the running sum; rows 1 … 31 it gives away with its signals.
-/
import proofs.«901084_g7700000000001085_dist_sum_ax0_shard0_i_m2048_n1024_v7x_i32_bf16_1_alg».proof.Proof.Proto

noncomputable section

namespace Cert.KernelIdeal.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The offsets of the 31 signals and of the 31 transfers, in program order. -/
abbrev ds : List ℕ := List.range' 1 31

/-! ## What a device owes -/

/-- The receive credits of the transfers `l` still to start. -/
def owedXfer (c : Dev nD) : List ℕ → CellTallies nD τ sig Unit
  | [] => 0
  | d :: l => owedXfer c l + tallyAt (recvCell (peer c d) d) () N
/-- `base` and a unit on the barrier cell of each device the signals `l` still to send address. -/
def owedSig (c : Dev nD) (base : CellTallies nD τ sig Unit) : List ℕ → CellTallies nD τ sig Unit
  | [] => base
  | j :: l => owedSig c base l + tallyAt (barCell (peer c j)) () 1

def O₁ (c : Dev nD) : CellTallies nD τ sig Unit := owedXfer c ds
def O₀ (c : Dev nD) : CellTallies nD τ sig Unit := owedSig c (O₁ c) ds

/-! ## Levels: barrier cells at 1, receive cells at 2, everything else at 0 -/

def L (g : GSem nD τ sig) : Finset Unit := if g.1.2 = .tc then {()} else ∅
def lv (g : GSem nD τ sig) (_ : Unit) : ℕ := if g.2 = .reg barS then 1 else if (recvIdx g.2).isSome then 2 else 0

/-! ## The cells, indexed for the launch: 0 the barrier, 1 … 31 the sends, 32 … 62 the receives -/

def csem (k : Fin 63) : SemLoc sig :=
  if k.val = 0 then .reg barS else if k.val ≤ 31 then .dma (sendS k.val) else .dma (recvS (k.val - 31))
abbrev kcell (ck : Dev nD × Fin 63) : GSem nD τ sig := ((ck.1 : Thread nD τ), csem ck.2)

/-- Every cell's invariant under the names the launch allocated, and round 0 of every cell reached. -/
def records (K : Dev nD × Fin 63 → ℕ) : sProp 𝕄 :=
  iprop((bigSep Finset.univ fun ck : Dev nD × Fin 63 => cellInv ER (Rd m) (K ck) (kcell ck))
    ∗ bigSep Finset.univ fun ck : Dev nD × Fin 63 => reached ER (kcell ck) 0)

/-- What a device carries from point to point besides row 0: its positions, the tokens of its transfers' duties, its
    launch credit, the level facts. -/
def carried (c : Dev nD) : sProp 𝕄 :=
  iprop(atPos ER (barCell c) 0 ∅ 0
    ∗ bigSepL ds (fun d => atPos ER (sendCell c d) 0 ∅ 0)
    ∗ bigSepL ds (fun d => atPos ER (recvCell c d) 0 ∅ 0)
    ∗ bigSepL ds (fun d => iprop(dutyTok ER (sendCell c d) 0 (0 : Dev nD) ∗ dutyTok ER (recvCell (peer c d) d) 0 (0 : Dev nD)))
    ∗ cred (tallyAt (barCell c) () 31)
    ∗ bigSepL ds (fun d => cred (tallyAt (recvCell c d) () N))
    ∗ levAts L lv)

def ghost (K : Dev nD × Fin 63 → ℕ) (c : Dev nD) : sProp 𝕄 := iprop(records m K ∗ carried c)

/-- The tokens of a device's 31 signal duties. -/
def sigToks (c : Dev nD) (l : List ℕ) : sProp 𝕄 := bigSepL l (fun j => dutyTok ER (barCell (peer c j)) 0 c)

def scrWhole (c : Dev nD) (f : Tbl (F := F)) : sProp 𝕄 := (((c : Thread nD τ).loc cc0_scratch0) ↦{fullShare} f)

/-- Before point 0: everything, the table at any contents. -/
def Φstart (c : Dev nD) : sProp 𝕄 := iprop((∃ K, ghost m K c) ∗ sigToks c ds ∗ ∃ f, scrWhole c f)
/-- Before point `n`, `1 ≤ n ≤ 7`: row 0 holds the running sum after point `n - 1`. -/
def Φmid (c : Dev nD) (n : ℕ) : sProp 𝕄 := iprop((∃ K, ghost m K c) ∗ rowPts c 0 fullShare (tblAcc m c (n - 1)))
/-- After point 7: the whole table at its final contents, the 62 own cells closed at zero. -/
def Φend (c : Dev nD) : sProp 𝕄 :=
  iprop(scrWhole c (tblFin m c) ∗ bigSepL ds (fun d => semVal (sendCell c d) 0) ∗ bigSepL ds (fun d => semVal (recvCell c d) 0))

/-- The proof data of device `c`. -/
def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => outRow (xb m) c
  Φ t := if t.val = 0 then Φstart m c else if t.val = 8 then Φend m c else Φmid m c t.val
  q _ := fullShare
  owed t := if t.val = 0 then O₀ c else if t.val = 8 then 0 else O₁ c

/-- What a device owes, under some set of recorded waits. -/
def owesSome (c : Dev nD) (O : CellTallies nD τ sig Unit) : sProp 𝕄 := iprop(∃ W : Waits sig Unit, owes (c : Thread nD τ) O W)

abbrev 𝒱₀ : Variants := Variants.none

/-- The body obligation at one grid point. -/
def ObAt (c : Dev nD) (t : Fin cfg0.N) : Prop :=
  iprop((dats m 0 c).Φ t.castSucc ∗ (dats m 0 c).owesAt () t.castSucc
      ∗ bigSep Finset.univ fun w : Fin cfg0.W =>
          iprop(∃ d, owns (c : Thread nD τ) ((cfg0.win w).stage (cfg0.slots t w)) fullShare ((dats m 0 c).before w t d)))
    ⊢ wp frame (wpE (defs₀ (F := F)) 𝒱₀ (c : Thread nD τ) none) Set.univ (defs₀ (F := F) .tc cfg0.body (cfg0.bodyArgs t (cfg0.slots t))) fun _ =>
        iprop((dats m 0 c).Φ t.succ ∗ (dats m 0 c).owesAt () t.succ
          ∗ bigSep Finset.univ fun w : Fin cfg0.W =>
              match cfg0.idle w (cfg0.grid.coords t) with
              | true =>
                match (cfg0.win w).flush t with
                | false => iprop(∃ d, owns (c : Thread nD τ) ((cfg0.win w).stage (cfg0.slots t w)) fullShare ((dats m 0 c).before w t d))
                | true => owns (c : Thread nD τ) ((cfg0.win w).stage (cfg0.slots t w)) fullShare ((dats m 0 c).after w t)
              | false => owns (c : Thread nD τ) ((cfg0.win w).stage (cfg0.slots t w)) fullShare ((dats m 0 c).after w t))

theorem bodyObligation_of (c : Dev nD) (h : ∀ t, ObAt m c t) : BodyObligation (dats (F := F) m 0 c) (defs₀ (F := F)) 𝒱₀ () Set.univ :=
  fun t => h t

end Cert.KernelIdeal.AllSum

end
-- ==== Proof.Tables.lean ====
/-
  The schedule's tables read at the protocol's cells, the cells' indexing, and what the records hold of each cell.
-/
import proofs.«901084_g7700000000001085_dist_sum_ax0_shard0_i_m2048_n1024_v7x_i32_bf16_1_alg».proof.Proof.Data

noncomputable section

namespace Cert.KernelIdeal.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores apart -/

theorem sendIdx_send {d : ℕ} (hd : 1 ≤ d ∧ d ≤ 31) : sendIdx (.dma (sendS d) : SemLoc sig) = some d := by
  have h : (2 + d) % 65 = 2 + d := Nat.mod_eq_of_lt (by omega)
  show (if 3 ≤ (2 + d) % 65 ∧ (2 + d) % 65 ≤ 33 then some ((2 + d) % 65 - 2) else none) = some d
  rw [h, if_pos ⟨by omega, by omega⟩, Nat.add_sub_cancel_left]
theorem recvIdx_send {d : ℕ} (hd : 1 ≤ d ∧ d ≤ 31) : recvIdx (.dma (sendS d) : SemLoc sig) = none := by
  have h : (2 + d) % 65 = 2 + d := Nat.mod_eq_of_lt (by omega)
  show (if 34 ≤ (2 + d) % 65 ∧ (2 + d) % 65 ≤ 64 then some ((2 + d) % 65 - 33) else none) = none
  rw [h, if_neg (fun h' => by have := h'.1; omega)]
theorem sendIdx_recv {d : ℕ} (hd : 1 ≤ d ∧ d ≤ 31) : sendIdx (.dma (recvS d) : SemLoc sig) = none := by
  have h : (33 + d) % 65 = 33 + d := Nat.mod_eq_of_lt (by omega)
  show (if 3 ≤ (33 + d) % 65 ∧ (33 + d) % 65 ≤ 33 then some ((33 + d) % 65 - 2) else none) = none
  rw [h, if_neg (fun h' => by have := h'.2; omega)]
theorem recvIdx_recv {d : ℕ} (hd : 1 ≤ d ∧ d ≤ 31) : recvIdx (.dma (recvS d) : SemLoc sig) = some d := by
  have h : (33 + d) % 65 = 33 + d := Nat.mod_eq_of_lt (by omega)
  show (if 34 ≤ (33 + d) % 65 ∧ (33 + d) % 65 ≤ 64 then some ((33 + d) % 65 - 33) else none) = some d
  rw [h, if_pos ⟨by omega, by omega⟩, Nat.add_sub_cancel_left]
theorem send_ne_bar (d : ℕ) : (SemLoc.dma (sendS d) : SemLoc sig) ≠ .reg barS := fun h => by cases h
theorem recv_ne_bar (d : ℕ) : (SemLoc.dma (recvS d) : SemLoc sig) ≠ .reg barS := fun h => by cases h
theorem credit_row (d : ℕ) : (rowM d : Memref sig .tc .vmem S1x1024 .f32).view.dmaCredit = N := rfl
theorem N_pos : 0 < N := View.dmaCredit_pos _ (by decide)

/-! ## The tables -/

theorem duties_bar (c : Dev nD) : (Rd (F := F) m).duties (barCell c) 0 = Finset.univ.erase c := by
  dsimp only [Rd]
  rw [if_pos ⟨rfl, rfl⟩, if_pos rfl]
theorem duties_send (c : Dev nD) {d : ℕ} (hd : 1 ≤ d ∧ d ≤ 31) : (Rd (F := F) m).duties (sendCell c d) 0 = {(0 : Dev nD)} := by
  dsimp only [Rd]
  rw [if_pos ⟨rfl, rfl⟩, if_neg (send_ne_bar d), if_pos (Or.inl (by rw [sendIdx_send hd]; rfl))]
theorem duties_recv (c : Dev nD) {d : ℕ} (hd : 1 ≤ d ∧ d ≤ 31) : (Rd (F := F) m).duties (recvCell c d) 0 = {(0 : Dev nD)} := by
  dsimp only [Rd]
  rw [if_pos ⟨rfl, rfl⟩, if_neg (recv_ne_bar d), if_pos (Or.inr (by rw [recvIdx_recv hd]; rfl))]
theorem duties_later (g : GSem nD τ sig) : ∀ r, 1 ≤ r → (Rd (F := F) m).duties g r = ∅ := by
  intro r hr
  dsimp only [Rd]
  rw [if_neg (fun h => by have := h.1; omega)]
theorem amount_bar (c : Dev nD) (p : Dev nD) : (Rd (F := F) m).amount (barCell c) 0 p = 1 := by
  dsimp only [Rd]
  rw [if_pos rfl]
theorem amount_send (c : Dev nD) (d : ℕ) (p : Dev nD) : (Rd (F := F) m).amount (sendCell c d) 0 p = N := by
  dsimp only [Rd]
  rw [if_neg (send_ne_bar d)]
theorem amount_recv (c : Dev nD) (d : ℕ) (p : Dev nD) : (Rd (F := F) m).amount (recvCell c d) 0 p = N := by
  dsimp only [Rd]
  rw [if_neg (recv_ne_bar d)]
theorem expect_bar (c : Dev nD) : (Rd (F := F) m).expect (barCell c) 0 = 31 := by
  unfold Schedule.expect Schedule.amountOf
  rw [duties_bar, Finset.sum_congr rfl (fun p _ => amount_bar m c p), Finset.sum_const,
    Finset.card_erase_of_mem (Finset.mem_univ c), Finset.card_univ, Fintype.card_fin]
  rfl
theorem expect_send (c : Dev nD) {d : ℕ} (hd : 1 ≤ d ∧ d ≤ 31) : (Rd (F := F) m).expect (sendCell c d) 0 = N := by
  unfold Schedule.expect Schedule.amountOf
  rw [duties_send m c hd, Finset.sum_singleton, amount_send]
theorem expect_recv (c : Dev nD) {d : ℕ} (hd : 1 ≤ d ∧ d ≤ 31) : (Rd (F := F) m).expect (recvCell c d) 0 = N := by
  unfold Schedule.expect Schedule.amountOf
  rw [duties_recv m c hd, Finset.sum_singleton, amount_recv]
theorem payload_bar (c p : Dev nD) : (Rd (F := F) m).payload (barCell c) 0 p = barPay c p := by
  dsimp only [Rd]
  rw [if_pos rfl]
theorem payload_send (c : Dev nD) {d : ℕ} (hd : 1 ≤ d ∧ d ≤ 31) (p : Dev nD) : (Rd (F := F) m).payload (sendCell c d) 0 p = sendPay m c d := by
  dsimp only [Rd]
  rw [if_neg (send_ne_bar d)]
  unfold xferPay
  rw [sendIdx_send hd]
theorem payload_recv (c : Dev nD) {d : ℕ} (hd : 1 ≤ d ∧ d ≤ 31) (p : Dev nD) : (Rd (F := F) m).payload (recvCell c d) 0 p = recvPay m c d := by
  dsimp only [Rd]
  rw [if_neg (recv_ne_bar d)]
  unfold xferPay
  rw [sendIdx_recv hd, recvIdx_recv hd]

/-- A chain over the image of a list is the chain of the composite. -/
theorem bigSepL_map {I J : Type} (f : I → J) (l : List I) (Φ : J → sProp 𝕄) :
    bigSepL (l.map f) Φ = bigSepL l (fun x => Φ (f x)) := by
  induction l with
  | nil => rfl
  | cons a l ih => rw [List.map_cons, bigSepL_cons, bigSepL_cons, ih]

/-- The other devices are the devices 1 … 31 places on. -/
theorem others_eq (c : Dev nD) : Finset.univ.erase c = (ds.map (peer c)).toFinset := by
  ext p
  rw [Finset.mem_erase, List.mem_toFinset, List.mem_map]
  constructor
  · rintro ⟨hne, -⟩
    have hc : c.val < 32 := c.isLt
    have hp : p.val < 32 := p.isLt
    have hv : p.val ≠ c.val := fun h => hne (Fin.ext h)
    refine ⟨dist c p, ?_, peer_dist c p⟩
    rw [List.mem_range'_1]
    unfold dist
    omega
  · rintro ⟨d, hd, rfl⟩
    rw [List.mem_range'_1] at hd
    exact ⟨peer_ne c hd.1 (by omega), Finset.mem_univ _⟩

theorem others_nodup (c : Dev nD) : (ds.map (peer c)).Nodup := by
  refine List.Nodup.map_on ?_ (List.nodup_range' (s := 1) (n := 31))
  intro x hx y hy h
  rw [List.mem_range'_1] at hx hy
  rw [← dist_peer c (d := x) (by omega), ← dist_peer c (d := y) (by omega), h]

/-- The whole of a barrier cell's round, no duty taken: every peer's payload, in the order of the offsets. -/
theorem rest_bar (c : Dev nD) :
    bigSep ((Rd (F := F) m).duties (barCell c) 0 \ ∅) (fun p => (Rd (F := F) m).payload (barCell c) 0 p) = bigSepL ds (fun d => barPay (F := F) c (peer c d)) := by
  rw [Finset.sdiff_empty, duties_bar, bigSep_congr (fun p _ => payload_bar m c p),
    bigSep_eq_bigSepL_of_eq (ds.map (peer c)) (others_eq c) (others_nodup c), bigSepL_map]
theorem rest_send (c : Dev nD) {d : ℕ} (hd : 1 ≤ d ∧ d ≤ 31) :
    bigSep ((Rd (F := F) m).duties (sendCell c d) 0 \ ∅) (fun p => (Rd (F := F) m).payload (sendCell c d) 0 p) = sendPay m c d := by
  rw [Finset.sdiff_empty, duties_send m c hd, bigSep_singleton, payload_send m c hd]
theorem rest_recv (c : Dev nD) {d : ℕ} (hd : 1 ≤ d ∧ d ≤ 31) :
    bigSep ((Rd (F := F) m).duties (recvCell c d) 0 \ ∅) (fun p => (Rd (F := F) m).payload (recvCell c d) 0 p) = recvPay m c d := by
  rw [Finset.sdiff_empty, duties_recv m c hd, bigSep_singleton, payload_recv m c hd]

/-! ## The cells' indexing -/

theorem kcell_bar (c : Dev nD) : kcell (c, (0 : Fin 63)) = barCell c := by
  show ((c : Thread nD τ), csem 0) = _
  unfold csem
  rw [if_pos (show ((0 : Fin 63) : ℕ) = 0 from rfl)]
theorem kcell_send (c : Dev nD) {d : ℕ} (hd : 1 ≤ d ∧ d ≤ 31) : kcell (c, (⟨d, by omega⟩ : Fin 63)) = sendCell c d := by
  show ((c : Thread nD τ), csem ⟨d, _⟩) = _
  unfold csem
  rw [if_neg (show ¬ d = 0 by omega), if_pos (show d ≤ 31 from hd.2)]
theorem kcell_recv (c : Dev nD) {d : ℕ} (hd : 1 ≤ d ∧ d ≤ 31) : kcell (c, (⟨d + 31, by omega⟩ : Fin 63)) = recvCell c d := by
  show ((c : Thread nD τ), csem ⟨d + 31, _⟩) = _
  unfold csem
  rw [if_neg (show ¬ d + 31 = 0 by omega), if_neg (show ¬ d + 31 ≤ 31 by omega)]
  show ((c : Thread nD τ), SemLoc.dma (recvS (d + 31 - 31))) = _
  rw [Nat.add_sub_cancel]
/-- A cell's place in the indexing, read back off its semaphore: entry `k + 2` of the DMA semaphores for `k ≥ 1`. -/
def csemIdx : SemLoc sig → ℕ
  | .reg _ => 0
  | .dma q => q.val - 2

theorem csemIdx_csem (k : Fin 63) : csemIdx (csem k) = k.val := by
  have hk : k.val < 63 := k.isLt
  unfold csem
  by_cases h0 : k.val = 0
  · rw [if_pos h0, h0]; rfl
  · rw [if_neg h0]
    by_cases h1 : k.val ≤ 31
    · rw [if_pos h1]
      show (2 + k.val) % 65 - 2 = k.val
      omega
    · rw [if_neg h1]
      show (33 + (k.val - 31)) % 65 - 2 = k.val
      omega

theorem kcell_injective : Function.Injective (kcell : Dev nD × Fin 63 → GSem nD τ sig) := by
  rintro ⟨c, k⟩ ⟨c', k'⟩ h
  have h1 : c = c' := congrArg (fun g : GSem nD τ sig => g.1.1) h
  have h2 : csem k = csem k' := congrArg (fun g : GSem nD τ sig => g.2) h
  have h3 : k.val = k'.val := by rw [← csemIdx_csem k, ← csemIdx_csem k', h2]
  rw [h1, Fin.ext h3]

/-! ## What the records hold -/

theorem inv_bar (K : Dev nD × Fin 63 → ℕ) (c : Dev nD) : records (F := F) m K ⊢ cellInv ER (Rd m) (K (c, 0)) (barCell c) := by
  rw [← kcell_bar c]
  unfold records
  exact (Idealize.SL.BI.Entails.trans Idealize.SL.BI.sep_and and_elimL).trans (bigSep_elim (Finset.mem_univ (c, (0 : Fin 63))))
theorem inv_send (K : Dev nD × Fin 63 → ℕ) (c : Dev nD) {d : ℕ} (hd : 1 ≤ d ∧ d ≤ 31) :
    records (F := F) m K ⊢ cellInv ER (Rd m) (K (c, ⟨d, by omega⟩)) (sendCell c d) := by
  rw [← kcell_send c hd]
  unfold records
  exact (Idealize.SL.BI.Entails.trans Idealize.SL.BI.sep_and and_elimL).trans (bigSep_elim (Finset.mem_univ _))
theorem inv_recv (K : Dev nD × Fin 63 → ℕ) (c : Dev nD) {d : ℕ} (hd : 1 ≤ d ∧ d ≤ 31) :
    records (F := F) m K ⊢ cellInv ER (Rd m) (K (c, ⟨d + 31, by omega⟩)) (recvCell c d) := by
  rw [← kcell_recv c hd]
  unfold records
  exact (Idealize.SL.BI.Entails.trans Idealize.SL.BI.sep_and and_elimL).trans (bigSep_elim (Finset.mem_univ _))
theorem reached_bar (K : Dev nD × Fin 63 → ℕ) (c : Dev nD) : records (F := F) m K ⊢ reached ER (barCell c) 0 := by
  rw [← kcell_bar c]
  unfold records
  exact (Idealize.SL.BI.Entails.trans Idealize.SL.BI.sep_and and_elimR).trans (bigSep_elim (Finset.mem_univ (c, (0 : Fin 63))))
theorem reached_send (K : Dev nD × Fin 63 → ℕ) (c : Dev nD) {d : ℕ} (hd : 1 ≤ d ∧ d ≤ 31) : records (F := F) m K ⊢ reached ER (sendCell c d) 0 := by
  rw [← kcell_send c hd]
  unfold records
  exact (Idealize.SL.BI.Entails.trans Idealize.SL.BI.sep_and and_elimR).trans (bigSep_elim (Finset.mem_univ _))
theorem reached_recv (K : Dev nD × Fin 63 → ℕ) (c : Dev nD) {d : ℕ} (hd : 1 ≤ d ∧ d ≤ 31) : records (F := F) m K ⊢ reached ER (recvCell c d) 0 := by
  rw [← kcell_recv c hd]
  unfold records
  exact (Idealize.SL.BI.Entails.trans Idealize.SL.BI.sep_and and_elimR).trans (bigSep_elim (Finset.mem_univ _))
instance records_persistent (K : Dev nD × Fin 63 → ℕ) : BI.Persistent (records (F := F) m K) := by unfold records; infer_instance

end Cert.KernelIdeal.AllSum

end

/-- info: 'Cert.KernelIdeal.AllSum.kcell_injective' depends on axioms: [propext, Classical.choice, Quot.sound] -/
#guard_msgs in #print axioms Cert.KernelIdeal.AllSum.kcell_injective

/-- info: 'Cert.KernelIdeal.AllSum.inv_recv' depends on axioms: [propext, Classical.choice, Quot.sound] -/
#guard_msgs in #print axioms Cert.KernelIdeal.AllSum.inv_recv

/-- info: 'Cert.KernelIdeal.AllSum.rest_bar' depends on axioms: [propext, Classical.choice, Quot.sound] -/
#guard_msgs in #print axioms Cert.KernelIdeal.AllSum.rest_bar
-- ==== Proof.StepsA.lean ====
/-
  The signal to a peer's barrier cell and the wait on one's own barrier cell, each as a rule for the operation at the
  head of a program, and the level evidence a wait presents: everything a device owes lies on barrier cells (level 1)
  and on receive cells (level 2), so its barrier wait (level 1) may run while it owes receive credits only, and a wait
  on a cell that is neither (level 0) may run whatever it owes.
-/
import proofs.«901084_g7700000000001085_dist_sum_ax0_shard0_i_m2048_n1024_v7x_i32_bf16_1_alg».proof.Proof.Tables

noncomputable section

namespace Cert.KernelIdeal.AllSum.StepsA

open Cert.KernelIdeal Cert.KernelIdeal.Gen Cert.KernelIdeal.AllSum
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-! ## Where a device owes -/

theorem mem_ds {d : ℕ} (h : d ∈ ds) : 1 ≤ d ∧ d ≤ 31 := by
  have h' := List.mem_range'_1.mp h
  omega

/-- A positive entry of the receive credits of the transfers `l` sits at the receive cell of one of them. -/
theorem owedXfer_pos (c : Dev nD) : ∀ (l : List ℕ) {g : GSem nD τ sig} {u : Unit}, 0 < owedXfer c l g u →
    ∃ d ∈ l, g = recvCell (peer c d) d
  | [], g, u, h => by
    exfalso
    rw [show owedXfer c [] = 0 from rfl, Pi.zero_apply, Finsupp.coe_zero, Pi.zero_apply] at h
    exact Nat.lt_irrefl 0 h
  | d :: l, g, u, h => by
    rw [show owedXfer c (d :: l) = owedXfer c l + tallyAt (recvCell (peer c d) d) () N from rfl,
      Pi.add_apply, Finsupp.add_apply, tallyAt_apply] at h
    by_cases hg : g = recvCell (peer c d) d ∧ u = ()
    · exact ⟨d, List.mem_cons_self, hg.1⟩
    · rw [if_neg hg, Nat.add_zero] at h
      obtain ⟨d', hd', e⟩ := owedXfer_pos c l h
      exact ⟨d', List.mem_cons_of_mem _ hd', e⟩

/-- A positive entry of what the signals `l` add to `base` is one of `base` or sits at a barrier cell. -/
theorem owedSig_pos (c : Dev nD) (base : CellTallies nD τ sig Unit) : ∀ (l : List ℕ) {g : GSem nD τ sig} {u : Unit},
    0 < owedSig c base l g u → 0 < base g u ∨ ∃ j, g = barCell (peer c j)
  | [], g, u, h => Or.inl h
  | j :: l, g, u, h => by
    rw [show owedSig c base (j :: l) = owedSig c base l + tallyAt (barCell (peer c j)) () 1 from rfl,
      Pi.add_apply, Finsupp.add_apply, tallyAt_apply] at h
    by_cases hg : g = barCell (peer c j) ∧ u = ()
    · exact Or.inr ⟨j, hg.1⟩
    · rw [if_neg hg, Nat.add_zero] at h
      exact owedSig_pos c base l h

theorem O₁_pos {c : Dev nD} {g : GSem nD τ sig} {u : Unit} (h : 0 < O₁ c g u) :
    ∃ d, (1 ≤ d ∧ d ≤ 31) ∧ g = recvCell (peer c d) d := by
  obtain ⟨d, hd, e⟩ := owedXfer_pos c ds h
  exact ⟨d, mem_ds hd, e⟩

theorem O₀_pos {c : Dev nD} {g : GSem nD τ sig} {u : Unit} (h : 0 < O₀ c g u) :
    (∃ d, (1 ≤ d ∧ d ≤ 31) ∧ g = recvCell (peer c d) d) ∨ ∃ j, g = barCell (peer c j) := by
  rcases owedSig_pos c (O₁ c) ds h with h' | h'
  · exact Or.inl (O₁_pos h')
  · exact Or.inr h'

/-! ## The levels at our cells -/

theorem mem_L_tc (p : Dev nD) (sm : SemLoc sig) (u : Unit) : u ∈ L ((p : Thread nD τ), sm) := by
  rw [show L ((p : Thread nD τ), sm) = {()} from if_pos rfl]; exact Finset.mem_singleton_self _

theorem lv_bar (p : Dev nD) (u : Unit) : lv (barCell p) u = 1 := by
  dsimp only [lv]; rw [if_pos rfl]

theorem lv_recv (p : Dev nD) {d : ℕ} (hd : 1 ≤ d ∧ d ≤ 31) (u : Unit) : lv (recvCell p d) u = 2 := by
  dsimp only [lv]; rw [if_neg (recv_ne_bar d), recvIdx_recv hd]; rfl

/-- At its barrier wait a device owes receive credits only: receive cells, above its barrier cell. -/
theorem mayWait_bar (c : Dev nD) : (levAts L lv : sProp 𝕄) ⊢ MayWait (c : Thread nD τ) (.reg barS) () (O₁ c) :=
  MayOwe.of_cut (L := L) (lev := lv) 1
    (fun p hp => by rw [Finset.mem_singleton.mp hp]; exact mem_L_tc c _ _)
    (fun g u hg => by obtain ⟨d, hd, rfl⟩ := O₁_pos hg; exact mem_L_tc _ _ _)
    (fun p hp => by rw [Finset.mem_singleton.mp hp]; exact le_of_eq (lv_bar c ()))
    (fun g u hg => by obtain ⟨d, hd, rfl⟩ := O₁_pos hg; rw [lv_recv _ hd]; decide)

/-- A wait on a cell that is neither a barrier nor a receive cell sits below everything a device ever owes. -/
theorem mayWait_stage (c : Dev nD) (q : DmaSem sig) (hq : recvIdx (.dma q : SemLoc sig) = none) (O : CellTallies nD τ sig Unit)
    (hO : O = O₀ c ∨ O = O₁ c ∨ O = 0) : (levAts L lv : sProp 𝕄) ⊢ MayWait (c : Thread nD τ) (.dma q) () O := by
  have hlow : lv ((c : Thread nD τ), SemLoc.dma q) () ≤ 0 := by
    dsimp only [lv]; rw [if_neg (fun h => by cases h), hq]; exact le_of_eq rfl
  have key : ∀ O' : CellTallies nD τ sig Unit,
      (∀ (g : GSem nD τ sig) (u : Unit), 0 < O' g u → (∃ d, (1 ≤ d ∧ d ≤ 31) ∧ g = recvCell (peer c d) d) ∨ ∃ j, g = barCell (peer c j)) →
      (levAts L lv : sProp 𝕄) ⊢ MayWait (c : Thread nD τ) (.dma q) () O' := fun O' hpos =>
    MayOwe.of_cut (L := L) (lev := lv) 0
      (fun p hp => by rw [Finset.mem_singleton.mp hp]; exact mem_L_tc c _ _)
      (fun g u hg => by
        rcases hpos g u hg with ⟨d, hd, rfl⟩ | ⟨j, rfl⟩ <;> exact mem_L_tc _ _ _)
      (fun p hp => by rw [Finset.mem_singleton.mp hp]; exact hlow)
      (fun g u hg => by
        rcases hpos g u hg with ⟨d, hd, rfl⟩ | ⟨j, rfl⟩
        · rw [lv_recv _ hd]; decide
        · rw [lv_bar]; decide)
  rcases hO with rfl | rfl | rfl
  · exact key _ fun g u hg => O₀_pos hg
  · exact key _ fun g u hg => Or.inl (O₁_pos hg)
  · rw [MayWait_zero]; iintro -; iempintro

/-! ## The two steps -/

/-- Signal number `j`: to the device `j` places on, paying this device's duty on that device's barrier cell with the
    row of its own table that device will write, row `32 - j`. -/
theorem sig_step (m : (ℓ : Loc nD τ sig) → Buf (Elt F) ℓ) (K : Dev nD × Fin 63 → ℕ) (c : Dev nD) (j : ℕ) (hj : 1 ≤ j ∧ j ≤ 31)
    (l : List ℕ) (base : CellTallies nD τ sig Unit) (k' : ℕ) (hk' : k' = 1)
    {α : Type} {Q : α → sProp 𝕄} {k : PUnit → Prog (TpuEff nD τ sig (Elt F) Λ₀ .tc) α} :
    iprop(records m K ∗ owesSome c (owedSig c base (j :: l)) ∗ sigToks c (j :: l) ∗ (∃ f, rowPts c (32 - j) fullShare f))
      ⊢ iprop((iprop(owesSome c (owedSig c base l) ∗ sigToks c l) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c j : Thread nD τ) barS k') k) Q) := by
  subst hk'
  rw [show sigToks (F := F) c (j :: l) = iprop(dutyTok ER (barCell (peer c j)) 0 c ∗ sigToks c l) from bigSepL_cons _ _ _]
  unfold owesSome
  iintro ⟨#Hrec, ⟨%W, HO⟩, ⟨Htok, Htoks⟩, Hrow⟩ Hk
  iapply (Rounds.wp_signal 𝒱₀ ER (Rd m) (c : Thread nD τ) none (dst := (peer c j : Thread nD τ)) (κ := K (peer c j, 0))
      (d := c) (by rw [duties_bar]; exact Finset.mem_erase.mpr ⟨(peer_ne c hj.1 hj.2).symm, Finset.mem_univ _⟩)
      (amount_bar m (peer c j) c) () (owedSig c base l) rfl) $$ [HO Htok Hrow]
  · isplitr; · iapply (inv_bar m K (peer c j)); iexact Hrec
    isplitl [HO]; · iexact HO
    isplitl [Htok]; · iexact Htok
    isplitl [Hrow]
    · rw [payload_bar]; unfold barPay; rw [dist_peer_rev c hj.1 hj.2]
      isplitl [Hrow]; · iexact Hrow
      iapply (reached_recv m K c (d := 32 - j) ⟨by omega, by omega⟩); iexact Hrec
    · iapply (reached_bar m K (peer c j)); iexact Hrec
  iintro HO
  iapply Hk
  isplitl [HO]; · iexists W; iexact HO
  iexact Htoks

/-- The wait for all 31 units of one's own barrier cell, owing the 31 receive credits: every peer's row comes with it. -/
theorem bar_wait (m : (ℓ : Loc nD τ sig) → Buf (Elt F) ℓ) (K : Dev nD × Fin 63 → ℕ) (c : Dev nD) (k' : ℕ) (hk' : k' = 31)
    {α : Type} {Q : α → sProp 𝕄} {k : PUnit → Prog (TpuEff nD τ sig (Elt F) Λ₀ .tc) α} :
    iprop(records m K ∗ cred (tallyAt (barCell c) () 31) ∗ owesSome c (O₁ c) ∗ levAts L lv ∗ atPos ER (barCell c) 0 ∅ 0)
      ⊢ iprop((iprop(owesSome c (O₁ c) ∗ bigSepL ds (fun d => barPay c (peer c d))) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold owesSome
  iintro ⟨#Hrec, Hc, ⟨%W, HO⟩, #Hlev, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := O₁ c) (W := W) (R := 0) (m := 0) (T := ∅)
      (by rw [expect_bar])) $$ [Hc HO Hat]
  · isplitr; · iapply (inv_bar m K c); iexact Hrec
    isplitl [Hc]; · iexact Hc
    isplitl [HO]; · iexact HO
    isplitr; · iapply (mayWait_bar c); iexact Hlev
    iexact Hat
  iintro ⟨HO, -, -, Hpay⟩
  ihave Hp := (Entails.of_eq (rest_bar m c)) $$ Hpay
  iapply Hk
  isplitl [HO]; · iexists _; iexact HO
  iexact Hp

end Cert.KernelIdeal.AllSum.StepsA

end

/-- info: 'Cert.KernelIdeal.AllSum.StepsA.bar_wait' depends on axioms: [propext, Classical.choice, Quot.sound] -/
#guard_msgs in #print axioms Cert.KernelIdeal.AllSum.StepsA.bar_wait

/-- info: 'Cert.KernelIdeal.AllSum.StepsA.sig_step' depends on axioms: [propext, Classical.choice, Quot.sound] -/
#guard_msgs in #print axioms Cert.KernelIdeal.AllSum.StepsA.sig_step

/-- info: 'Cert.KernelIdeal.AllSum.StepsA.mayWait_stage' depends on axioms: [propext, Classical.choice, Quot.sound] -/
#guard_msgs in #print axioms Cert.KernelIdeal.AllSum.StepsA.mayWait_stage
-- ==== Proof.StepsB.lean ====
/-
  The transfer and the two waits that follow it, each as a rule for the operation at the head of a program.

  Transfer number `d` reads row 0 of the sender's table through a share split off the remainder and writes row `d`
  of the device `d` places on; what lands there is the sender's partial sum, which is that device's final row `d`.
  The wait on the send cell returns the share, the wait on the receive cell delivers the row; each wait takes the
  whole of its cell's one round, after which the cell has no duty left and closes with its counter at zero.
-/
import proofs.«901084_g7700000000001085_dist_sum_ax0_shard0_i_m2048_n1024_v7x_i32_bf16_1_alg».proof.Proof.Tables
import Idealize.ShloMosaic.Lib.Pipeline.Value

noncomputable section

namespace Cert.KernelIdeal.AllSum.StepsB

open Cert.KernelIdeal Cert.KernelIdeal.Gen Cert.KernelIdeal.AllSum
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-! ## The transfer -/

/-- A value carried to an equal type and back is itself. -/
theorem cast_cast_self {α β : Type} (h₁ : α = β) (h₂ : β = α) (x : α) : _root_.cast h₂ (_root_.cast h₁ x) = x := by
  subst h₁; rfl

/-- What lands in row `d` of the device `d` places on, whatever stood there: at every index of that row, row 0 of the
    sender's final table, which is the sender's partial sum, and so the receiver's final row `d`. -/
theorem landed_row (m : (ℓ : Loc nD τ sig) → Buf (Elt F) ℓ) (c : Dev nD) (d : ℕ) (hd : 1 ≤ d ∧ d ≤ 31)
    (fd : Buf (Elt F) ((rowM d : Memref sig .tc .vmem S1x1024 .f32).view.loc (Dev.tc (peer c d) : Thread nD τ))) :
    ∀ i ∈ (rowM d : Memref sig .tc .vmem S1x1024 .f32).view.set,
      (rowM d : Memref sig .tc .vmem S1x1024 .f32).view.write (Elt F) fd
          ((rowM 0 : Memref sig .tc .vmem S1x1024 .f32).view.read (Elt F) (tblFin m c)) Finset.univ i
        = tblFin m (peer c d) i := by
  intro i hi
  obtain ⟨y, rfl⟩ := View.exists_emb_of_mem_set _ hi
  rw [View.write_emb_of_mem _ _ (Finset.mem_univ y)]
  show _root_.cast _ (_root_.cast _ (tblFin m c ((rowM 0 : Memref sig .tc .vmem S1x1024 .f32).view.emb y)))
    = tblFin m (peer c d) ((rowM d : Memref sig .tc .vmem S1x1024 .f32).view.emb y)
  refine (cast_cast_self _ _ _).trans ?_
  have key : ∀ (i₀ i₁ : S32x1024.Idx), (i₀ 0).val = 0 → (i₁ 0).val = d → i₀ 1 = i₁ 1 →
      tblFin m c i₀ = tblFin m (peer c d) i₁ := by
    intro i₀ i₁ e0 ed e1
    show part (xb m) (back c (i₀ 0).val) (ix2 (0 : Fin 1) (i₀ 1)) = part (xb m) (back (peer c d) (i₁ 0).val) (ix2 (0 : Fin 1) (i₁ 1))
    rw [e0, ed, e1, back_zero, back_peer]
  have hy : (y 0).val < 1 := (y 0).isLt
  refine key _ _ ?_ ?_ (Fin.ext rfl)
  · show 0 % 32 + 1 * (y 0).val = 0
    omega
  · show d % 32 + 1 * (y 0).val = d
    omega

/-- Transfer number `d`: row 0, read through the share `qs d` split off the remainder, into row `d` of the device `d`
    places on. -/
theorem send_step (m : (ℓ : Loc nD τ sig) → Buf (Elt F) ℓ) (K : Dev nD × Fin 63 → ℕ) (c : Dev nD) (d : ℕ) (hd : 1 ≤ d ∧ d ≤ 31) (l : List ℕ)
    {hsc : (rowM d : Memref sig (Dev.tc (peer c d) : Thread nD τ).2.kind .vmem S1x1024 .f32).view.ref.isScScratch = false}
    {hsrc : (rowM 0 : Memref sig .tc .vmem S1x1024 .f32).view.WordExact} {hdst : (rowM d : Memref sig .tc .vmem S1x1024 .f32).view.WordExact}
    {hsem : DmaTarget.Typed .vmem (.dma (recvS d)) (.remote (Dev.tc (peer c d) : Thread nD τ) (rowM d : Memref sig .tc .vmem S1x1024 .f32) (.dma (sendS d)) hsc)}
    {α : Type} {Q : α → sProp 𝕄} {k : PUnit → Prog (TpuEff nD τ sig (Elt F) Λ₀ .tc) α} :
    iprop(records m K ∗ rowPts c 0 (remSh (d - 1)) (tblFin m c) ∗ barPay c (peer c d)
        ∗ owesSome c (owedXfer c (d :: l)) ∗ dutyTok ER (sendCell c d) 0 (0 : Dev nD) ∗ dutyTok ER (recvCell (peer c d) d) 0 (0 : Dev nD))
      ⊢ iprop((iprop(rowPts c 0 (remSh d) (tblFin m c) ∗ cred (tallyAt (sendCell c d) () N) ∗ owesSome c (owedXfer c l))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0) (.remote (Dev.tc (peer c d) : Thread nD τ) (rowM d) (.dma (sendS d)) hsc) (.dma (recvS d)) hsrc hdst hsem) k) Q) := by
  have hsh : remSh (d - 1) ∈ qs d ·? remSh d := by
    have h := remSh_split (d - 1)
    rwa [Nat.sub_add_cancel hd.1] at h
  have hd₁ : (0 : Dev nD) ∈ (Rd (F := F) m).duties (sendCell c d) 0 := by rw [duties_send m c hd]; exact Finset.mem_singleton_self _
  have hd₂ : (0 : Dev nD) ∈ (Rd (F := F) m).duties (recvCell (peer c d) d) 0 := by rw [duties_recv m (peer c d) hd]; exact Finset.mem_singleton_self _
  have hN : (rowM d : Memref sig .tc .vmem S1x1024 .f32).view.amount (.dma (recvS d)) = N := credit_row d
  have hpay₁ : (((rowM 0 : Memref sig .tc .vmem S1x1024 .f32).view.loc (c : Thread nD τ)) ↦[(rowM 0 : Memref sig .tc .vmem S1x1024 .f32).view.set]{qs d} (tblFin m c) : sProp 𝕄)
      ⊢ (Rd (F := F) m).payload (sendCell c d) 0 (0 : Dev nD) := by
    rw [payload_send m c hd]; exact Entails.rfl
  have hpay₂ : ∀ fd : Buf (Elt F) ((rowM d : Memref sig .tc .vmem S1x1024 .f32).view.loc (Dev.tc (peer c d) : Thread nD τ)),
      (((rowM d : Memref sig .tc .vmem S1x1024 .f32).view.loc (Dev.tc (peer c d) : Thread nD τ)) ↦[(rowM d : Memref sig .tc .vmem S1x1024 .f32).view.set]{fullShare}
          ((rowM d : Memref sig .tc .vmem S1x1024 .f32).view.write (Elt F) fd ((rowM 0 : Memref sig .tc .vmem S1x1024 .f32).view.read (Elt F) (tblFin m c)) Finset.univ) : sProp 𝕄)
      ⊢ (Rd (F := F) m).payload (recvCell (peer c d) d) 0 (0 : Dev nD) := by
    intro fd
    rw [payload_recv m (peer c d) hd, pointsTo_congr (landed_row m c d hd fd)]; exact Entails.rfl
  have hO : owedXfer c (d :: l) = owedXfer c l + tallyAt (recvCell (peer c d) d) () N := rfl
  unfold owesSome barPay rowPts
  rw [dist_peer c hd.2]
  iintro ⟨#Hrec, Hrow, ⟨⟨%fd, Hdst⟩, #Hr₂⟩, ⟨%W, How⟩, Htok₁, Htok₂⟩ HK
  ihave Hrow := (pointsTo_share hsh).1 $$ [Hrow]
  · iexact Hrow
  icases Hrow with ⟨Hq, Hrem⟩
  iapply (wp_send_pointsTo (Γ := .empty) (defs := defs₀ (F := F)) 𝒱₀ ER (Rd (F := F) m) (c : Thread nD τ) none
    (src := rowM 0) (dst := rowM d) (c' := (Dev.tc (peer c d) : Thread nD τ)) (q := qs d) (fs := tblFin m c) (fd := fd)
    (sS := .dma (sendS d)) (sem := .dma (recvS d)) (r₁ := 0) (r₂ := 0) (d₁ := (0 : Dev nD)) (d₂ := (0 : Dev nD))
    (κ₁ := K (c, ⟨d, by omega⟩)) (κ₂ := K (peer c d, ⟨d + 31, by omega⟩)) (W := W)
    hd₁ hd₂ () () N hN (amount_send m c d 0) (amount_recv m (peer c d) d 0) (owedXfer c l) hO hpay₁ (hpay₂ fd)) $$ [Hq Hdst How Htok₁ Htok₂]
  · isplitr; · iapply (inv_send m K c hd); iexact Hrec
    isplitr; · iapply (inv_recv m K (peer c d) hd); iexact Hrec
    isplitl [Hq]; · iexact Hq
    isplitl [Hdst]; · iexact Hdst
    isplitl [How]; · iexact How
    isplitl [Htok₁]; · iexact Htok₁
    isplitr; · iapply (reached_send m K c hd); iexact Hrec
    isplitl [Htok₂]; · iexact Htok₂
    iexact Hr₂
  iintro ⟨Hcr, How⟩
  iapply HK
  isplitl [Hrem]; · iexact Hrem
  isplitl [Hcr]; · iexact Hcr
  iexists _; iexact How

/-! ## The waits -/

/-- The wait on the send cell of transfer `d`, owing nothing: the share of row 0 comes back and the cell closes. -/
theorem waitS_step (m : (ℓ : Loc nD τ sig) → Buf (Elt F) ℓ) (K : Dev nD × Fin 63 → ℕ) (c : Dev nD) (d : ℕ) (hd : 1 ≤ d ∧ d ≤ 31) (a b : ℕ)
    {hsrc : (rowM a : Memref sig .tc .vmem S1x1024 .f32).view.WordExact} {hdst : (rowM b : Memref sig .tc .vmem S1x1024 .f32).view.WordExact}
    {α : Type} {Q : α → sProp 𝕄} {k : PUnit → Prog (TpuEff nD τ sig (Elt F) Λ₀ .tc) α} :
    iprop(records m K ∗ cred (tallyAt (sendCell c d) () N) ∗ owesSome c 0 ∗ atPos ER (sendCell c d) 0 ∅ 0)
      ⊢ iprop((iprop(owesSome c 0 ∗ rowPts c 0 (qs d) (tblFin m c) ∗ semVal (sendCell c d) 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS d) (rowM a) (rowM b) hsrc hdst) k) Q) := by
  have hk : 0 + (rowM b : Memref sig .tc .vmem S1x1024 .f32).view.dmaCredit = (Rd (F := F) m).expect (sendCell c d) 0 := by
    rw [Nat.zero_add, credit_row, expect_send m c hd]
  rw [← credit_row b]
  unfold owesSome
  iintro ⟨#Hrec, Hc, ⟨%W, How⟩, Hat⟩ HK
  iapply (wp_wait_rest_token 𝒱₀ ER (Rd (F := F) m) (c : Thread nD τ) none (wpE_waitDma2_eq 𝒱₀ (c : Thread nD τ) none Set.univ)
    (Set.mem_univ (K (c, ⟨d, by omega⟩))) () (O := 0) (W := W) (R := 0) (T := ∅) (m := 0) hk) $$ [Hc How Hat]
  · isplitr; · iapply (inv_send m K c hd); iexact Hrec
    isplitl [Hc]; · iexact Hc
    isplitl [How]; · iexact How
    isplitr; · rw [MayWait_zero]; iempintro
    iexact Hat
  iintro ⟨How, Hat, -, Hpay⟩
  have hrest : bigSep ((Rd (F := F) m).duties (sendCell c d) 0 \ ∅) (fun p => (Rd (F := F) m).payload (sendCell c d) 0 p)
      = rowPts c 0 (qs d) (tblFin m c) := rest_send m c hd
  ihave Hp := (Entails.of_eq hrest) $$ [Hpay]
  · iexact Hpay
  imod (cell_close ER (Rd (F := F) m) (g := sendCell c d) (Set.mem_univ (K (c, ⟨d, by omega⟩))) (fun h => h) (R := 0 + 1)
    (fun r hr => duties_later m _ r hr)) $$ [Hat] with Hz
  · isplitr; · iapply (inv_send m K c hd); iexact Hrec
    iexact Hat
  iapply HK
  isplitl [How]; · iexists _; iexact How
  isplitl [Hp]; · iexact Hp
  iexact Hz

/-- The wait on the receive cell of transfer `d`, owing nothing: row `d` comes holding the sender's partial sum and the
    cell closes. -/
theorem waitR_step (m : (ℓ : Loc nD τ sig) → Buf (Elt F) ℓ) (K : Dev nD × Fin 63 → ℕ) (c : Dev nD) (d : ℕ) (hd : 1 ≤ d ∧ d ≤ 31) (a b : ℕ)
    {hsrc : (rowM a : Memref sig .tc .vmem S1x1024 .f32).view.WordExact} {hdst : (rowM b : Memref sig .tc .vmem S1x1024 .f32).view.WordExact}
    {α : Type} {Q : α → sProp 𝕄} {k : PUnit → Prog (TpuEff nD τ sig (Elt F) Λ₀ .tc) α} :
    iprop(records m K ∗ cred (tallyAt (recvCell c d) () N) ∗ owesSome c 0 ∗ atPos ER (recvCell c d) 0 ∅ 0)
      ⊢ iprop((iprop(owesSome c 0 ∗ rowPts c d fullShare (tblFin m c) ∗ semVal (recvCell c d) 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS d) (rowM a) (rowM b) hsrc hdst) k) Q) := by
  have hk : 0 + (rowM b : Memref sig .tc .vmem S1x1024 .f32).view.dmaCredit = (Rd (F := F) m).expect (recvCell c d) 0 := by
    rw [Nat.zero_add, credit_row, expect_recv m c hd]
  rw [← credit_row b]
  unfold owesSome
  iintro ⟨#Hrec, Hc, ⟨%W, How⟩, Hat⟩ HK
  iapply (wp_wait_rest_token 𝒱₀ ER (Rd (F := F) m) (c : Thread nD τ) none (wpE_waitDma2_eq 𝒱₀ (c : Thread nD τ) none Set.univ)
    (Set.mem_univ (K (c, ⟨d + 31, by omega⟩))) () (O := 0) (W := W) (R := 0) (T := ∅) (m := 0) hk) $$ [Hc How Hat]
  · isplitr; · iapply (inv_recv m K c hd); iexact Hrec
    isplitl [Hc]; · iexact Hc
    isplitl [How]; · iexact How
    isplitr; · rw [MayWait_zero]; iempintro
    iexact Hat
  iintro ⟨How, Hat, -, Hpay⟩
  have hrest : bigSep ((Rd (F := F) m).duties (recvCell c d) 0 \ ∅) (fun p => (Rd (F := F) m).payload (recvCell c d) 0 p)
      = rowPts c d fullShare (tblFin m c) := rest_recv m c hd
  ihave Hp := (Entails.of_eq hrest) $$ [Hpay]
  · iexact Hpay
  imod (cell_close ER (Rd (F := F) m) (g := recvCell c d) (Set.mem_univ (K (c, ⟨d + 31, by omega⟩))) (fun h => h) (R := 0 + 1)
    (fun r hr => duties_later m _ r hr)) $$ [Hat] with Hz
  · isplitr; · iapply (inv_recv m K c hd); iexact Hrec
    iexact Hat
  iapply HK
  isplitl [How]; · iexists _; iexact How
  isplitl [Hp]; · iexact Hp
  iexact Hz

/-- info: 'Cert.KernelIdeal.AllSum.StepsB.send_step' depends on axioms: [propext, Classical.choice, Quot.sound] -/
#guard_msgs in #print axioms send_step

/-- info: 'Cert.KernelIdeal.AllSum.StepsB.waitS_step' depends on axioms: [propext, Classical.choice, Quot.sound] -/
#guard_msgs in #print axioms waitS_step

/-- info: 'Cert.KernelIdeal.AllSum.StepsB.waitR_step' depends on axioms: [propext, Classical.choice, Quot.sound] -/
#guard_msgs in #print axioms waitR_step

end Cert.KernelIdeal.AllSum.StepsB

end
-- ==== Proof.Steps.lean ====
/-
  One step of the protocol each, as a rule for the operation at the head of a program: a signal to a peer's barrier
  cell, the wait on one's own barrier cell, one transfer, and the wait on a send or a receive cell (which also closes
  the cell: its counter at zero is the device's again).
-/
import proofs.«901084_g7700000000001085_dist_sum_ax0_shard0_i_m2048_n1024_v7x_i32_bf16_1_alg».proof.Proof.StepsA
import proofs.«901084_g7700000000001085_dist_sum_ax0_shard0_i_m2048_n1024_v7x_i32_bf16_1_alg».proof.Proof.StepsB

noncomputable section

namespace Cert.KernelIdeal.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-- Signal number `j`: to the device `j` places on, paying this device's duty on that device's barrier cell with the
    row of its own table that device will write, row `32 - j`. -/
theorem sig_step (m : (ℓ : Loc nD τ sig) → Buf (Elt F) ℓ) (K : Dev nD × Fin 63 → ℕ) (c : Dev nD) (j : ℕ) (hj : 1 ≤ j ∧ j ≤ 31)
    (l : List ℕ) (base : CellTallies nD τ sig Unit) (k' : ℕ) (hk' : k' = 1)
    {α : Type} {Q : α → sProp 𝕄} {k : PUnit → Prog (TpuEff nD τ sig (Elt F) Λ₀ .tc) α} :
    iprop(records m K ∗ owesSome c (owedSig c base (j :: l)) ∗ sigToks c (j :: l) ∗ (∃ f, rowPts c (32 - j) fullShare f))
      ⊢ iprop((iprop(owesSome c (owedSig c base l) ∗ sigToks c l) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c j : Thread nD τ) barS k') k) Q) :=
  StepsA.sig_step m K c j hj l base k' hk'

/-- The wait for all 31 units of one's own barrier cell, owing the 31 receive credits: every peer's row comes with it. -/
theorem bar_wait (m : (ℓ : Loc nD τ sig) → Buf (Elt F) ℓ) (K : Dev nD × Fin 63 → ℕ) (c : Dev nD) (k' : ℕ) (hk' : k' = 31)
    {α : Type} {Q : α → sProp 𝕄} {k : PUnit → Prog (TpuEff nD τ sig (Elt F) Λ₀ .tc) α} :
    iprop(records m K ∗ cred (tallyAt (barCell c) () 31) ∗ owesSome c (O₁ c) ∗ levAts L lv ∗ atPos ER (barCell c) 0 ∅ 0)
      ⊢ iprop((iprop(owesSome c (O₁ c) ∗ bigSepL ds (fun d => barPay c (peer c d))) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) :=
  StepsA.bar_wait m K c k' hk'

/-- Transfer number `d`: row 0, read through the share `qs d` split off the remainder, into row `d` of the device `d`
    places on. -/
theorem send_step (m : (ℓ : Loc nD τ sig) → Buf (Elt F) ℓ) (K : Dev nD × Fin 63 → ℕ) (c : Dev nD) (d : ℕ) (hd : 1 ≤ d ∧ d ≤ 31) (l : List ℕ)
    {hsc : (rowM d : Memref sig (Dev.tc (peer c d) : Thread nD τ).2.kind .vmem S1x1024 .f32).view.ref.isScScratch = false}
    {hsrc : (rowM 0 : Memref sig .tc .vmem S1x1024 .f32).view.WordExact} {hdst : (rowM d : Memref sig .tc .vmem S1x1024 .f32).view.WordExact}
    {hsem : DmaTarget.Typed .vmem (.dma (recvS d)) (.remote (Dev.tc (peer c d) : Thread nD τ) (rowM d : Memref sig .tc .vmem S1x1024 .f32) (.dma (sendS d)) hsc)}
    {α : Type} {Q : α → sProp 𝕄} {k : PUnit → Prog (TpuEff nD τ sig (Elt F) Λ₀ .tc) α} :
    iprop(records m K ∗ rowPts c 0 (remSh (d - 1)) (tblFin m c) ∗ barPay c (peer c d)
        ∗ owesSome c (owedXfer c (d :: l)) ∗ dutyTok ER (sendCell c d) 0 (0 : Dev nD) ∗ dutyTok ER (recvCell (peer c d) d) 0 (0 : Dev nD))
      ⊢ iprop((iprop(rowPts c 0 (remSh d) (tblFin m c) ∗ cred (tallyAt (sendCell c d) () N) ∗ owesSome c (owedXfer c l))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0) (.remote (Dev.tc (peer c d) : Thread nD τ) (rowM d) (.dma (sendS d)) hsc) (.dma (recvS d)) hsrc hdst hsem) k) Q) :=
  StepsB.send_step m K c d hd l

/-- The wait on the send cell of transfer `d`, owing nothing: the share of row 0 comes back and the cell closes. -/
theorem waitS_step (m : (ℓ : Loc nD τ sig) → Buf (Elt F) ℓ) (K : Dev nD × Fin 63 → ℕ) (c : Dev nD) (d : ℕ) (hd : 1 ≤ d ∧ d ≤ 31) (a b : ℕ)
    {hsrc : (rowM a : Memref sig .tc .vmem S1x1024 .f32).view.WordExact} {hdst : (rowM b : Memref sig .tc .vmem S1x1024 .f32).view.WordExact}
    {α : Type} {Q : α → sProp 𝕄} {k : PUnit → Prog (TpuEff nD τ sig (Elt F) Λ₀ .tc) α} :
    iprop(records m K ∗ cred (tallyAt (sendCell c d) () N) ∗ owesSome c 0 ∗ atPos ER (sendCell c d) 0 ∅ 0)
      ⊢ iprop((iprop(owesSome c 0 ∗ rowPts c 0 (qs d) (tblFin m c) ∗ semVal (sendCell c d) 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS d) (rowM a) (rowM b) hsrc hdst) k) Q) :=
  StepsB.waitS_step m K c d hd a b

/-- The wait on the receive cell of transfer `d`, owing nothing: row `d` comes holding the sender's partial sum and the
    cell closes. -/
theorem waitR_step (m : (ℓ : Loc nD τ sig) → Buf (Elt F) ℓ) (K : Dev nD × Fin 63 → ℕ) (c : Dev nD) (d : ℕ) (hd : 1 ≤ d ∧ d ≤ 31) (a b : ℕ)
    {hsrc : (rowM a : Memref sig .tc .vmem S1x1024 .f32).view.WordExact} {hdst : (rowM b : Memref sig .tc .vmem S1x1024 .f32).view.WordExact}
    {α : Type} {Q : α → sProp 𝕄} {k : PUnit → Prog (TpuEff nD τ sig (Elt F) Λ₀ .tc) α} :
    iprop(records m K ∗ cred (tallyAt (recvCell c d) () N) ∗ owesSome c 0 ∗ atPos ER (recvCell c d) 0 ∅ 0)
      ⊢ iprop((iprop(owesSome c 0 ∗ rowPts c d fullShare (tblFin m c) ∗ semVal (recvCell c d) 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS d) (rowM a) (rowM b) hsrc hdst) k) Q) :=
  StepsB.waitR_step m K c d hd a b

end Cert.KernelIdeal.AllSum

end
-- ==== Proof.DevTables.lean ====
import proofs.«901084_g7700000000001085_dist_sum_ax0_shard0_i_m2048_n1024_v7x_i32_bf16_1_alg».proof.Proof.Gen.KernelIdeal

namespace Cert.KernelIdeal.AllSum

open Cert.KernelIdeal Cert.KernelIdeal.Gen Idealize.ShloMosaic

/-- The device the printed arithmetic of signal number j addresses. -/
def sigDev (c : Dev nD) : Nat → Dev nD
  | 1 => ⟨k0_dev1 c, by revert c; decide⟩
  | 2 => ⟨k0_dev2 c, by revert c; decide⟩
  | 3 => ⟨k0_dev3 c, by revert c; decide⟩
  | 4 => ⟨k0_dev4 c, by revert c; decide⟩
  | 5 => ⟨k0_dev5 c, by revert c; decide⟩
  | 6 => ⟨k0_dev6 c, by revert c; decide⟩
  | 7 => ⟨k0_dev7 c, by revert c; decide⟩
  | 8 => ⟨k0_dev8 c, by revert c; decide⟩
  | 9 => ⟨k0_dev9 c, by revert c; decide⟩
  | 10 => ⟨k0_dev10 c, by revert c; decide⟩
  | 11 => ⟨k0_dev11 c, by revert c; decide⟩
  | 12 => ⟨k0_dev12 c, by revert c; decide⟩
  | 13 => ⟨k0_dev13 c, by revert c; decide⟩
  | 14 => ⟨k0_dev14 c, by revert c; decide⟩
  | 15 => ⟨k0_dev15 c, by revert c; decide⟩
  | 16 => ⟨k0_dev16 c, by revert c; decide⟩
  | 17 => ⟨k0_dev17 c, by revert c; decide⟩
  | 18 => ⟨k0_dev18 c, by revert c; decide⟩
  | 19 => ⟨k0_dev19 c, by revert c; decide⟩
  | 20 => ⟨k0_dev20 c, by revert c; decide⟩
  | 21 => ⟨k0_dev21 c, by revert c; decide⟩
  | 22 => ⟨k0_dev22 c, by revert c; decide⟩
  | 23 => ⟨k0_dev23 c, by revert c; decide⟩
  | 24 => ⟨k0_dev24 c, by revert c; decide⟩
  | 25 => ⟨k0_dev25 c, by revert c; decide⟩
  | 26 => ⟨k0_dev26 c, by revert c; decide⟩
  | 27 => ⟨k0_dev27 c, by revert c; decide⟩
  | 28 => ⟨k0_dev28 c, by revert c; decide⟩
  | 29 => ⟨k0_dev29 c, by revert c; decide⟩
  | 30 => ⟨k0_dev30 c, by revert c; decide⟩
  | 31 => ⟨k0_dev31 c, by revert c; decide⟩
  | _ => c

/-- The device the printed arithmetic of transfer number j addresses. -/
def xferDev (c : Dev nD) : Nat → Dev nD
  | 1 => ⟨k0_dev32 c, by revert c; decide⟩
  | 2 => ⟨k0_dev33 c, by revert c; decide⟩
  | 3 => ⟨k0_dev34 c, by revert c; decide⟩
  | 4 => ⟨k0_dev35 c, by revert c; decide⟩
  | 5 => ⟨k0_dev36 c, by revert c; decide⟩
  | 6 => ⟨k0_dev37 c, by revert c; decide⟩
  | 7 => ⟨k0_dev38 c, by revert c; decide⟩
  | 8 => ⟨k0_dev39 c, by revert c; decide⟩
  | 9 => ⟨k0_dev40 c, by revert c; decide⟩
  | 10 => ⟨k0_dev41 c, by revert c; decide⟩
  | 11 => ⟨k0_dev42 c, by revert c; decide⟩
  | 12 => ⟨k0_dev43 c, by revert c; decide⟩
  | 13 => ⟨k0_dev44 c, by revert c; decide⟩
  | 14 => ⟨k0_dev45 c, by revert c; decide⟩
  | 15 => ⟨k0_dev46 c, by revert c; decide⟩
  | 16 => ⟨k0_dev47 c, by revert c; decide⟩
  | 17 => ⟨k0_dev48 c, by revert c; decide⟩
  | 18 => ⟨k0_dev49 c, by revert c; decide⟩
  | 19 => ⟨k0_dev50 c, by revert c; decide⟩
  | 20 => ⟨k0_dev51 c, by revert c; decide⟩
  | 21 => ⟨k0_dev52 c, by revert c; decide⟩
  | 22 => ⟨k0_dev53 c, by revert c; decide⟩
  | 23 => ⟨k0_dev54 c, by revert c; decide⟩
  | 24 => ⟨k0_dev55 c, by revert c; decide⟩
  | 25 => ⟨k0_dev56 c, by revert c; decide⟩
  | 26 => ⟨k0_dev57 c, by revert c; decide⟩
  | 27 => ⟨k0_dev58 c, by revert c; decide⟩
  | 28 => ⟨k0_dev59 c, by revert c; decide⟩
  | 29 => ⟨k0_dev60 c, by revert c; decide⟩
  | 30 => ⟨k0_dev61 c, by revert c; decide⟩
  | 31 => ⟨k0_dev62 c, by revert c; decide⟩
  | _ => c

end Cert.KernelIdeal.AllSum
-- ==== Proof.Chains.lean ====
/-
  The unrolled blocks of the body as chains over the list of offsets, and one rule per chain, by induction from the
  rule of one step: the 31 signals, the 31 transfers, the 31 waits on the send cells, the 31 waits on the receive cells.
  The devices a chain addresses are given by a table of the printed device arithmetic (`sigDev`, `xferDev`), each entry
  equal to the device that many places on.
-/
import proofs.«901084_g7700000000001085_dist_sum_ax0_shard0_i_m2048_n1024_v7x_i32_bf16_1_alg».proof.Proof.Steps
import proofs.«901084_g7700000000001085_dist_sum_ax0_shard0_i_m2048_n1024_v7x_i32_bf16_1_alg».proof.Proof.DevTables
import proofs.«901084_g7700000000001085_dist_sum_ax0_shard0_i_m2048_n1024_v7x_i32_bf16_1_alg».proof.Proof.Tables

noncomputable section

namespace Cert.KernelIdeal.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

theorem sigDev_eq (c : Dev nD) (j : ℕ) (hj : 1 ≤ j ∧ j ≤ 31) : sigDev c j = peer c j := by
  obtain ⟨h1, h2⟩ := hj
  interval_cases j <;> (revert c; decide)
theorem xferDev_eq (c : Dev nD) (d : ℕ) (hd : 1 ≤ d ∧ d ≤ 31) : xferDev c d = peer c d := by
  obtain ⟨h1, h2⟩ := hd
  interval_cases d <;> (revert c; decide)

theorem row_notSc (p : Dev nD) (d : ℕ) : (rowM d : Memref sig (Dev.tc p : Thread nD τ).2.kind .vmem S1x1024 .f32).view.ref.isScScratch = false := rfl

/-! ## The chains -/

/-- The signals `l` to the barrier cells of the devices `dv j`, in order, then `k`. -/
def sigChain (dv : ℕ → Dev nD) {α : Type} : List ℕ → (PUnit → Prog (TpuEff nD τ sig (Elt F) Λ₀ .tc) α) → Prog (TpuEff nD τ sig (Elt F) Λ₀ .tc) α
  | [], k => k ⟨⟩
  | j :: l, k => .op (.semSignal (Dev.tc (dv j) : Thread nD τ) barS 1) (fun _ => sigChain dv l k)

/-- The transfers `l` (row 0 into row `d` of device `dv d`), in order, then `k`. -/
def sendsChain (dv : ℕ → Dev nD) {α : Type} : List ℕ → (PUnit → Prog (TpuEff nD τ sig (Elt F) Λ₀ .tc) α) → Prog (TpuEff nD τ sig (Elt F) Λ₀ .tc) α
  | [], k => k ⟨⟩
  | d :: l, k => .op (.enqueueDma (rowM 0) (.remote (Dev.tc (dv d) : Thread nD τ) (rowM d) (.dma (sendS d)) (row_notSc (dv d) d)) (.dma (recvS d))
      (View.wordExact_bits rfl) (View.wordExact_bits rfl) ⟨⟨rfl, Or.inl rfl⟩, trivial⟩) (fun _ => sendsChain dv l k)

/-- The waits on the send cells of the transfers `l`, in order, then `k`. -/
def waitSChain {α : Type} : List ℕ → (PUnit → Prog (TpuEff nD τ sig (Elt F) Λ₀ .tc) α) → Prog (TpuEff nD τ sig (Elt F) Λ₀ .tc) α
  | [], k => k ⟨⟩
  | d :: l, k => .op (.waitDma2 (sendS d) (rowM d) (rowM 0) (View.wordExact_bits rfl) (View.wordExact_bits rfl)) (fun _ => waitSChain l k)

/-- The waits on the receive cells of the transfers `l`, in order, then `k`. -/
def waitRChain {α : Type} : List ℕ → (PUnit → Prog (TpuEff nD τ sig (Elt F) Λ₀ .tc) α) → Prog (TpuEff nD τ sig (Elt F) Λ₀ .tc) α
  | [], k => k ⟨⟩
  | d :: l, k => .op (.waitDma2 (recvS d) (rowM 0) (rowM d) (View.wordExact_bits rfl) (View.wordExact_bits rfl)) (fun _ => waitRChain l k)

/-! ## Splitting a chain of `∗` at its head -/

private theorem bigSepL_cons_sep {I : Type} (i : I) (l : List I) (Φ : I → sProp 𝕄) :
    bigSepL (i :: l) Φ = iprop(Φ i ∗ bigSepL l Φ) := bigSepL_cons _ _ _

/-! ## Their rules -/

theorem sigChain_spec (m : (ℓ : Loc nD τ sig) → Buf (Elt F) ℓ) (K : Dev nD × Fin 63 → ℕ) (c : Dev nD) (dv : ℕ → Dev nD) (l : List ℕ)
    (hl : ∀ j ∈ l, 1 ≤ j ∧ j ≤ 31) (hdv : ∀ j ∈ l, dv j = peer c j) (base : CellTallies nD τ sig Unit)
    {α : Type} {Q : α → sProp 𝕄} {k : PUnit → Prog (TpuEff nD τ sig (Elt F) Λ₀ .tc) α} :
    iprop(records m K ∗ owesSome c (owedSig c base l) ∗ sigToks c l ∗ bigSepL l (fun j => iprop(∃ f, rowPts c (32 - j) fullShare f)))
      ⊢ iprop((owesSome c base -∗ wp frame (wpE (defs₀ (F := F)) 𝒱₀ (c : Thread nD τ) none) Set.univ (k ⟨⟩) Q)
          -∗ wp frame (wpE (defs₀ (F := F)) 𝒱₀ (c : Thread nD τ) none) Set.univ (sigChain dv l k) Q) := by
  induction l with
  | nil =>
    show _ ⊢ iprop((owesSome c base -∗ wp frame (wpE (defs₀ (F := F)) 𝒱₀ (c : Thread nD τ) none) Set.univ (k ⟨⟩) Q) -∗ wp frame (wpE (defs₀ (F := F)) 𝒱₀ (c : Thread nD τ) none) Set.univ (k ⟨⟩) Q)
    iintro ⟨-, Ho, -, -⟩ Hk
    iapply Hk
    iexact Ho
  | cons j l ih =>
    have hj := hl j List.mem_cons_self
    have e := hdv j List.mem_cons_self
    have ih' := ih (fun i h => hl i (List.mem_cons_of_mem _ h)) (fun i h => hdv i (List.mem_cons_of_mem _ h))
    show _ ⊢ iprop(_ -∗ wp frame (wpE (defs₀ (F := F)) 𝒱₀ (c : Thread nD τ) none) Set.univ
      (.op (.semSignal (Dev.tc (dv j) : Thread nD τ) barS 1) (fun _ => sigChain dv l k)) Q)
    revert e; generalize dv j = p; intro e; subst e
    rw [bigSepL_cons_sep]
    iintro ⟨#Hrec, Ho, Ht, Hrow, Hrows⟩ Hk
    iapply (sig_step m K c j hj l base 1 rfl) $$ [Ho Ht Hrow]
    · isplitr; · iexact Hrec
      isplitl [Ho]; · iexact Ho
      isplitl [Ht]; · iexact Ht
      iexact Hrow
    iintro ⟨Ho, Ht⟩
    iapply ih' $$ [Ho Ht Hrows]
    · isplitr; · iexact Hrec
      isplitl [Ho]; · iexact Ho
      isplitl [Ht]; · iexact Ht
      iexact Hrows
    iexact Hk

/-- The transfers `l`, the last one started before them being `p` (so the remainder share of row 0 is `remSh p`), the last
    of them `p'`. -/
theorem sendsChain_spec (m : (ℓ : Loc nD τ sig) → Buf (Elt F) ℓ) (K : Dev nD × Fin 63 → ℕ) (c : Dev nD) (dv : ℕ → Dev nD) (l rest : List ℕ) (p : ℕ)
    (hl : l = List.range' (p + 1) l.length) (hl31 : p + l.length ≤ 31) (hdv : ∀ d ∈ l, dv d = peer c d)
    {α : Type} {Q : α → sProp 𝕄} {k : PUnit → Prog (TpuEff nD τ sig (Elt F) Λ₀ .tc) α} :
    iprop(records m K ∗ rowPts c 0 (remSh p) (tblFin m c) ∗ bigSepL l (fun d => barPay c (peer c d))
        ∗ owesSome c (owedXfer c (l ++ rest))
        ∗ bigSepL l (fun d => iprop(dutyTok ER (sendCell c d) 0 (0 : Dev nD) ∗ dutyTok ER (recvCell (peer c d) d) 0 (0 : Dev nD))))
      ⊢ iprop((iprop(rowPts c 0 (remSh (p + l.length)) (tblFin m c) ∗ bigSepL l (fun d => cred (tallyAt (sendCell c d) () N)) ∗ owesSome c (owedXfer c rest))
              -∗ wp frame (wpE (defs₀ (F := F)) 𝒱₀ (c : Thread nD τ) none) Set.univ (k ⟨⟩) Q)
          -∗ wp frame (wpE (defs₀ (F := F)) 𝒱₀ (c : Thread nD τ) none) Set.univ (sendsChain dv l k) Q) := by
  induction l generalizing p with
  | nil =>
    show _ ⊢ iprop((_ -∗ wp frame (wpE (defs₀ (F := F)) 𝒱₀ (c : Thread nD τ) none) Set.univ (k ⟨⟩) Q) -∗ wp frame (wpE (defs₀ (F := F)) 𝒱₀ (c : Thread nD τ) none) Set.univ (k ⟨⟩) Q)
    iintro ⟨-, Hrow, -, Ho, -⟩ Hk
    iapply Hk
    isplitl [Hrow]; · iexact Hrow
    isplitr; · iempintro
    iexact Ho
  | cons d l ih =>
    rw [List.length_cons, List.range'_succ] at hl
    obtain ⟨rfl, hl'⟩ := List.cons.inj hl
    rw [List.length_cons] at hl31
    have hd : 1 ≤ p + 1 ∧ p + 1 ≤ 31 := ⟨by omega, by omega⟩
    have e := hdv (p + 1) List.mem_cons_self
    have ih' := ih (p + 1) hl' (by omega) (fun i h => hdv i (List.mem_cons_of_mem _ h))
    rw [List.length_cons, show p + (l.length + 1) = p + 1 + l.length from by omega]
    show _ ⊢ iprop(_ -∗ wp frame (wpE (defs₀ (F := F)) 𝒱₀ (c : Thread nD τ) none) Set.univ
      (.op (.enqueueDma (rowM 0) (.remote (Dev.tc (dv (p + 1)) : Thread nD τ) (rowM (p + 1)) (.dma (sendS (p + 1))) (row_notSc (dv (p + 1)) (p + 1))) (.dma (recvS (p + 1)))
        (View.wordExact_bits rfl) (View.wordExact_bits rfl) ⟨⟨rfl, Or.inl rfl⟩, trivial⟩) (fun _ => sendsChain dv l k)) Q)
    revert e; generalize dv (p + 1) = q; intro e; subst e
    rw [bigSepL_cons_sep, bigSepL_cons_sep, bigSepL_cons_sep]
    rw [show remSh p = remSh (p + 1 - 1) from rfl]
    iintro ⟨#Hrec, Hrow, ⟨Hbar, Hbars⟩, Ho, ⟨⟨Hts, Htr⟩, Htoks⟩⟩ Hk
    iapply (send_step m K c (p + 1) hd (l ++ rest)) $$ [Hrow Hbar Ho Hts Htr]
    · isplitr; · iexact Hrec
      isplitl [Hrow]; · iexact Hrow
      isplitl [Hbar]; · iexact Hbar
      isplitl [Ho]; · iexact Ho
      isplitl [Hts]; · iexact Hts
      iexact Htr
    iintro ⟨Hrow, Hc, Ho⟩
    iapply ih' $$ [Hrow Hbars Ho Htoks]
    · isplitr; · iexact Hrec
      isplitl [Hrow]; · iexact Hrow
      isplitl [Hbars]; · iexact Hbars
      isplitl [Ho]; · iexact Ho
      iexact Htoks
    iintro ⟨Hrow, Hcs, Ho⟩
    iapply Hk
    isplitl [Hrow]; · iexact Hrow
    isplitl [Hc Hcs]
    · isplitl [Hc]; · iexact Hc
      iexact Hcs
    iexact Ho

theorem waitSChain_spec (m : (ℓ : Loc nD τ sig) → Buf (Elt F) ℓ) (K : Dev nD × Fin 63 → ℕ) (c : Dev nD) (l : List ℕ) (hl : ∀ d ∈ l, 1 ≤ d ∧ d ≤ 31)
    {α : Type} {Q : α → sProp 𝕄} {k : PUnit → Prog (TpuEff nD τ sig (Elt F) Λ₀ .tc) α} :
    iprop(records m K ∗ owesSome c 0 ∗ bigSepL l (fun d => iprop(cred (tallyAt (sendCell c d) () N) ∗ atPos ER (sendCell c d) 0 ∅ 0)))
      ⊢ iprop((iprop(owesSome c 0 ∗ bigSepL l (fun d => iprop(rowPts c 0 (qs d) (tblFin m c) ∗ semVal (sendCell c d) 0)))
              -∗ wp frame (wpE (defs₀ (F := F)) 𝒱₀ (c : Thread nD τ) none) Set.univ (k ⟨⟩) Q)
          -∗ wp frame (wpE (defs₀ (F := F)) 𝒱₀ (c : Thread nD τ) none) Set.univ (waitSChain l k) Q) := by
  induction l with
  | nil =>
    show _ ⊢ iprop((_ -∗ wp frame (wpE (defs₀ (F := F)) 𝒱₀ (c : Thread nD τ) none) Set.univ (k ⟨⟩) Q) -∗ wp frame (wpE (defs₀ (F := F)) 𝒱₀ (c : Thread nD τ) none) Set.univ (k ⟨⟩) Q)
    iintro ⟨-, Ho, -⟩ Hk
    iapply Hk
    isplitl [Ho]; · iexact Ho
    iempintro
  | cons d l ih =>
    have hd := hl d List.mem_cons_self
    have ih' := ih (fun i h => hl i (List.mem_cons_of_mem _ h))
    show _ ⊢ iprop(_ -∗ wp frame (wpE (defs₀ (F := F)) 𝒱₀ (c : Thread nD τ) none) Set.univ
      (.op (.waitDma2 (sendS d) (rowM d) (rowM 0) (View.wordExact_bits rfl) (View.wordExact_bits rfl)) (fun _ => waitSChain l k)) Q)
    rw [bigSepL_cons_sep, bigSepL_cons_sep]
    iintro ⟨#Hrec, Ho, ⟨Hc, Hat⟩, Hrest⟩ Hk
    iapply (waitS_step m K c d hd d 0) $$ [Hc Ho Hat]
    · isplitr; · iexact Hrec
      isplitl [Hc]; · iexact Hc
      isplitl [Ho]; · iexact Ho
      iexact Hat
    iintro ⟨Ho, Hrow, Hsv⟩
    iapply ih' $$ [Ho Hrest]
    · isplitr; · iexact Hrec
      isplitl [Ho]; · iexact Ho
      iexact Hrest
    iintro ⟨Ho, Hl⟩
    iapply Hk
    isplitl [Ho]; · iexact Ho
    isplitl [Hrow Hsv]
    · isplitl [Hrow]; · iexact Hrow
      iexact Hsv
    iexact Hl

theorem waitRChain_spec (m : (ℓ : Loc nD τ sig) → Buf (Elt F) ℓ) (K : Dev nD × Fin 63 → ℕ) (c : Dev nD) (l : List ℕ) (hl : ∀ d ∈ l, 1 ≤ d ∧ d ≤ 31)
    {α : Type} {Q : α → sProp 𝕄} {k : PUnit → Prog (TpuEff nD τ sig (Elt F) Λ₀ .tc) α} :
    iprop(records m K ∗ owesSome c 0 ∗ bigSepL l (fun d => iprop(cred (tallyAt (recvCell c d) () N) ∗ atPos ER (recvCell c d) 0 ∅ 0)))
      ⊢ iprop((iprop(owesSome c 0 ∗ bigSepL l (fun d => iprop(rowPts c d fullShare (tblFin m c) ∗ semVal (recvCell c d) 0)))
              -∗ wp frame (wpE (defs₀ (F := F)) 𝒱₀ (c : Thread nD τ) none) Set.univ (k ⟨⟩) Q)
          -∗ wp frame (wpE (defs₀ (F := F)) 𝒱₀ (c : Thread nD τ) none) Set.univ (waitRChain l k) Q) := by
  induction l with
  | nil =>
    show _ ⊢ iprop((_ -∗ wp frame (wpE (defs₀ (F := F)) 𝒱₀ (c : Thread nD τ) none) Set.univ (k ⟨⟩) Q) -∗ wp frame (wpE (defs₀ (F := F)) 𝒱₀ (c : Thread nD τ) none) Set.univ (k ⟨⟩) Q)
    iintro ⟨-, Ho, -⟩ Hk
    iapply Hk
    isplitl [Ho]; · iexact Ho
    iempintro
  | cons d l ih =>
    have hd := hl d List.mem_cons_self
    have ih' := ih (fun i h => hl i (List.mem_cons_of_mem _ h))
    show _ ⊢ iprop(_ -∗ wp frame (wpE (defs₀ (F := F)) 𝒱₀ (c : Thread nD τ) none) Set.univ
      (.op (.waitDma2 (recvS d) (rowM 0) (rowM d) (View.wordExact_bits rfl) (View.wordExact_bits rfl)) (fun _ => waitRChain l k)) Q)
    rw [bigSepL_cons_sep, bigSepL_cons_sep]
    iintro ⟨#Hrec, Ho, ⟨Hc, Hat⟩, Hrest⟩ Hk
    iapply (waitR_step m K c d hd 0 d) $$ [Hc Ho Hat]
    · isplitr; · iexact Hrec
      isplitl [Hc]; · iexact Hc
      isplitl [Ho]; · iexact Ho
      iexact Hat
    iintro ⟨Ho, Hrow, Hsv⟩
    iapply ih' $$ [Ho Hrest]
    · isplitr; · iexact Hrec
      isplitl [Ho]; · iexact Ho
      iexact Hrest
    iintro ⟨Ho, Hl⟩
    iapply Hk
    isplitl [Ho]; · iexact Ho
    isplitl [Hrow Hsv]
    · isplitl [Hrow]; · iexact Hrow
      iexact Hsv
    iexact Hl

end Cert.KernelIdeal.AllSum

end

/-- info: 'Cert.KernelIdeal.AllSum.sigChain_spec' depends on axioms: [propext, Classical.choice, Quot.sound] -/
#guard_msgs in #print axioms Cert.KernelIdeal.AllSum.sigChain_spec

/-- info: 'Cert.KernelIdeal.AllSum.sendsChain_spec' depends on axioms: [propext, Classical.choice, Quot.sound] -/
#guard_msgs in #print axioms Cert.KernelIdeal.AllSum.sendsChain_spec

/-- info: 'Cert.KernelIdeal.AllSum.waitSChain_spec' depends on axioms: [propext, Classical.choice, Quot.sound] -/
#guard_msgs in #print axioms Cert.KernelIdeal.AllSum.waitSChain_spec

/-- info: 'Cert.KernelIdeal.AllSum.waitRChain_spec' depends on axioms: [propext, Classical.choice, Quot.sound] -/
#guard_msgs in #print axioms Cert.KernelIdeal.AllSum.waitRChain_spec
-- ==== Proof.RowVals.lean ====
/-
  The rows of the 32-row table: how the whole table splits into its rows and is put back together, how the shares
  of row 0 lent to the 31 transfers recombine, and what the body's loads and stores of row 0, of the whole table
  and of the staging buffers read and write.

  Row `d` is the set of indices whose first coordinate is `d % 32`; the 32 rows are pairwise disjoint and cover the
  table, in whatever order they are listed.  A load of row 0 of a table all of whose rows are a running sum reads
  that running sum; a store of a running sum to row 0 makes row 0 equal to that table's; on row 0 the table after
  the eighth point is the final table, as the device no places before `c` is `c` itself.
-/
import proofs.«901084_g7700000000001085_dist_sum_ax0_shard0_i_m2048_n1024_v7x_i32_bf16_1_alg».proof.Proof.Data
import Idealize.ShloMosaic.Rules.PointsTo
import Idealize.ShloMosaic.Lib.Pipeline.Kit
import Idealize.ShloMosaic.Lib.Pipeline.Value
import Idealize.ShloMosaic.Lib.ValueIdx

noncomputable section

namespace Cert.KernelIdeal.AllSum

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-! ## The rectangles of the body's loads and stores -/

/-- Row 0 of the table: the rectangle of the body's loads and stores of the running sum. -/
abbrev r0 : Rect S32x1024 := Rect.unit (s := S32x1024) ![0, 0] S1x1024.size inb_S32x1024_S1x1024_0_0
/-- The whole table: the rectangle of the final load. -/
abbrev rAll : Rect S32x1024 := Rect.unit (s := S32x1024) ![0, 0] S32x1024.size inb_S32x1024_S32x1024_0_0
/-- The whole output staging buffer. -/
abbrev rOut : Rect S1x1024 := Rect.unit (s := S1x1024) ![0, 0] S1x1024.size inb_S1x1024_S1x1024_0_0
/-- The whole input staging buffer. -/
abbrev rIn : Rect S256x1024 := Rect.unit (s := S256x1024) ![0, 0] S256x1024.size inb_S256x1024_S256x1024_0_0

theorem hz00 : (![0, 0] : Fin 2 → Nat) = fun _ => 0 := funext fun a => by fin_cases a <;> rfl

/-! ## Chains of separating conjunctions over a list -/

/-- A chain over a list with one more element at the end. -/
theorem bigSepL_snoc {M : Type _} [URA M] {I : Type _} (l : List I) (x : I) (Φ : I → sProp M) :
    bigSepL (l ++ [x]) Φ = BI.sep (bigSepL l Φ) (Φ x) := by
  induction l with
  | nil => exact (equiv_iff.mp emp_sep).symm
  | cons a l ih =>
    rw [List.cons_append, bigSepL_cons, bigSepL_cons, ih]
    exact (equiv_iff.mp ⟨BI.sep_assoc, BI.sep_assoc'⟩).symm

/-- A chain is monotone in its terms. -/
theorem bigSepL_mono {M : Type _} [URA M] {I : Type _} (l : List I) (Φ Ψ : I → sProp M) (h : ∀ i, Φ i ⊢ Ψ i) :
    bigSepL l Φ ⊢ bigSepL l Ψ := by
  induction l with
  | nil => exact .rfl
  | cons a l ih => rw [bigSepL_cons, bigSepL_cons]; exact BI.sep_mono (h a) ih

/-! ## Membership in a row -/

/-- Row `d` is the set of indices whose first coordinate is `d % 32`. -/
theorem mem_row (d : ℕ) (i : S32x1024.Idx) :
    i ∈ (rowM d : Memref sig .tc .vmem S1x1024 .f32).view.set ↔ (i 0).val = d % 32 := by
  have hs : (rowM d : Memref sig .tc .vmem S1x1024 .f32).view.set
      = (Rect.unit (s := S32x1024) ![d % 32, 0] S1x1024.size (row_inb d)).set := View.set_slice_whole cc0_scratch0 _
  have hm : i ∈ (rowM d : Memref sig .tc .vmem S1x1024 .f32).view.set
      ↔ i ∈ (Rect.unit (s := S32x1024) ![d % 32, 0] S1x1024.size (row_inb d)).set :=
    (congrArg (fun S : Finset S32x1024.Idx => i ∈ S) hs).to_iff
  refine hm.trans ?_
  rw [Rect.mem_set_unit, Fin.forall_fin_two]
  have h1 : (i 1).val < 1024 := (i 1).isLt
  constructor
  · rintro ⟨⟨ha, hb⟩, -⟩
    have ha' : d % 32 ≤ (i 0).val := ha
    have hb' : (i 0).val < d % 32 + 1 := hb
    omega
  · intro h
    refine ⟨⟨?_, ?_⟩, ⟨?_, ?_⟩⟩
    · show d % 32 ≤ (i 0).val; omega
    · show (i 0).val < d % 32 + 1; omega
    · show 0 ≤ (i 1).val; omega
    · show (i 1).val < 0 + 1024; omega

/-- The whole table is the chain of its rows `g t`, `t` in a list `l` without repetition, as soon as `t ↦ g t % 32` is
    one to one on `l` and reaches every row. -/
theorem rows_eq (c : Dev nD) (f : Tbl (F := F)) (g : ℕ → ℕ) (l : List ℕ) (hl : l.Nodup)
    (hinj : ∀ t ∈ l, ∀ t' ∈ l, t ≠ t' → g t % 32 ≠ g t' % 32)
    (hsur : ∀ r < 32, ∃ t ∈ l, g t % 32 = r) :
    (scrWhole c f : sProp 𝕄) = bigSepL l (fun t => rowPts c (g t) fullShare f) := by
  unfold scrWhole
  let K : ℕ → Finset (Idx ((c : Thread nD τ).loc cc0_scratch0)) :=
    fun t => (rowM (g t) : Memref sig .tc .vmem S1x1024 .f32).view.set
  have hK : ∀ (t : ℕ) (i : S32x1024.Idx), i ∈ K t ↔ (i 0).val = g t % 32 := fun t i => mem_row (g t) i
  have hU : l.toFinset.biUnion K = Finset.univ := by
    refine Finset.eq_univ_of_forall ?_
    intro (i : S32x1024.Idx)
    obtain ⟨t, ht, e⟩ := hsur (i 0).val (i 0).isLt
    exact Finset.mem_biUnion.mpr ⟨t, List.mem_toFinset.mpr ht, (hK t i).mpr e.symm⟩
  have hD : ∀ t ∈ l.toFinset, ∀ t' ∈ l.toFinset, t ≠ t' → Disjoint (K t) (K t') := by
    intro t ht t' ht' hne
    rw [Finset.disjoint_left]
    intro (i : S32x1024.Idx) h1 h2
    exact hinj t (List.mem_toFinset.mp ht) t' (List.mem_toFinset.mp ht') hne
      (((hK t i).mp h1).symm.trans ((hK t' i).mp h2))
  have h1 : ((c : Thread nD τ).loc cc0_scratch0 ↦[l.toFinset.biUnion K]{fullShare} f : sProp 𝕄)
      = bigSep l.toFinset fun t => ((c : Thread nD τ).loc cc0_scratch0 ↦[K t]{fullShare} f) :=
    pointsTo_biUnion l.toFinset K hD
  rw [hU, bigSep_eq_bigSepL l hl] at h1
  exact h1

/-! ## The list of the 32 rows -/

theorem mem_rows (t : ℕ) : t ∈ 0 :: ds ↔ t < 32 := by
  rw [List.mem_cons, List.mem_range'_1]; omega

theorem nodup_rows : (0 :: ds).Nodup :=
  List.nodup_cons.mpr ⟨fun h => by rw [List.mem_range'_1] at h; omega, List.nodup_range' (step := 1)⟩

/-! ## The table and its rows -/

/-- The whole table splits into row 0 and the rows `32 - j`, `j = 1 … 31`, each at some contents. -/
theorem split_rows (c : Dev nD) (f : Tbl (F := F)) :
    scrWhole c f ⊢ (iprop(rowPts c 0 fullShare f ∗ bigSepL ds (fun j => iprop(∃ f', rowPts c (32 - j) fullShare f'))) : sProp 𝕄) := by
  rw [rows_eq c f (fun t => 32 - t) (0 :: ds) nodup_rows
    (fun t ht t' ht' hne => by
      have h1 := (mem_rows t).mp ht; have h2 := (mem_rows t').mp ht'
      show (32 - t) % 32 ≠ (32 - t') % 32; omega)
    (fun r hr => ⟨(32 - r) % 32, (mem_rows _).mpr (Nat.mod_lt _ (by decide)), by
      show (32 - (32 - r) % 32) % 32 = r; omega⟩), bigSepL_cons]
  exact BI.sep_mono (BI.Entails.refl _)
    (bigSepL_mono ds (fun j => rowPts c (32 - j) fullShare f) (fun j => iprop(∃ f', rowPts c (32 - j) fullShare f'))
      fun j => exists_intro (PROP := sProp 𝕄) (α := Buf (Elt F) ((rowM (32 - j)).view.loc (c : Thread nD τ)))
        (Φ := fun f' => rowPts c (32 - j) fullShare f') f)

/-- Row 0 and the rows `d = 1 … 31`, all at the contents `T`, are the whole table at `T`. -/
theorem join_rows (c : Dev nD) (T : Tbl (F := F)) :
    (iprop(rowPts c 0 fullShare T ∗ bigSepL ds (fun d => rowPts c d fullShare T)) : sProp 𝕄) ⊢ scrWhole c T := by
  rw [rows_eq c T (fun t => t) (0 :: ds) nodup_rows
    (fun t ht t' ht' hne => by
      have h1 := (mem_rows t).mp ht; have h2 := (mem_rows t').mp ht'
      show t % 32 ≠ t' % 32; omega)
    (fun r hr => ⟨r, (mem_rows _).mpr hr, by show r % 32 = r; omega⟩), bigSepL_cons]
  exact BI.Entails.refl _

/-! ## The shares of row 0 -/

/-- The remainder after `n` shares were split off, and those `n` shares, are the full share of row 0. -/
theorem join_shares_upto (c : Dev nD) (T : Tbl (F := F)) (n : ℕ) :
    (iprop(rowPts c 0 (remSh n) T ∗ bigSepL (List.range' 1 n) (fun d => rowPts c 0 (qs d) T)) : sProp 𝕄)
      ⊢ rowPts c 0 fullShare T := by
  induction n with
  | zero => exact BI.sep_emp_elim
  | succ n ih =>
    have hs : (rowPts c 0 (remSh n) T : sProp 𝕄)
        ⊣⊢ iprop(rowPts c 0 (qs (n + 1)) T ∗ rowPts c 0 (remSh (n + 1)) T) := pointsTo_share (remSh_split n)
    rw [List.range'_concat, bigSepL_snoc, show 1 + 1 * n = n + 1 by omega]
    refine BI.Entails.trans ?_ ih
    refine (BI.sep_mono (BI.Entails.refl _) BI.sep_comm).trans ?_
    refine BI.sep_assoc'.trans ?_
    exact BI.sep_mono (BI.sep_comm.trans hs.2) (BI.Entails.refl _)

/-- The remainder after 31 shares were split off, and those 31 shares, are the full share of row 0. -/
theorem join_shares (c : Dev nD) (T : Tbl (F := F)) :
    (iprop(rowPts c 0 (remSh 31) T ∗ bigSepL ds (fun d => rowPts c 0 (qs d) T)) : sProp 𝕄) ⊢ rowPts c 0 fullShare T :=
  join_shares_upto c T 31

/-! ## The elements a load or store of row 0 goes through -/

/-- A store through the rectangle of row 0 goes through row 0's elements. -/
theorem row0_access_set : ((scrM.access r0 : View sig .tc _ _ _).set) = (rowM 0 : Memref sig .tc .vmem S1x1024 .f32).view.set := by
  rfl

/-- The side condition of a store to row 0 while holding row 0. -/
theorem row0_store_sub : (scrM.access r0 : View sig .tc _ _ _).setOn Finset.univ ⊆ (rowM 0 : Memref sig .tc .vmem S1x1024 .f32).view.set := by
  rw [View.setOn_univ, row0_access_set]
  exact Finset.Subset.refl _

/-- The side condition of a load of row 0 while holding row 0. -/
theorem row0_load_sub : (scrM : Memref sig .tc .vmem S32x1024 .f32).view.setOn r0.toLoadRect.set ⊆ (rowM 0 : Memref sig .tc .vmem S1x1024 .f32).view.set := by
  rw [← row0_access_set, View.set_slice]
  exact Finset.Subset.refl _

/-! ## What the loads read and the stores leave -/

/-- A load of row 0 of the accumulating table reads the running sum. -/
theorem read_row0 (m : (ℓ : Loc nD τ sig) → Buf (Elt F) ℓ) (c : Dev nD) (n : ℕ) :
    (scrM : Memref sig .tc .vmem S32x1024 .f32).view.readAt (Elt F) r0.toLoadRect (tblAcc m c n) = accAt (xb m) c n := by
  funext x
  show accAt (xb m) c n (ix2 (0 : Fin 1) ((r0.toLoadRect.idx x) 1)) = accAt (xb m) c n x
  congr 1
  funext a
  match a with
  | ⟨0, _⟩ => apply Fin.ext; have h : (x 0).val < 1 := (x 0).isLt; show 0 = (x 0).val; omega
  | ⟨1, _⟩ => apply Fin.ext; show 0 + 1 * (x 1).val = (x 1).val; omega

/-- After the running sum is stored to row 0, row 0 is that of the accumulating table. -/
theorem write_row0 (m : (ℓ : Loc nD τ sig) → Buf (Elt F) ℓ) (c : Dev nD) (n : ℕ) (f : Tbl (F := F)) :
    rowPts c 0 fullShare ((scrM.access r0 : View sig .tc _ _ _).write (Elt F) f (accAt (xb m) c n) Finset.univ)
      = rowPts c 0 fullShare (tblAcc m c n) := by
  unfold rowPts
  refine pointsTo_congr fun i hi => ?_
  have hi' : i ∈ (scrM.access r0 : View sig .tc _ _ _).set := hi
  obtain ⟨x, rfl⟩ := View.exists_emb_of_mem_set (scrM.access r0 : View sig .tc _ _ _) hi'
  rw [View.write_emb_of_mem _ _ (Finset.mem_univ x)]
  show accAt (xb m) c n x = accAt (xb m) c n (ix2 (0 : Fin 1) ((r0.toLoadRect.idx x) 1))
  congr 1
  funext a
  match a with
  | ⟨0, _⟩ => apply Fin.ext; have h : (x 0).val < 1 := (x 0).isLt; show (x 0).val = 0; omega
  | ⟨1, _⟩ => apply Fin.ext; show (x 1).val = 0 + 1 * (x 1).val; omega

/-- On row 0 the table after the eighth point is the final table. -/
theorem acc_fin (m : (ℓ : Loc nD τ sig) → Buf (Elt F) ℓ) (c : Dev nD) (q : PosShare TreeShare) :
    rowPts c 0 q (tblAcc m c 7) = rowPts c 0 q (tblFin m c) := by
  unfold rowPts
  refine pointsTo_congr ?_
  intro (i : S32x1024.Idx) hi
  have hi' : i ∈ r0.set := by
    have h1 : i ∈ (scrM.access r0 : View sig .tc _ _ _).set := hi
    rwa [View.set_slice_whole] at h1
  have h0 : (i 0).val = 0 := by
    have h2 := (Rect.mem_set_unit.mp hi') 0
    have h3 : ((i 0 : Fin 32) : ℕ) < 0 + 1 := h2.2
    omega
  show accAt (xb m) c 7 (ix2 (0 : Fin 1) (i 1)) = part (xb m) (back c (i 0).val) (ix2 (0 : Fin 1) (i 1))
  rw [h0, back_zero]
  rfl

/-- The final load of the whole table reads the final table. -/
theorem read_all (m : (ℓ : Loc nD τ sig) → Buf (Elt F) ℓ) (c : Dev nD) :
    (scrM : Memref sig .tc .vmem S32x1024 .f32).view.readAt (Elt F) rAll.toLoadRect (tblFin m c) = table (xb m) c := by
  exact Memref.readAt_unit_zero (Elt F) cc0_scratch0 hz00 _ _

/-! ## The staging buffers -/

/-- A store of the whole output staging buffer leaves what is stored. -/
theorem write_out (f w : (cc0_stg1_0 : Ref sig .tc).ty.Contents (Elt F)) :
    ((Memref.whole cc0_stg1_0 : Memref sig .tc .vmem S1x1024 .f32).access rOut : View sig .tc _ _ _).write (Elt F) f w Finset.univ = w := by
  exact Memref.write_access_unit_zero_univ (Elt F) cc0_stg1_0 hz00 _ f w

/-- A load of the whole output staging buffer reads its contents. -/
theorem read_out (f : (cc0_stg1_0 : Ref sig .tc).ty.Contents (Elt F)) :
    (Memref.whole cc0_stg1_0 : Memref sig .tc .vmem S1x1024 .f32).view.readAt (Elt F) rOut.toLoadRect f = f := by
  exact Memref.readAt_unit_zero (Elt F) cc0_stg1_0 hz00 _ f

/-- A load of the whole of either input staging buffer reads its contents. -/
theorem read_in0 (f : (cc0_stg0_0 : Ref sig .tc).ty.Contents (Elt F)) :
    (Memref.whole cc0_stg0_0 : Memref sig .tc .vmem S256x1024 .f32).view.readAt (Elt F) rIn.toLoadRect f = f := by
  exact Memref.readAt_unit_zero (Elt F) cc0_stg0_0 hz00 _ f
theorem read_in1 (f : (cc0_stg0_1 : Ref sig .tc).ty.Contents (Elt F)) :
    (Memref.whole cc0_stg0_1 : Memref sig .tc .vmem S256x1024 .f32).view.readAt (Elt F) rIn.toLoadRect f = f := by
  exact Memref.readAt_unit_zero (Elt F) cc0_stg0_1 hz00 _ f

/-! ## The axioms these rest on -/

/-- info: 'Cert.KernelIdeal.AllSum.split_rows' depends on axioms: [propext, Classical.choice, Quot.sound] -/
#guard_msgs in #print axioms split_rows
/-- info: 'Cert.KernelIdeal.AllSum.join_rows' depends on axioms: [propext, Classical.choice, Quot.sound] -/
#guard_msgs in #print axioms join_rows
/-- info: 'Cert.KernelIdeal.AllSum.join_shares' depends on axioms: [propext, Classical.choice, Quot.sound] -/
#guard_msgs in #print axioms join_shares
/-- info: 'Cert.KernelIdeal.AllSum.row0_load_sub' depends on axioms: [propext, Classical.choice, Quot.sound] -/
#guard_msgs in #print axioms row0_load_sub
/-- info: 'Cert.KernelIdeal.AllSum.read_row0' depends on axioms: [propext, Classical.choice, Quot.sound] -/
#guard_msgs in #print axioms read_row0
/-- info: 'Cert.KernelIdeal.AllSum.write_row0' depends on axioms: [propext, Classical.choice, Quot.sound] -/
#guard_msgs in #print axioms write_row0
/-- info: 'Cert.KernelIdeal.AllSum.acc_fin' depends on axioms: [propext, Classical.choice, Quot.sound] -/
#guard_msgs in #print axioms acc_fin
/-- info: 'Cert.KernelIdeal.AllSum.read_all' depends on axioms: [propext, Classical.choice, Quot.sound] -/
#guard_msgs in #print axioms read_all
/-- info: 'Cert.KernelIdeal.AllSum.write_out' depends on axioms: [propext, Classical.choice, Quot.sound] -/
#guard_msgs in #print axioms write_out
/-- info: 'Cert.KernelIdeal.AllSum.read_in1' depends on axioms: [propext, Classical.choice, Quot.sound] -/
#guard_msgs in #print axioms read_in1

end Cert.KernelIdeal.AllSum

end
-- ==== Proof.AccBlock.lean ====
/-
  The accumulation block of the body: the running sum in row 0 of the table is loaded, the next block's column sums
  are added to it, and the sum is stored back to row 0.  One rule for a load of row 0, one for a store to it, and the
  rule of the whole block: from row 0 at the running sum after point `n` to row 0 at the running sum after point `n + 1`,
  the input staging buffer as it was.
-/
import proofs.«901084_g7700000000001085_dist_sum_ax0_shard0_i_m2048_n1024_v7x_i32_bf16_1_alg».proof.Proof.Chains
import proofs.«901084_g7700000000001085_dist_sum_ax0_shard0_i_m2048_n1024_v7x_i32_bf16_1_alg».proof.Proof.RowVals
import Idealize.ShloMosaic.Rules.Step
import Idealize.ShloMosaic.Lib.Memref
import Idealize.ShloMosaic.Lib.Tactic

noncomputable section

namespace Cert.KernelIdeal.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-- A load of row 0 at the head of a program, holding a share of row 0. -/
theorem load_row0 (c : Dev nD) (q : PosShare TreeShare) (f : Tbl (F := F))
    {hl : (scrM : Memref sig .tc .vmem S32x1024 .f32).view.LoadsAt r0.toLoadRect}
    {α : Type} {Q : α → sProp 𝕄} {k : (r0.toLoadRect.shape.Idx → Elt F .f32) → Prog (TpuEff nD τ sig (Elt F) Λ₀ .tc) α} :
    (rowPts c 0 q f : sProp 𝕄)
      ⊢ iprop((rowPts c 0 q f -∗ wp frame (wpE (defs₀ (F := F)) 𝒱₀ (c : Thread nD τ) none) Set.univ (k (scrM.view.readAt (Elt F) r0.toLoadRect f)) Q)
          -∗ wp frame (wpE (defs₀ (F := F)) 𝒱₀ (c : Thread nD τ) none) Set.univ (.op (.load scrM r0.toLoadRect hl) k) Q) :=
  wp_load 𝒱₀ (c : Thread nD τ) none Set.univ (m := scrM) row0_load_sub

/-- A store to row 0 at the head of a program, holding row 0. -/
theorem store_row0 (c : Dev nD) (f : Tbl (F := F)) (w : r0.shape.Idx → Elt F .f32)
    {hx : (scrM.access r0 : View sig .tc _ _ _).Stores Finset.univ} {hm : (Finset.univ : Finset r0.shape.Idx) = Finset.univ ∨ ∀ a, r0.stride a = 1}
    {α : Type} {Q : α → sProp 𝕄} {k : PUnit → Prog (TpuEff nD τ sig (Elt F) Λ₀ .tc) α} :
    (rowPts c 0 fullShare f : sProp 𝕄)
      ⊢ iprop((rowPts c 0 fullShare ((scrM.access r0 : View sig .tc _ _ _).write (Elt F) f w Finset.univ)
              -∗ wp frame (wpE (defs₀ (F := F)) 𝒱₀ (c : Thread nD τ) none) Set.univ (k ⟨⟩) Q)
          -∗ wp frame (wpE (defs₀ (F := F)) 𝒱₀ (c : Thread nD τ) none) Set.univ (.op (.store scrM r0 w Finset.univ hx hm) k) Q) :=
  wp_store 𝒱₀ (c : Thread nD τ) none Set.univ (m := scrM) (r := r0) (Mk := Finset.univ) row0_store_sub

/-- The accumulation block at the head of a program: holding row 0 at the running sum after point `n` and elements of the
    input staging buffer that include the block read, which reads as block `n + 1`, the three loads and the store leave
    row 0 at the running sum after point `n + 1` and the staging buffer as it was. -/
theorem acc_block (m : (ℓ : Loc nD τ sig) → Buf (Elt F) ℓ) (c : Dev nD) (n : ℕ)
    (xM : Memref sig .tc .vmem S256x1024 .f32)
    (S : Finset (Idx (xM.view.loc (c : Thread nD τ)))) (q : PosShare TreeShare) (f : Buf (Elt F) (xM.view.loc (c : Thread nD τ)))
    (hS : xM.view.setOn rIn.toLoadRect.set ⊆ S)
    (hX : xM.view.readAt (Elt F) rIn.toLoadRect f = xb m c (n + 1))
    {α : Type} {Q : α → sProp 𝕄} {k : PUnit → Prog (TpuEff nD τ sig (Elt F) Λ₀ .tc) α} :
    iprop(rowPts c 0 fullShare (tblAcc m c n) ∗ (xM.view.loc (c : Thread nD τ) ↦[S]{q} f)
        ∗ (iprop(rowPts c 0 fullShare (tblAcc m c (n + 1)) ∗ (xM.view.loc (c : Thread nD τ) ↦[S]{q} f))
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.load scrM r0.toLoadRect (View.loadsAt_vmem h_S1x1024)) fun v13 =>
           .op (.load xM rIn.toLoadRect (View.loadsAt_vmem h_S256x1024)) fun v15 =>
           .op (.load scrM r0.toLoadRect (View.loadsAt_vmem h_S1x1024)) fun v19 =>
           .op (.store scrM r0 (k0_pay2 v13 v15) Finset.univ (View.stores_vmem_bits_univ h_S1x1024 rfl) (.inl rfl)) k) Q := by
  iintro ⟨Hrow, Hx, Hk⟩
  iapply (load_row0 c fullShare (tblAcc m c n)) $$ Hrow
  iintro Hrow
  iapply (wp_load 𝒱₀ (c : Thread nD τ) none Set.univ (m := xM) hS) $$ Hx
  iintro Hx
  iapply (load_row0 c fullShare (tblAcc m c n)) $$ Hrow
  iintro Hrow
  iapply (store_row0 c (tblAcc m c n) _) $$ Hrow
  iintro Hrow
  iapply Hk
  isplitl [Hrow]
  · rw [read_row0, hX, show k0_pay2 (accAt (xb m) c n) (xb m c (n + 1)) = accAt (xb m) c (n + 1) from rfl]
    iapply (Entails.of_eq (write_row0 m c (n + 1) (tblAcc m c n))) $$ Hrow
  · iexact Hx

/-- The same for the first input staging buffer held whole at contents `X`, block `n + 1`. -/
theorem acc_block0 (m : (ℓ : Loc nD τ sig) → Buf (Elt F) ℓ) (c : Dev nD) (n : ℕ)
    (X : (cc0_stg0_0 : Ref sig .tc).ty.Contents (Elt F)) (hX : X = xb m c (n + 1))
    {α : Type} {Q : α → sProp 𝕄} {k : PUnit → Prog (TpuEff nD τ sig (Elt F) Λ₀ .tc) α} :
    iprop(rowPts c 0 fullShare (tblAcc m c n) ∗ (((c : Thread nD τ).loc cc0_stg0_0) ↦{fullShare} X)
        ∗ (iprop(rowPts c 0 fullShare (tblAcc m c (n + 1)) ∗ (((c : Thread nD τ).loc cc0_stg0_0) ↦{fullShare} X))
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.load scrM r0.toLoadRect (View.loadsAt_vmem h_S1x1024)) fun v13 =>
           .op (.load (Memref.whole cc0_stg0_0) rIn.toLoadRect (View.loadsAt_vmem h_S256x1024)) fun v15 =>
           .op (.load scrM r0.toLoadRect (View.loadsAt_vmem h_S1x1024)) fun v19 =>
           .op (.store scrM r0 (k0_pay2 v13 v15) Finset.univ (View.stores_vmem_bits_univ h_S1x1024 rfl) (.inl rfl)) k) Q := by
  unfold rowPts
  iintro ⟨Hrow, Hx, Hk⟩
  sl_exec
  sl_step
  sl_exec
  iapply Hk
  isplitl [Hrow]
  · unfold acc_block0.sl.Hrow_w1
    rw [read_row0, read_in0, hX, show k0_pay2 (accAt (xb m) c n) (xb m c (n + 1)) = accAt (xb m) c (n + 1) from rfl]
    have h := write_row0 m c (n + 1) (tblAcc m c n)
    unfold rowPts at h
    iapply (Entails.of_eq h) $$ Hrow
  · iexact Hx

/-- The same for the second input staging buffer. -/
theorem acc_block1 (m : (ℓ : Loc nD τ sig) → Buf (Elt F) ℓ) (c : Dev nD) (n : ℕ)
    (X : (cc0_stg0_1 : Ref sig .tc).ty.Contents (Elt F)) (hX : X = xb m c (n + 1))
    {α : Type} {Q : α → sProp 𝕄} {k : PUnit → Prog (TpuEff nD τ sig (Elt F) Λ₀ .tc) α} :
    iprop(rowPts c 0 fullShare (tblAcc m c n) ∗ (((c : Thread nD τ).loc cc0_stg0_1) ↦{fullShare} X)
        ∗ (iprop(rowPts c 0 fullShare (tblAcc m c (n + 1)) ∗ (((c : Thread nD τ).loc cc0_stg0_1) ↦{fullShare} X))
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.load scrM r0.toLoadRect (View.loadsAt_vmem h_S1x1024)) fun v13 =>
           .op (.load (Memref.whole cc0_stg0_1) rIn.toLoadRect (View.loadsAt_vmem h_S256x1024)) fun v15 =>
           .op (.load scrM r0.toLoadRect (View.loadsAt_vmem h_S1x1024)) fun v19 =>
           .op (.store scrM r0 (k0_pay2 v13 v15) Finset.univ (View.stores_vmem_bits_univ h_S1x1024 rfl) (.inl rfl)) k) Q := by
  unfold rowPts
  iintro ⟨Hrow, Hx, Hk⟩
  sl_exec
  sl_step
  sl_exec
  iapply Hk
  isplitl [Hrow]
  · unfold acc_block1.sl.Hrow_w1
    rw [read_row0, read_in1, hX, show k0_pay2 (accAt (xb m) c n) (xb m c (n + 1)) = accAt (xb m) c (n + 1) from rfl]
    have h := write_row0 m c (n + 1) (tblAcc m c n)
    unfold rowPts at h
    iapply (Entails.of_eq h) $$ Hrow
  · iexact Hx

/-- info: 'Cert.KernelIdeal.AllSum.acc_block' depends on axioms: [propext, Classical.choice, Quot.sound] -/
#guard_msgs in #print axioms acc_block
/-- info: 'Cert.KernelIdeal.AllSum.acc_block0' depends on axioms: [propext, Classical.choice, Quot.sound] -/
#guard_msgs in #print axioms acc_block0
/-- info: 'Cert.KernelIdeal.AllSum.acc_block1' depends on axioms: [propext, Classical.choice, Quot.sound] -/
#guard_msgs in #print axioms acc_block1

end Cert.KernelIdeal.AllSum

end
-- ==== Proof.BodyFirst.lean ====
/-
  The body at grid point 0.

  At the first grid point a device sends a unit to the barrier cell of each of the 31 other devices, giving away with
  the signal to the device `j` places on row `32 - j` of its own table, the row that device will write; it then reads
  its first block and stores the block's column sums to row 0 of its table.  From the whole table at any contents and
  the 31 signal duties' tokens, it is left holding row 0 at the first running sum and owing only the receive credits
  of its 31 transfers; both staging buffers are as it found them.
-/
import proofs.«901084_g7700000000001085_dist_sum_ax0_shard0_i_m2048_n1024_v7x_i32_bf16_1_alg».proof.Proof.Chains
import proofs.«901084_g7700000000001085_dist_sum_ax0_shard0_i_m2048_n1024_v7x_i32_bf16_1_alg».proof.Proof.RowVals
import proofs.«901084_g7700000000001085_dist_sum_ax0_shard0_i_m2048_n1024_v7x_i32_bf16_1_alg».proof.Proof.AccBlock

noncomputable section

namespace Cert.KernelIdeal.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

namespace BodyFirst

/-- The body at grid point 0, as a program: the device reads its index, sends the 31 signals in order, loads the input
    block, loads row 0 of the table, and stores the block's column sums to row 0. -/
theorem prog0 :
    cc0_body (F := F) (grid0.coords t0_0) (Memref.whole cc0_stg0_0) (Memref.isWhole_whole _) (Memref.whole cc0_stg1_0) (Memref.isWhole_whole _)
        (Memref.whole cc0_scratch0) (Memref.isWhole_whole _) cc0_scratch1 cc0_scratch2
      = .op .deviceId fun d0 => sigChain (sigDev d0) ds (fun (_ : PUnit.{1}) =>
          .op (.load (Memref.whole cc0_stg0_0) rIn.toLoadRect (View.loadsAt_vmem h_S256x1024)) fun v137 =>
          .op (.load scrM r0.toLoadRect (View.loadsAt_vmem h_S1x1024)) fun v140 =>
          .op (.store scrM r0 (k0_pay1 v137) Finset.univ (View.stores_vmem_bits_univ h_S1x1024 rfl) (.inl rfl)) fun _ => .ret ⟨⟩) := rfl

end BodyFirst
open BodyFirst

/-- The body obligation at grid point 0: from the table whole at any contents, the signal duties' tokens and the
    ghost state, owing the 31 units and the 31 receive credits, the 31 signals pay the units (each with the row its
    addressee will write), and the store leaves row 0 at the column sums of block 0. -/
theorem body_first (m : (ℓ : Loc nD τ sig) → Buf (Elt F) ℓ) (c : Dev nD) : ObAt m c t0_0 := by
  unfold ObAt
  rw [Gen.bigSep_W0, Gen.bigSep_W0]
  show iprop(Φstart m c ∗ (dats m 0 c).owesAt () t0_0.castSucc
        ∗ (∃ d, owns (c : Thread nD τ) (Memref.whole cc0_stg0_0) fullShare ((dats m 0 c).before (0 : Fin 2) t0_0 d))
        ∗ (∃ d, owns (c : Thread nD τ) (Memref.whole cc0_stg1_0) fullShare ((dats m 0 c).before (1 : Fin 2) t0_0 d)))
     ⊢ wp frame (wpE (defs₀ (F := F)) 𝒱₀ (c : Thread nD τ) none) Set.univ
         (cc0_body (grid0.coords t0_0) (Memref.whole cc0_stg0_0) (Memref.isWhole_whole _) (Memref.whole cc0_stg1_0) (Memref.isWhole_whole _)
            (Memref.whole cc0_scratch0) (Memref.isWhole_whole _) cc0_scratch1 cc0_scratch2)
         fun _ => iprop(Φmid m c 1 ∗ (dats m 0 c).owesAt () t0_0.succ
            ∗ owns (c : Thread nD τ) (Memref.whole cc0_stg0_0) fullShare (iblk m c 0 t0_0)
            ∗ (∃ d, owns (c : Thread nD τ) (Memref.whole cc0_stg1_0) fullShare ((dats m 0 c).before (1 : Fin 2) t0_0 d)))
  simp only [owns_whole_eq]
  rw [prog0]
  simp only [wp_deviceId]
  have hds : ∀ j ∈ ds, 1 ≤ j ∧ j ≤ 31 := by
    intro j hj; rw [List.mem_range'_1] at hj; omega
  unfold Φstart ghost Dat.owesAt Pipeline.owesWithin
  iintro ⟨⟨⟨%K, #Hrec, Hcar⟩, Htok, ⟨%f0, Hscr⟩⟩, ⟨%W, %hW, HO⟩, ⟨%d0, %g0, %hg0, Hx⟩, Hout⟩
  have hx : g0 = iblk m c 0 t0_0 := by rw [hg0]; unfold Dat.before; rw [if_pos (Gen.fetch0_0 t0_0)]; rfl
  subst hx
  ihave Hrows := (split_rows c f0) $$ Hscr
  icases Hrows with ⟨Hrow0, Hrows⟩
  iapply (sigChain_spec m K c (sigDev c) ds hds (fun j hj => sigDev_eq c j (hds j hj)) (O₁ c)) $$ [HO Htok Hrows]
  · isplitr; · iexact Hrec
    isplitl [HO]; · unfold owesSome; iexists W; iexact HO
    isplitl [Htok]; · iexact Htok
    iexact Hrows
  iintro HO
  -- the load of the input block
  iapply (wp_load 𝒱₀ (c : Thread nD τ) none Set.univ (m := (Memref.whole cc0_stg0_0 : Memref sig .tc .vmem S256x1024 .f32)) (Finset.subset_univ _)) $$ Hx
  iintro Hx
  -- the load of row 0 (its value is not used) and the store of the block's column sums to row 0
  iapply (load_row0 c fullShare f0) $$ Hrow0
  iintro Hrow0
  iapply (store_row0 c f0 _) $$ Hrow0
  iintro Hrow0
  have hrow : (rowPts c 0 fullShare ((scrM.access r0 : View sig .tc _ _ _).write (Elt F) f0
        (k0_pay1 ((Memref.whole cc0_stg0_0 : Memref sig .tc .vmem S256x1024 .f32).view.readAt (Elt F) rIn.toLoadRect (iblk m c 0 t0_0))) Finset.univ) : sProp 𝕄)
      = rowPts c 0 fullShare (tblAcc m c 0) := by
    rw [read_in0, show k0_pay1 (iblk m c 0 t0_0) = accAt (xb m) c 0 from rfl, write_row0]
  ihave Hrow := (Entails.of_eq hrow) $$ Hrow0
  iapply (le_wp_ret _ _)
  -- the post: the ghost state as it was, row 0 at the first running sum, the transfers' credits still owed, both
  -- staging buffers as found
  unfold Φmid ghost
  isplitl [Hcar Hrow]
  · isplitl [Hcar]
    · iexists K; isplitr; · iexact Hrec
      iexact Hcar
    · iexact Hrow
  isplitl [HO]
  · unfold owesSome
    icases HO with ⟨%W', HO⟩
    iexists W'; isplitr; · ipureintro; exact fun _ _ => Or.inl trivial
    iexact HO
  isplitl [Hx]
  · iexists _; isplitr; · (ipureintro; rfl)
    iexact Hx
  iexact Hout

/-- info: 'Cert.KernelIdeal.AllSum.body_first' depends on axioms: [propext, Classical.choice, Quot.sound] -/
#guard_msgs in #print axioms body_first

end Cert.KernelIdeal.AllSum

end
-- ==== Proof.BodyMid.lean ====
/-
  The body at the grid points 1 … 6: only the accumulation block runs there, so the obligation carries row 0 of the
  table from the running sum after the previous point to the running sum after this one; what the device owes, its
  ghost state and the output staging buffer are handed on as they were found, and the input staging buffer is left
  holding the block it was fetched with.
-/
import proofs.«901084_g7700000000001085_dist_sum_ax0_shard0_i_m2048_n1024_v7x_i32_bf16_1_alg».proof.Proof.AccBlock

noncomputable section

namespace Cert.KernelIdeal.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-! ## The printed conditions at the points 1 … 6 -/

namespace BodyMid

theorem cond1_mid : ∀ t : Fin grid0.N, 1 ≤ t.val ∧ t.val ≤ 6 → ¬ k0_cond1 (grid0.coords t) = 1#1 := by decide
theorem cond2_mid : ∀ t : Fin grid0.N, 1 ≤ t.val ∧ t.val ≤ 6 →
    Scalar.cmpi .ne (Scalar.extui (Scalar.cmpi .ne (BitVec.ofNat 32 ((grid0.coords t) 0).val) 0#32)) 0#32 = 1#1 := by decide
theorem cond3_mid : ∀ t : Fin grid0.N, 1 ≤ t.val ∧ t.val ≤ 6 → ¬ k0_cond3 (grid0.coords t) = 1#1 := by decide

end BodyMid
open BodyMid

/-! ## The obligation -/

/-- At a point `t` with `1 ≤ t ≤ 6` the body is the accumulation block: row 0 goes from the running sum after point
    `t - 1` to the running sum after point `t`, all else unchanged. -/
theorem body_mid (m : (ℓ : Loc nD τ sig) → Buf (Elt F) ℓ) (c : Dev nD) (t : Fin cfg0.N) (ht : 1 ≤ t.val ∧ t.val ≤ 6) : ObAt m c t := by
  obtain ⟨n, hn⟩ : ∃ n, t.val = n + 1 := ⟨t.val - 1, by omega⟩
  have hΦ0 : (dats m 0 c).Φ t.castSucc = iprop((∃ K, ghost m K c) ∗ rowPts c 0 fullShare (tblAcc m c n)) := by
    show (if t.castSucc.val = 0 then Φstart m c else if t.castSucc.val = 8 then Φend m c else Φmid m c t.castSucc.val) = _
    rw [if_neg (by simp only [Fin.coe_castSucc]; omega), if_neg (by simp only [Fin.coe_castSucc]; omega), Fin.coe_castSucc, hn]; rfl
  have hΦ1 : (dats m 0 c).Φ t.succ = iprop((∃ K, ghost m K c) ∗ rowPts c 0 fullShare (tblAcc m c (n + 1))) := by
    show (if t.succ.val = 0 then Φstart m c else if t.succ.val = 8 then Φend m c else Φmid m c t.succ.val) = _
    rw [if_neg (by simp only [Fin.val_succ]; omega), if_neg (by simp only [Fin.val_succ]; omega), Fin.val_succ, hn]; rfl
  have hO0 : (dats m 0 c).owed t.castSucc = O₁ c := by
    show (if t.castSucc.val = 0 then O₀ c else if t.castSucc.val = 8 then 0 else O₁ c) = _
    rw [if_neg (by simp only [Fin.coe_castSucc]; omega), if_neg (by simp only [Fin.coe_castSucc]; omega)]
  have hO1 : (dats m 0 c).owed t.succ = O₁ c := by
    show (if t.succ.val = 0 then O₀ c else if t.succ.val = 8 then 0 else O₁ c) = _
    rw [if_neg (by simp only [Fin.val_succ]; omega), if_neg (by simp only [Fin.val_succ]; omega)]
  have hidle : idle0 (1 : Fin 2) (grid0.coords t) = true := by
    show (!(k0_cond3 (grid0.coords t) == 1#1)) = true
    simp only [Bool.not_eq_true', beq_eq_false_iff_ne, ne_eq]; exact cond3_mid t ht
  have hfl : (cfg0.win (1 : Fin 2)).flush t = false :=
    Bool.eq_false_iff.mpr fun h => by have := (Gen.flush0_1 t).mp h; omega
  have hb : ∀ d, (dats m 0 c).before (0 : Fin 2) t d = xb m c (n + 1) := fun d => by
    have e : (⟨(n + 1) % 8, Nat.mod_lt _ (by decide)⟩ : Fin cfg0.N) = t := Fin.ext (by show (n + 1) % 8 = t.val; omega)
    unfold Dat.before; rw [if_pos (Gen.fetch0_0 t)]; unfold xb; rw [e]; rfl
  have ha : (dats m 0 c).after (0 : Fin 2) t = xb m c (n + 1) := by
    have e : (⟨(n + 1) % 8, Nat.mod_lt _ (by decide)⟩ : Fin cfg0.N) = t := Fin.ext (by show (n + 1) % 8 = t.val; omega)
    unfold xb; rw [e]; rfl
  unfold ObAt
  rw [Gen.bigSep_W0, Gen.bigSep_W0, hΦ0, hΦ1]
  unfold Dat.owesAt
  rw [hO0, hO1]
  simp only [hidle, hfl]
  show _ ⊢ wp frame _ Set.univ (cc0_body (grid0.coords t) (win0_0.stage (cfg0.slots t 0)) _ (win0_1.stage (cfg0.slots t 1)) _ (Memref.whole cc0_scratch0) (Memref.isWhole_whole _) cc0_scratch1 cc0_scratch2) _
  simp only [cc0_body_eq_skeleton]; unfold cc0_body_skel
  simp only [cond1_mid t ht, cond2_mid t ht, cond3_mid t ht, ↓reduceDIte]
  simp only [Prog.lift, Prog.bind_op, Prog.bind_ret, Prog.pure_eq_ret, wp_deviceId]
  generalize cfg0.slots t 0 = s0
  have hst : stage0_0 s0 = Memref.whole cc0_stg0_0 ∨ stage0_0 s0 = Memref.whole cc0_stg0_1 := by
    match s0 with
    | ⟨0, _⟩ => exact .inl rfl
    | ⟨1, _⟩ => exact .inr rfl
    | ⟨_ + 2, h⟩ => exact absurd h (Nat.not_lt.2 (Nat.le_add_left _ _))
  rcases hst with h | h
  ·
    rw [h]; simp only [owns_whole_eq]
    iintro ⟨⟨Hg, Hrow⟩, Ho, ⟨%d, %X, %hX, Hx⟩, Hout⟩
    iapply (acc_block0 m c n X (hX.trans (hb d))) $$ [Hrow Hx Hg Ho Hout]
    isplitl [Hrow]; · iexact Hrow
    isplitl [Hx]; · iexact Hx
    iintro ⟨Hrow, Hx⟩
    iapply (le_wp_ret _ _ _ ⟨⟩ _)
    isplitl [Hg Hrow]
    · isplitl [Hg]; · iexact Hg
      iexact Hrow
    isplitl [Ho]; · iexact Ho
    isplitl [Hx]
    · iexists X; isplitr; · ipureintro; exact hX.trans ((hb d).trans ha.symm)
      iexact Hx
    · iexact Hout
  ·
    rw [h]; simp only [owns_whole_eq]
    iintro ⟨⟨Hg, Hrow⟩, Ho, ⟨%d, %X, %hX, Hx⟩, Hout⟩
    iapply (acc_block1 m c n X (hX.trans (hb d))) $$ [Hrow Hx Hg Ho Hout]
    isplitl [Hrow]; · iexact Hrow
    isplitl [Hx]; · iexact Hx
    iintro ⟨Hrow, Hx⟩
    iapply (le_wp_ret _ _ _ ⟨⟩ _)
    isplitl [Hg Hrow]
    · isplitl [Hg]; · iexact Hg
      iexact Hrow
    isplitl [Ho]; · iexact Ho
    isplitl [Hx]
    · iexists X; isplitr; · ipureintro; exact hX.trans ((hb d).trans ha.symm)
      iexact Hx
    · iexact Hout

/-- info: 'Cert.KernelIdeal.AllSum.body_mid' depends on axioms: [propext, Classical.choice, Quot.sound] -/
#guard_msgs in #print axioms body_mid

end Cert.KernelIdeal.AllSum

end
-- ==== Proof.BodyLast.lean ====
/-
  The body at the last grid point.

  At point 7 the first branch of the body is skipped and the other two run: the eighth block's column sums are added
  into row 0 of the table, and then the exchange.  The device waits for the 31 units of its barrier cell, which bring
  it, from each peer, the row of that peer's table it is to write; it starts its 31 transfers, each reading row 0 through
  a share split off the remainder and writing row `d` of the device `d` places on; the waits on its 31 send cells bring
  the shares back, the waits on its 31 receive cells bring rows 1 … 31 of its own table, each at the partial sum of the
  device that many places before it.  Row 0 whole again, the 32 rows are the final table; its column sums are the
  result, stored into the output block.  The 62 own cells are left closed at zero.
-/
import proofs.«901084_g7700000000001085_dist_sum_ax0_shard0_i_m2048_n1024_v7x_i32_bf16_1_alg».proof.Proof.Chains
import proofs.«901084_g7700000000001085_dist_sum_ax0_shard0_i_m2048_n1024_v7x_i32_bf16_1_alg».proof.Proof.RowVals
import proofs.«901084_g7700000000001085_dist_sum_ax0_shard0_i_m2048_n1024_v7x_i32_bf16_1_alg».proof.Proof.AccBlock

noncomputable section

namespace Cert.KernelIdeal.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

namespace BodyLast

/-! ## The last point: its conditions, its staging buffers -/

theorem cond1_7 : ¬ (k0_cond1 (grid0.coords t0_7) = 1#1) := by decide
theorem cond3_7 : k0_cond3 (grid0.coords t0_7) = 1#1 := by decide
theorem slot0_7 : cfg0.slots t0_7 (0 : Fin 2) = (⟨1, by decide⟩ : Fin (cfg0.win 0).nbuf) := by decide +kernel
theorem slot1_7 : cfg0.slots t0_7 (1 : Fin 2) = (⟨0, by decide⟩ : Fin (cfg0.win 1).nbuf) := by decide +kernel
theorem idle0_7 : cfg0.idle 0 (cfg0.grid.coords t0_7) = false := rfl
theorem idle1_7 : cfg0.idle 1 (cfg0.grid.coords t0_7) = false := by
  show (!(k0_cond3 (grid0.coords t0_7) == 1#1)) = false
  rw [cond3_7]; rfl

/-! ## The program at the last point -/

theorem cond2_7 : Scalar.cmpi CmpIPredicate.ne (Scalar.extui (Scalar.cmpi CmpIPredicate.ne (BitVec.ofNat 32 (grid0.coords t0_7 0).val) 0#32)) 0#32 = 1#1 := by decide

/-- The accumulation block, then the exchange, as the body runs them at the last point. -/
def prog7 (c : Dev nD) (xM : Memref sig .tc .vmem S256x1024 .f32) (oM : Memref sig .tc .vmem S1x1024 .f32) : Prog (TpuEff nD τ sig (Elt F) Λ₀ .tc) PUnit :=
  .op (.load scrM r0.toLoadRect (View.loadsAt_vmem h_S1x1024)) fun v13 =>
  .op (.load xM rIn.toLoadRect (View.loadsAt_vmem h_S256x1024)) fun v15 =>
  .op (.load scrM r0.toLoadRect (View.loadsAt_vmem h_S1x1024)) fun v19 =>
  .op (.store scrM r0 (k0_pay2 v13 v15) Finset.univ (View.stores_vmem_bits_univ h_S1x1024 rfl) (.inl rfl)) fun _ =>
  .op (.semWait barS 31) fun _ =>
  sendsChain (xferDev c) ds fun (_ : PUnit.{1}) =>
  waitSChain ds fun (_ : PUnit.{1}) =>
  waitRChain ds fun (_ : PUnit.{1}) =>
  .op (.load scrM rAll.toLoadRect (View.loadsAt_vmem h_S32x1024)) fun v633 =>
  .op (.load oM rOut.toLoadRect (View.loadsAt_vmem h_S1x1024)) fun v635 =>
  .op (.store oM rOut (k0_pay3 (k0_pay4 v633)) Finset.univ (View.stores_vmem_bits_univ h_S1x1024 rfl) (.inl rfl)) fun _ =>
  .ret ⟨⟩

set_option maxRecDepth 65536 in
theorem body7_eq (xM : Memref sig .tc .vmem S256x1024 .f32) (hx : xM.IsWhole) (oM : Memref sig .tc .vmem S1x1024 .f32) (ho : oM.IsWhole) :
    cc0_body (F := F) (grid0.coords t0_7) xM hx oM ho scrM (Memref.isWhole_whole _) cc0_scratch1 cc0_scratch2
      = .op .deviceId fun d0 => prog7 d0 xM oM := by
  simp only [cc0_body_eq_skeleton]
  unfold cc0_body_skel
  simp only [dif_neg cond1_7, dif_pos cond2_7, dif_pos cond3_7]
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel
  simp only [Prog.lift, Prog.bind_op, Prog.bind_ret, Prog.pure_eq_ret, semSignalWord, semWaitWord]
  rfl

/-! ## Two lists of assertions side by side -/

theorem bigSepL_zip {I : Type} (l : List I) (Φ Ψ : I → sProp 𝕄) :
    iprop(bigSepL l Φ ∗ bigSepL l Ψ) ⊢ bigSepL l (fun i => iprop(Φ i ∗ Ψ i)) := by
  induction l with
  | nil => iintro ⟨H, -⟩; iexact H
  | cons i l ih =>
    rw [show bigSepL (i :: l) Φ = iprop(Φ i ∗ bigSepL l Φ) from bigSepL_cons _ _ _,
      show bigSepL (i :: l) Ψ = iprop(Ψ i ∗ bigSepL l Ψ) from bigSepL_cons _ _ _,
      show bigSepL (i :: l) (fun i => iprop(Φ i ∗ Ψ i)) = iprop((Φ i ∗ Ψ i) ∗ bigSepL l (fun i => iprop(Φ i ∗ Ψ i))) from bigSepL_cons _ _ _]
    iintro ⟨⟨H1, H2⟩, H3, H4⟩
    isplitl [H1 H3]
    · isplitl [H1]; · iexact H1
      iexact H3
    iapply ih
    isplitl [H2]; · iexact H2
    iexact H4

theorem bigSepL_unzip {I : Type} (l : List I) (Φ Ψ : I → sProp 𝕄) :
    bigSepL l (fun i => iprop(Φ i ∗ Ψ i)) ⊢ iprop(bigSepL l Φ ∗ bigSepL l Ψ) := by
  induction l with
  | nil => iintro H; isplitl [H]; · iexact H
           iempintro
  | cons i l ih =>
    rw [show bigSepL (i :: l) Φ = iprop(Φ i ∗ bigSepL l Φ) from bigSepL_cons _ _ _,
      show bigSepL (i :: l) Ψ = iprop(Ψ i ∗ bigSepL l Ψ) from bigSepL_cons _ _ _,
      show bigSepL (i :: l) (fun i => iprop(Φ i ∗ Ψ i)) = iprop((Φ i ∗ Ψ i) ∗ bigSepL l (fun i => iprop(Φ i ∗ Ψ i))) from bigSepL_cons _ _ _]
    iintro ⟨⟨H1, H3⟩, H⟩
    ihave H' := ih $$ H
    icases H' with ⟨H2, H4⟩
    isplitl [H1 H2]
    · isplitl [H1]; · iexact H1
      iexact H2
    isplitl [H3]; · iexact H3
    iexact H4

/-! ## The run -/

theorem ds_bounds : ∀ d ∈ ds, 1 ≤ d ∧ d ≤ 31 := by decide

/-- The last point's run: the eighth block is added into row 0; the barrier wait brings the 31 peers' rows; the 31
    transfers go out through shares of row 0; the send waits bring the shares back and the receive waits the 31 rows
    at the peers' partial sums; the table is whole again at its final contents, and its column sums are stored. -/
theorem run_prog7 (m : (ℓ : Loc nD τ sig) → Buf (Elt F) ℓ) (c : Dev nD) (X : (cc0_stg0_1 : Ref sig .tc).ty.Contents (Elt F)) (hX : X = xb m c 7)
    (Y : (cc0_stg1_0 : Ref sig .tc).ty.Contents (Elt F)) (W : Waits sig Unit) (Q : PUnit → sProp 𝕄) :
    iprop(Φmid m c 7 ∗ owes (c : Thread nD τ) (O₁ c) W ∗ (((c : Thread nD τ).loc cc0_stg0_1) ↦{fullShare} X) ∗ (((c : Thread nD τ).loc cc0_stg1_0) ↦{fullShare} Y)
        ∗ (iprop(Φend m c ∗ owesSome c 0 ∗ (((c : Thread nD τ).loc cc0_stg0_1) ↦{fullShare} X) ∗ (((c : Thread nD τ).loc cc0_stg1_0) ↦{fullShare} outRow (xb m) c)) -∗ Q ⟨⟩))
      ⊢ wp frame (wpE (defs₀ (F := F)) 𝒱₀ (c : Thread nD τ) none) Set.univ (prog7 c (Memref.whole cc0_stg0_1) (Memref.whole cc0_stg1_0)) Q := by
  unfold Φmid ghost carried prog7
  iintro ⟨⟨⟨%K, #Hrec, Hbar, Hsp, Hrp, Htok, Hcb, Hcr, #Hlev⟩, Hrow⟩, HO, Hx, Hy, Hk⟩
  -- the accumulation block: row 0 goes to the sum after the eighth point
  iapply (acc_block1 m c 6 X hX)
  isplitl [Hrow]; · iexact Hrow
  isplitl [Hx]; · iexact Hx
  iintro ⟨Hrow, Hx⟩
  ihave Hrow := (Entails.of_eq (acc_fin m c fullShare)) $$ Hrow
  -- the wait on the own barrier cell: the 31 peers' rows
  iapply (bar_wait m K c 31 rfl) $$ [Hcb HO Hbar]
  · isplitr; · iexact Hrec
    isplitl [Hcb]; · iexact Hcb
    isplitl [HO]; · unfold owesSome; iexists W; iexact HO
    isplitr; · iexact Hlev
    iexact Hbar
  iintro ⟨HO, Hpay⟩
  -- the 31 transfers
  iapply (sendsChain_spec m K c (xferDev c) ds [] 0 rfl (by decide) (fun d hd => xferDev_eq c d (ds_bounds d hd))) $$ [Hrow Hpay HO Htok]
  · isplitr; · iexact Hrec
    isplitl [Hrow]; · iexact Hrow
    isplitl [Hpay]; · iexact Hpay
    isplitl [HO]; · rw [List.append_nil]; iexact HO
    iexact Htok
  iintro ⟨Hrem, Hcs, HO⟩
  -- the waits on the send cells
  iapply (waitSChain_spec m K c ds ds_bounds) $$ [HO Hcs Hsp]
  · isplitr; · iexact Hrec
    isplitl [HO]; · iexact HO
    iapply (bigSepL_zip ds _ _)
    isplitl [Hcs]; · iexact Hcs
    iexact Hsp
  iintro ⟨HO, Hs⟩
  ihave Hs := (bigSepL_unzip ds _ _) $$ Hs
  icases Hs with ⟨Hqs, Hsv⟩
  -- the waits on the receive cells
  iapply (waitRChain_spec m K c ds ds_bounds) $$ [HO Hcr Hrp]
  · isplitr; · iexact Hrec
    isplitl [HO]; · iexact HO
    iapply (bigSepL_zip ds _ _)
    isplitl [Hcr]; · iexact Hcr
    iexact Hrp
  iintro ⟨HO, Hr⟩
  ihave Hr := (bigSepL_unzip ds _ _) $$ Hr
  icases Hr with ⟨Hrows, Hrv⟩
  -- the table whole again
  ihave Hrow0 := (join_shares c (tblFin m c)) $$ [Hrem Hqs]
  · isplitl [Hrem]; · iexact Hrem
    iexact Hqs
  ihave Htbl := (join_rows c (tblFin m c)) $$ [Hrow0 Hrows]
  · isplitl [Hrow0]; · iexact Hrow0
    iexact Hrows
  -- the final loads and the store, run symbolically from the two buffers held whole
  ihave Htbl := (show (scrWhole c (tblFin m c) : sProp 𝕄) ⊢ ((scrM : Memref sig .tc .vmem S32x1024 .f32).view.loc (c : Thread nD τ) ↦{fullShare} tblFin m c) from BI.Entails.refl _) $$ Htbl
  ihave Hy := (show ((((c : Thread nD τ).loc cc0_stg1_0) ↦{fullShare} Y : sProp 𝕄)) ⊢ ((Memref.whole cc0_stg1_0 : Memref sig .tc .vmem S1x1024 .f32).view.loc (c : Thread nD τ) ↦{fullShare} Y) from BI.Entails.refl _) $$ Hy
  sl_exec
  -- what was stored is the column sums of the final table
  rw [show (Memref.whole cc0_stg1_0 : Memref sig .tc .vmem S1x1024 .f32).view.writes (Elt F) Y
        [⟨rOut, k0_pay3 (k0_pay4 ((scrM : Memref sig .tc .vmem S32x1024 .f32).view.readAt (Elt F) rAll.toLoadRect (tblFin m c)))⟩]
      = outRow (xb m) c from by rw [read_all m c]; exact write_out Y _]
  iapply (le_wp_ret _ _ _ _ _)
  iapply Hk
  unfold Φend scrWhole
  isplitl [Htbl Hsv Hrv]
  · isplitl [Htbl]; · iexact Htbl
    isplitl [Hsv]; · iexact Hsv
    iexact Hrv
  isplitl [HO]; · iexact HO
  isplitl [Hx]; · iexact Hx
  iexact Hy

end BodyLast

open BodyLast

/-- The body obligation at the last grid point. -/
theorem body_last (m : (ℓ : Loc nD τ sig) → Buf (Elt F) ℓ) (c : Dev nD) : ObAt m c t0_7 := by
  unfold ObAt
  rw [Gen.bigSep_W0, Gen.bigSep_W0]
  rw [idle0_7, idle1_7, slot0_7, slot1_7]
  show iprop(Φmid m c 7 ∗ (dats m 0 c).owesAt () t0_7.castSucc
        ∗ (∃ d, owns (c : Thread nD τ) (Memref.whole cc0_stg0_1) fullShare ((dats m 0 c).before 0 t0_7 d))
        ∗ (∃ d, owns (c : Thread nD τ) (Memref.whole cc0_stg1_0) fullShare ((dats m 0 c).before 1 t0_7 d)))
    ⊢ wp frame (wpE (defs₀ (F := F)) 𝒱₀ (c : Thread nD τ) none) Set.univ
        (cc0_body (grid0.coords t0_7) (Memref.whole cc0_stg0_1) (Memref.isWhole_whole _) (Memref.whole cc0_stg1_0) (Memref.isWhole_whole _)
          scrM (Memref.isWhole_whole _) cc0_scratch1 cc0_scratch2)
        (fun _ => iprop(Φend m c ∗ (dats m 0 c).owesAt () t0_7.succ
          ∗ owns (c : Thread nD τ) (Memref.whole cc0_stg0_1) fullShare (iblk m c 0 t0_7)
          ∗ owns (c : Thread nD τ) (Memref.whole cc0_stg1_0) fullShare (outRow (xb m) c)))
  rw [body7_eq, wp_deviceId]
  have hbefore : ∀ d, (dats m 0 c).before (0 : Fin 2) t0_7 d = xb m c 7 := fun d => by
    unfold Dat.before; rw [if_pos (Gen.fetch0_0 t0_7)]; rfl
  have hblk : iblk m c 0 t0_7 = xb m c 7 := rfl
  simp only [Idealize.ShloMosaic.owns_whole_eq, hbefore, hblk]
  iintro ⟨HΦ, ⟨%W, %hW, HO⟩, ⟨%d0, %X, %hX, Hx⟩, ⟨%d1, %Y, %hY, Hy⟩⟩
  iapply (run_prog7 m c X hX Y W _)
  isplitl [HΦ]; · iexact HΦ
  isplitl [HO]; · iexact HO
  isplitl [Hx]; · iexact Hx
  isplitl [Hy]; · iexact Hy
  unfold owesSome
  iintro ⟨HΦ, ⟨%W', HO⟩, Hx, Hy⟩
  isplitl [HΦ]; · iexact HΦ
  isplitl [HO]
  · iexists W'
    isplitr; · ipureintro; exact fun x _ => Or.inl (Set.mem_univ x)
    iexact HO
  isplitl [Hx]
  · iexists X; isplitr; · ipureintro; exact hX
    iexact Hx
  iexists _; isplitr; · ipureintro; rfl
  iexact Hy

end Cert.KernelIdeal.AllSum

end

/-- info: 'Cert.KernelIdeal.AllSum.body_last' depends on axioms: [propext, Classical.choice, Quot.sound] -/
#guard_msgs in #print axioms Cert.KernelIdeal.AllSum.body_last
-- ==== Proof.LaunchDefs.lean ====
/-
  What the launch hands each device: the names of the kernel's own semaphores, and the ghost state before its credits and levels arrive.
-/
import proofs.«901084_g7700000000001085_dist_sum_ax0_shard0_i_m2048_n1024_v7x_i32_bf16_1_alg».proof.Proof.Data

noncomputable section

namespace Cert.KernelIdeal.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kernel's own (scoped) semaphores: the 31 send semaphores, then the 31 receive semaphores. -/
def osem (k : Fin 62) : SemLoc sig := if k.val < 31 then .dma (sendS (k.val + 1)) else .dma (recvS (k.val - 30))

/-- A device's positions at round 0 of its 63 cells. -/
def positions (c : Dev nD) : sProp 𝕄 :=
  iprop(atPos ER (barCell c) 0 ∅ 0 ∗ bigSepL ds (fun d => atPos ER (sendCell c d) 0 ∅ 0) ∗ bigSepL ds (fun d => atPos ER (recvCell c d) 0 ∅ 0))
/-- The tokens of the duties its transfers pay: on its own send cell and on the destination's receive cell. -/
def xferToks (c : Dev nD) : sProp 𝕄 :=
  bigSepL ds (fun d => iprop(dutyTok ER (sendCell c d) 0 (0 : Dev nD) ∗ dutyTok ER (recvCell (peer c d) d) 0 (0 : Dev nD)))

/-- What the launch's global step leaves each device: every cell's invariant and reached mark, its positions, the tokens
    of the duties it pays. -/
def G' (c : Dev nD) : sProp 𝕄 := iprop(∃ K, records m K ∗ positions c ∗ xferToks c ∗ sigToks c ds)

/-- What a device's body starts from, the table apart. -/
def startX (c : Dev nD) : sProp 𝕄 := iprop((∃ K, ghost m K c) ∗ sigToks c ds)

end Cert.KernelIdeal.AllSum

end
-- ==== Proof.LaunchA.lean ====
/-
  The launch of the protocol's ghost state: the launch element of the algebra dealt to the 32 devices, every device's
  63 cells given their invariants from the counters at zero in one step, and the tokens of the duties handed to the
  devices that pay them.
-/
import proofs.«901084_g7700000000001085_dist_sum_ax0_shard0_i_m2048_n1024_v7x_i32_bf16_1_alg».proof.Proof.Tables
import proofs.«901084_g7700000000001085_dist_sum_ax0_shard0_i_m2048_n1024_v7x_i32_bf16_1_alg».proof.Proof.LaunchDefs
import Idealize.ShloMosaic.Lib.Pipeline.Launch
import Idealize.ShloMosaic.Lib.Pipeline.Kit
import Idealize.ShloMosaic.Lib.Tactic

noncomputable section

namespace Cert.KernelIdeal.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-! ## The payloads can be stored in an invariant -/

namespace LaunchA

instance rowPts_storable (c : Dev nD) (d : ℕ) (q : PosShare TreeShare) (f : Buf (Elt F) ((rowM d).view.loc (c : Thread nD τ))) :
    BI.Storable (upEmb : UEmb _ 𝕄) (rowPts c d q f) := by
  unfold rowPts; infer_instance

instance sendPay_storable (m : (ℓ : Loc nD τ sig) → Buf (Elt F) ℓ) (c : Dev nD) (d : ℕ) : BI.Storable (upEmb : UEmb _ 𝕄) (sendPay m c d) :=
  rowPts_storable c 0 (qs d) (tblFin m c)
instance recvPay_storable (m : (ℓ : Loc nD τ sig) → Buf (Elt F) ℓ) (c : Dev nD) (d : ℕ) : BI.Storable (upEmb : UEmb _ 𝕄) (recvPay m c d) :=
  rowPts_storable c d fullShare (tblFin m c)

end LaunchA
open LaunchA

instance Rd_payload_storable (m : (ℓ : Loc nD τ sig) → Buf (Elt F) ℓ) (g : GSem nD τ sig) (r : ℕ) (d : Dev nD) :
    BI.Storable (upEmb : UEmb _ 𝕄) ((Rd (F := F) m).payload g r d) := by
  show BI.Storable upEmb (if g.2 = .reg barS then barPay g.1.1 d else xferPay m g.1.1 g.2)
  unfold barPay xferPay
  (repeat' split) <;> infer_instance

/-! ## Enumerations -/

namespace LaunchA

/-- A conjunction over the 31 offsets, indexed from 0, is the chain over `1 … 31`. -/
theorem bigSep_offsets (Φ : ℕ → sProp 𝕄) : bigSep (Finset.univ : Finset (Fin 31)) (fun j => Φ (j.val + 1)) = bigSepL ds Φ := by
  rw [bigSep_univ_eq_bigSepL (List.finRange 31) (by ext j; simp) (List.nodup_finRange 31),
    ← bigSepL_map (fun j : Fin 31 => j.val + 1) (List.finRange 31) Φ]
  exact congrArg (fun l => bigSepL l Φ) (by decide)

theorem bigSep_fin3 (Φ : Fin 3 → sProp 𝕄) : bigSep Finset.univ Φ = iprop(Φ 0 ∗ Φ 1 ∗ Φ 2) :=
  bigSep_univ_eq_bigSepL [0, 1, 2] (by decide) (by decide) Φ

/-! ## The launch -/

/-- A cell's place in the indexing, read off its semaphore. -/
theorem csemIdx_send {d : ℕ} (hd : 1 ≤ d ∧ d ≤ 31) : csemIdx (.dma (sendS d) : SemLoc sig) = d := by
  show (2 + d) % 65 - 2 = d
  omega
theorem csemIdx_recv {d : ℕ} (hd : 1 ≤ d ∧ d ≤ 31) : csemIdx (.dma (recvS d) : SemLoc sig) = d + 31 := by
  show (33 + d) % 65 - 2 = d + 31
  omega

theorem osem_idx (k : Fin 62) : csemIdx (osem k) = k.val + 1 := by
  have hk := k.isLt
  unfold osem
  by_cases h : k.val < 31
  · rw [if_pos h]; exact csemIdx_send ⟨by omega, by omega⟩
  · rw [if_neg h]; exact (csemIdx_recv ⟨by omega, by omega⟩).trans (by omega)

end LaunchA

theorem ownSemFacts : Pipeline.OwnSemFacts cfg0.spec osem := by
  have hsc : ∀ q : DmaSem sig, (SemLoc.dma q : SemLoc sig).isScoped .tc = true := by decide
  refine ⟨fun k => ?_, fun k k' h => ?_, fun k w s h => ?_⟩
  · unfold osem; split <;> exact hsc _
  · exact Fin.ext (by have h1 := osem_idx k; have h2 := osem_idx k'; rw [h] at h1; omega)
  · have h1 := osem_idx k
    rw [h] at h1
    have h2 : ∀ (w : Fin cfg0.W) (s : Fin (cfg0.spec w).nbuf), ((cfg0.spec w).sem s).val - 2 = 0 := by decide
    have h3 : csemIdx (.dma ((cfg0.spec w).sem s) : SemLoc sig) = ((cfg0.spec w).sem s).val - 2 := rfl
    rw [h3, h2 w s] at h1
    omega

theorem share_eq (m : (ℓ : Loc nD τ sig) → Buf (Elt F) ℓ) (c : Dev nD) (w : Fin cfg0.W) : (dats m 0 c).share w = fullShare := by
  unfold Dat.share; split <;> rfl

namespace LaunchA

/-- The protocol's cells: the 63 of each device. -/
def protoCells : Finset (GSem nD τ sig) := Finset.univ.map ⟨kcell, kcell_injective⟩

/-- The duties of round 0 of a device's own cells, by kind (0 the barrier cell, 1 the send cells, 2 the receive cells)
    and offset: the barrier cell's duty of the device `j + 1` places before it, and the one duty of the send and of the
    receive cell of transfer `j + 1`. -/
def tokOf (x : Dev nD × Fin 3 × Fin 31) : GSem nD τ sig × ℕ × Dev nD :=
  if x.2.1.val = 0 then (barCell x.1, 0, back x.1 (x.2.2.val + 1))
  else if x.2.1.val = 1 then (sendCell x.1 (x.2.2.val + 1), 0, (0 : Dev nD))
  else (recvCell x.1 (x.2.2.val + 1), 0, (0 : Dev nD))

theorem tokOf_dev (x : Dev nD × Fin 3 × Fin 31) : (tokOf x).1.1.1 = x.1 := by
  unfold tokOf
  by_cases h0 : x.2.1.val = 0
  · rw [if_pos h0]
  · rw [if_neg h0]
    by_cases h1 : x.2.1.val = 1
    · rw [if_pos h1]
    · rw [if_neg h1]

theorem tokOf_idx (x : Dev nD × Fin 3 × Fin 31) :
    csemIdx (tokOf x).1.2 = if x.2.1.val = 0 then 0 else if x.2.1.val = 1 then x.2.2.val + 1 else x.2.2.val + 32 := by
  have hj := x.2.2.isLt
  unfold tokOf
  by_cases h0 : x.2.1.val = 0
  · rw [if_pos h0, if_pos h0]; rfl
  · rw [if_neg h0, if_neg h0]
    by_cases h1 : x.2.1.val = 1
    · rw [if_pos h1, if_pos h1]; exact csemIdx_send ⟨by omega, by omega⟩
    · rw [if_neg h1, if_neg h1]; exact (csemIdx_recv ⟨by omega, by omega⟩).trans (by omega)

theorem tokOf_duty (x : Dev nD × Fin 3 × Fin 31) :
    (tokOf x).2.2.val = if x.2.1.val = 0 then (x.1.val + (32 - (x.2.2.val + 1) % 32)) % 32 else 0 := by
  unfold tokOf
  by_cases h0 : x.2.1.val = 0
  · rw [if_pos h0, if_pos h0]; rfl
  · rw [if_neg h0, if_neg h0]
    by_cases h1 : x.2.1.val = 1
    · rw [if_pos h1]; rfl
    · rw [if_neg h1]; rfl

theorem tokOf_injective : Function.Injective (tokOf : Dev nD × Fin 3 × Fin 31 → GSem nD τ sig × ℕ × Dev nD) := by
  rintro ⟨c, k, j⟩ ⟨c', k', j'⟩ h
  have hd : c = c' :=
    (tokOf_dev (c, k, j)).symm.trans ((congrArg (fun z : GSem nD τ sig × ℕ × Dev nD => z.1.1.1) h).trans (tokOf_dev (c', k', j')))
  subst hd
  have hi := (tokOf_idx (c, k, j)).symm.trans ((congrArg (fun z : GSem nD τ sig × ℕ × Dev nD => csemIdx z.1.2) h).trans (tokOf_idx (c, k', j')))
  have hu := (tokOf_duty (c, k, j)).symm.trans ((congrArg (fun z : GSem nD τ sig × ℕ × Dev nD => z.2.2.val) h).trans (tokOf_duty (c, k', j')))
  have hc : c.val < 32 := c.isLt
  have hk := k.isLt
  have hk' := k'.isLt
  have hj := j.isLt
  have hj' := j'.isLt
  have key : k.val = k'.val ∧ j.val = j'.val := by
    simp only at hi hu
    split_ifs at hi hu <;> omega
  obtain rfl : k = k' := Fin.ext key.1
  obtain rfl : j = j' := Fin.ext key.2
  rfl

/-- Every duty of round 0 of every cell of the protocol. -/
def protoToks : Finset (GSem nD τ sig × ℕ × Dev nD) := Finset.univ.map ⟨tokOf, tokOf_injective⟩

end LaunchA

def u₀ : UU := (initOf (Pipeline.cells cfgs cellOf_inj) (Pipeline.launchToks cfgs cellOf_inj), initOf protoCells protoToks)

namespace LaunchA

/-- The tokens of the duties of device `c`'s own cells. -/
def toks (c : Dev nD) : sProp 𝕄 :=
  iprop(bigSepL ds (fun d => dutyTok ER (barCell c) 0 (back c d))
    ∗ bigSepL ds (fun d => dutyTok ER (sendCell c d) 0 (0 : Dev nD))
    ∗ bigSepL ds (fun d => dutyTok ER (recvCell c d) 0 (0 : Dev nD)))

end LaunchA

/-- What the launch element deals device `c`: the round state, position and reached mark of each of its 63 cells, and
    the tokens of their duties. -/
def G (m : (ℓ : Loc nD τ sig) → Buf (Elt F) ℓ) (c : Dev nD) : sProp 𝕄 :=
  iprop((bigSep Finset.univ fun k : Fin 63 => roundState ER (Rd m) (kcell (c, k)) 0)
    ∗ (bigSep Finset.univ fun k : Fin 63 => iprop(atPos ER (kcell (c, k)) 0 ∅ 0 ∗ reached ER (kcell (c, k)) 0)) ∗ toks c)

namespace LaunchA

/-- The minted tokens, device by device. -/
theorem protoToks_eq : bigSep protoToks (fun x => (dutyTok ER x.1 x.2.1 x.2.2 : sProp 𝕄)) = bigSep Finset.univ fun c : Dev nD => toks c := by
  unfold protoToks
  rw [bigSep_map, bigSep_univ_prod]
  refine bigSep_congr fun c _ => ?_
  unfold toks
  rw [bigSep_univ_prod, bigSep_fin3, ← bigSep_offsets, ← bigSep_offsets, ← bigSep_offsets]
  rfl

theorem fund_proto (m : (ℓ : Loc nD τ sig) → Buf (Elt F) ℓ) :
    BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 63 => Φ (kcell (c, k)) := by
    unfold protoCells; rw [bigSep_map, bigSep_univ_prod]; rfl
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq (protoToks_eq (F := F))) $$ Htok
  unfold G; simp only [bigSep_sep']
  isplitl [Hst']; · iexact Hst'
  isplitl [Hat' Hr']
  · isplitl [Hat'] <;> iassumption
  iexact Htok'

end LaunchA

theorem hu0 (m : (ℓ : Loc nD τ sig) → Buf (Elt F) ℓ) :
    (ownU (u₀ : UU) : sProp 𝕄)
      ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_proto m) $$ HX with HG
  imodintro
  isplitl [HP] <;> iassumption

/-! ### A device's 63 cells, by kind -/

namespace LaunchA

/-- 63 = 1 + 31 + 31: the barrier cell, the send cells, the receive cells. -/
def e63 : (Fin 1 ⊕ Fin 31) ⊕ Fin 31 ≃ Fin 63 := (Equiv.sumCongr finSumFinEquiv (Equiv.refl (Fin 31))).trans finSumFinEquiv

theorem e63_bar : (e63 (.inl (.inl 0))).val = 0 := rfl
theorem e63_send (j : Fin 31) : (e63 (.inl (.inr j))).val = 1 + j.val := rfl
theorem e63_recv (j : Fin 31) : (e63 (.inr j)).val = 32 + j.val := rfl

theorem kcell_of_bar (c : Dev nD) (k : Fin 63) (hk : k.val = 0) : kcell (c, k) = barCell c := by
  obtain rfl : k = 0 := Fin.ext hk
  exact kcell_bar c
theorem kcell_of_send (c : Dev nD) (k : Fin 63) (d : ℕ) (hd : 1 ≤ d ∧ d ≤ 31) (hk : k.val = d) : kcell (c, k) = sendCell c d :=
  (congrArg (fun k' : Fin 63 => kcell (c, k')) (Fin.ext hk)).trans (kcell_send c hd)
theorem kcell_of_recv (c : Dev nD) (k : Fin 63) (d : ℕ) (hd : 1 ≤ d ∧ d ≤ 31) (hk : k.val = d + 31) : kcell (c, k) = recvCell c d :=
  (congrArg (fun k' : Fin 63 => kcell (c, k')) (Fin.ext hk)).trans (kcell_recv c hd)

/-- A conjunction over a device's 63 cells: the barrier cell's, the send cells', the receive cells'. -/
theorem cells63 (c : Dev nD) (Φ : GSem nD τ sig → sProp 𝕄) :
    bigSep Finset.univ (fun k : Fin 63 => Φ (kcell (c, k)))
      = iprop(Φ (barCell c) ∗ bigSepL ds (fun d => Φ (sendCell c d)) ∗ bigSepL ds (fun d => Φ (recvCell c d))) := by
  calc bigSep Finset.univ (fun k : Fin 63 => Φ (kcell (c, k)))
      = bigSep Finset.univ (fun a : (Fin 1 ⊕ Fin 31) ⊕ Fin 31 => Φ (kcell (c, e63 a))) := bigSep_univ_equiv e63 _
    _ = iprop((bigSep Finset.univ (fun a : Fin 1 => Φ (kcell (c, e63 (.inl (.inl a))))) ∗ bigSep Finset.univ (fun j : Fin 31 => Φ (kcell (c, e63 (.inl (.inr j))))))
          ∗ bigSep Finset.univ (fun j : Fin 31 => Φ (kcell (c, e63 (.inr j))))) := by
        rw [bigSep_univ_sum, bigSep_univ_sum]
        rfl
    _ = iprop((Φ (barCell c) ∗ bigSep Finset.univ (fun j : Fin 31 => Φ (sendCell c (j.val + 1)))) ∗ bigSep Finset.univ (fun j : Fin 31 => Φ (recvCell c (j.val + 1)))) := by
        rw [bigSep_univ_of_subsingleton (0 : Fin 1), kcell_of_bar c _ e63_bar,
          bigSep_congr (fun (j : Fin 31) _ => congrArg Φ (kcell_of_send c (e63 (.inl (.inr j))) (j.val + 1) ⟨by omega, by have := j.isLt; omega⟩ ((e63_send j).trans (Nat.add_comm _ _)))),
          bigSep_congr (fun (j : Fin 31) _ => congrArg Φ (kcell_of_recv c (e63 (.inr j)) (j.val + 1) ⟨by omega, by have := j.isLt; omega⟩ ((e63_recv j).trans (by omega))))]
    _ = _ := by
        rw [bigSep_offsets (fun d => Φ (sendCell c d)), bigSep_offsets (fun d => Φ (recvCell c d))]
        exact Idealize.SL.BI.sep_assoc.antisymm Idealize.SL.BI.sep_assoc'

/-! ### The counters at zero -/

theorem osem_send (j : Fin 31) : osem ((finSumFinEquiv : Fin 31 ⊕ Fin 31 ≃ Fin 62) (Sum.inl j)) = .dma (sendS (j.val + 1)) := by
  unfold osem
  rw [if_pos (show (((finSumFinEquiv : Fin 31 ⊕ Fin 31 ≃ Fin 62) (Sum.inl j))).val < 31 from j.isLt)]
  rfl
theorem osem_recv (j : Fin 31) : osem ((finSumFinEquiv : Fin 31 ⊕ Fin 31 ≃ Fin 62) (Sum.inr j)) = .dma (recvS (j.val + 1)) := by
  unfold osem
  rw [if_neg (show ¬ (((finSumFinEquiv : Fin 31 ⊕ Fin 31 ≃ Fin 62) (Sum.inr j))).val < 31 from by show ¬ 31 + j.val < 31; omega)]
  show SemLoc.dma (recvS (31 + j.val - 30)) = _
  rw [show 31 + j.val - 30 = j.val + 1 by omega]

/-- The kernel's own semaphores at zero are the send and the receive cells' counters; -/
theorem ownSems0_eq (c : Dev nD) :
    (Pipeline.ownSems0 (Ix := Unit) (Name := ℕ) (U := UU) (Lvl := ℕ) (Val := Elt F) (τ := τ) osem c : sProp 𝕄)
      = iprop(bigSepL ds (fun d => semVal (sendCell c d) 0) ∗ bigSepL ds (fun d => semVal (recvCell c d) 0)) := by
  unfold Pipeline.ownSems0
  rw [bigSep_univ_equiv (finSumFinEquiv : Fin 31 ⊕ Fin 31 ≃ Fin 62), bigSep_univ_sum,
    ← bigSep_offsets (fun d => (semVal (sendCell c d) 0 : sProp 𝕄)), ← bigSep_offsets (fun d => (semVal (recvCell c d) 0 : sProp 𝕄))]
  simp only [osem_send, osem_recv]
  rfl

/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 63 => semVal (kcell (c, k)) 0 : sProp 𝕄) := by
  rw [ownSems0_eq, unscopedSems0_eq, cells63 c (fun g => semVal g 0)]
  iintro ⟨⟨HS, HV⟩, HB⟩
  isplitl [HB]; · iexact HB
  isplitl [HS] <;> iassumption

/-- A device's 63 cells get their invariants, from its counters at zero and their round states. -/
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 63 => iprop(∃ κ : ℕ, cellInv ER (Rd m) κ (kcell (c, k))))
          ∗ (bigSep Finset.univ fun k : Fin 63 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 63 => semVal (kcell (c, k)) 0) ∗ bigSep Finset.univ fun k : Fin 63 => roundState ER (Rd m) (kcell (c, k)) 0)
      ⊢ (|={Set.univ}=> bigSep Finset.univ fun k : Fin 63 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens to the devices that pay -/

/-- The ring turned by `d` places. -/
def turn (d : ℕ) : Dev nD ≃ Dev nD := ⟨fun c => peer c d, fun c => back c d, fun c => back_peer c d, fun c => peer_back c d⟩

/-- A conjunction over devices and offsets, each device's summand at offset `d` taken from the device `d` places on. -/
theorem around (Ψ : Dev nD → ℕ → sProp 𝕄) :
    bigSep Finset.univ (fun c : Dev nD => bigSep Finset.univ fun j : Fin 31 => Ψ c (j.val + 1))
      = bigSep Finset.univ (fun c : Dev nD => bigSep Finset.univ fun j : Fin 31 => Ψ (peer c (j.val + 1)) (j.val + 1)) := by
  rw [bigSep_univ_comm (fun (c : Dev nD) (j : Fin 31) => Ψ c (j.val + 1)),
    bigSep_univ_comm (fun (c : Dev nD) (j : Fin 31) => Ψ (peer c (j.val + 1)) (j.val + 1))]
  exact bigSep_congr fun j _ => bigSep_univ_equiv (turn (j.val + 1)) (fun c => Ψ c (j.val + 1))

/-- Each device's barrier tokens go to the devices that signal it, each receive token to the device whose transfer pays it. -/
theorem toks_around : (bigSep Finset.univ fun c : Dev nD => (toks c : sProp 𝕄)) ⊢ bigSep Finset.univ fun c : Dev nD => iprop(xferToks c ∗ sigToks c ds) := by
  have hB := around (F := F) (fun c d => dutyTok ER (barCell c) 0 (back c d))
  have hR := around (F := F) (fun c d => dutyTok ER (recvCell c d) 0 (0 : Dev nD))
  simp only [back_peer] at hB
  unfold toks xferToks sigToks
  simp only [← bigSep_offsets, bigSep_sep']
  rw [hB, hR]
  iintro ⟨H1, H2, H3⟩
  isplitl [H2 H3]
  · isplitl [H2] <;> iassumption
  iexact H1

theorem ghost_intro (m : (ℓ : Loc nD τ sig) → Buf (Elt F) ℓ) (K : Dev nD × Fin 63 → ℕ) (c : Dev nD) :
    iprop(records m K ∗ positions c ∗ xferToks c ∗ sigToks c ds) ⊢ G' m c := by
  unfold G'
  iintro ⟨HR, HP, HX, HS⟩
  iexists K
  isplitl [HR]; · iexact HR
  isplitl [HP]; · iexact HP
  isplitl [HX] <;> iassumption

theorem regroup (m : (ℓ : Loc nD τ sig) → Buf (Elt F) ℓ) :
    (bigSep Finset.univ fun c : Dev nD => iprop((bigSep Finset.univ fun k : Fin 63 => iprop(∃ κ : ℕ, cellInv ER (Rd m) κ (kcell (c, k))))
          ∗ (bigSep Finset.univ fun k : Fin 63 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 63 => iprop(∃ κ : ℕ, cellInv ER (Rd m) κ (kcell ck))),
    bigSep_congr (s := Finset.univ) (fun (c : Dev nD) _ => bigSep_sep' Finset.univ (fun k : Fin 63 => (atPos ER (kcell (c, k)) 0 ∅ 0 : sProp 𝕄)) (fun k => reached ER (kcell (c, k)) 0)),
    bigSep_sep', ← bigSep_univ_prod (fun ck : Dev nD × Fin 63 => (reached ER (kcell ck) 0 : sProp 𝕄))]
  iintro ⟨HI, ⟨Hat, #HR⟩, Htok⟩
  ihave HK := (BI.bigSep_exists_pi Finset.univ (fun (ck : Dev nD × Fin 63) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 63 => (atPos ER (kcell (c, k)) 0 ∅ 0 : sProp 𝕄)) (fun c => iprop(xferToks c ∗ sigToks c ds))).symm).trans
      (bigSep_mono fun c _ => show _ ⊢ iprop(positions c ∗ xferToks c ∗ sigToks c ds) from Entails.of_eq (by unfold positions; rw [cells63 c (fun g => atPos ER g 0 ∅ 0)])))
    isplitl [Hat]; · iexact Hat
    iexact Htk

end LaunchA

/-- The global step: the own and the unscoped semaphores of every device at once. -/
theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-- info: 'Cert.KernelIdeal.AllSum.hu0' depends on axioms: [propext, Classical.choice, Quot.sound] -/
#guard_msgs in #print axioms hu0

/-- info: 'Cert.KernelIdeal.AllSum.glob' depends on axioms: [propext, Classical.choice, Quot.sound] -/
#guard_msgs in #print axioms glob

end Cert.KernelIdeal.AllSum

end
-- ==== Proof.LaunchB.lean ====
/-
  The second half of the launch: each device's launch credit (31 units on its barrier cell, a row's credit on each of
  its receive cells), what it starts from once its credit and the level facts arrive, the proof data's first and last
  assertions against the scoped buffers and the own semaphores, and the levels under the pipeline's own waits.
-/
import proofs.«901084_g7700000000001085_dist_sum_ax0_shard0_i_m2048_n1024_v7x_i32_bf16_1_alg».proof.Proof.StepsA
import proofs.«901084_g7700000000001085_dist_sum_ax0_shard0_i_m2048_n1024_v7x_i32_bf16_1_alg».proof.Proof.LaunchDefs
import Idealize.ShloMosaic.Lib.Pipeline.Launch
import Idealize.ShloMosaic.Lib.Pipeline.Kit
import Idealize.ShloMosaic.Lib.Tactic

noncomputable section

namespace Cert.KernelIdeal.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

namespace LaunchB

/-! ## Chains -/

/-- A chain over two lists in a row. -/
theorem bigSepL_append {I : Type} (l₁ l₂ : List I) (Φ : I → sProp 𝕄) :
    bigSepL (l₁ ++ l₂) Φ = iprop(bigSepL l₁ Φ ∗ bigSepL l₂ Φ) := by
  induction l₁ with
  | nil => exact (Idealize.SL.BI.equiv_iff.mp Idealize.SL.BI.emp_sep).symm
  | cons a l ih =>
    rw [List.cons_append, bigSepL_cons, bigSepL_cons, ih]
    exact Idealize.SL.BI.equiv_iff.mp ⟨Idealize.SL.BI.sep_assoc', Idealize.SL.BI.sep_assoc⟩

/-- Chains over one list agree when their entries do at its members. -/
theorem bigSepL_congr {I : Type} (l : List I) {Φ Ψ : I → sProp 𝕄} (h : ∀ x ∈ l, Φ x = Ψ x) : bigSepL l Φ = bigSepL l Ψ := by
  induction l with
  | nil => rfl
  | cons a l ih =>
    rw [bigSepL_cons, bigSepL_cons, h a List.mem_cons_self, ih (fun x hx => h x (List.mem_cons_of_mem _ hx))]

/-! ## The launch credit -/

/-- The receive credits the transfers `l` of every device owe, seen from device `c`: transfer `d` of the device `d`
    places back pays `c`'s receive cell `d`. -/
theorem cred_xfer (c : Dev nD) : ∀ l : List ℕ,
    (Pipeline.launchCred (fun p => owedXfer p l) c : sProp 𝕄) ⊢ bigSepL l (fun d => cred (tallyAt (recvCell c d) () N))
  | [] => by
    rw [show (fun p : Dev nD => owedXfer p []) = fun _ => 0 from rfl, Pipeline.launchCred_zero]
    exact Idealize.SL.BI.Entails.refl _
  | d :: l => by
    rw [show (fun p : Dev nD => owedXfer p (d :: l)) = fun p => owedXfer p l + tallyAt (recvCell (peer p d) d) () N from rfl,
      Pipeline.launchCred_add,
      show bigSepL (d :: l) (fun d => (cred (tallyAt (recvCell c d) () N) : sProp 𝕄))
        = iprop(cred (tallyAt (recvCell c d) () N) ∗ bigSepL l (fun d => cred (tallyAt (recvCell c d) () N))) from bigSepL_cons _ _ _]
    iintro ⟨Hl, Hd⟩
    isplitl [Hd]
    · iapply (Pipeline.launchCred_tallyAt (SemLoc.dma (recvS d)) (fun p => peer p d) (fun o => back o d)
        (fun o => peer_back o d) (fun p => back_peer p d) () N c)
      iexact Hd
    · iapply (cred_xfer c l); iexact Hl

/-- The units the signals `l` of every device owe, seen from device `c`: signal `j` of the device `j` places back
    pays `c`'s barrier cell, one unit each. -/
theorem cred_sig (c : Dev nD) (base : Dev nD → CellTallies nD τ sig Unit) : ∀ l : List ℕ,
    (Pipeline.launchCred (fun p => owedSig p (base p) l) c : sProp 𝕄)
      ⊢ iprop(Pipeline.launchCred base c ∗ cred (tallyAt (barCell c) () l.length))
  | [] => by
    rw [show (fun p : Dev nD => owedSig p (base p) []) = base from rfl, List.length_nil, tallyAt_zero, cred_zero]
    exact Idealize.SL.BI.sep_emp_intro
  | j :: l => by
    rw [show (fun p : Dev nD => owedSig p (base p) (j :: l)) = fun p => owedSig p (base p) l + tallyAt (barCell (peer p j)) () 1 from rfl,
      Pipeline.launchCred_add, List.length_cons, ← tallyAt_add]
    iintro ⟨Hl, Hj⟩
    ihave H := (cred_sig c base l) $$ Hl
    icases H with ⟨Hb, Hn⟩
    isplitl [Hb]; · iexact Hb
    iapply (cred_add _ _).2
    isplitl [Hn]; · iexact Hn
    iapply (Pipeline.launchCred_tallyAt (SemLoc.reg barS) (fun p => peer p j) (fun o => back o j)
      (fun o => peer_back o j) (fun p => back_peer p j) () 1 c)
    iexact Hj

end LaunchB

open LaunchB

/-- A device's launch credit: 31 units on its barrier cell, one from every other device, and a row's credit on the
    receive cell of each transfer, from the device that many places back. -/
theorem creds (c : Dev nD) :
    (Pipeline.launchCred O₀ c : sProp 𝕄)
      ⊢ iprop(cred (tallyAt (barCell c) () 31) ∗ bigSepL ds (fun d => cred (tallyAt (recvCell c d) () N))) := by
  show (Pipeline.launchCred (fun p => owedSig p (O₁ p) ds) c : sProp 𝕄) ⊢ _
  iintro H
  ihave H' := (cred_sig c (fun p => O₁ p) ds) $$ H
  icases H' with ⟨Hb, Hn⟩
  isplitl [Hn]
  · rw [show ds.length = 31 from rfl]; iexact Hn
  · iapply (cred_xfer c ds); iexact Hb

/-! ## The theorem's side conditions -/

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startX m c ∗ emp) := by
  unfold G' startX ghost carried positions xferToks
  iintro ⟨-, Hlev, Hcr, -, ⟨%K, Hrec, ⟨Hb, Hs, Hr⟩, Hx, Hsig⟩⟩
  ihave Hc := (creds (F := F) c) $$ Hcr
  icases Hc with ⟨H1, HN⟩
  imodintro
  isplitl
  · isplitr [Hsig]
    · iexists K
      isplitl [Hrec]; · iexact Hrec
      isplitl [Hb]; · iexact Hb
      isplitl [Hs]; · iexact Hs
      isplitl [Hr]; · iexact Hr
      isplitl [Hx]; · iexact Hx
      isplitl [H1]; · iexact H1
      isplitl [HN]; · iexact HN
      iexact Hlev
    · iexact Hsig
  · iempintro

theorem phi0_intro (m : (ℓ : Loc nD τ sig) → Buf (Elt F) ℓ) (c : Dev nD) :
    iprop(startX m c ∗ Pipeline.prefHeld Pipeline.Prefetch.none c (fun _ => fullShare.right) (fun k => k.elim0) ∗ Pipeline.scopedRest cfg0.spec c)
      ⊢ (dats m 0 c).Φ 0 := by
  have hΦ : (dats m 0 c).Φ 0 = Φstart m c := by
    show (if (0 : Fin (cfg0.N + 1)).val = 0 then Φstart m c
      else if (0 : Fin (cfg0.N + 1)).val = 8 then Φend m c else Φmid m c (0 : Fin (cfg0.N + 1)).val) = Φstart m c
    exact if_pos (Fin.val_zero _)
  rw [hΦ, scopedRest0_eq]
  unfold Φstart startX scrWhole
  iintro ⟨⟨HG, Hs⟩, -, ⟨%f, Hr⟩⟩
  isplitl [HG]; · iexact HG
  isplitl [Hs]; · iexact Hs
  iexists f; iexact Hr

namespace LaunchB

/-- The place of send semaphore `d` and of receive semaphore `d` among the kernel's own 62. -/
def sK (d : ℕ) : Fin 62 := ⟨(d - 1) % 62, Nat.mod_lt _ (by decide)⟩
def rK (d : ℕ) : Fin 62 := ⟨(d + 30) % 62, Nat.mod_lt _ (by decide)⟩

theorem osem_sK {d : ℕ} (hd : 1 ≤ d ∧ d ≤ 31) : osem (sK d) = (.dma (sendS d) : SemLoc sig) := by
  have h : (d - 1) % 62 = d - 1 := Nat.mod_eq_of_lt (by omega)
  show (if (d - 1) % 62 < 31 then SemLoc.dma (sendS ((d - 1) % 62 + 1)) else SemLoc.dma (recvS ((d - 1) % 62 - 30))) = _
  rw [h, if_pos (by omega), Nat.sub_add_cancel hd.1]

theorem osem_rK {d : ℕ} (hd : 1 ≤ d ∧ d ≤ 31) : osem (rK d) = (.dma (recvS d) : SemLoc sig) := by
  have h : (d + 30) % 62 = d + 30 := Nat.mod_eq_of_lt (by omega)
  show (if (d + 30) % 62 < 31 then SemLoc.dma (sendS ((d + 30) % 62 + 1)) else SemLoc.dma (recvS ((d + 30) % 62 - 30))) = _
  rw [h, if_neg (by omega), Nat.add_sub_cancel]

/-- The 62 own semaphores are the 31 send semaphores, then the 31 receive semaphores. -/
theorem own_univ : (Finset.univ : Finset (Fin 62)) = (ds.map sK ++ ds.map rK).toFinset := by
  ext k
  have hk : k.val < 62 := k.isLt
  rw [List.mem_toFinset, List.mem_append, List.mem_map, List.mem_map]
  refine ⟨fun _ => ?_, fun _ => Finset.mem_univ _⟩
  by_cases h : k.val < 31
  · refine Or.inl ⟨k.val + 1, List.mem_range'_1.mpr (by omega), Fin.ext ?_⟩
    show (k.val + 1 - 1) % 62 = k.val
    omega
  · refine Or.inr ⟨k.val - 30, List.mem_range'_1.mpr (by omega), Fin.ext ?_⟩
    show (k.val - 30 + 30) % 62 = k.val
    omega

theorem own_nodup : (ds.map sK ++ ds.map rK).Nodup := by
  refine List.Nodup.append ?_ ?_ ?_
  · refine List.Nodup.map_on ?_ (List.nodup_range' (s := 1) (n := 31))
    intro x hx y hy h
    have hx' := List.mem_range'_1.mp hx
    have hy' := List.mem_range'_1.mp hy
    have h' : (x - 1) % 62 = (y - 1) % 62 := congrArg Fin.val h
    omega
  · refine List.Nodup.map_on ?_ (List.nodup_range' (s := 1) (n := 31))
    intro x hx y hy h
    have hx' := List.mem_range'_1.mp hx
    have hy' := List.mem_range'_1.mp hy
    have h' : (x + 30) % 62 = (y + 30) % 62 := congrArg Fin.val h
    omega
  · intro k hs hr
    obtain ⟨x, hx, rfl⟩ := List.mem_map.mp hs
    obtain ⟨y, hy, h⟩ := List.mem_map.mp hr
    have hx' := List.mem_range'_1.mp hx
    have hy' := List.mem_range'_1.mp hy
    have h' : (y + 30) % 62 = (x - 1) % 62 := congrArg Fin.val h
    omega

theorem ownSems0_eq (c : Dev nD) :
    (Pipeline.ownSems0 (Ix := Unit) (Name := ℕ) (U := UU) (Lvl := ℕ) (Val := Elt F) (τ := τ) osem c : sProp 𝕄)
      = iprop(bigSepL ds (fun d => semVal (sendCell c d) 0) ∗ bigSepL ds (fun d => semVal (recvCell c d) 0)) := by
  rw [Pipeline.ownSems0_eq_of_list c osem (ds.map sK ++ ds.map rK) own_univ own_nodup, bigSepL_append, bigSepL_map, bigSepL_map,
    show bigSepL ds (fun x => (semVal ((c : Thread nD τ), osem (sK x)) 0 : sProp 𝕄)) = bigSepL ds (fun d => semVal (sendCell c d) 0) from
      bigSepL_congr ds fun d hd => by rw [osem_sK (StepsA.mem_ds hd)],
    show bigSepL ds (fun x => (semVal ((c : Thread nD τ), osem (rK x)) 0 : sProp 𝕄)) = bigSepL ds (fun d => semVal (recvCell c d) 0) from
      bigSepL_congr ds fun d hd => by rw [osem_rK (StepsA.mem_ds hd)]]

end LaunchB

theorem phi_exit (m : (ℓ : Loc nD τ sig) → Buf (Elt F) ℓ) (c : Dev nD) :
    (dats m 0 c).Φ (Fin.last cfg0.N) ⊢ iprop(emp ∗ Pipeline.ownSems0 osem c ∗ Pipeline.scopedRest cfg0.spec c) := by
  have hN : (Fin.last cfg0.N).val = 8 := by rw [Fin.val_last]; exact N_0
  have hΦ : (dats m 0 c).Φ (Fin.last cfg0.N) = Φend m c := by
    show (if (Fin.last cfg0.N).val = 0 then Φstart m c
      else if (Fin.last cfg0.N).val = 8 then Φend m c else Φmid m c (Fin.last cfg0.N).val) = Φend m c
    rw [if_neg (by rw [hN]; decide), if_pos hN]
  rw [hΦ, scopedRest0_eq, ownSems0_eq]
  unfold Φend scrWhole
  iintro ⟨Hr, HzS, HzR⟩
  isplitr; · iempintro
  isplitl [HzS HzR]
  · isplitl [HzS]; · iexact HzS
    iexact HzR
  iexists (tblFin m c); iexact Hr

theorem waits (m : (ℓ : Loc nD τ sig) → Buf (Elt F) ℓ) (c : Dev nD) :
    (levAts L lv : sProp 𝕄) ⊢ Pipeline.cellsWaits cfgs (dats m) () 0 c :=
  Pipeline.cellsWaits_intro cfgs (dats m) () 0 c fun w s t =>
    StepsA.mayWait_stage c _ (by fin_cases w <;> fin_cases s <;> decide) _ (by
      show (if t.val = 0 then O₀ c else if t.val = 8 then 0 else O₁ c) = O₀ c
          ∨ (if t.val = 0 then O₀ c else if t.val = 8 then 0 else O₁ c) = O₁ c
          ∨ (if t.val = 0 then O₀ c else if t.val = 8 then 0 else O₁ c) = 0
      by_cases h0 : t.val = 0
      · rw [if_pos h0]; exact Or.inl rfl
      · rw [if_neg h0]
        by_cases h8 : t.val = 8
        · rw [if_pos h8]; exact Or.inr (Or.inr rfl)
        · rw [if_neg h8]; exact Or.inr (Or.inl rfl))

end Cert.KernelIdeal.AllSum

end

/-- info: 'Cert.KernelIdeal.AllSum.creds' depends on axioms: [propext, Classical.choice, Quot.sound] -/
#guard_msgs in #print axioms Cert.KernelIdeal.AllSum.creds

/-- info: 'Cert.KernelIdeal.AllSum.phi0_intro' depends on axioms: [propext, Classical.choice, Quot.sound] -/
#guard_msgs in #print axioms Cert.KernelIdeal.AllSum.phi0_intro

/-- info: 'Cert.KernelIdeal.AllSum.phi_exit' depends on axioms: [propext, Classical.choice, Quot.sound] -/
#guard_msgs in #print axioms Cert.KernelIdeal.AllSum.phi_exit

/-- info: 'Cert.KernelIdeal.AllSum.waits' depends on axioms: [propext, Classical.choice, Quot.sound] -/
#guard_msgs in #print axioms Cert.KernelIdeal.AllSum.waits

/-- info: 'Cert.KernelIdeal.AllSum.start_intro' depends on axioms: [propext, Classical.choice, Quot.sound] -/
#guard_msgs in #print axioms Cert.KernelIdeal.AllSum.start_intro
-- ==== Proof.FinalArrays.lean ====
/-
  The windowed arrays after the run.  The argument's window is an input: its array is never written back and ends as
  launched.  The result's window is one block, the whole [1, 1024] array, written back once, after the last grid point:
  the array ends holding what that point left, the column sums of the device's 32-row table.
-/
import proofs.«901084_g7700000000001085_dist_sum_ax0_shard0_i_m2048_n1024_v7x_i32_bf16_1_alg».proof.Proof.Data
import Idealize.ShloMosaic.Lib.Pipeline.Value
import Idealize.ShloMosaic.Lib.Pipeline.Cells
import Idealize.ShloMosaic.Lib.Pipeline.Kit

noncomputable section

namespace Cert.KernelIdeal.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-- The argument's array is never written back: it ends as launched. -/
theorem final_in (m : (ℓ : Loc nD τ sig) → Buf (Elt F) ℓ) (c : Dev nD) :
    (dats m 0 c).arrAt (0 : Fin 2) cfg0.N = m ((c : Thread nD τ).loc main_arg0) :=
  (dats m 0 c).arrAt_in 0 rfl _

/-- The result window's block index is (0, 0) at every grid point: its block sits at zero offsets in the array. -/
theorem out_off_zero (t : Fin cfg0.N) : (fun a => win0_1.index t a * main_v1.ty.shape.size a) = fun _ => 0 :=
  funext fun a => by fin_cases a <;> rfl

/-- So that block is the whole array: every index of the array lies in it, -/
theorem mem_blk_out (t : Fin cfg0.N) (i : main_v1.ty.shape.Idx) : i ∈ ((cfg0.win 1).blk t).view.set := by
  show i ∈ ((View.whole main_v1).slice (win0_1.rect t)).set
  rw [View.set_slice_whole]
  exact View.mem_set_unit_zero (out_off_zero t) _ i

/-- and what a write-back at any point writes — the column sums of the table, which is what every point's data names
    for the result's staging buffer — is the block of the array holding them. -/
theorem flushed_out (m : (ℓ : Loc nD τ sig) → Buf (Elt F) ℓ) (c : Dev nD) (t : Fin cfg0.N) :
    (dats m 0 c).flushed 1 t = ((cfg0.win 1).blk t).view.read (Elt F) (outRow (xb m) c) :=
  (Memref.read_access_unit_zero (Elt F) main_v1 (out_off_zero t) (fun a => by rw [congrFun (out_off_zero t) a]; simp)
    (outRow (xb m) c)).symm

/-- The result's array ends holding the column sums of the device's table: the write-back after the last point
    covers it. -/
theorem final_out (m : (ℓ : Loc nD τ sig) → Buf (Elt F) ℓ) (c : Dev nD) :
    (dats m 0 c).arrAt (1 : Fin 2) cfg0.N = outRow (xb m) c :=
  (dats m 0 c).arrAt_eq_of_cover 1 (outRow (xb m) c) (fun t _ => flushed_out m c t) fun i =>
    ⟨t0_7, (flush0_1 t0_7).mpr rfl, mem_blk_out t0_7 i⟩

end Cert.KernelIdeal.AllSum

end

/-- info: 'Cert.KernelIdeal.AllSum.final_out' depends on axioms: [propext, Classical.choice, Quot.sound] -/
#guard_msgs in #print axioms Cert.KernelIdeal.AllSum.final_out

/-- info: 'Cert.KernelIdeal.AllSum.final_in' depends on axioms: [propext, Classical.choice, Quot.sound] -/
#guard_msgs in #print axioms Cert.KernelIdeal.AllSum.final_in
-- ==== Proof.RunMain.lean ====
/-
  The launch of the protocol on the 32 devices: every device's body obligation at its eight grid points, the launch
  theorem for a kernel whose devices owe units at launch and share the runtime's barrier semaphore, and the run with the
  values named.
-/
import proofs.«901084_g7700000000001085_dist_sum_ax0_shard0_i_m2048_n1024_v7x_i32_bf16_1_alg».proof.Proof.BodyFirst
import proofs.«901084_g7700000000001085_dist_sum_ax0_shard0_i_m2048_n1024_v7x_i32_bf16_1_alg».proof.Proof.BodyMid
import proofs.«901084_g7700000000001085_dist_sum_ax0_shard0_i_m2048_n1024_v7x_i32_bf16_1_alg».proof.Proof.BodyLast
import proofs.«901084_g7700000000001085_dist_sum_ax0_shard0_i_m2048_n1024_v7x_i32_bf16_1_alg».proof.Proof.LaunchA
import proofs.«901084_g7700000000001085_dist_sum_ax0_shard0_i_m2048_n1024_v7x_i32_bf16_1_alg».proof.Proof.LaunchB
import proofs.«901084_g7700000000001085_dist_sum_ax0_shard0_i_m2048_n1024_v7x_i32_bf16_1_alg».proof.Proof.FinalArrays
import Idealize.ShloMosaic.Lib.Pipeline.Launch
import Idealize.ShloMosaic.Lib.Pipeline.Kit

noncomputable section

namespace Cert.KernelIdeal.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-! ## The body obligation at every point -/

theorem body_obligation (m : (ℓ : Loc nD τ sig) → Buf (Elt F) ℓ) (c : Dev nD) :
    BodyObligation (dats (F := F) m 0 c) (defs₀ (F := F)) 𝒱₀ () Set.univ :=
  bodyObligation_of m c fun t => by
    rcases Gen.fin_N0 t with rfl | rfl | rfl | rfl | rfl | rfl | rfl | rfl
    · exact body_first m c
    · exact body_mid m c t0_1 ⟨by decide, by decide⟩
    · exact body_mid m c t0_2 ⟨by decide, by decide⟩
    · exact body_mid m c t0_3 ⟨by decide, by decide⟩
    · exact body_mid m c t0_4 ⟨by decide, by decide⟩
    · exact body_mid m c t0_5 ⟨by decide, by decide⟩
    · exact body_mid m c t0_6 ⟨by decide, by decide⟩
    · exact body_last m c

/-! ## The run -/

theorem L_of_ne (g : GSem nD τ sig) (h : g.1.2 ≠ .tc) : L g = ∅ := if_neg h

/-- Each device's windowed arrays after the run. -/
def finalA (m : (ℓ : Loc nD τ sig) → Buf (Elt F) ℓ) (c : Dev nD) (w : Fin cfg0.W) : Buf (Elt F) ((cfg0.win w).arr.view.loc (c : Thread nD τ)) :=
  (dats m 0 c).arrAt w cfg0.N

set_option maxRecDepth 8000 in
/-- At the compiled mesh of 32 devices, for any float values, from any memory with every counter at zero: every weakly
    fair execution of @main terminates, and in every final state each device's windowed arrays are what the proof data
    compute. -/
theorem run_main (m : (ℓ : Loc nD τ sig) → Buf (Elt F) ℓ) (ρ : Dev nD → PrngReg) :
    θ_run defs (onTc (τ := τ) (main (F := F))) ⟨m, fun _ => 0, ρ⟩
      (fun r => ∀ c : Dev nD, ∀ w : Fin cfg0.W, r.2.mem ((cfg0.win w).arr.view.loc (c : Thread nD τ)) = finalA m c w) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu0 m)
    (hglob := glob m)
    (hA := fun _ _ => rfl) (hpf := fun _ k => k.elim0)
    (X := startX m) (Y := fun _ => iprop(emp)) (Z := fun _ => iprop(emp))
    (hX := start_intro m ρ) (hin := phi0_intro m) (hout := phi_exit m)
    (QY := fun _ _ => True)
    (hY := fun c s' => by
      iintro ⟨-, -, HSI⟩
      imodintro
      isplitr; · ipureintro; trivial
      iexact HSI)
    (hQ := fun _ h c w => (h c).1 w)

/-- The run with the values named: the argument array unchanged, the result array at the column sums of the devices'
    table. -/
theorem run_values (m : (ℓ : Loc nD τ sig) → Buf (Elt F) ℓ) (ρ : Dev nD → PrngReg) :
    θ_run defs (onTc (τ := τ) (main (F := F))) ⟨m, fun _ => 0, ρ⟩
      (fun r => ∀ c : Dev nD,
        r.2.mem ((c.tc : Thread nD τ).loc main_v1) = outRow (xb m) c
        ∧ r.2.mem ((c.tc : Thread nD τ).loc main_arg0) = m ((c.tc : Thread nD τ).loc main_arg0)) :=
  (θ_run defs _ _).mono (fun _ h c => ⟨(h c 1).trans (final_out m c), (h c 0).trans (final_in m c)⟩) (run_main m ρ)

/-- info: 'Cert.KernelIdeal.AllSum.run_values' depends on axioms: [propext, Classical.choice, Quot.sound] -/
#guard_msgs in #print axioms run_values

end Cert.KernelIdeal.AllSum

end
-- ==== Proof.K.Spec.lean ====
/-
  The mesh arithmetic and the values the kernel computes, stated over abstract blocks.

  Thirty-two devices on a ring of offsets: `peer c d` is the device `d` places after `c`, `back c d` the device
  `d` places before it.  Device `c` sums the rows of its eight 256-row blocks into one row of 1024 columns
  (`accAt`: the running sum after each grid point; `part`: the sum after the last), sends that row to row `d` of
  device `peer c d` for `d = 1 … 31`, and so ends with a 32-row table whose row `d` is the partial sum of
  `back c d` (`table`); its result is the column sums of that table (`outRow`).
-/
import proofs.«901084_g7700000000001085_dist_sum_ax0_shard0_i_m2048_n1024_v7x_i32_bf16_1_alg».proof.Proof.Gen.Kernel.Skeleton
import Idealize.ShloMosaic.Lib.ValueIdx

noncomputable section

namespace Cert.Kernel.AllSum

open Cert.Kernel Cert.Kernel.Gen
open Idealize.ShloMosaic Idealize.ShloMosaic.ValueIdx

variable {F : FTy → Type} [FloatOps F]

/-! ## The ring of offsets -/

/-- The device `d` places after `c` on the ring of 32. -/
def peer (c : Dev nD) (d : ℕ) : Dev nD := ⟨(c.val + d) % 32, Nat.mod_lt _ (by decide)⟩
/-- The device `d` places before `c`. -/
def back (c : Dev nD) (d : ℕ) : Dev nD := ⟨(c.val + (32 - d % 32)) % 32, Nat.mod_lt _ (by decide)⟩

theorem back_peer (c : Dev nD) (d : ℕ) : back (peer c d) d = c := by
  apply Fin.ext; have hc : c.val < 32 := c.isLt; simp only [back, peer]; omega
theorem peer_back (c : Dev nD) (d : ℕ) : peer (back c d) d = c := by
  apply Fin.ext; have hc : c.val < 32 := c.isLt; simp only [back, peer]; omega
theorem back_zero (c : Dev nD) : back c 0 = c := by
  apply Fin.ext; have hc : c.val < 32 := c.isLt; simp only [back]; omega
theorem peer_ne (c : Dev nD) {d : ℕ} (h1 : 1 ≤ d) (h2 : d ≤ 31) : peer c d ≠ c := by
  intro h; have h' := congrArg Fin.val h; have hc : c.val < 32 := c.isLt; simp only [peer] at h'; omega
theorem peer_peer_comp (c : Dev nD) {d : ℕ} (h1 : 1 ≤ d) (h2 : d ≤ 31) : peer (peer c d) (32 - d) = c := by
  apply Fin.ext; have hc : c.val < 32 := c.isLt; simp only [peer]; omega
/-- The offset from `o` to `p`: `peer o (dist o p) = p`. -/
def dist (o p : Dev nD) : ℕ := (p.val + 32 - o.val) % 32
theorem peer_dist (o p : Dev nD) : peer o (dist o p) = p := by
  apply Fin.ext; have ho : o.val < 32 := o.isLt; have hp : p.val < 32 := p.isLt; simp only [peer, dist]; omega
theorem dist_peer (c : Dev nD) {d : ℕ} (h2 : d ≤ 31) : dist c (peer c d) = d := by
  have hc : c.val < 32 := c.isLt; simp only [peer, dist]; omega
theorem dist_peer_rev (c : Dev nD) {d : ℕ} (h1 : 1 ≤ d) (h2 : d ≤ 31) : dist (peer c d) c = 32 - d := by
  have hc : c.val < 32 := c.isLt; simp only [peer, dist]; omega

/-! ## The values -/

variable (xb : Dev nD → ℕ → Vec F S256x1024 .f32)

/-- Row 0 of device `c`'s table after grid point `n`: the column sums of block 0, then each later block's added. -/
def accAt (c : Dev nD) : ℕ → Vec F S1x1024 .f32
  | 0 => k0_pay1 (xb c 0)
  | n + 1 => k0_pay2 (accAt c n) (xb c (n + 1))

/-- Device `c`'s partial sum: its row after the eighth point. -/
def part (c : Dev nD) : Vec F S1x1024 .f32 := accAt xb c 7

/-- The 32-row table device `c` ends with: row `d` is the partial sum of the device `d` places before it. -/
def table (c : Dev nD) : Vec F S32x1024 .f32 := fun i => part xb (back c (i 0).val) (ix2 (0 : Fin 1) (i 1))

/-- A 32-row table all of whose rows are device `c`'s running sum after point `n` (only row 0 is read). -/
def accTable (c : Dev nD) (n : ℕ) : Vec F S32x1024 .f32 := fun i => accAt xb c n (ix2 (0 : Fin 1) (i 1))

/-- Device `c`'s result: the column sums of its table. -/
def outRow (c : Dev nD) : Vec F S1x1024 .f32 := k0_pay3 (k0_pay4 (table xb c))

end Cert.Kernel.AllSum

end
-- ==== Proof.K.Proto.lean ====
/-
  The protocol of the 32-device sum, as data for the rounds discipline.

  Semaphores of device `c`: the barrier semaphore (one round of 31 unit duties, one per other device `p`; the duty
  paid by `p` hands `c` the row of `p`'s table that `c` will write, row `dist c p`), 31 send semaphores (one duty each,
  paid by `c`'s own transfer number `d`: a share of `c`'s row 0 comes back) and 31 receive semaphores (one duty each,
  paid by the transfer of `back c d`: row `d` of `c`'s table now holds that device's partial sum).
-/
import proofs.«901084_g7700000000001085_dist_sum_ax0_shard0_i_m2048_n1024_v7x_i32_bf16_1_alg».proof.Proof.K.Spec
import proofs.«901084_g7700000000001085_dist_sum_ax0_shard0_i_m2048_n1024_v7x_i32_bf16_1_alg».proof.Proof.Gen.Kernel
import proofs.«901084_g7700000000001085_dist_sum_ax0_shard0_i_m2048_n1024_v7x_i32_bf16_1_alg».proof.Proof.Gen.Kernel.Launch
import proofs.«901084_g7700000000001085_dist_sum_ax0_shard0_i_m2048_n1024_v7x_i32_bf16_1_alg».proof.Proof.Gen.Kernel.Points
import proofs.«901084_g7700000000001085_dist_sum_ax0_shard0_i_m2048_n1024_v7x_i32_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.AllSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

/-! ## The resource algebra: the pipeline's copy beside the protocol's (duties named by the paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Memrefs, semaphores, cells -/

abbrev scrM : Memref sig .tc .vmem S32x1024 .f32 := Memref.whole cc0_scratch0

theorem row_inb (d : ℕ) : ∀ a, (![d % 32, 0] : Fin 2 → Nat) a + S1x1024.size a ≤ S32x1024.size a := by
  intro a
  have h : d % 32 < 32 := Nat.mod_lt _ (by decide)
  fin_cases a
  · show d % 32 + 1 ≤ 32; omega
  · show 0 + 1024 ≤ 1024; omega

/-- Row `d` of the 32-row table, as the kernel slices it. -/
def rowM (d : ℕ) : Memref sig .tc .vmem S1x1024 .f32 :=
  scrM.slice (Rect.unit (s := S32x1024) ![d % 32, 0] S1x1024.size (row_inb d)) (fun _ => rfl)

abbrev barS : Sem sig := (SemArray.scalar (sig.barrier 0 rfl) : Sems sig S_).sem
/-- The send semaphore of transfer `d` (`d = 1 … 31`): entry `d - 1` of the first semaphore array. -/
def sendS (d : ℕ) : DmaSem sig := ⟨(2 + d) % 65, Nat.mod_lt _ (by decide)⟩
/-- The receive semaphore of transfer `d`: entry `d - 1` of the second. -/
def recvS (d : ℕ) : DmaSem sig := ⟨(33 + d) % 65, Nat.mod_lt _ (by decide)⟩

abbrev barCell (c : Dev nD) : GSem nD τ sig := ((c : Thread nD τ), .reg barS)
abbrev sendCell (c : Dev nD) (d : ℕ) : GSem nD τ sig := ((c : Thread nD τ), .dma (sendS d))
abbrev recvCell (c : Dev nD) (d : ℕ) : GSem nD τ sig := ((c : Thread nD τ), .dma (recvS d))

/-- Which transfer a send semaphore belongs to. -/
def sendIdx : SemLoc sig → Option ℕ
  | .dma q => if 3 ≤ q.val ∧ q.val ≤ 33 then some (q.val - 2) else none
  | _ => none
/-- Which transfer a receive semaphore belongs to. -/
def recvIdx : SemLoc sig → Option ℕ
  | .dma q => if 34 ≤ q.val ∧ q.val ≤ 64 then some (q.val - 33) else none
  | _ => none

/-- The credit of one row's transfer. -/
abbrev N : ℕ := (rowM 0).view.dmaCredit

/-! ## Contents -/

/-- Block `n` of device `c`'s argument, as the region finds it. -/
def xb (c : Dev nD) (n : ℕ) : Vec F S256x1024 .f32 := iblk m c 0 ⟨n % 8, Nat.mod_lt _ (by decide)⟩

abbrev Tbl : Type := (cc0_scratch0 : Ref sig .tc).ty.Contents (Elt F)

/-- The table device `c` ends with, and its table while it still accumulates. -/
def tblFin (c : Dev nD) : Tbl (F := F) := table (xb m) c
def tblAcc (c : Dev nD) (n : ℕ) : Tbl (F := F) := accTable (xb m) c n

/-! ## Shares of row 0: one per transfer, split off a remainder -/

def remSh : ℕ → PosShare TreeShare
  | 0 => fullShare
  | n + 1 => (remSh n).right
/-- The share transfer `d` reads row 0 through. -/
def qs (d : ℕ) : PosShare TreeShare := (remSh (d - 1)).left

theorem remSh_split (n : ℕ) : remSh n ∈ qs (n + 1) ·? remSh (n + 1) := by
  show remSh n ∈ (remSh n).left ·? (remSh n).right
  exact PosShare.mem_left_op_right _

/-! ## Points-to of a row -/

def rowPts (c : Dev nD) (d : ℕ) (q : PosShare TreeShare) (f : Buf (Elt F) ((rowM d).view.loc (c : Thread nD τ))) : sProp 𝕄 :=
  (rowM d).view.loc (c : Thread nD τ) ↦[(rowM d).view.set]{q} f

/-! ## The schedule -/

/-- What device `p`'s signal hands `o`: the row of `p`'s table that `o` writes, and that `p` is at round 0 of the
    receive cell `o`'s transfer credits. -/
def barPay (o p : Dev nD) : sProp 𝕄 :=
  iprop((∃ f, rowPts p (dist o p) fullShare f) ∗ reached ER (recvCell p (dist o p)) 0)
/-- What the send cell of transfer `d` returns: the share of row 0 the transfer read through. -/
def sendPay (c : Dev nD) (d : ℕ) : sProp 𝕄 := rowPts c 0 (qs d) (tblFin m c)
/-- What the receive cell of transfer `d` delivers: row `d` holding the sender's partial sum. -/
def recvPay (c : Dev nD) (d : ℕ) : sProp 𝕄 := rowPts c d fullShare (tblFin m c)

def xferPay (c : Dev nD) (s : SemLoc sig) : sProp 𝕄 :=
  match sendIdx s, recvIdx s with
  | some d, _ => sendPay m c d
  | none, some d => recvPay m c d
  | none, none => iprop(emp)

/-- One round: a barrier cell has one unit duty per other device; a send or receive cell the one duty named by
    device 0, of a row's credit. -/
def Rd : Rounds.Schedule (GSem nD τ sig) (Dev nD) 𝕄 where
  duties g r :=
    if r = 0 ∧ g.1.2 = .tc then
      (if g.2 = .reg barS then Finset.univ.erase g.1.1
       else if (sendIdx g.2).isSome ∨ (recvIdx g.2).isSome then {0} else ∅)
    else ∅
  unitless _ := False
  amount g _ _ := if g.2 = .reg barS then 1 else N
  payload g _ p := if g.2 = .reg barS then barPay g.1.1 p else xferPay m g.1.1 g.2
  amount_pos g _ _ _ := by
    by_cases h : g.2 = .reg barS
    · rw [if_pos h]; exact Nat.one_pos
    · rw [if_neg h]; exact View.dmaCredit_pos _ (by decide)

end Cert.Kernel.AllSum

end
-- ==== Proof.K.Data.lean ====
/-
  What each device owes, the levels, the ghost state it carries, and the proof data over the eight grid points.

  Before point 0 a device owes a unit to every other device's barrier cell and a row's credit to the receive cell of
  each of its 31 transfers; the signals go out at point 0, the transfers at point 7.  Between the points it carries
  row 0 of its table at the running sum; rows 1 … 31 it gives away with its signals.
-/
import proofs.«901084_g7700000000001085_dist_sum_ax0_shard0_i_m2048_n1024_v7x_i32_bf16_1_alg».proof.Proof.K.Proto

noncomputable section

namespace Cert.Kernel.AllSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The offsets of the 31 signals and of the 31 transfers, in program order. -/
abbrev ds : List ℕ := List.range' 1 31

/-! ## What a device owes -/

/-- The receive credits of the transfers `l` still to start. -/
def owedXfer (c : Dev nD) : List ℕ → CellTallies nD τ sig Unit
  | [] => 0
  | d :: l => owedXfer c l + tallyAt (recvCell (peer c d) d) () N
/-- `base` and a unit on the barrier cell of each device the signals `l` still to send address. -/
def owedSig (c : Dev nD) (base : CellTallies nD τ sig Unit) : List ℕ → CellTallies nD τ sig Unit
  | [] => base
  | j :: l => owedSig c base l + tallyAt (barCell (peer c j)) () 1

def O₁ (c : Dev nD) : CellTallies nD τ sig Unit := owedXfer c ds
def O₀ (c : Dev nD) : CellTallies nD τ sig Unit := owedSig c (O₁ c) ds

/-! ## Levels: barrier cells at 1, receive cells at 2, everything else at 0 -/

def L (g : GSem nD τ sig) : Finset Unit := if g.1.2 = .tc then {()} else ∅
def lv (g : GSem nD τ sig) (_ : Unit) : ℕ := if g.2 = .reg barS then 1 else if (recvIdx g.2).isSome then 2 else 0

/-! ## The cells, indexed for the launch: 0 the barrier, 1 … 31 the sends, 32 … 62 the receives -/

def csem (k : Fin 63) : SemLoc sig :=
  if k.val = 0 then .reg barS else if k.val ≤ 31 then .dma (sendS k.val) else .dma (recvS (k.val - 31))
abbrev kcell (ck : Dev nD × Fin 63) : GSem nD τ sig := ((ck.1 : Thread nD τ), csem ck.2)

/-- Every cell's invariant under the names the launch allocated, and round 0 of every cell reached. -/
def records (K : Dev nD × Fin 63 → ℕ) : sProp 𝕄 :=
  iprop((bigSep Finset.univ fun ck : Dev nD × Fin 63 => cellInv ER (Rd m) (K ck) (kcell ck))
    ∗ bigSep Finset.univ fun ck : Dev nD × Fin 63 => reached ER (kcell ck) 0)

/-- What a device carries from point to point besides row 0: its positions, the tokens of its transfers' duties, its
    launch credit, the level facts. -/
def carried (c : Dev nD) : sProp 𝕄 :=
  iprop(atPos ER (barCell c) 0 ∅ 0
    ∗ bigSepL ds (fun d => atPos ER (sendCell c d) 0 ∅ 0)
    ∗ bigSepL ds (fun d => atPos ER (recvCell c d) 0 ∅ 0)
    ∗ bigSepL ds (fun d => iprop(dutyTok ER (sendCell c d) 0 (0 : Dev nD) ∗ dutyTok ER (recvCell (peer c d) d) 0 (0 : Dev nD)))
    ∗ cred (tallyAt (barCell c) () 31)
    ∗ bigSepL ds (fun d => cred (tallyAt (recvCell c d) () N))
    ∗ levAts L lv)

def ghost (K : Dev nD × Fin 63 → ℕ) (c : Dev nD) : sProp 𝕄 := iprop(records m K ∗ carried c)

/-- The tokens of a device's 31 signal duties. -/
def sigToks (c : Dev nD) (l : List ℕ) : sProp 𝕄 := bigSepL l (fun j => dutyTok ER (barCell (peer c j)) 0 c)

def scrWhole (c : Dev nD) (f : Tbl (F := F)) : sProp 𝕄 := (((c : Thread nD τ).loc cc0_scratch0) ↦{fullShare} f)

/-- Before point 0: everything, the table at any contents. -/
def Φstart (c : Dev nD) : sProp 𝕄 := iprop((∃ K, ghost m K c) ∗ sigToks c ds ∗ ∃ f, scrWhole c f)
/-- Before point `n`, `1 ≤ n ≤ 7`: row 0 holds the running sum after point `n - 1`. -/
def Φmid (c : Dev nD) (n : ℕ) : sProp 𝕄 := iprop((∃ K, ghost m K c) ∗ rowPts c 0 fullShare (tblAcc m c (n - 1)))
/-- After point 7: the whole table at its final contents, the 62 own cells closed at zero. -/
def Φend (c : Dev nD) : sProp 𝕄 :=
  iprop(scrWhole c (tblFin m c) ∗ bigSepL ds (fun d => semVal (sendCell c d) 0) ∗ bigSepL ds (fun d => semVal (recvCell c d) 0))

/-- The proof data of device `c`. -/
def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => outRow (xb m) c
  Φ t := if t.val = 0 then Φstart m c else if t.val = 8 then Φend m c else Φmid m c t.val
  q _ := fullShare
  owed t := if t.val = 0 then O₀ c else if t.val = 8 then 0 else O₁ c

/-- What a device owes, under some set of recorded waits. -/
def owesSome (c : Dev nD) (O : CellTallies nD τ sig Unit) : sProp 𝕄 := iprop(∃ W : Waits sig Unit, owes (c : Thread nD τ) O W)

abbrev 𝒱₀ : Variants := Variants.none

/-- The body obligation at one grid point. -/
def ObAt (c : Dev nD) (t : Fin cfg0.N) : Prop :=
  iprop((dats m 0 c).Φ t.castSucc ∗ (dats m 0 c).owesAt () t.castSucc
      ∗ bigSep Finset.univ fun w : Fin cfg0.W =>
          iprop(∃ d, owns (c : Thread nD τ) ((cfg0.win w).stage (cfg0.slots t w)) fullShare ((dats m 0 c).before w t d)))
    ⊢ wp frame (wpE (defs₀ (F := F)) 𝒱₀ (c : Thread nD τ) none) Set.univ (defs₀ (F := F) .tc cfg0.body (cfg0.bodyArgs t (cfg0.slots t))) fun _ =>
        iprop((dats m 0 c).Φ t.succ ∗ (dats m 0 c).owesAt () t.succ
          ∗ bigSep Finset.univ fun w : Fin cfg0.W =>
              match cfg0.idle w (cfg0.grid.coords t) with
              | true =>
                match (cfg0.win w).flush t with
                | false => iprop(∃ d, owns (c : Thread nD τ) ((cfg0.win w).stage (cfg0.slots t w)) fullShare ((dats m 0 c).before w t d))
                | true => owns (c : Thread nD τ) ((cfg0.win w).stage (cfg0.slots t w)) fullShare ((dats m 0 c).after w t)
              | false => owns (c : Thread nD τ) ((cfg0.win w).stage (cfg0.slots t w)) fullShare ((dats m 0 c).after w t))

theorem bodyObligation_of (c : Dev nD) (h : ∀ t, ObAt m c t) : BodyObligation (dats (F := F) m 0 c) (defs₀ (F := F)) 𝒱₀ () Set.univ :=
  fun t => h t

end Cert.Kernel.AllSum

end
-- ==== Proof.K.Tables.lean ====
/-
  The schedule's tables read at the protocol's cells, the cells' indexing, and what the records hold of each cell.
-/
import proofs.«901084_g7700000000001085_dist_sum_ax0_shard0_i_m2048_n1024_v7x_i32_bf16_1_alg».proof.Proof.K.Data

noncomputable section

namespace Cert.Kernel.AllSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores apart -/

theorem sendIdx_send {d : ℕ} (hd : 1 ≤ d ∧ d ≤ 31) : sendIdx (.dma (sendS d) : SemLoc sig) = some d := by
  have h : (2 + d) % 65 = 2 + d := Nat.mod_eq_of_lt (by omega)
  show (if 3 ≤ (2 + d) % 65 ∧ (2 + d) % 65 ≤ 33 then some ((2 + d) % 65 - 2) else none) = some d
  rw [h, if_pos ⟨by omega, by omega⟩, Nat.add_sub_cancel_left]
theorem recvIdx_send {d : ℕ} (hd : 1 ≤ d ∧ d ≤ 31) : recvIdx (.dma (sendS d) : SemLoc sig) = none := by
  have h : (2 + d) % 65 = 2 + d := Nat.mod_eq_of_lt (by omega)
  show (if 34 ≤ (2 + d) % 65 ∧ (2 + d) % 65 ≤ 64 then some ((2 + d) % 65 - 33) else none) = none
  rw [h, if_neg (fun h' => by have := h'.1; omega)]
theorem sendIdx_recv {d : ℕ} (hd : 1 ≤ d ∧ d ≤ 31) : sendIdx (.dma (recvS d) : SemLoc sig) = none := by
  have h : (33 + d) % 65 = 33 + d := Nat.mod_eq_of_lt (by omega)
  show (if 3 ≤ (33 + d) % 65 ∧ (33 + d) % 65 ≤ 33 then some ((33 + d) % 65 - 2) else none) = none
  rw [h, if_neg (fun h' => by have := h'.2; omega)]
theorem recvIdx_recv {d : ℕ} (hd : 1 ≤ d ∧ d ≤ 31) : recvIdx (.dma (recvS d) : SemLoc sig) = some d := by
  have h : (33 + d) % 65 = 33 + d := Nat.mod_eq_of_lt (by omega)
  show (if 34 ≤ (33 + d) % 65 ∧ (33 + d) % 65 ≤ 64 then some ((33 + d) % 65 - 33) else none) = some d
  rw [h, if_pos ⟨by omega, by omega⟩, Nat.add_sub_cancel_left]
theorem send_ne_bar (d : ℕ) : (SemLoc.dma (sendS d) : SemLoc sig) ≠ .reg barS := fun h => by cases h
theorem recv_ne_bar (d : ℕ) : (SemLoc.dma (recvS d) : SemLoc sig) ≠ .reg barS := fun h => by cases h
theorem credit_row (d : ℕ) : (rowM d : Memref sig .tc .vmem S1x1024 .f32).view.dmaCredit = N := rfl
theorem N_pos : 0 < N := View.dmaCredit_pos _ (by decide)

/-! ## The tables -/

theorem duties_bar (c : Dev nD) : (Rd (F := F) m).duties (barCell c) 0 = Finset.univ.erase c := by
  dsimp only [Rd]
  rw [if_pos ⟨rfl, rfl⟩, if_pos rfl]
theorem duties_send (c : Dev nD) {d : ℕ} (hd : 1 ≤ d ∧ d ≤ 31) : (Rd (F := F) m).duties (sendCell c d) 0 = {(0 : Dev nD)} := by
  dsimp only [Rd]
  rw [if_pos ⟨rfl, rfl⟩, if_neg (send_ne_bar d), if_pos (Or.inl (by rw [sendIdx_send hd]; rfl))]
theorem duties_recv (c : Dev nD) {d : ℕ} (hd : 1 ≤ d ∧ d ≤ 31) : (Rd (F := F) m).duties (recvCell c d) 0 = {(0 : Dev nD)} := by
  dsimp only [Rd]
  rw [if_pos ⟨rfl, rfl⟩, if_neg (recv_ne_bar d), if_pos (Or.inr (by rw [recvIdx_recv hd]; rfl))]
theorem duties_later (g : GSem nD τ sig) : ∀ r, 1 ≤ r → (Rd (F := F) m).duties g r = ∅ := by
  intro r hr
  dsimp only [Rd]
  rw [if_neg (fun h => by have := h.1; omega)]
theorem amount_bar (c : Dev nD) (p : Dev nD) : (Rd (F := F) m).amount (barCell c) 0 p = 1 := by
  dsimp only [Rd]
  rw [if_pos rfl]
theorem amount_send (c : Dev nD) (d : ℕ) (p : Dev nD) : (Rd (F := F) m).amount (sendCell c d) 0 p = N := by
  dsimp only [Rd]
  rw [if_neg (send_ne_bar d)]
theorem amount_recv (c : Dev nD) (d : ℕ) (p : Dev nD) : (Rd (F := F) m).amount (recvCell c d) 0 p = N := by
  dsimp only [Rd]
  rw [if_neg (recv_ne_bar d)]
theorem expect_bar (c : Dev nD) : (Rd (F := F) m).expect (barCell c) 0 = 31 := by
  unfold Schedule.expect Schedule.amountOf
  rw [duties_bar, Finset.sum_congr rfl (fun p _ => amount_bar m c p), Finset.sum_const,
    Finset.card_erase_of_mem (Finset.mem_univ c), Finset.card_univ, Fintype.card_fin]
  rfl
theorem expect_send (c : Dev nD) {d : ℕ} (hd : 1 ≤ d ∧ d ≤ 31) : (Rd (F := F) m).expect (sendCell c d) 0 = N := by
  unfold Schedule.expect Schedule.amountOf
  rw [duties_send m c hd, Finset.sum_singleton, amount_send]
theorem expect_recv (c : Dev nD) {d : ℕ} (hd : 1 ≤ d ∧ d ≤ 31) : (Rd (F := F) m).expect (recvCell c d) 0 = N := by
  unfold Schedule.expect Schedule.amountOf
  rw [duties_recv m c hd, Finset.sum_singleton, amount_recv]
theorem payload_bar (c p : Dev nD) : (Rd (F := F) m).payload (barCell c) 0 p = barPay c p := by
  dsimp only [Rd]
  rw [if_pos rfl]
theorem payload_send (c : Dev nD) {d : ℕ} (hd : 1 ≤ d ∧ d ≤ 31) (p : Dev nD) : (Rd (F := F) m).payload (sendCell c d) 0 p = sendPay m c d := by
  dsimp only [Rd]
  rw [if_neg (send_ne_bar d)]
  unfold xferPay
  rw [sendIdx_send hd]
theorem payload_recv (c : Dev nD) {d : ℕ} (hd : 1 ≤ d ∧ d ≤ 31) (p : Dev nD) : (Rd (F := F) m).payload (recvCell c d) 0 p = recvPay m c d := by
  dsimp only [Rd]
  rw [if_neg (recv_ne_bar d)]
  unfold xferPay
  rw [sendIdx_recv hd, recvIdx_recv hd]

/-- A chain over the image of a list is the chain of the composite. -/
theorem bigSepL_map {I J : Type} (f : I → J) (l : List I) (Φ : J → sProp 𝕄) :
    bigSepL (l.map f) Φ = bigSepL l (fun x => Φ (f x)) := by
  induction l with
  | nil => rfl
  | cons a l ih => rw [List.map_cons, bigSepL_cons, bigSepL_cons, ih]

/-- The other devices are the devices 1 … 31 places on. -/
theorem others_eq (c : Dev nD) : Finset.univ.erase c = (ds.map (peer c)).toFinset := by
  ext p
  rw [Finset.mem_erase, List.mem_toFinset, List.mem_map]
  constructor
  · rintro ⟨hne, -⟩
    have hc : c.val < 32 := c.isLt
    have hp : p.val < 32 := p.isLt
    have hv : p.val ≠ c.val := fun h => hne (Fin.ext h)
    refine ⟨dist c p, ?_, peer_dist c p⟩
    rw [List.mem_range'_1]
    unfold dist
    omega
  · rintro ⟨d, hd, rfl⟩
    rw [List.mem_range'_1] at hd
    exact ⟨peer_ne c hd.1 (by omega), Finset.mem_univ _⟩

theorem others_nodup (c : Dev nD) : (ds.map (peer c)).Nodup := by
  refine List.Nodup.map_on ?_ (List.nodup_range' (s := 1) (n := 31))
  intro x hx y hy h
  rw [List.mem_range'_1] at hx hy
  rw [← dist_peer c (d := x) (by omega), ← dist_peer c (d := y) (by omega), h]

/-- The whole of a barrier cell's round, no duty taken: every peer's payload, in the order of the offsets. -/
theorem rest_bar (c : Dev nD) :
    bigSep ((Rd (F := F) m).duties (barCell c) 0 \ ∅) (fun p => (Rd (F := F) m).payload (barCell c) 0 p) = bigSepL ds (fun d => barPay (F := F) c (peer c d)) := by
  rw [Finset.sdiff_empty, duties_bar, bigSep_congr (fun p _ => payload_bar m c p),
    bigSep_eq_bigSepL_of_eq (ds.map (peer c)) (others_eq c) (others_nodup c), bigSepL_map]
theorem rest_send (c : Dev nD) {d : ℕ} (hd : 1 ≤ d ∧ d ≤ 31) :
    bigSep ((Rd (F := F) m).duties (sendCell c d) 0 \ ∅) (fun p => (Rd (F := F) m).payload (sendCell c d) 0 p) = sendPay m c d := by
  rw [Finset.sdiff_empty, duties_send m c hd, bigSep_singleton, payload_send m c hd]
theorem rest_recv (c : Dev nD) {d : ℕ} (hd : 1 ≤ d ∧ d ≤ 31) :
    bigSep ((Rd (F := F) m).duties (recvCell c d) 0 \ ∅) (fun p => (Rd (F := F) m).payload (recvCell c d) 0 p) = recvPay m c d := by
  rw [Finset.sdiff_empty, duties_recv m c hd, bigSep_singleton, payload_recv m c hd]

/-! ## The cells' indexing -/

theorem kcell_bar (c : Dev nD) : kcell (c, (0 : Fin 63)) = barCell c := by
  show ((c : Thread nD τ), csem 0) = _
  unfold csem
  rw [if_pos (show ((0 : Fin 63) : ℕ) = 0 from rfl)]
theorem kcell_send (c : Dev nD) {d : ℕ} (hd : 1 ≤ d ∧ d ≤ 31) : kcell (c, (⟨d, by omega⟩ : Fin 63)) = sendCell c d := by
  show ((c : Thread nD τ), csem ⟨d, _⟩) = _
  unfold csem
  rw [if_neg (show ¬ d = 0 by omega), if_pos (show d ≤ 31 from hd.2)]
theorem kcell_recv (c : Dev nD) {d : ℕ} (hd : 1 ≤ d ∧ d ≤ 31) : kcell (c, (⟨d + 31, by omega⟩ : Fin 63)) = recvCell c d := by
  show ((c : Thread nD τ), csem ⟨d + 31, _⟩) = _
  unfold csem
  rw [if_neg (show ¬ d + 31 = 0 by omega), if_neg (show ¬ d + 31 ≤ 31 by omega)]
  show ((c : Thread nD τ), SemLoc.dma (recvS (d + 31 - 31))) = _
  rw [Nat.add_sub_cancel]
/-- A cell's place in the indexing, read back off its semaphore: entry `k + 2` of the DMA semaphores for `k ≥ 1`. -/
def csemIdx : SemLoc sig → ℕ
  | .reg _ => 0
  | .dma q => q.val - 2

theorem csemIdx_csem (k : Fin 63) : csemIdx (csem k) = k.val := by
  have hk : k.val < 63 := k.isLt
  unfold csem
  by_cases h0 : k.val = 0
  · rw [if_pos h0, h0]; rfl
  · rw [if_neg h0]
    by_cases h1 : k.val ≤ 31
    · rw [if_pos h1]
      show (2 + k.val) % 65 - 2 = k.val
      omega
    · rw [if_neg h1]
      show (33 + (k.val - 31)) % 65 - 2 = k.val
      omega

theorem kcell_injective : Function.Injective (kcell : Dev nD × Fin 63 → GSem nD τ sig) := by
  rintro ⟨c, k⟩ ⟨c', k'⟩ h
  have h1 : c = c' := congrArg (fun g : GSem nD τ sig => g.1.1) h
  have h2 : csem k = csem k' := congrArg (fun g : GSem nD τ sig => g.2) h
  have h3 : k.val = k'.val := by rw [← csemIdx_csem k, ← csemIdx_csem k', h2]
  rw [h1, Fin.ext h3]

/-! ## What the records hold -/

theorem inv_bar (K : Dev nD × Fin 63 → ℕ) (c : Dev nD) : records (F := F) m K ⊢ cellInv ER (Rd m) (K (c, 0)) (barCell c) := by
  rw [← kcell_bar c]
  unfold records
  exact (Idealize.SL.BI.Entails.trans Idealize.SL.BI.sep_and and_elimL).trans (bigSep_elim (Finset.mem_univ (c, (0 : Fin 63))))
theorem inv_send (K : Dev nD × Fin 63 → ℕ) (c : Dev nD) {d : ℕ} (hd : 1 ≤ d ∧ d ≤ 31) :
    records (F := F) m K ⊢ cellInv ER (Rd m) (K (c, ⟨d, by omega⟩)) (sendCell c d) := by
  rw [← kcell_send c hd]
  unfold records
  exact (Idealize.SL.BI.Entails.trans Idealize.SL.BI.sep_and and_elimL).trans (bigSep_elim (Finset.mem_univ _))
theorem inv_recv (K : Dev nD × Fin 63 → ℕ) (c : Dev nD) {d : ℕ} (hd : 1 ≤ d ∧ d ≤ 31) :
    records (F := F) m K ⊢ cellInv ER (Rd m) (K (c, ⟨d + 31, by omega⟩)) (recvCell c d) := by
  rw [← kcell_recv c hd]
  unfold records
  exact (Idealize.SL.BI.Entails.trans Idealize.SL.BI.sep_and and_elimL).trans (bigSep_elim (Finset.mem_univ _))
theorem reached_bar (K : Dev nD × Fin 63 → ℕ) (c : Dev nD) : records (F := F) m K ⊢ reached ER (barCell c) 0 := by
  rw [← kcell_bar c]
  unfold records
  exact (Idealize.SL.BI.Entails.trans Idealize.SL.BI.sep_and and_elimR).trans (bigSep_elim (Finset.mem_univ (c, (0 : Fin 63))))
theorem reached_send (K : Dev nD × Fin 63 → ℕ) (c : Dev nD) {d : ℕ} (hd : 1 ≤ d ∧ d ≤ 31) : records (F := F) m K ⊢ reached ER (sendCell c d) 0 := by
  rw [← kcell_send c hd]
  unfold records
  exact (Idealize.SL.BI.Entails.trans Idealize.SL.BI.sep_and and_elimR).trans (bigSep_elim (Finset.mem_univ _))
theorem reached_recv (K : Dev nD × Fin 63 → ℕ) (c : Dev nD) {d : ℕ} (hd : 1 ≤ d ∧ d ≤ 31) : records (F := F) m K ⊢ reached ER (recvCell c d) 0 := by
  rw [← kcell_recv c hd]
  unfold records
  exact (Idealize.SL.BI.Entails.trans Idealize.SL.BI.sep_and and_elimR).trans (bigSep_elim (Finset.mem_univ _))
instance records_persistent (K : Dev nD × Fin 63 → ℕ) : BI.Persistent (records (F := F) m K) := by unfold records; infer_instance

end Cert.Kernel.AllSum

end

/-- info: 'Cert.Kernel.AllSum.kcell_injective' depends on axioms: [propext, Classical.choice, Quot.sound] -/
#guard_msgs in #print axioms Cert.Kernel.AllSum.kcell_injective

/-- info: 'Cert.Kernel.AllSum.inv_recv' depends on axioms: [propext, Classical.choice, Quot.sound] -/
#guard_msgs in #print axioms Cert.Kernel.AllSum.inv_recv

/-- info: 'Cert.Kernel.AllSum.rest_bar' depends on axioms: [propext, Classical.choice, Quot.sound] -/
#guard_msgs in #print axioms Cert.Kernel.AllSum.rest_bar
-- ==== Proof.K.StepsA.lean ====
/-
  The signal to a peer's barrier cell and the wait on one's own barrier cell, each as a rule for the operation at the
  head of a program, and the level evidence a wait presents: everything a device owes lies on barrier cells (level 1)
  and on receive cells (level 2), so its barrier wait (level 1) may run while it owes receive credits only, and a wait
  on a cell that is neither (level 0) may run whatever it owes.
-/
import proofs.«901084_g7700000000001085_dist_sum_ax0_shard0_i_m2048_n1024_v7x_i32_bf16_1_alg».proof.Proof.K.Tables

noncomputable section

namespace Cert.Kernel.AllSum.StepsA

open Cert.Kernel Cert.Kernel.Gen Cert.Kernel.AllSum
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-! ## Where a device owes -/

theorem mem_ds {d : ℕ} (h : d ∈ ds) : 1 ≤ d ∧ d ≤ 31 := by
  have h' := List.mem_range'_1.mp h
  omega

/-- A positive entry of the receive credits of the transfers `l` sits at the receive cell of one of them. -/
theorem owedXfer_pos (c : Dev nD) : ∀ (l : List ℕ) {g : GSem nD τ sig} {u : Unit}, 0 < owedXfer c l g u →
    ∃ d ∈ l, g = recvCell (peer c d) d
  | [], g, u, h => by
    exfalso
    rw [show owedXfer c [] = 0 from rfl, Pi.zero_apply, Finsupp.coe_zero, Pi.zero_apply] at h
    exact Nat.lt_irrefl 0 h
  | d :: l, g, u, h => by
    rw [show owedXfer c (d :: l) = owedXfer c l + tallyAt (recvCell (peer c d) d) () N from rfl,
      Pi.add_apply, Finsupp.add_apply, tallyAt_apply] at h
    by_cases hg : g = recvCell (peer c d) d ∧ u = ()
    · exact ⟨d, List.mem_cons_self, hg.1⟩
    · rw [if_neg hg, Nat.add_zero] at h
      obtain ⟨d', hd', e⟩ := owedXfer_pos c l h
      exact ⟨d', List.mem_cons_of_mem _ hd', e⟩

/-- A positive entry of what the signals `l` add to `base` is one of `base` or sits at a barrier cell. -/
theorem owedSig_pos (c : Dev nD) (base : CellTallies nD τ sig Unit) : ∀ (l : List ℕ) {g : GSem nD τ sig} {u : Unit},
    0 < owedSig c base l g u → 0 < base g u ∨ ∃ j, g = barCell (peer c j)
  | [], g, u, h => Or.inl h
  | j :: l, g, u, h => by
    rw [show owedSig c base (j :: l) = owedSig c base l + tallyAt (barCell (peer c j)) () 1 from rfl,
      Pi.add_apply, Finsupp.add_apply, tallyAt_apply] at h
    by_cases hg : g = barCell (peer c j) ∧ u = ()
    · exact Or.inr ⟨j, hg.1⟩
    · rw [if_neg hg, Nat.add_zero] at h
      exact owedSig_pos c base l h

theorem O₁_pos {c : Dev nD} {g : GSem nD τ sig} {u : Unit} (h : 0 < O₁ c g u) :
    ∃ d, (1 ≤ d ∧ d ≤ 31) ∧ g = recvCell (peer c d) d := by
  obtain ⟨d, hd, e⟩ := owedXfer_pos c ds h
  exact ⟨d, mem_ds hd, e⟩

theorem O₀_pos {c : Dev nD} {g : GSem nD τ sig} {u : Unit} (h : 0 < O₀ c g u) :
    (∃ d, (1 ≤ d ∧ d ≤ 31) ∧ g = recvCell (peer c d) d) ∨ ∃ j, g = barCell (peer c j) := by
  rcases owedSig_pos c (O₁ c) ds h with h' | h'
  · exact Or.inl (O₁_pos h')
  · exact Or.inr h'

/-! ## The levels at our cells -/

theorem mem_L_tc (p : Dev nD) (sm : SemLoc sig) (u : Unit) : u ∈ L ((p : Thread nD τ), sm) := by
  rw [show L ((p : Thread nD τ), sm) = {()} from if_pos rfl]; exact Finset.mem_singleton_self _

theorem lv_bar (p : Dev nD) (u : Unit) : lv (barCell p) u = 1 := by
  dsimp only [lv]; rw [if_pos rfl]

theorem lv_recv (p : Dev nD) {d : ℕ} (hd : 1 ≤ d ∧ d ≤ 31) (u : Unit) : lv (recvCell p d) u = 2 := by
  dsimp only [lv]; rw [if_neg (recv_ne_bar d), recvIdx_recv hd]; rfl

/-- At its barrier wait a device owes receive credits only: receive cells, above its barrier cell. -/
theorem mayWait_bar (c : Dev nD) : (levAts L lv : sProp 𝕄) ⊢ MayWait (c : Thread nD τ) (.reg barS) () (O₁ c) :=
  MayOwe.of_cut (L := L) (lev := lv) 1
    (fun p hp => by rw [Finset.mem_singleton.mp hp]; exact mem_L_tc c _ _)
    (fun g u hg => by obtain ⟨d, hd, rfl⟩ := O₁_pos hg; exact mem_L_tc _ _ _)
    (fun p hp => by rw [Finset.mem_singleton.mp hp]; exact le_of_eq (lv_bar c ()))
    (fun g u hg => by obtain ⟨d, hd, rfl⟩ := O₁_pos hg; rw [lv_recv _ hd]; decide)

/-- A wait on a cell that is neither a barrier nor a receive cell sits below everything a device ever owes. -/
theorem mayWait_stage (c : Dev nD) (q : DmaSem sig) (hq : recvIdx (.dma q : SemLoc sig) = none) (O : CellTallies nD τ sig Unit)
    (hO : O = O₀ c ∨ O = O₁ c ∨ O = 0) : (levAts L lv : sProp 𝕄) ⊢ MayWait (c : Thread nD τ) (.dma q) () O := by
  have hlow : lv ((c : Thread nD τ), SemLoc.dma q) () ≤ 0 := by
    dsimp only [lv]; rw [if_neg (fun h => by cases h), hq]; exact le_of_eq rfl
  have key : ∀ O' : CellTallies nD τ sig Unit,
      (∀ (g : GSem nD τ sig) (u : Unit), 0 < O' g u → (∃ d, (1 ≤ d ∧ d ≤ 31) ∧ g = recvCell (peer c d) d) ∨ ∃ j, g = barCell (peer c j)) →
      (levAts L lv : sProp 𝕄) ⊢ MayWait (c : Thread nD τ) (.dma q) () O' := fun O' hpos =>
    MayOwe.of_cut (L := L) (lev := lv) 0
      (fun p hp => by rw [Finset.mem_singleton.mp hp]; exact mem_L_tc c _ _)
      (fun g u hg => by
        rcases hpos g u hg with ⟨d, hd, rfl⟩ | ⟨j, rfl⟩ <;> exact mem_L_tc _ _ _)
      (fun p hp => by rw [Finset.mem_singleton.mp hp]; exact hlow)
      (fun g u hg => by
        rcases hpos g u hg with ⟨d, hd, rfl⟩ | ⟨j, rfl⟩
        · rw [lv_recv _ hd]; decide
        · rw [lv_bar]; decide)
  rcases hO with rfl | rfl | rfl
  · exact key _ fun g u hg => O₀_pos hg
  · exact key _ fun g u hg => Or.inl (O₁_pos hg)
  · rw [MayWait_zero]; iintro -; iempintro

/-! ## The two steps -/

/-- Signal number `j`: to the device `j` places on, paying this device's duty on that device's barrier cell with the
    row of its own table that device will write, row `32 - j`. -/
theorem sig_step (m : (ℓ : Loc nD τ sig) → Buf (Elt F) ℓ) (K : Dev nD × Fin 63 → ℕ) (c : Dev nD) (j : ℕ) (hj : 1 ≤ j ∧ j ≤ 31)
    (l : List ℕ) (base : CellTallies nD τ sig Unit) (k' : ℕ) (hk' : k' = 1)
    {α : Type} {Q : α → sProp 𝕄} {k : PUnit → Prog (TpuEff nD τ sig (Elt F) Λ₀ .tc) α} :
    iprop(records m K ∗ owesSome c (owedSig c base (j :: l)) ∗ sigToks c (j :: l) ∗ (∃ f, rowPts c (32 - j) fullShare f))
      ⊢ iprop((iprop(owesSome c (owedSig c base l) ∗ sigToks c l) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c j : Thread nD τ) barS k') k) Q) := by
  subst hk'
  rw [show sigToks (F := F) c (j :: l) = iprop(dutyTok ER (barCell (peer c j)) 0 c ∗ sigToks c l) from bigSepL_cons _ _ _]
  unfold owesSome
  iintro ⟨#Hrec, ⟨%W, HO⟩, ⟨Htok, Htoks⟩, Hrow⟩ Hk
  iapply (Rounds.wp_signal 𝒱₀ ER (Rd m) (c : Thread nD τ) none (dst := (peer c j : Thread nD τ)) (κ := K (peer c j, 0))
      (d := c) (by rw [duties_bar]; exact Finset.mem_erase.mpr ⟨(peer_ne c hj.1 hj.2).symm, Finset.mem_univ _⟩)
      (amount_bar m (peer c j) c) () (owedSig c base l) rfl) $$ [HO Htok Hrow]
  · isplitr; · iapply (inv_bar m K (peer c j)); iexact Hrec
    isplitl [HO]; · iexact HO
    isplitl [Htok]; · iexact Htok
    isplitl [Hrow]
    · rw [payload_bar]; unfold barPay; rw [dist_peer_rev c hj.1 hj.2]
      isplitl [Hrow]; · iexact Hrow
      iapply (reached_recv m K c (d := 32 - j) ⟨by omega, by omega⟩); iexact Hrec
    · iapply (reached_bar m K (peer c j)); iexact Hrec
  iintro HO
  iapply Hk
  isplitl [HO]; · iexists W; iexact HO
  iexact Htoks

/-- The wait for all 31 units of one's own barrier cell, owing the 31 receive credits: every peer's row comes with it. -/
theorem bar_wait (m : (ℓ : Loc nD τ sig) → Buf (Elt F) ℓ) (K : Dev nD × Fin 63 → ℕ) (c : Dev nD) (k' : ℕ) (hk' : k' = 31)
    {α : Type} {Q : α → sProp 𝕄} {k : PUnit → Prog (TpuEff nD τ sig (Elt F) Λ₀ .tc) α} :
    iprop(records m K ∗ cred (tallyAt (barCell c) () 31) ∗ owesSome c (O₁ c) ∗ levAts L lv ∗ atPos ER (barCell c) 0 ∅ 0)
      ⊢ iprop((iprop(owesSome c (O₁ c) ∗ bigSepL ds (fun d => barPay c (peer c d))) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold owesSome
  iintro ⟨#Hrec, Hc, ⟨%W, HO⟩, #Hlev, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := O₁ c) (W := W) (R := 0) (m := 0) (T := ∅)
      (by rw [expect_bar])) $$ [Hc HO Hat]
  · isplitr; · iapply (inv_bar m K c); iexact Hrec
    isplitl [Hc]; · iexact Hc
    isplitl [HO]; · iexact HO
    isplitr; · iapply (mayWait_bar c); iexact Hlev
    iexact Hat
  iintro ⟨HO, -, -, Hpay⟩
  ihave Hp := (Entails.of_eq (rest_bar m c)) $$ Hpay
  iapply Hk
  isplitl [HO]; · iexists _; iexact HO
  iexact Hp

end Cert.Kernel.AllSum.StepsA

end

/-- info: 'Cert.Kernel.AllSum.StepsA.bar_wait' depends on axioms: [propext, Classical.choice, Quot.sound] -/
#guard_msgs in #print axioms Cert.Kernel.AllSum.StepsA.bar_wait

/-- info: 'Cert.Kernel.AllSum.StepsA.sig_step' depends on axioms: [propext, Classical.choice, Quot.sound] -/
#guard_msgs in #print axioms Cert.Kernel.AllSum.StepsA.sig_step

/-- info: 'Cert.Kernel.AllSum.StepsA.mayWait_stage' depends on axioms: [propext, Classical.choice, Quot.sound] -/
#guard_msgs in #print axioms Cert.Kernel.AllSum.StepsA.mayWait_stage
-- ==== Proof.K.StepsB.lean ====
/-
  The transfer and the two waits that follow it, each as a rule for the operation at the head of a program.

  Transfer number `d` reads row 0 of the sender's table through a share split off the remainder and writes row `d`
  of the device `d` places on; what lands there is the sender's partial sum, which is that device's final row `d`.
  The wait on the send cell returns the share, the wait on the receive cell delivers the row; each wait takes the
  whole of its cell's one round, after which the cell has no duty left and closes with its counter at zero.
-/
import proofs.«901084_g7700000000001085_dist_sum_ax0_shard0_i_m2048_n1024_v7x_i32_bf16_1_alg».proof.Proof.K.Tables
import Idealize.ShloMosaic.Lib.Pipeline.Value

noncomputable section

namespace Cert.Kernel.AllSum.StepsB

open Cert.Kernel Cert.Kernel.Gen Cert.Kernel.AllSum
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-! ## The transfer -/

/-- A value carried to an equal type and back is itself. -/
theorem cast_cast_self {α β : Type} (h₁ : α = β) (h₂ : β = α) (x : α) : _root_.cast h₂ (_root_.cast h₁ x) = x := by
  subst h₁; rfl

/-- What lands in row `d` of the device `d` places on, whatever stood there: at every index of that row, row 0 of the
    sender's final table, which is the sender's partial sum, and so the receiver's final row `d`. -/
theorem landed_row (m : (ℓ : Loc nD τ sig) → Buf (Elt F) ℓ) (c : Dev nD) (d : ℕ) (hd : 1 ≤ d ∧ d ≤ 31)
    (fd : Buf (Elt F) ((rowM d : Memref sig .tc .vmem S1x1024 .f32).view.loc (Dev.tc (peer c d) : Thread nD τ))) :
    ∀ i ∈ (rowM d : Memref sig .tc .vmem S1x1024 .f32).view.set,
      (rowM d : Memref sig .tc .vmem S1x1024 .f32).view.write (Elt F) fd
          ((rowM 0 : Memref sig .tc .vmem S1x1024 .f32).view.read (Elt F) (tblFin m c)) Finset.univ i
        = tblFin m (peer c d) i := by
  intro i hi
  obtain ⟨y, rfl⟩ := View.exists_emb_of_mem_set _ hi
  rw [View.write_emb_of_mem _ _ (Finset.mem_univ y)]
  show _root_.cast _ (_root_.cast _ (tblFin m c ((rowM 0 : Memref sig .tc .vmem S1x1024 .f32).view.emb y)))
    = tblFin m (peer c d) ((rowM d : Memref sig .tc .vmem S1x1024 .f32).view.emb y)
  refine (cast_cast_self _ _ _).trans ?_
  have key : ∀ (i₀ i₁ : S32x1024.Idx), (i₀ 0).val = 0 → (i₁ 0).val = d → i₀ 1 = i₁ 1 →
      tblFin m c i₀ = tblFin m (peer c d) i₁ := by
    intro i₀ i₁ e0 ed e1
    show part (xb m) (back c (i₀ 0).val) (ix2 (0 : Fin 1) (i₀ 1)) = part (xb m) (back (peer c d) (i₁ 0).val) (ix2 (0 : Fin 1) (i₁ 1))
    rw [e0, ed, e1, back_zero, back_peer]
  have hy : (y 0).val < 1 := (y 0).isLt
  refine key _ _ ?_ ?_ (Fin.ext rfl)
  · show 0 % 32 + 1 * (y 0).val = 0
    omega
  · show d % 32 + 1 * (y 0).val = d
    omega

/-- Transfer number `d`: row 0, read through the share `qs d` split off the remainder, into row `d` of the device `d`
    places on. -/
theorem send_step (m : (ℓ : Loc nD τ sig) → Buf (Elt F) ℓ) (K : Dev nD × Fin 63 → ℕ) (c : Dev nD) (d : ℕ) (hd : 1 ≤ d ∧ d ≤ 31) (l : List ℕ)
    {hsc : (rowM d : Memref sig (Dev.tc (peer c d) : Thread nD τ).2.kind .vmem S1x1024 .f32).view.ref.isScScratch = false}
    {hsrc : (rowM 0 : Memref sig .tc .vmem S1x1024 .f32).view.WordExact} {hdst : (rowM d : Memref sig .tc .vmem S1x1024 .f32).view.WordExact}
    {hsem : DmaTarget.Typed .vmem (.dma (recvS d)) (.remote (Dev.tc (peer c d) : Thread nD τ) (rowM d : Memref sig .tc .vmem S1x1024 .f32) (.dma (sendS d)) hsc)}
    {α : Type} {Q : α → sProp 𝕄} {k : PUnit → Prog (TpuEff nD τ sig (Elt F) Λ₀ .tc) α} :
    iprop(records m K ∗ rowPts c 0 (remSh (d - 1)) (tblFin m c) ∗ barPay c (peer c d)
        ∗ owesSome c (owedXfer c (d :: l)) ∗ dutyTok ER (sendCell c d) 0 (0 : Dev nD) ∗ dutyTok ER (recvCell (peer c d) d) 0 (0 : Dev nD))
      ⊢ iprop((iprop(rowPts c 0 (remSh d) (tblFin m c) ∗ cred (tallyAt (sendCell c d) () N) ∗ owesSome c (owedXfer c l))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0) (.remote (Dev.tc (peer c d) : Thread nD τ) (rowM d) (.dma (sendS d)) hsc) (.dma (recvS d)) hsrc hdst hsem) k) Q) := by
  have hsh : remSh (d - 1) ∈ qs d ·? remSh d := by
    have h := remSh_split (d - 1)
    rwa [Nat.sub_add_cancel hd.1] at h
  have hd₁ : (0 : Dev nD) ∈ (Rd (F := F) m).duties (sendCell c d) 0 := by rw [duties_send m c hd]; exact Finset.mem_singleton_self _
  have hd₂ : (0 : Dev nD) ∈ (Rd (F := F) m).duties (recvCell (peer c d) d) 0 := by rw [duties_recv m (peer c d) hd]; exact Finset.mem_singleton_self _
  have hN : (rowM d : Memref sig .tc .vmem S1x1024 .f32).view.amount (.dma (recvS d)) = N := credit_row d
  have hpay₁ : (((rowM 0 : Memref sig .tc .vmem S1x1024 .f32).view.loc (c : Thread nD τ)) ↦[(rowM 0 : Memref sig .tc .vmem S1x1024 .f32).view.set]{qs d} (tblFin m c) : sProp 𝕄)
      ⊢ (Rd (F := F) m).payload (sendCell c d) 0 (0 : Dev nD) := by
    rw [payload_send m c hd]; exact Entails.rfl
  have hpay₂ : ∀ fd : Buf (Elt F) ((rowM d : Memref sig .tc .vmem S1x1024 .f32).view.loc (Dev.tc (peer c d) : Thread nD τ)),
      (((rowM d : Memref sig .tc .vmem S1x1024 .f32).view.loc (Dev.tc (peer c d) : Thread nD τ)) ↦[(rowM d : Memref sig .tc .vmem S1x1024 .f32).view.set]{fullShare}
          ((rowM d : Memref sig .tc .vmem S1x1024 .f32).view.write (Elt F) fd ((rowM 0 : Memref sig .tc .vmem S1x1024 .f32).view.read (Elt F) (tblFin m c)) Finset.univ) : sProp 𝕄)
      ⊢ (Rd (F := F) m).payload (recvCell (peer c d) d) 0 (0 : Dev nD) := by
    intro fd
    rw [payload_recv m (peer c d) hd, pointsTo_congr (landed_row m c d hd fd)]; exact Entails.rfl
  have hO : owedXfer c (d :: l) = owedXfer c l + tallyAt (recvCell (peer c d) d) () N := rfl
  unfold owesSome barPay rowPts
  rw [dist_peer c hd.2]
  iintro ⟨#Hrec, Hrow, ⟨⟨%fd, Hdst⟩, #Hr₂⟩, ⟨%W, How⟩, Htok₁, Htok₂⟩ HK
  ihave Hrow := (pointsTo_share hsh).1 $$ [Hrow]
  · iexact Hrow
  icases Hrow with ⟨Hq, Hrem⟩
  iapply (wp_send_pointsTo (Γ := .empty) (defs := defs₀ (F := F)) 𝒱₀ ER (Rd (F := F) m) (c : Thread nD τ) none
    (src := rowM 0) (dst := rowM d) (c' := (Dev.tc (peer c d) : Thread nD τ)) (q := qs d) (fs := tblFin m c) (fd := fd)
    (sS := .dma (sendS d)) (sem := .dma (recvS d)) (r₁ := 0) (r₂ := 0) (d₁ := (0 : Dev nD)) (d₂ := (0 : Dev nD))
    (κ₁ := K (c, ⟨d, by omega⟩)) (κ₂ := K (peer c d, ⟨d + 31, by omega⟩)) (W := W)
    hd₁ hd₂ () () N hN (amount_send m c d 0) (amount_recv m (peer c d) d 0) (owedXfer c l) hO hpay₁ (hpay₂ fd)) $$ [Hq Hdst How Htok₁ Htok₂]
  · isplitr; · iapply (inv_send m K c hd); iexact Hrec
    isplitr; · iapply (inv_recv m K (peer c d) hd); iexact Hrec
    isplitl [Hq]; · iexact Hq
    isplitl [Hdst]; · iexact Hdst
    isplitl [How]; · iexact How
    isplitl [Htok₁]; · iexact Htok₁
    isplitr; · iapply (reached_send m K c hd); iexact Hrec
    isplitl [Htok₂]; · iexact Htok₂
    iexact Hr₂
  iintro ⟨Hcr, How⟩
  iapply HK
  isplitl [Hrem]; · iexact Hrem
  isplitl [Hcr]; · iexact Hcr
  iexists _; iexact How

/-! ## The waits -/

/-- The wait on the send cell of transfer `d`, owing nothing: the share of row 0 comes back and the cell closes. -/
theorem waitS_step (m : (ℓ : Loc nD τ sig) → Buf (Elt F) ℓ) (K : Dev nD × Fin 63 → ℕ) (c : Dev nD) (d : ℕ) (hd : 1 ≤ d ∧ d ≤ 31) (a b : ℕ)
    {hsrc : (rowM a : Memref sig .tc .vmem S1x1024 .f32).view.WordExact} {hdst : (rowM b : Memref sig .tc .vmem S1x1024 .f32).view.WordExact}
    {α : Type} {Q : α → sProp 𝕄} {k : PUnit → Prog (TpuEff nD τ sig (Elt F) Λ₀ .tc) α} :
    iprop(records m K ∗ cred (tallyAt (sendCell c d) () N) ∗ owesSome c 0 ∗ atPos ER (sendCell c d) 0 ∅ 0)
      ⊢ iprop((iprop(owesSome c 0 ∗ rowPts c 0 (qs d) (tblFin m c) ∗ semVal (sendCell c d) 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS d) (rowM a) (rowM b) hsrc hdst) k) Q) := by
  have hk : 0 + (rowM b : Memref sig .tc .vmem S1x1024 .f32).view.dmaCredit = (Rd (F := F) m).expect (sendCell c d) 0 := by
    rw [Nat.zero_add, credit_row, expect_send m c hd]
  rw [← credit_row b]
  unfold owesSome
  iintro ⟨#Hrec, Hc, ⟨%W, How⟩, Hat⟩ HK
  iapply (wp_wait_rest_token 𝒱₀ ER (Rd (F := F) m) (c : Thread nD τ) none (wpE_waitDma2_eq 𝒱₀ (c : Thread nD τ) none Set.univ)
    (Set.mem_univ (K (c, ⟨d, by omega⟩))) () (O := 0) (W := W) (R := 0) (T := ∅) (m := 0) hk) $$ [Hc How Hat]
  · isplitr; · iapply (inv_send m K c hd); iexact Hrec
    isplitl [Hc]; · iexact Hc
    isplitl [How]; · iexact How
    isplitr; · rw [MayWait_zero]; iempintro
    iexact Hat
  iintro ⟨How, Hat, -, Hpay⟩
  have hrest : bigSep ((Rd (F := F) m).duties (sendCell c d) 0 \ ∅) (fun p => (Rd (F := F) m).payload (sendCell c d) 0 p)
      = rowPts c 0 (qs d) (tblFin m c) := rest_send m c hd
  ihave Hp := (Entails.of_eq hrest) $$ [Hpay]
  · iexact Hpay
  imod (cell_close ER (Rd (F := F) m) (g := sendCell c d) (Set.mem_univ (K (c, ⟨d, by omega⟩))) (fun h => h) (R := 0 + 1)
    (fun r hr => duties_later m _ r hr)) $$ [Hat] with Hz
  · isplitr; · iapply (inv_send m K c hd); iexact Hrec
    iexact Hat
  iapply HK
  isplitl [How]; · iexists _; iexact How
  isplitl [Hp]; · iexact Hp
  iexact Hz

/-- The wait on the receive cell of transfer `d`, owing nothing: row `d` comes holding the sender's partial sum and the
    cell closes. -/
theorem waitR_step (m : (ℓ : Loc nD τ sig) → Buf (Elt F) ℓ) (K : Dev nD × Fin 63 → ℕ) (c : Dev nD) (d : ℕ) (hd : 1 ≤ d ∧ d ≤ 31) (a b : ℕ)
    {hsrc : (rowM a : Memref sig .tc .vmem S1x1024 .f32).view.WordExact} {hdst : (rowM b : Memref sig .tc .vmem S1x1024 .f32).view.WordExact}
    {α : Type} {Q : α → sProp 𝕄} {k : PUnit → Prog (TpuEff nD τ sig (Elt F) Λ₀ .tc) α} :
    iprop(records m K ∗ cred (tallyAt (recvCell c d) () N) ∗ owesSome c 0 ∗ atPos ER (recvCell c d) 0 ∅ 0)
      ⊢ iprop((iprop(owesSome c 0 ∗ rowPts c d fullShare (tblFin m c) ∗ semVal (recvCell c d) 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS d) (rowM a) (rowM b) hsrc hdst) k) Q) := by
  have hk : 0 + (rowM b : Memref sig .tc .vmem S1x1024 .f32).view.dmaCredit = (Rd (F := F) m).expect (recvCell c d) 0 := by
    rw [Nat.zero_add, credit_row, expect_recv m c hd]
  rw [← credit_row b]
  unfold owesSome
  iintro ⟨#Hrec, Hc, ⟨%W, How⟩, Hat⟩ HK
  iapply (wp_wait_rest_token 𝒱₀ ER (Rd (F := F) m) (c : Thread nD τ) none (wpE_waitDma2_eq 𝒱₀ (c : Thread nD τ) none Set.univ)
    (Set.mem_univ (K (c, ⟨d + 31, by omega⟩))) () (O := 0) (W := W) (R := 0) (T := ∅) (m := 0) hk) $$ [Hc How Hat]
  · isplitr; · iapply (inv_recv m K c hd); iexact Hrec
    isplitl [Hc]; · iexact Hc
    isplitl [How]; · iexact How
    isplitr; · rw [MayWait_zero]; iempintro
    iexact Hat
  iintro ⟨How, Hat, -, Hpay⟩
  have hrest : bigSep ((Rd (F := F) m).duties (recvCell c d) 0 \ ∅) (fun p => (Rd (F := F) m).payload (recvCell c d) 0 p)
      = rowPts c d fullShare (tblFin m c) := rest_recv m c hd
  ihave Hp := (Entails.of_eq hrest) $$ [Hpay]
  · iexact Hpay
  imod (cell_close ER (Rd (F := F) m) (g := recvCell c d) (Set.mem_univ (K (c, ⟨d + 31, by omega⟩))) (fun h => h) (R := 0 + 1)
    (fun r hr => duties_later m _ r hr)) $$ [Hat] with Hz
  · isplitr; · iapply (inv_recv m K c hd); iexact Hrec
    iexact Hat
  iapply HK
  isplitl [How]; · iexists _; iexact How
  isplitl [Hp]; · iexact Hp
  iexact Hz

/-- info: 'Cert.Kernel.AllSum.StepsB.send_step' depends on axioms: [propext, Classical.choice, Quot.sound] -/
#guard_msgs in #print axioms send_step

/-- info: 'Cert.Kernel.AllSum.StepsB.waitS_step' depends on axioms: [propext, Classical.choice, Quot.sound] -/
#guard_msgs in #print axioms waitS_step

/-- info: 'Cert.Kernel.AllSum.StepsB.waitR_step' depends on axioms: [propext, Classical.choice, Quot.sound] -/
#guard_msgs in #print axioms waitR_step

end Cert.Kernel.AllSum.StepsB

end
-- ==== Proof.K.Steps.lean ====
/-
  One step of the protocol each, as a rule for the operation at the head of a program: a signal to a peer's barrier
  cell, the wait on one's own barrier cell, one transfer, and the wait on a send or a receive cell (which also closes
  the cell: its counter at zero is the device's again).
-/
import proofs.«901084_g7700000000001085_dist_sum_ax0_shard0_i_m2048_n1024_v7x_i32_bf16_1_alg».proof.Proof.K.StepsA
import proofs.«901084_g7700000000001085_dist_sum_ax0_shard0_i_m2048_n1024_v7x_i32_bf16_1_alg».proof.Proof.K.StepsB

noncomputable section

namespace Cert.Kernel.AllSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-- Signal number `j`: to the device `j` places on, paying this device's duty on that device's barrier cell with the
    row of its own table that device will write, row `32 - j`. -/
theorem sig_step (m : (ℓ : Loc nD τ sig) → Buf (Elt F) ℓ) (K : Dev nD × Fin 63 → ℕ) (c : Dev nD) (j : ℕ) (hj : 1 ≤ j ∧ j ≤ 31)
    (l : List ℕ) (base : CellTallies nD τ sig Unit) (k' : ℕ) (hk' : k' = 1)
    {α : Type} {Q : α → sProp 𝕄} {k : PUnit → Prog (TpuEff nD τ sig (Elt F) Λ₀ .tc) α} :
    iprop(records m K ∗ owesSome c (owedSig c base (j :: l)) ∗ sigToks c (j :: l) ∗ (∃ f, rowPts c (32 - j) fullShare f))
      ⊢ iprop((iprop(owesSome c (owedSig c base l) ∗ sigToks c l) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c j : Thread nD τ) barS k') k) Q) :=
  StepsA.sig_step m K c j hj l base k' hk'

/-- The wait for all 31 units of one's own barrier cell, owing the 31 receive credits: every peer's row comes with it. -/
theorem bar_wait (m : (ℓ : Loc nD τ sig) → Buf (Elt F) ℓ) (K : Dev nD × Fin 63 → ℕ) (c : Dev nD) (k' : ℕ) (hk' : k' = 31)
    {α : Type} {Q : α → sProp 𝕄} {k : PUnit → Prog (TpuEff nD τ sig (Elt F) Λ₀ .tc) α} :
    iprop(records m K ∗ cred (tallyAt (barCell c) () 31) ∗ owesSome c (O₁ c) ∗ levAts L lv ∗ atPos ER (barCell c) 0 ∅ 0)
      ⊢ iprop((iprop(owesSome c (O₁ c) ∗ bigSepL ds (fun d => barPay c (peer c d))) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) :=
  StepsA.bar_wait m K c k' hk'

/-- Transfer number `d`: row 0, read through the share `qs d` split off the remainder, into row `d` of the device `d`
    places on. -/
theorem send_step (m : (ℓ : Loc nD τ sig) → Buf (Elt F) ℓ) (K : Dev nD × Fin 63 → ℕ) (c : Dev nD) (d : ℕ) (hd : 1 ≤ d ∧ d ≤ 31) (l : List ℕ)
    {hsc : (rowM d : Memref sig (Dev.tc (peer c d) : Thread nD τ).2.kind .vmem S1x1024 .f32).view.ref.isScScratch = false}
    {hsrc : (rowM 0 : Memref sig .tc .vmem S1x1024 .f32).view.WordExact} {hdst : (rowM d : Memref sig .tc .vmem S1x1024 .f32).view.WordExact}
    {hsem : DmaTarget.Typed .vmem (.dma (recvS d)) (.remote (Dev.tc (peer c d) : Thread nD τ) (rowM d : Memref sig .tc .vmem S1x1024 .f32) (.dma (sendS d)) hsc)}
    {α : Type} {Q : α → sProp 𝕄} {k : PUnit → Prog (TpuEff nD τ sig (Elt F) Λ₀ .tc) α} :
    iprop(records m K ∗ rowPts c 0 (remSh (d - 1)) (tblFin m c) ∗ barPay c (peer c d)
        ∗ owesSome c (owedXfer c (d :: l)) ∗ dutyTok ER (sendCell c d) 0 (0 : Dev nD) ∗ dutyTok ER (recvCell (peer c d) d) 0 (0 : Dev nD))
      ⊢ iprop((iprop(rowPts c 0 (remSh d) (tblFin m c) ∗ cred (tallyAt (sendCell c d) () N) ∗ owesSome c (owedXfer c l))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0) (.remote (Dev.tc (peer c d) : Thread nD τ) (rowM d) (.dma (sendS d)) hsc) (.dma (recvS d)) hsrc hdst hsem) k) Q) :=
  StepsB.send_step m K c d hd l

/-- The wait on the send cell of transfer `d`, owing nothing: the share of row 0 comes back and the cell closes. -/
theorem waitS_step (m : (ℓ : Loc nD τ sig) → Buf (Elt F) ℓ) (K : Dev nD × Fin 63 → ℕ) (c : Dev nD) (d : ℕ) (hd : 1 ≤ d ∧ d ≤ 31) (a b : ℕ)
    {hsrc : (rowM a : Memref sig .tc .vmem S1x1024 .f32).view.WordExact} {hdst : (rowM b : Memref sig .tc .vmem S1x1024 .f32).view.WordExact}
    {α : Type} {Q : α → sProp 𝕄} {k : PUnit → Prog (TpuEff nD τ sig (Elt F) Λ₀ .tc) α} :
    iprop(records m K ∗ cred (tallyAt (sendCell c d) () N) ∗ owesSome c 0 ∗ atPos ER (sendCell c d) 0 ∅ 0)
      ⊢ iprop((iprop(owesSome c 0 ∗ rowPts c 0 (qs d) (tblFin m c) ∗ semVal (sendCell c d) 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS d) (rowM a) (rowM b) hsrc hdst) k) Q) :=
  StepsB.waitS_step m K c d hd a b

/-- The wait on the receive cell of transfer `d`, owing nothing: row `d` comes holding the sender's partial sum and the
    cell closes. -/
theorem waitR_step (m : (ℓ : Loc nD τ sig) → Buf (Elt F) ℓ) (K : Dev nD × Fin 63 → ℕ) (c : Dev nD) (d : ℕ) (hd : 1 ≤ d ∧ d ≤ 31) (a b : ℕ)
    {hsrc : (rowM a : Memref sig .tc .vmem S1x1024 .f32).view.WordExact} {hdst : (rowM b : Memref sig .tc .vmem S1x1024 .f32).view.WordExact}
    {α : Type} {Q : α → sProp 𝕄} {k : PUnit → Prog (TpuEff nD τ sig (Elt F) Λ₀ .tc) α} :
    iprop(records m K ∗ cred (tallyAt (recvCell c d) () N) ∗ owesSome c 0 ∗ atPos ER (recvCell c d) 0 ∅ 0)
      ⊢ iprop((iprop(owesSome c 0 ∗ rowPts c d fullShare (tblFin m c) ∗ semVal (recvCell c d) 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS d) (rowM a) (rowM b) hsrc hdst) k) Q) :=
  StepsB.waitR_step m K c d hd a b

end Cert.Kernel.AllSum

end
-- ==== Proof.K.DevTables.lean ====
import proofs.«901084_g7700000000001085_dist_sum_ax0_shard0_i_m2048_n1024_v7x_i32_bf16_1_alg».proof.Proof.Gen.Kernel

namespace Cert.Kernel.AllSum

open Cert.Kernel Cert.Kernel.Gen Idealize.ShloMosaic

/-- The device the printed arithmetic of signal number j addresses. -/
def sigDev (c : Dev nD) : Nat → Dev nD
  | 1 => ⟨k0_dev1 c, by revert c; decide⟩
  | 2 => ⟨k0_dev2 c, by revert c; decide⟩
  | 3 => ⟨k0_dev3 c, by revert c; decide⟩
  | 4 => ⟨k0_dev4 c, by revert c; decide⟩
  | 5 => ⟨k0_dev5 c, by revert c; decide⟩
  | 6 => ⟨k0_dev6 c, by revert c; decide⟩
  | 7 => ⟨k0_dev7 c, by revert c; decide⟩
  | 8 => ⟨k0_dev8 c, by revert c; decide⟩
  | 9 => ⟨k0_dev9 c, by revert c; decide⟩
  | 10 => ⟨k0_dev10 c, by revert c; decide⟩
  | 11 => ⟨k0_dev11 c, by revert c; decide⟩
  | 12 => ⟨k0_dev12 c, by revert c; decide⟩
  | 13 => ⟨k0_dev13 c, by revert c; decide⟩
  | 14 => ⟨k0_dev14 c, by revert c; decide⟩
  | 15 => ⟨k0_dev15 c, by revert c; decide⟩
  | 16 => ⟨k0_dev16 c, by revert c; decide⟩
  | 17 => ⟨k0_dev17 c, by revert c; decide⟩
  | 18 => ⟨k0_dev18 c, by revert c; decide⟩
  | 19 => ⟨k0_dev19 c, by revert c; decide⟩
  | 20 => ⟨k0_dev20 c, by revert c; decide⟩
  | 21 => ⟨k0_dev21 c, by revert c; decide⟩
  | 22 => ⟨k0_dev22 c, by revert c; decide⟩
  | 23 => ⟨k0_dev23 c, by revert c; decide⟩
  | 24 => ⟨k0_dev24 c, by revert c; decide⟩
  | 25 => ⟨k0_dev25 c, by revert c; decide⟩
  | 26 => ⟨k0_dev26 c, by revert c; decide⟩
  | 27 => ⟨k0_dev27 c, by revert c; decide⟩
  | 28 => ⟨k0_dev28 c, by revert c; decide⟩
  | 29 => ⟨k0_dev29 c, by revert c; decide⟩
  | 30 => ⟨k0_dev30 c, by revert c; decide⟩
  | 31 => ⟨k0_dev31 c, by revert c; decide⟩
  | _ => c

/-- The device the printed arithmetic of transfer number j addresses. -/
def xferDev (c : Dev nD) : Nat → Dev nD
  | 1 => ⟨k0_dev32 c, by revert c; decide⟩
  | 2 => ⟨k0_dev33 c, by revert c; decide⟩
  | 3 => ⟨k0_dev34 c, by revert c; decide⟩
  | 4 => ⟨k0_dev35 c, by revert c; decide⟩
  | 5 => ⟨k0_dev36 c, by revert c; decide⟩
  | 6 => ⟨k0_dev37 c, by revert c; decide⟩
  | 7 => ⟨k0_dev38 c, by revert c; decide⟩
  | 8 => ⟨k0_dev39 c, by revert c; decide⟩
  | 9 => ⟨k0_dev40 c, by revert c; decide⟩
  | 10 => ⟨k0_dev41 c, by revert c; decide⟩
  | 11 => ⟨k0_dev42 c, by revert c; decide⟩
  | 12 => ⟨k0_dev43 c, by revert c; decide⟩
  | 13 => ⟨k0_dev44 c, by revert c; decide⟩
  | 14 => ⟨k0_dev45 c, by revert c; decide⟩
  | 15 => ⟨k0_dev46 c, by revert c; decide⟩
  | 16 => ⟨k0_dev47 c, by revert c; decide⟩
  | 17 => ⟨k0_dev48 c, by revert c; decide⟩
  | 18 => ⟨k0_dev49 c, by revert c; decide⟩
  | 19 => ⟨k0_dev50 c, by revert c; decide⟩
  | 20 => ⟨k0_dev51 c, by revert c; decide⟩
  | 21 => ⟨k0_dev52 c, by revert c; decide⟩
  | 22 => ⟨k0_dev53 c, by revert c; decide⟩
  | 23 => ⟨k0_dev54 c, by revert c; decide⟩
  | 24 => ⟨k0_dev55 c, by revert c; decide⟩
  | 25 => ⟨k0_dev56 c, by revert c; decide⟩
  | 26 => ⟨k0_dev57 c, by revert c; decide⟩
  | 27 => ⟨k0_dev58 c, by revert c; decide⟩
  | 28 => ⟨k0_dev59 c, by revert c; decide⟩
  | 29 => ⟨k0_dev60 c, by revert c; decide⟩
  | 30 => ⟨k0_dev61 c, by revert c; decide⟩
  | 31 => ⟨k0_dev62 c, by revert c; decide⟩
  | _ => c

end Cert.Kernel.AllSum
-- ==== Proof.K.Chains.lean ====
/-
  The unrolled blocks of the body as chains over the list of offsets, and one rule per chain, by induction from the
  rule of one step: the 31 signals, the 31 transfers, the 31 waits on the send cells, the 31 waits on the receive cells.
  The devices a chain addresses are given by a table of the printed device arithmetic (`sigDev`, `xferDev`), each entry
  equal to the device that many places on.
-/
import proofs.«901084_g7700000000001085_dist_sum_ax0_shard0_i_m2048_n1024_v7x_i32_bf16_1_alg».proof.Proof.K.Steps
import proofs.«901084_g7700000000001085_dist_sum_ax0_shard0_i_m2048_n1024_v7x_i32_bf16_1_alg».proof.Proof.K.DevTables
import proofs.«901084_g7700000000001085_dist_sum_ax0_shard0_i_m2048_n1024_v7x_i32_bf16_1_alg».proof.Proof.K.Tables

noncomputable section

namespace Cert.Kernel.AllSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

theorem sigDev_eq (c : Dev nD) (j : ℕ) (hj : 1 ≤ j ∧ j ≤ 31) : sigDev c j = peer c j := by
  obtain ⟨h1, h2⟩ := hj
  interval_cases j <;> (revert c; decide)
theorem xferDev_eq (c : Dev nD) (d : ℕ) (hd : 1 ≤ d ∧ d ≤ 31) : xferDev c d = peer c d := by
  obtain ⟨h1, h2⟩ := hd
  interval_cases d <;> (revert c; decide)

theorem row_notSc (p : Dev nD) (d : ℕ) : (rowM d : Memref sig (Dev.tc p : Thread nD τ).2.kind .vmem S1x1024 .f32).view.ref.isScScratch = false := rfl

/-! ## The chains -/

/-- The signals `l` to the barrier cells of the devices `dv j`, in order, then `k`. -/
def sigChain (dv : ℕ → Dev nD) {α : Type} : List ℕ → (PUnit → Prog (TpuEff nD τ sig (Elt F) Λ₀ .tc) α) → Prog (TpuEff nD τ sig (Elt F) Λ₀ .tc) α
  | [], k => k ⟨⟩
  | j :: l, k => .op (.semSignal (Dev.tc (dv j) : Thread nD τ) barS 1) (fun _ => sigChain dv l k)

/-- The transfers `l` (row 0 into row `d` of device `dv d`), in order, then `k`. -/
def sendsChain (dv : ℕ → Dev nD) {α : Type} : List ℕ → (PUnit → Prog (TpuEff nD τ sig (Elt F) Λ₀ .tc) α) → Prog (TpuEff nD τ sig (Elt F) Λ₀ .tc) α
  | [], k => k ⟨⟩
  | d :: l, k => .op (.enqueueDma (rowM 0) (.remote (Dev.tc (dv d) : Thread nD τ) (rowM d) (.dma (sendS d)) (row_notSc (dv d) d)) (.dma (recvS d))
      (View.wordExact_bits rfl) (View.wordExact_bits rfl) ⟨⟨rfl, Or.inl rfl⟩, trivial⟩) (fun _ => sendsChain dv l k)

/-- The waits on the send cells of the transfers `l`, in order, then `k`. -/
def waitSChain {α : Type} : List ℕ → (PUnit → Prog (TpuEff nD τ sig (Elt F) Λ₀ .tc) α) → Prog (TpuEff nD τ sig (Elt F) Λ₀ .tc) α
  | [], k => k ⟨⟩
  | d :: l, k => .op (.waitDma2 (sendS d) (rowM d) (rowM 0) (View.wordExact_bits rfl) (View.wordExact_bits rfl)) (fun _ => waitSChain l k)

/-- The waits on the receive cells of the transfers `l`, in order, then `k`. -/
def waitRChain {α : Type} : List ℕ → (PUnit → Prog (TpuEff nD τ sig (Elt F) Λ₀ .tc) α) → Prog (TpuEff nD τ sig (Elt F) Λ₀ .tc) α
  | [], k => k ⟨⟩
  | d :: l, k => .op (.waitDma2 (recvS d) (rowM 0) (rowM d) (View.wordExact_bits rfl) (View.wordExact_bits rfl)) (fun _ => waitRChain l k)

/-! ## Splitting a chain of `∗` at its head -/

private theorem bigSepL_cons_sep {I : Type} (i : I) (l : List I) (Φ : I → sProp 𝕄) :
    bigSepL (i :: l) Φ = iprop(Φ i ∗ bigSepL l Φ) := bigSepL_cons _ _ _

/-! ## Their rules -/

theorem sigChain_spec (m : (ℓ : Loc nD τ sig) → Buf (Elt F) ℓ) (K : Dev nD × Fin 63 → ℕ) (c : Dev nD) (dv : ℕ → Dev nD) (l : List ℕ)
    (hl : ∀ j ∈ l, 1 ≤ j ∧ j ≤ 31) (hdv : ∀ j ∈ l, dv j = peer c j) (base : CellTallies nD τ sig Unit)
    {α : Type} {Q : α → sProp 𝕄} {k : PUnit → Prog (TpuEff nD τ sig (Elt F) Λ₀ .tc) α} :
    iprop(records m K ∗ owesSome c (owedSig c base l) ∗ sigToks c l ∗ bigSepL l (fun j => iprop(∃ f, rowPts c (32 - j) fullShare f)))
      ⊢ iprop((owesSome c base -∗ wp frame (wpE (defs₀ (F := F)) 𝒱₀ (c : Thread nD τ) none) Set.univ (k ⟨⟩) Q)
          -∗ wp frame (wpE (defs₀ (F := F)) 𝒱₀ (c : Thread nD τ) none) Set.univ (sigChain dv l k) Q) := by
  induction l with
  | nil =>
    show _ ⊢ iprop((owesSome c base -∗ wp frame (wpE (defs₀ (F := F)) 𝒱₀ (c : Thread nD τ) none) Set.univ (k ⟨⟩) Q) -∗ wp frame (wpE (defs₀ (F := F)) 𝒱₀ (c : Thread nD τ) none) Set.univ (k ⟨⟩) Q)
    iintro ⟨-, Ho, -, -⟩ Hk
    iapply Hk
    iexact Ho
  | cons j l ih =>
    have hj := hl j List.mem_cons_self
    have e := hdv j List.mem_cons_self
    have ih' := ih (fun i h => hl i (List.mem_cons_of_mem _ h)) (fun i h => hdv i (List.mem_cons_of_mem _ h))
    show _ ⊢ iprop(_ -∗ wp frame (wpE (defs₀ (F := F)) 𝒱₀ (c : Thread nD τ) none) Set.univ
      (.op (.semSignal (Dev.tc (dv j) : Thread nD τ) barS 1) (fun _ => sigChain dv l k)) Q)
    revert e; generalize dv j = p; intro e; subst e
    rw [bigSepL_cons_sep]
    iintro ⟨#Hrec, Ho, Ht, Hrow, Hrows⟩ Hk
    iapply (sig_step m K c j hj l base 1 rfl) $$ [Ho Ht Hrow]
    · isplitr; · iexact Hrec
      isplitl [Ho]; · iexact Ho
      isplitl [Ht]; · iexact Ht
      iexact Hrow
    iintro ⟨Ho, Ht⟩
    iapply ih' $$ [Ho Ht Hrows]
    · isplitr; · iexact Hrec
      isplitl [Ho]; · iexact Ho
      isplitl [Ht]; · iexact Ht
      iexact Hrows
    iexact Hk

/-- The transfers `l`, the last one started before them being `p` (so the remainder share of row 0 is `remSh p`), the last
    of them `p'`. -/
theorem sendsChain_spec (m : (ℓ : Loc nD τ sig) → Buf (Elt F) ℓ) (K : Dev nD × Fin 63 → ℕ) (c : Dev nD) (dv : ℕ → Dev nD) (l rest : List ℕ) (p : ℕ)
    (hl : l = List.range' (p + 1) l.length) (hl31 : p + l.length ≤ 31) (hdv : ∀ d ∈ l, dv d = peer c d)
    {α : Type} {Q : α → sProp 𝕄} {k : PUnit → Prog (TpuEff nD τ sig (Elt F) Λ₀ .tc) α} :
    iprop(records m K ∗ rowPts c 0 (remSh p) (tblFin m c) ∗ bigSepL l (fun d => barPay c (peer c d))
        ∗ owesSome c (owedXfer c (l ++ rest))
        ∗ bigSepL l (fun d => iprop(dutyTok ER (sendCell c d) 0 (0 : Dev nD) ∗ dutyTok ER (recvCell (peer c d) d) 0 (0 : Dev nD))))
      ⊢ iprop((iprop(rowPts c 0 (remSh (p + l.length)) (tblFin m c) ∗ bigSepL l (fun d => cred (tallyAt (sendCell c d) () N)) ∗ owesSome c (owedXfer c rest))
              -∗ wp frame (wpE (defs₀ (F := F)) 𝒱₀ (c : Thread nD τ) none) Set.univ (k ⟨⟩) Q)
          -∗ wp frame (wpE (defs₀ (F := F)) 𝒱₀ (c : Thread nD τ) none) Set.univ (sendsChain dv l k) Q) := by
  induction l generalizing p with
  | nil =>
    show _ ⊢ iprop((_ -∗ wp frame (wpE (defs₀ (F := F)) 𝒱₀ (c : Thread nD τ) none) Set.univ (k ⟨⟩) Q) -∗ wp frame (wpE (defs₀ (F := F)) 𝒱₀ (c : Thread nD τ) none) Set.univ (k ⟨⟩) Q)
    iintro ⟨-, Hrow, -, Ho, -⟩ Hk
    iapply Hk
    isplitl [Hrow]; · iexact Hrow
    isplitr; · iempintro
    iexact Ho
  | cons d l ih =>
    rw [List.length_cons, List.range'_succ] at hl
    obtain ⟨rfl, hl'⟩ := List.cons.inj hl
    rw [List.length_cons] at hl31
    have hd : 1 ≤ p + 1 ∧ p + 1 ≤ 31 := ⟨by omega, by omega⟩
    have e := hdv (p + 1) List.mem_cons_self
    have ih' := ih (p + 1) hl' (by omega) (fun i h => hdv i (List.mem_cons_of_mem _ h))
    rw [List.length_cons, show p + (l.length + 1) = p + 1 + l.length from by omega]
    show _ ⊢ iprop(_ -∗ wp frame (wpE (defs₀ (F := F)) 𝒱₀ (c : Thread nD τ) none) Set.univ
      (.op (.enqueueDma (rowM 0) (.remote (Dev.tc (dv (p + 1)) : Thread nD τ) (rowM (p + 1)) (.dma (sendS (p + 1))) (row_notSc (dv (p + 1)) (p + 1))) (.dma (recvS (p + 1)))
        (View.wordExact_bits rfl) (View.wordExact_bits rfl) ⟨⟨rfl, Or.inl rfl⟩, trivial⟩) (fun _ => sendsChain dv l k)) Q)
    revert e; generalize dv (p + 1) = q; intro e; subst e
    rw [bigSepL_cons_sep, bigSepL_cons_sep, bigSepL_cons_sep]
    rw [show remSh p = remSh (p + 1 - 1) from rfl]
    iintro ⟨#Hrec, Hrow, ⟨Hbar, Hbars⟩, Ho, ⟨⟨Hts, Htr⟩, Htoks⟩⟩ Hk
    iapply (send_step m K c (p + 1) hd (l ++ rest)) $$ [Hrow Hbar Ho Hts Htr]
    · isplitr; · iexact Hrec
      isplitl [Hrow]; · iexact Hrow
      isplitl [Hbar]; · iexact Hbar
      isplitl [Ho]; · iexact Ho
      isplitl [Hts]; · iexact Hts
      iexact Htr
    iintro ⟨Hrow, Hc, Ho⟩
    iapply ih' $$ [Hrow Hbars Ho Htoks]
    · isplitr; · iexact Hrec
      isplitl [Hrow]; · iexact Hrow
      isplitl [Hbars]; · iexact Hbars
      isplitl [Ho]; · iexact Ho
      iexact Htoks
    iintro ⟨Hrow, Hcs, Ho⟩
    iapply Hk
    isplitl [Hrow]; · iexact Hrow
    isplitl [Hc Hcs]
    · isplitl [Hc]; · iexact Hc
      iexact Hcs
    iexact Ho

theorem waitSChain_spec (m : (ℓ : Loc nD τ sig) → Buf (Elt F) ℓ) (K : Dev nD × Fin 63 → ℕ) (c : Dev nD) (l : List ℕ) (hl : ∀ d ∈ l, 1 ≤ d ∧ d ≤ 31)
    {α : Type} {Q : α → sProp 𝕄} {k : PUnit → Prog (TpuEff nD τ sig (Elt F) Λ₀ .tc) α} :
    iprop(records m K ∗ owesSome c 0 ∗ bigSepL l (fun d => iprop(cred (tallyAt (sendCell c d) () N) ∗ atPos ER (sendCell c d) 0 ∅ 0)))
      ⊢ iprop((iprop(owesSome c 0 ∗ bigSepL l (fun d => iprop(rowPts c 0 (qs d) (tblFin m c) ∗ semVal (sendCell c d) 0)))
              -∗ wp frame (wpE (defs₀ (F := F)) 𝒱₀ (c : Thread nD τ) none) Set.univ (k ⟨⟩) Q)
          -∗ wp frame (wpE (defs₀ (F := F)) 𝒱₀ (c : Thread nD τ) none) Set.univ (waitSChain l k) Q) := by
  induction l with
  | nil =>
    show _ ⊢ iprop((_ -∗ wp frame (wpE (defs₀ (F := F)) 𝒱₀ (c : Thread nD τ) none) Set.univ (k ⟨⟩) Q) -∗ wp frame (wpE (defs₀ (F := F)) 𝒱₀ (c : Thread nD τ) none) Set.univ (k ⟨⟩) Q)
    iintro ⟨-, Ho, -⟩ Hk
    iapply Hk
    isplitl [Ho]; · iexact Ho
    iempintro
  | cons d l ih =>
    have hd := hl d List.mem_cons_self
    have ih' := ih (fun i h => hl i (List.mem_cons_of_mem _ h))
    show _ ⊢ iprop(_ -∗ wp frame (wpE (defs₀ (F := F)) 𝒱₀ (c : Thread nD τ) none) Set.univ
      (.op (.waitDma2 (sendS d) (rowM d) (rowM 0) (View.wordExact_bits rfl) (View.wordExact_bits rfl)) (fun _ => waitSChain l k)) Q)
    rw [bigSepL_cons_sep, bigSepL_cons_sep]
    iintro ⟨#Hrec, Ho, ⟨Hc, Hat⟩, Hrest⟩ Hk
    iapply (waitS_step m K c d hd d 0) $$ [Hc Ho Hat]
    · isplitr; · iexact Hrec
      isplitl [Hc]; · iexact Hc
      isplitl [Ho]; · iexact Ho
      iexact Hat
    iintro ⟨Ho, Hrow, Hsv⟩
    iapply ih' $$ [Ho Hrest]
    · isplitr; · iexact Hrec
      isplitl [Ho]; · iexact Ho
      iexact Hrest
    iintro ⟨Ho, Hl⟩
    iapply Hk
    isplitl [Ho]; · iexact Ho
    isplitl [Hrow Hsv]
    · isplitl [Hrow]; · iexact Hrow
      iexact Hsv
    iexact Hl

theorem waitRChain_spec (m : (ℓ : Loc nD τ sig) → Buf (Elt F) ℓ) (K : Dev nD × Fin 63 → ℕ) (c : Dev nD) (l : List ℕ) (hl : ∀ d ∈ l, 1 ≤ d ∧ d ≤ 31)
    {α : Type} {Q : α → sProp 𝕄} {k : PUnit → Prog (TpuEff nD τ sig (Elt F) Λ₀ .tc) α} :
    iprop(records m K ∗ owesSome c 0 ∗ bigSepL l (fun d => iprop(cred (tallyAt (recvCell c d) () N) ∗ atPos ER (recvCell c d) 0 ∅ 0)))
      ⊢ iprop((iprop(owesSome c 0 ∗ bigSepL l (fun d => iprop(rowPts c d fullShare (tblFin m c) ∗ semVal (recvCell c d) 0)))
              -∗ wp frame (wpE (defs₀ (F := F)) 𝒱₀ (c : Thread nD τ) none) Set.univ (k ⟨⟩) Q)
          -∗ wp frame (wpE (defs₀ (F := F)) 𝒱₀ (c : Thread nD τ) none) Set.univ (waitRChain l k) Q) := by
  induction l with
  | nil =>
    show _ ⊢ iprop((_ -∗ wp frame (wpE (defs₀ (F := F)) 𝒱₀ (c : Thread nD τ) none) Set.univ (k ⟨⟩) Q) -∗ wp frame (wpE (defs₀ (F := F)) 𝒱₀ (c : Thread nD τ) none) Set.univ (k ⟨⟩) Q)
    iintro ⟨-, Ho, -⟩ Hk
    iapply Hk
    isplitl [Ho]; · iexact Ho
    iempintro
  | cons d l ih =>
    have hd := hl d List.mem_cons_self
    have ih' := ih (fun i h => hl i (List.mem_cons_of_mem _ h))
    show _ ⊢ iprop(_ -∗ wp frame (wpE (defs₀ (F := F)) 𝒱₀ (c : Thread nD τ) none) Set.univ
      (.op (.waitDma2 (recvS d) (rowM 0) (rowM d) (View.wordExact_bits rfl) (View.wordExact_bits rfl)) (fun _ => waitRChain l k)) Q)
    rw [bigSepL_cons_sep, bigSepL_cons_sep]
    iintro ⟨#Hrec, Ho, ⟨Hc, Hat⟩, Hrest⟩ Hk
    iapply (waitR_step m K c d hd 0 d) $$ [Hc Ho Hat]
    · isplitr; · iexact Hrec
      isplitl [Hc]; · iexact Hc
      isplitl [Ho]; · iexact Ho
      iexact Hat
    iintro ⟨Ho, Hrow, Hsv⟩
    iapply ih' $$ [Ho Hrest]
    · isplitr; · iexact Hrec
      isplitl [Ho]; · iexact Ho
      iexact Hrest
    iintro ⟨Ho, Hl⟩
    iapply Hk
    isplitl [Ho]; · iexact Ho
    isplitl [Hrow Hsv]
    · isplitl [Hrow]; · iexact Hrow
      iexact Hsv
    iexact Hl

end Cert.Kernel.AllSum

end

/-- info: 'Cert.Kernel.AllSum.sigChain_spec' depends on axioms: [propext, Classical.choice, Quot.sound] -/
#guard_msgs in #print axioms Cert.Kernel.AllSum.sigChain_spec

/-- info: 'Cert.Kernel.AllSum.sendsChain_spec' depends on axioms: [propext, Classical.choice, Quot.sound] -/
#guard_msgs in #print axioms Cert.Kernel.AllSum.sendsChain_spec

/-- info: 'Cert.Kernel.AllSum.waitSChain_spec' depends on axioms: [propext, Classical.choice, Quot.sound] -/
#guard_msgs in #print axioms Cert.Kernel.AllSum.waitSChain_spec

/-- info: 'Cert.Kernel.AllSum.waitRChain_spec' depends on axioms: [propext, Classical.choice, Quot.sound] -/
#guard_msgs in #print axioms Cert.Kernel.AllSum.waitRChain_spec
-- ==== Proof.K.RowVals.lean ====
/-
  The rows of the 32-row table: how the whole table splits into its rows and is put back together, how the shares
  of row 0 lent to the 31 transfers recombine, and what the body's loads and stores of row 0, of the whole table
  and of the staging buffers read and write.

  Row `d` is the set of indices whose first coordinate is `d % 32`; the 32 rows are pairwise disjoint and cover the
  table, in whatever order they are listed.  A load of row 0 of a table all of whose rows are a running sum reads
  that running sum; a store of a running sum to row 0 makes row 0 equal to that table's; on row 0 the table after
  the eighth point is the final table, as the device no places before `c` is `c` itself.
-/
import proofs.«901084_g7700000000001085_dist_sum_ax0_shard0_i_m2048_n1024_v7x_i32_bf16_1_alg».proof.Proof.K.Data
import Idealize.ShloMosaic.Rules.PointsTo
import Idealize.ShloMosaic.Lib.Pipeline.Kit
import Idealize.ShloMosaic.Lib.Pipeline.Value
import Idealize.ShloMosaic.Lib.ValueIdx

noncomputable section

namespace Cert.Kernel.AllSum

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-! ## The rectangles of the body's loads and stores -/

/-- Row 0 of the table: the rectangle of the body's loads and stores of the running sum. -/
abbrev r0 : Rect S32x1024 := Rect.unit (s := S32x1024) ![0, 0] S1x1024.size inb_S32x1024_S1x1024_0_0
/-- The whole table: the rectangle of the final load. -/
abbrev rAll : Rect S32x1024 := Rect.unit (s := S32x1024) ![0, 0] S32x1024.size inb_S32x1024_S32x1024_0_0
/-- The whole output staging buffer. -/
abbrev rOut : Rect S1x1024 := Rect.unit (s := S1x1024) ![0, 0] S1x1024.size inb_S1x1024_S1x1024_0_0
/-- The whole input staging buffer. -/
abbrev rIn : Rect S256x1024 := Rect.unit (s := S256x1024) ![0, 0] S256x1024.size inb_S256x1024_S256x1024_0_0

theorem hz00 : (![0, 0] : Fin 2 → Nat) = fun _ => 0 := funext fun a => by fin_cases a <;> rfl

/-! ## Chains of separating conjunctions over a list -/

/-- A chain over a list with one more element at the end. -/
theorem bigSepL_snoc {M : Type _} [URA M] {I : Type _} (l : List I) (x : I) (Φ : I → sProp M) :
    bigSepL (l ++ [x]) Φ = BI.sep (bigSepL l Φ) (Φ x) := by
  induction l with
  | nil => exact (equiv_iff.mp emp_sep).symm
  | cons a l ih =>
    rw [List.cons_append, bigSepL_cons, bigSepL_cons, ih]
    exact (equiv_iff.mp ⟨BI.sep_assoc, BI.sep_assoc'⟩).symm

/-- A chain is monotone in its terms. -/
theorem bigSepL_mono {M : Type _} [URA M] {I : Type _} (l : List I) (Φ Ψ : I → sProp M) (h : ∀ i, Φ i ⊢ Ψ i) :
    bigSepL l Φ ⊢ bigSepL l Ψ := by
  induction l with
  | nil => exact .rfl
  | cons a l ih => rw [bigSepL_cons, bigSepL_cons]; exact BI.sep_mono (h a) ih

/-! ## Membership in a row -/

/-- Row `d` is the set of indices whose first coordinate is `d % 32`. -/
theorem mem_row (d : ℕ) (i : S32x1024.Idx) :
    i ∈ (rowM d : Memref sig .tc .vmem S1x1024 .f32).view.set ↔ (i 0).val = d % 32 := by
  have hs : (rowM d : Memref sig .tc .vmem S1x1024 .f32).view.set
      = (Rect.unit (s := S32x1024) ![d % 32, 0] S1x1024.size (row_inb d)).set := View.set_slice_whole cc0_scratch0 _
  have hm : i ∈ (rowM d : Memref sig .tc .vmem S1x1024 .f32).view.set
      ↔ i ∈ (Rect.unit (s := S32x1024) ![d % 32, 0] S1x1024.size (row_inb d)).set :=
    (congrArg (fun S : Finset S32x1024.Idx => i ∈ S) hs).to_iff
  refine hm.trans ?_
  rw [Rect.mem_set_unit, Fin.forall_fin_two]
  have h1 : (i 1).val < 1024 := (i 1).isLt
  constructor
  · rintro ⟨⟨ha, hb⟩, -⟩
    have ha' : d % 32 ≤ (i 0).val := ha
    have hb' : (i 0).val < d % 32 + 1 := hb
    omega
  · intro h
    refine ⟨⟨?_, ?_⟩, ⟨?_, ?_⟩⟩
    · show d % 32 ≤ (i 0).val; omega
    · show (i 0).val < d % 32 + 1; omega
    · show 0 ≤ (i 1).val; omega
    · show (i 1).val < 0 + 1024; omega

/-- The whole table is the chain of its rows `g t`, `t` in a list `l` without repetition, as soon as `t ↦ g t % 32` is
    one to one on `l` and reaches every row. -/
theorem rows_eq (c : Dev nD) (f : Tbl (F := F)) (g : ℕ → ℕ) (l : List ℕ) (hl : l.Nodup)
    (hinj : ∀ t ∈ l, ∀ t' ∈ l, t ≠ t' → g t % 32 ≠ g t' % 32)
    (hsur : ∀ r < 32, ∃ t ∈ l, g t % 32 = r) :
    (scrWhole c f : sProp 𝕄) = bigSepL l (fun t => rowPts c (g t) fullShare f) := by
  unfold scrWhole
  let K : ℕ → Finset (Idx ((c : Thread nD τ).loc cc0_scratch0)) :=
    fun t => (rowM (g t) : Memref sig .tc .vmem S1x1024 .f32).view.set
  have hK : ∀ (t : ℕ) (i : S32x1024.Idx), i ∈ K t ↔ (i 0).val = g t % 32 := fun t i => mem_row (g t) i
  have hU : l.toFinset.biUnion K = Finset.univ := by
    refine Finset.eq_univ_of_forall ?_
    intro (i : S32x1024.Idx)
    obtain ⟨t, ht, e⟩ := hsur (i 0).val (i 0).isLt
    exact Finset.mem_biUnion.mpr ⟨t, List.mem_toFinset.mpr ht, (hK t i).mpr e.symm⟩
  have hD : ∀ t ∈ l.toFinset, ∀ t' ∈ l.toFinset, t ≠ t' → Disjoint (K t) (K t') := by
    intro t ht t' ht' hne
    rw [Finset.disjoint_left]
    intro (i : S32x1024.Idx) h1 h2
    exact hinj t (List.mem_toFinset.mp ht) t' (List.mem_toFinset.mp ht') hne
      (((hK t i).mp h1).symm.trans ((hK t' i).mp h2))
  have h1 : ((c : Thread nD τ).loc cc0_scratch0 ↦[l.toFinset.biUnion K]{fullShare} f : sProp 𝕄)
      = bigSep l.toFinset fun t => ((c : Thread nD τ).loc cc0_scratch0 ↦[K t]{fullShare} f) :=
    pointsTo_biUnion l.toFinset K hD
  rw [hU, bigSep_eq_bigSepL l hl] at h1
  exact h1

/-! ## The list of the 32 rows -/

theorem mem_rows (t : ℕ) : t ∈ 0 :: ds ↔ t < 32 := by
  rw [List.mem_cons, List.mem_range'_1]; omega

theorem nodup_rows : (0 :: ds).Nodup :=
  List.nodup_cons.mpr ⟨fun h => by rw [List.mem_range'_1] at h; omega, List.nodup_range' (step := 1)⟩

/-! ## The table and its rows -/

/-- The whole table splits into row 0 and the rows `32 - j`, `j = 1 … 31`, each at some contents. -/
theorem split_rows (c : Dev nD) (f : Tbl (F := F)) :
    scrWhole c f ⊢ (iprop(rowPts c 0 fullShare f ∗ bigSepL ds (fun j => iprop(∃ f', rowPts c (32 - j) fullShare f'))) : sProp 𝕄) := by
  rw [rows_eq c f (fun t => 32 - t) (0 :: ds) nodup_rows
    (fun t ht t' ht' hne => by
      have h1 := (mem_rows t).mp ht; have h2 := (mem_rows t').mp ht'
      show (32 - t) % 32 ≠ (32 - t') % 32; omega)
    (fun r hr => ⟨(32 - r) % 32, (mem_rows _).mpr (Nat.mod_lt _ (by decide)), by
      show (32 - (32 - r) % 32) % 32 = r; omega⟩), bigSepL_cons]
  exact BI.sep_mono (BI.Entails.refl _)
    (bigSepL_mono ds (fun j => rowPts c (32 - j) fullShare f) (fun j => iprop(∃ f', rowPts c (32 - j) fullShare f'))
      fun j => exists_intro (PROP := sProp 𝕄) (α := Buf (Elt F) ((rowM (32 - j)).view.loc (c : Thread nD τ)))
        (Φ := fun f' => rowPts c (32 - j) fullShare f') f)

/-- Row 0 and the rows `d = 1 … 31`, all at the contents `T`, are the whole table at `T`. -/
theorem join_rows (c : Dev nD) (T : Tbl (F := F)) :
    (iprop(rowPts c 0 fullShare T ∗ bigSepL ds (fun d => rowPts c d fullShare T)) : sProp 𝕄) ⊢ scrWhole c T := by
  rw [rows_eq c T (fun t => t) (0 :: ds) nodup_rows
    (fun t ht t' ht' hne => by
      have h1 := (mem_rows t).mp ht; have h2 := (mem_rows t').mp ht'
      show t % 32 ≠ t' % 32; omega)
    (fun r hr => ⟨r, (mem_rows _).mpr hr, by show r % 32 = r; omega⟩), bigSepL_cons]
  exact BI.Entails.refl _

/-! ## The shares of row 0 -/

/-- The remainder after `n` shares were split off, and those `n` shares, are the full share of row 0. -/
theorem join_shares_upto (c : Dev nD) (T : Tbl (F := F)) (n : ℕ) :
    (iprop(rowPts c 0 (remSh n) T ∗ bigSepL (List.range' 1 n) (fun d => rowPts c 0 (qs d) T)) : sProp 𝕄)
      ⊢ rowPts c 0 fullShare T := by
  induction n with
  | zero => exact BI.sep_emp_elim
  | succ n ih =>
    have hs : (rowPts c 0 (remSh n) T : sProp 𝕄)
        ⊣⊢ iprop(rowPts c 0 (qs (n + 1)) T ∗ rowPts c 0 (remSh (n + 1)) T) := pointsTo_share (remSh_split n)
    rw [List.range'_concat, bigSepL_snoc, show 1 + 1 * n = n + 1 by omega]
    refine BI.Entails.trans ?_ ih
    refine (BI.sep_mono (BI.Entails.refl _) BI.sep_comm).trans ?_
    refine BI.sep_assoc'.trans ?_
    exact BI.sep_mono (BI.sep_comm.trans hs.2) (BI.Entails.refl _)

/-- The remainder after 31 shares were split off, and those 31 shares, are the full share of row 0. -/
theorem join_shares (c : Dev nD) (T : Tbl (F := F)) :
    (iprop(rowPts c 0 (remSh 31) T ∗ bigSepL ds (fun d => rowPts c 0 (qs d) T)) : sProp 𝕄) ⊢ rowPts c 0 fullShare T :=
  join_shares_upto c T 31

/-! ## The elements a load or store of row 0 goes through -/

/-- A store through the rectangle of row 0 goes through row 0's elements. -/
theorem row0_access_set : ((scrM.access r0 : View sig .tc _ _ _).set) = (rowM 0 : Memref sig .tc .vmem S1x1024 .f32).view.set := by
  rfl

/-- The side condition of a store to row 0 while holding row 0. -/
theorem row0_store_sub : (scrM.access r0 : View sig .tc _ _ _).setOn Finset.univ ⊆ (rowM 0 : Memref sig .tc .vmem S1x1024 .f32).view.set := by
  rw [View.setOn_univ, row0_access_set]
  exact Finset.Subset.refl _

/-- The side condition of a load of row 0 while holding row 0. -/
theorem row0_load_sub : (scrM : Memref sig .tc .vmem S32x1024 .f32).view.setOn r0.toLoadRect.set ⊆ (rowM 0 : Memref sig .tc .vmem S1x1024 .f32).view.set := by
  rw [← row0_access_set, View.set_slice]
  exact Finset.Subset.refl _

/-! ## What the loads read and the stores leave -/

/-- A load of row 0 of the accumulating table reads the running sum. -/
theorem read_row0 (m : (ℓ : Loc nD τ sig) → Buf (Elt F) ℓ) (c : Dev nD) (n : ℕ) :
    (scrM : Memref sig .tc .vmem S32x1024 .f32).view.readAt (Elt F) r0.toLoadRect (tblAcc m c n) = accAt (xb m) c n := by
  funext x
  show accAt (xb m) c n (ix2 (0 : Fin 1) ((r0.toLoadRect.idx x) 1)) = accAt (xb m) c n x
  congr 1
  funext a
  match a with
  | ⟨0, _⟩ => apply Fin.ext; have h : (x 0).val < 1 := (x 0).isLt; show 0 = (x 0).val; omega
  | ⟨1, _⟩ => apply Fin.ext; show 0 + 1 * (x 1).val = (x 1).val; omega

/-- After the running sum is stored to row 0, row 0 is that of the accumulating table. -/
theorem write_row0 (m : (ℓ : Loc nD τ sig) → Buf (Elt F) ℓ) (c : Dev nD) (n : ℕ) (f : Tbl (F := F)) :
    rowPts c 0 fullShare ((scrM.access r0 : View sig .tc _ _ _).write (Elt F) f (accAt (xb m) c n) Finset.univ)
      = rowPts c 0 fullShare (tblAcc m c n) := by
  unfold rowPts
  refine pointsTo_congr fun i hi => ?_
  have hi' : i ∈ (scrM.access r0 : View sig .tc _ _ _).set := hi
  obtain ⟨x, rfl⟩ := View.exists_emb_of_mem_set (scrM.access r0 : View sig .tc _ _ _) hi'
  rw [View.write_emb_of_mem _ _ (Finset.mem_univ x)]
  show accAt (xb m) c n x = accAt (xb m) c n (ix2 (0 : Fin 1) ((r0.toLoadRect.idx x) 1))
  congr 1
  funext a
  match a with
  | ⟨0, _⟩ => apply Fin.ext; have h : (x 0).val < 1 := (x 0).isLt; show (x 0).val = 0; omega
  | ⟨1, _⟩ => apply Fin.ext; show (x 1).val = 0 + 1 * (x 1).val; omega

/-- On row 0 the table after the eighth point is the final table. -/
theorem acc_fin (m : (ℓ : Loc nD τ sig) → Buf (Elt F) ℓ) (c : Dev nD) (q : PosShare TreeShare) :
    rowPts c 0 q (tblAcc m c 7) = rowPts c 0 q (tblFin m c) := by
  unfold rowPts
  refine pointsTo_congr ?_
  intro (i : S32x1024.Idx) hi
  have hi' : i ∈ r0.set := by
    have h1 : i ∈ (scrM.access r0 : View sig .tc _ _ _).set := hi
    rwa [View.set_slice_whole] at h1
  have h0 : (i 0).val = 0 := by
    have h2 := (Rect.mem_set_unit.mp hi') 0
    have h3 : ((i 0 : Fin 32) : ℕ) < 0 + 1 := h2.2
    omega
  show accAt (xb m) c 7 (ix2 (0 : Fin 1) (i 1)) = part (xb m) (back c (i 0).val) (ix2 (0 : Fin 1) (i 1))
  rw [h0, back_zero]
  rfl

/-- The final load of the whole table reads the final table. -/
theorem read_all (m : (ℓ : Loc nD τ sig) → Buf (Elt F) ℓ) (c : Dev nD) :
    (scrM : Memref sig .tc .vmem S32x1024 .f32).view.readAt (Elt F) rAll.toLoadRect (tblFin m c) = table (xb m) c := by
  exact Memref.readAt_unit_zero (Elt F) cc0_scratch0 hz00 _ _

/-! ## The staging buffers -/

/-- A store of the whole output staging buffer leaves what is stored. -/
theorem write_out (f w : (cc0_stg1_0 : Ref sig .tc).ty.Contents (Elt F)) :
    ((Memref.whole cc0_stg1_0 : Memref sig .tc .vmem S1x1024 .f32).access rOut : View sig .tc _ _ _).write (Elt F) f w Finset.univ = w := by
  exact Memref.write_access_unit_zero_univ (Elt F) cc0_stg1_0 hz00 _ f w

/-- A load of the whole output staging buffer reads its contents. -/
theorem read_out (f : (cc0_stg1_0 : Ref sig .tc).ty.Contents (Elt F)) :
    (Memref.whole cc0_stg1_0 : Memref sig .tc .vmem S1x1024 .f32).view.readAt (Elt F) rOut.toLoadRect f = f := by
  exact Memref.readAt_unit_zero (Elt F) cc0_stg1_0 hz00 _ f

/-- A load of the whole of either input staging buffer reads its contents. -/
theorem read_in0 (f : (cc0_stg0_0 : Ref sig .tc).ty.Contents (Elt F)) :
    (Memref.whole cc0_stg0_0 : Memref sig .tc .vmem S256x1024 .f32).view.readAt (Elt F) rIn.toLoadRect f = f := by
  exact Memref.readAt_unit_zero (Elt F) cc0_stg0_0 hz00 _ f
theorem read_in1 (f : (cc0_stg0_1 : Ref sig .tc).ty.Contents (Elt F)) :
    (Memref.whole cc0_stg0_1 : Memref sig .tc .vmem S256x1024 .f32).view.readAt (Elt F) rIn.toLoadRect f = f := by
  exact Memref.readAt_unit_zero (Elt F) cc0_stg0_1 hz00 _ f

/-! ## The axioms these rest on -/

/-- info: 'Cert.Kernel.AllSum.split_rows' depends on axioms: [propext, Classical.choice, Quot.sound] -/
#guard_msgs in #print axioms split_rows
/-- info: 'Cert.Kernel.AllSum.join_rows' depends on axioms: [propext, Classical.choice, Quot.sound] -/
#guard_msgs in #print axioms join_rows
/-- info: 'Cert.Kernel.AllSum.join_shares' depends on axioms: [propext, Classical.choice, Quot.sound] -/
#guard_msgs in #print axioms join_shares
/-- info: 'Cert.Kernel.AllSum.row0_load_sub' depends on axioms: [propext, Classical.choice, Quot.sound] -/
#guard_msgs in #print axioms row0_load_sub
/-- info: 'Cert.Kernel.AllSum.read_row0' depends on axioms: [propext, Classical.choice, Quot.sound] -/
#guard_msgs in #print axioms read_row0
/-- info: 'Cert.Kernel.AllSum.write_row0' depends on axioms: [propext, Classical.choice, Quot.sound] -/
#guard_msgs in #print axioms write_row0
/-- info: 'Cert.Kernel.AllSum.acc_fin' depends on axioms: [propext, Classical.choice, Quot.sound] -/
#guard_msgs in #print axioms acc_fin
/-- info: 'Cert.Kernel.AllSum.read_all' depends on axioms: [propext, Classical.choice, Quot.sound] -/
#guard_msgs in #print axioms read_all
/-- info: 'Cert.Kernel.AllSum.write_out' depends on axioms: [propext, Classical.choice, Quot.sound] -/
#guard_msgs in #print axioms write_out
/-- info: 'Cert.Kernel.AllSum.read_in1' depends on axioms: [propext, Classical.choice, Quot.sound] -/
#guard_msgs in #print axioms read_in1

end Cert.Kernel.AllSum

end
-- ==== Proof.K.AccBlock.lean ====
/-
  The accumulation block of the body: the running sum in row 0 of the table is loaded, the next block's column sums
  are added to it, and the sum is stored back to row 0.  One rule for a load of row 0, one for a store to it, and the
  rule of the whole block: from row 0 at the running sum after point `n` to row 0 at the running sum after point `n + 1`,
  the input staging buffer as it was.
-/
import proofs.«901084_g7700000000001085_dist_sum_ax0_shard0_i_m2048_n1024_v7x_i32_bf16_1_alg».proof.Proof.K.Chains
import proofs.«901084_g7700000000001085_dist_sum_ax0_shard0_i_m2048_n1024_v7x_i32_bf16_1_alg».proof.Proof.K.RowVals
import Idealize.ShloMosaic.Rules.Step
import Idealize.ShloMosaic.Lib.Memref
import Idealize.ShloMosaic.Lib.Tactic

noncomputable section

namespace Cert.Kernel.AllSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-- A load of row 0 at the head of a program, holding a share of row 0. -/
theorem load_row0 (c : Dev nD) (q : PosShare TreeShare) (f : Tbl (F := F))
    {hl : (scrM : Memref sig .tc .vmem S32x1024 .f32).view.LoadsAt r0.toLoadRect}
    {α : Type} {Q : α → sProp 𝕄} {k : (r0.toLoadRect.shape.Idx → Elt F .f32) → Prog (TpuEff nD τ sig (Elt F) Λ₀ .tc) α} :
    (rowPts c 0 q f : sProp 𝕄)
      ⊢ iprop((rowPts c 0 q f -∗ wp frame (wpE (defs₀ (F := F)) 𝒱₀ (c : Thread nD τ) none) Set.univ (k (scrM.view.readAt (Elt F) r0.toLoadRect f)) Q)
          -∗ wp frame (wpE (defs₀ (F := F)) 𝒱₀ (c : Thread nD τ) none) Set.univ (.op (.load scrM r0.toLoadRect hl) k) Q) :=
  wp_load 𝒱₀ (c : Thread nD τ) none Set.univ (m := scrM) row0_load_sub

/-- A store to row 0 at the head of a program, holding row 0. -/
theorem store_row0 (c : Dev nD) (f : Tbl (F := F)) (w : r0.shape.Idx → Elt F .f32)
    {hx : (scrM.access r0 : View sig .tc _ _ _).Stores Finset.univ} {hm : (Finset.univ : Finset r0.shape.Idx) = Finset.univ ∨ ∀ a, r0.stride a = 1}
    {α : Type} {Q : α → sProp 𝕄} {k : PUnit → Prog (TpuEff nD τ sig (Elt F) Λ₀ .tc) α} :
    (rowPts c 0 fullShare f : sProp 𝕄)
      ⊢ iprop((rowPts c 0 fullShare ((scrM.access r0 : View sig .tc _ _ _).write (Elt F) f w Finset.univ)
              -∗ wp frame (wpE (defs₀ (F := F)) 𝒱₀ (c : Thread nD τ) none) Set.univ (k ⟨⟩) Q)
          -∗ wp frame (wpE (defs₀ (F := F)) 𝒱₀ (c : Thread nD τ) none) Set.univ (.op (.store scrM r0 w Finset.univ hx hm) k) Q) :=
  wp_store 𝒱₀ (c : Thread nD τ) none Set.univ (m := scrM) (r := r0) (Mk := Finset.univ) row0_store_sub

/-- The accumulation block at the head of a program: holding row 0 at the running sum after point `n` and elements of the
    input staging buffer that include the block read, which reads as block `n + 1`, the three loads and the store leave
    row 0 at the running sum after point `n + 1` and the staging buffer as it was. -/
theorem acc_block (m : (ℓ : Loc nD τ sig) → Buf (Elt F) ℓ) (c : Dev nD) (n : ℕ)
    (xM : Memref sig .tc .vmem S256x1024 .f32)
    (S : Finset (Idx (xM.view.loc (c : Thread nD τ)))) (q : PosShare TreeShare) (f : Buf (Elt F) (xM.view.loc (c : Thread nD τ)))
    (hS : xM.view.setOn rIn.toLoadRect.set ⊆ S)
    (hX : xM.view.readAt (Elt F) rIn.toLoadRect f = xb m c (n + 1))
    {α : Type} {Q : α → sProp 𝕄} {k : PUnit → Prog (TpuEff nD τ sig (Elt F) Λ₀ .tc) α} :
    iprop(rowPts c 0 fullShare (tblAcc m c n) ∗ (xM.view.loc (c : Thread nD τ) ↦[S]{q} f)
        ∗ (iprop(rowPts c 0 fullShare (tblAcc m c (n + 1)) ∗ (xM.view.loc (c : Thread nD τ) ↦[S]{q} f))
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.load scrM r0.toLoadRect (View.loadsAt_vmem h_S1x1024)) fun v13 =>
           .op (.load xM rIn.toLoadRect (View.loadsAt_vmem h_S256x1024)) fun v15 =>
           .op (.load scrM r0.toLoadRect (View.loadsAt_vmem h_S1x1024)) fun v19 =>
           .op (.store scrM r0 (k0_pay2 v13 v15) Finset.univ (View.stores_vmem_bits_univ h_S1x1024 rfl) (.inl rfl)) k) Q := by
  iintro ⟨Hrow, Hx, Hk⟩
  iapply (load_row0 c fullShare (tblAcc m c n)) $$ Hrow
  iintro Hrow
  iapply (wp_load 𝒱₀ (c : Thread nD τ) none Set.univ (m := xM) hS) $$ Hx
  iintro Hx
  iapply (load_row0 c fullShare (tblAcc m c n)) $$ Hrow
  iintro Hrow
  iapply (store_row0 c (tblAcc m c n) _) $$ Hrow
  iintro Hrow
  iapply Hk
  isplitl [Hrow]
  · rw [read_row0, hX, show k0_pay2 (accAt (xb m) c n) (xb m c (n + 1)) = accAt (xb m) c (n + 1) from rfl]
    iapply (Entails.of_eq (write_row0 m c (n + 1) (tblAcc m c n))) $$ Hrow
  · iexact Hx

/-- The same for the first input staging buffer held whole at contents `X`, block `n + 1`. -/
theorem acc_block0 (m : (ℓ : Loc nD τ sig) → Buf (Elt F) ℓ) (c : Dev nD) (n : ℕ)
    (X : (cc0_stg0_0 : Ref sig .tc).ty.Contents (Elt F)) (hX : X = xb m c (n + 1))
    {α : Type} {Q : α → sProp 𝕄} {k : PUnit → Prog (TpuEff nD τ sig (Elt F) Λ₀ .tc) α} :
    iprop(rowPts c 0 fullShare (tblAcc m c n) ∗ (((c : Thread nD τ).loc cc0_stg0_0) ↦{fullShare} X)
        ∗ (iprop(rowPts c 0 fullShare (tblAcc m c (n + 1)) ∗ (((c : Thread nD τ).loc cc0_stg0_0) ↦{fullShare} X))
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.load scrM r0.toLoadRect (View.loadsAt_vmem h_S1x1024)) fun v13 =>
           .op (.load (Memref.whole cc0_stg0_0) rIn.toLoadRect (View.loadsAt_vmem h_S256x1024)) fun v15 =>
           .op (.load scrM r0.toLoadRect (View.loadsAt_vmem h_S1x1024)) fun v19 =>
           .op (.store scrM r0 (k0_pay2 v13 v15) Finset.univ (View.stores_vmem_bits_univ h_S1x1024 rfl) (.inl rfl)) k) Q := by
  unfold rowPts
  iintro ⟨Hrow, Hx, Hk⟩
  sl_exec
  sl_step
  sl_exec
  iapply Hk
  isplitl [Hrow]
  · unfold acc_block0.sl.Hrow_w1
    rw [read_row0, read_in0, hX, show k0_pay2 (accAt (xb m) c n) (xb m c (n + 1)) = accAt (xb m) c (n + 1) from rfl]
    have h := write_row0 m c (n + 1) (tblAcc m c n)
    unfold rowPts at h
    iapply (Entails.of_eq h) $$ Hrow
  · iexact Hx

/-- The same for the second input staging buffer. -/
theorem acc_block1 (m : (ℓ : Loc nD τ sig) → Buf (Elt F) ℓ) (c : Dev nD) (n : ℕ)
    (X : (cc0_stg0_1 : Ref sig .tc).ty.Contents (Elt F)) (hX : X = xb m c (n + 1))
    {α : Type} {Q : α → sProp 𝕄} {k : PUnit → Prog (TpuEff nD τ sig (Elt F) Λ₀ .tc) α} :
    iprop(rowPts c 0 fullShare (tblAcc m c n) ∗ (((c : Thread nD τ).loc cc0_stg0_1) ↦{fullShare} X)
        ∗ (iprop(rowPts c 0 fullShare (tblAcc m c (n + 1)) ∗ (((c : Thread nD τ).loc cc0_stg0_1) ↦{fullShare} X))
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.load scrM r0.toLoadRect (View.loadsAt_vmem h_S1x1024)) fun v13 =>
           .op (.load (Memref.whole cc0_stg0_1) rIn.toLoadRect (View.loadsAt_vmem h_S256x1024)) fun v15 =>
           .op (.load scrM r0.toLoadRect (View.loadsAt_vmem h_S1x1024)) fun v19 =>
           .op (.store scrM r0 (k0_pay2 v13 v15) Finset.univ (View.stores_vmem_bits_univ h_S1x1024 rfl) (.inl rfl)) k) Q := by
  unfold rowPts
  iintro ⟨Hrow, Hx, Hk⟩
  sl_exec
  sl_step
  sl_exec
  iapply Hk
  isplitl [Hrow]
  · unfold acc_block1.sl.Hrow_w1
    rw [read_row0, read_in1, hX, show k0_pay2 (accAt (xb m) c n) (xb m c (n + 1)) = accAt (xb m) c (n + 1) from rfl]
    have h := write_row0 m c (n + 1) (tblAcc m c n)
    unfold rowPts at h
    iapply (Entails.of_eq h) $$ Hrow
  · iexact Hx

/-- info: 'Cert.Kernel.AllSum.acc_block' depends on axioms: [propext, Classical.choice, Quot.sound] -/
#guard_msgs in #print axioms acc_block
/-- info: 'Cert.Kernel.AllSum.acc_block0' depends on axioms: [propext, Classical.choice, Quot.sound] -/
#guard_msgs in #print axioms acc_block0
/-- info: 'Cert.Kernel.AllSum.acc_block1' depends on axioms: [propext, Classical.choice, Quot.sound] -/
#guard_msgs in #print axioms acc_block1

end Cert.Kernel.AllSum

end
-- ==== Proof.K.BodyFirst.lean ====
/-
  The body at grid point 0.

  At the first grid point a device sends a unit to the barrier cell of each of the 31 other devices, giving away with
  the signal to the device `j` places on row `32 - j` of its own table, the row that device will write; it then reads
  its first block and stores the block's column sums to row 0 of its table.  From the whole table at any contents and
  the 31 signal duties' tokens, it is left holding row 0 at the first running sum and owing only the receive credits
  of its 31 transfers; both staging buffers are as it found them.
-/
import proofs.«901084_g7700000000001085_dist_sum_ax0_shard0_i_m2048_n1024_v7x_i32_bf16_1_alg».proof.Proof.K.Chains
import proofs.«901084_g7700000000001085_dist_sum_ax0_shard0_i_m2048_n1024_v7x_i32_bf16_1_alg».proof.Proof.K.RowVals
import proofs.«901084_g7700000000001085_dist_sum_ax0_shard0_i_m2048_n1024_v7x_i32_bf16_1_alg».proof.Proof.K.AccBlock

noncomputable section

namespace Cert.Kernel.AllSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

namespace BodyFirst

/-- The body at grid point 0, as a program: the device reads its index, sends the 31 signals in order, loads the input
    block, loads row 0 of the table, and stores the block's column sums to row 0. -/
theorem prog0 :
    cc0_body (F := F) (grid0.coords t0_0) (Memref.whole cc0_stg0_0) (Memref.isWhole_whole _) (Memref.whole cc0_stg1_0) (Memref.isWhole_whole _)
        (Memref.whole cc0_scratch0) (Memref.isWhole_whole _) cc0_scratch1 cc0_scratch2
      = .op .deviceId fun d0 => sigChain (sigDev d0) ds (fun (_ : PUnit.{1}) =>
          .op (.load (Memref.whole cc0_stg0_0) rIn.toLoadRect (View.loadsAt_vmem h_S256x1024)) fun v137 =>
          .op (.load scrM r0.toLoadRect (View.loadsAt_vmem h_S1x1024)) fun v140 =>
          .op (.store scrM r0 (k0_pay1 v137) Finset.univ (View.stores_vmem_bits_univ h_S1x1024 rfl) (.inl rfl)) fun _ => .ret ⟨⟩) := rfl

end BodyFirst
open BodyFirst

/-- The body obligation at grid point 0: from the table whole at any contents, the signal duties' tokens and the
    ghost state, owing the 31 units and the 31 receive credits, the 31 signals pay the units (each with the row its
    addressee will write), and the store leaves row 0 at the column sums of block 0. -/
theorem body_first (m : (ℓ : Loc nD τ sig) → Buf (Elt F) ℓ) (c : Dev nD) : ObAt m c t0_0 := by
  unfold ObAt
  rw [Gen.bigSep_W0, Gen.bigSep_W0]
  show iprop(Φstart m c ∗ (dats m 0 c).owesAt () t0_0.castSucc
        ∗ (∃ d, owns (c : Thread nD τ) (Memref.whole cc0_stg0_0) fullShare ((dats m 0 c).before (0 : Fin 2) t0_0 d))
        ∗ (∃ d, owns (c : Thread nD τ) (Memref.whole cc0_stg1_0) fullShare ((dats m 0 c).before (1 : Fin 2) t0_0 d)))
     ⊢ wp frame (wpE (defs₀ (F := F)) 𝒱₀ (c : Thread nD τ) none) Set.univ
         (cc0_body (grid0.coords t0_0) (Memref.whole cc0_stg0_0) (Memref.isWhole_whole _) (Memref.whole cc0_stg1_0) (Memref.isWhole_whole _)
            (Memref.whole cc0_scratch0) (Memref.isWhole_whole _) cc0_scratch1 cc0_scratch2)
         fun _ => iprop(Φmid m c 1 ∗ (dats m 0 c).owesAt () t0_0.succ
            ∗ owns (c : Thread nD τ) (Memref.whole cc0_stg0_0) fullShare (iblk m c 0 t0_0)
            ∗ (∃ d, owns (c : Thread nD τ) (Memref.whole cc0_stg1_0) fullShare ((dats m 0 c).before (1 : Fin 2) t0_0 d)))
  simp only [owns_whole_eq]
  rw [prog0]
  simp only [wp_deviceId]
  have hds : ∀ j ∈ ds, 1 ≤ j ∧ j ≤ 31 := by
    intro j hj; rw [List.mem_range'_1] at hj; omega
  unfold Φstart ghost Dat.owesAt Pipeline.owesWithin
  iintro ⟨⟨⟨%K, #Hrec, Hcar⟩, Htok, ⟨%f0, Hscr⟩⟩, ⟨%W, %hW, HO⟩, ⟨%d0, %g0, %hg0, Hx⟩, Hout⟩
  have hx : g0 = iblk m c 0 t0_0 := by rw [hg0]; unfold Dat.before; rw [if_pos (Gen.fetch0_0 t0_0)]; rfl
  subst hx
  ihave Hrows := (split_rows c f0) $$ Hscr
  icases Hrows with ⟨Hrow0, Hrows⟩
  iapply (sigChain_spec m K c (sigDev c) ds hds (fun j hj => sigDev_eq c j (hds j hj)) (O₁ c)) $$ [HO Htok Hrows]
  · isplitr; · iexact Hrec
    isplitl [HO]; · unfold owesSome; iexists W; iexact HO
    isplitl [Htok]; · iexact Htok
    iexact Hrows
  iintro HO
  -- the load of the input block
  iapply (wp_load 𝒱₀ (c : Thread nD τ) none Set.univ (m := (Memref.whole cc0_stg0_0 : Memref sig .tc .vmem S256x1024 .f32)) (Finset.subset_univ _)) $$ Hx
  iintro Hx
  -- the load of row 0 (its value is not used) and the store of the block's column sums to row 0
  iapply (load_row0 c fullShare f0) $$ Hrow0
  iintro Hrow0
  iapply (store_row0 c f0 _) $$ Hrow0
  iintro Hrow0
  have hrow : (rowPts c 0 fullShare ((scrM.access r0 : View sig .tc _ _ _).write (Elt F) f0
        (k0_pay1 ((Memref.whole cc0_stg0_0 : Memref sig .tc .vmem S256x1024 .f32).view.readAt (Elt F) rIn.toLoadRect (iblk m c 0 t0_0))) Finset.univ) : sProp 𝕄)
      = rowPts c 0 fullShare (tblAcc m c 0) := by
    rw [read_in0, show k0_pay1 (iblk m c 0 t0_0) = accAt (xb m) c 0 from rfl, write_row0]
  ihave Hrow := (Entails.of_eq hrow) $$ Hrow0
  iapply (le_wp_ret _ _)
  -- the post: the ghost state as it was, row 0 at the first running sum, the transfers' credits still owed, both
  -- staging buffers as found
  unfold Φmid ghost
  isplitl [Hcar Hrow]
  · isplitl [Hcar]
    · iexists K; isplitr; · iexact Hrec
      iexact Hcar
    · iexact Hrow
  isplitl [HO]
  · unfold owesSome
    icases HO with ⟨%W', HO⟩
    iexists W'; isplitr; · ipureintro; exact fun _ _ => Or.inl trivial
    iexact HO
  isplitl [Hx]
  · iexists _; isplitr; · (ipureintro; rfl)
    iexact Hx
  iexact Hout

/-- info: 'Cert.Kernel.AllSum.body_first' depends on axioms: [propext, Classical.choice, Quot.sound] -/
#guard_msgs in #print axioms body_first

end Cert.Kernel.AllSum

end
-- ==== Proof.K.BodyMid.lean ====
/-
  The body at the grid points 1 … 6: only the accumulation block runs there, so the obligation carries row 0 of the
  table from the running sum after the previous point to the running sum after this one; what the device owes, its
  ghost state and the output staging buffer are handed on as they were found, and the input staging buffer is left
  holding the block it was fetched with.
-/
import proofs.«901084_g7700000000001085_dist_sum_ax0_shard0_i_m2048_n1024_v7x_i32_bf16_1_alg».proof.Proof.K.AccBlock

noncomputable section

namespace Cert.Kernel.AllSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-! ## The printed conditions at the points 1 … 6 -/

namespace BodyMid

theorem cond1_mid : ∀ t : Fin grid0.N, 1 ≤ t.val ∧ t.val ≤ 6 → ¬ k0_cond1 (grid0.coords t) = 1#1 := by decide
theorem cond2_mid : ∀ t : Fin grid0.N, 1 ≤ t.val ∧ t.val ≤ 6 →
    Scalar.cmpi .ne (Scalar.extui (Scalar.cmpi .ne (BitVec.ofNat 32 ((grid0.coords t) 0).val) 0#32)) 0#32 = 1#1 := by decide
theorem cond3_mid : ∀ t : Fin grid0.N, 1 ≤ t.val ∧ t.val ≤ 6 → ¬ k0_cond3 (grid0.coords t) = 1#1 := by decide

end BodyMid
open BodyMid

/-! ## The obligation -/

/-- At a point `t` with `1 ≤ t ≤ 6` the body is the accumulation block: row 0 goes from the running sum after point
    `t - 1` to the running sum after point `t`, all else unchanged. -/
theorem body_mid (m : (ℓ : Loc nD τ sig) → Buf (Elt F) ℓ) (c : Dev nD) (t : Fin cfg0.N) (ht : 1 ≤ t.val ∧ t.val ≤ 6) : ObAt m c t := by
  obtain ⟨n, hn⟩ : ∃ n, t.val = n + 1 := ⟨t.val - 1, by omega⟩
  have hΦ0 : (dats m 0 c).Φ t.castSucc = iprop((∃ K, ghost m K c) ∗ rowPts c 0 fullShare (tblAcc m c n)) := by
    show (if t.castSucc.val = 0 then Φstart m c else if t.castSucc.val = 8 then Φend m c else Φmid m c t.castSucc.val) = _
    rw [if_neg (by simp only [Fin.coe_castSucc]; omega), if_neg (by simp only [Fin.coe_castSucc]; omega), Fin.coe_castSucc, hn]; rfl
  have hΦ1 : (dats m 0 c).Φ t.succ = iprop((∃ K, ghost m K c) ∗ rowPts c 0 fullShare (tblAcc m c (n + 1))) := by
    show (if t.succ.val = 0 then Φstart m c else if t.succ.val = 8 then Φend m c else Φmid m c t.succ.val) = _
    rw [if_neg (by simp only [Fin.val_succ]; omega), if_neg (by simp only [Fin.val_succ]; omega), Fin.val_succ, hn]; rfl
  have hO0 : (dats m 0 c).owed t.castSucc = O₁ c := by
    show (if t.castSucc.val = 0 then O₀ c else if t.castSucc.val = 8 then 0 else O₁ c) = _
    rw [if_neg (by simp only [Fin.coe_castSucc]; omega), if_neg (by simp only [Fin.coe_castSucc]; omega)]
  have hO1 : (dats m 0 c).owed t.succ = O₁ c := by
    show (if t.succ.val = 0 then O₀ c else if t.succ.val = 8 then 0 else O₁ c) = _
    rw [if_neg (by simp only [Fin.val_succ]; omega), if_neg (by simp only [Fin.val_succ]; omega)]
  have hidle : idle0 (1 : Fin 2) (grid0.coords t) = true := by
    show (!(k0_cond3 (grid0.coords t) == 1#1)) = true
    simp only [Bool.not_eq_true', beq_eq_false_iff_ne, ne_eq]; exact cond3_mid t ht
  have hfl : (cfg0.win (1 : Fin 2)).flush t = false :=
    Bool.eq_false_iff.mpr fun h => by have := (Gen.flush0_1 t).mp h; omega
  have hb : ∀ d, (dats m 0 c).before (0 : Fin 2) t d = xb m c (n + 1) := fun d => by
    have e : (⟨(n + 1) % 8, Nat.mod_lt _ (by decide)⟩ : Fin cfg0.N) = t := Fin.ext (by show (n + 1) % 8 = t.val; omega)
    unfold Dat.before; rw [if_pos (Gen.fetch0_0 t)]; unfold xb; rw [e]; rfl
  have ha : (dats m 0 c).after (0 : Fin 2) t = xb m c (n + 1) := by
    have e : (⟨(n + 1) % 8, Nat.mod_lt _ (by decide)⟩ : Fin cfg0.N) = t := Fin.ext (by show (n + 1) % 8 = t.val; omega)
    unfold xb; rw [e]; rfl
  unfold ObAt
  rw [Gen.bigSep_W0, Gen.bigSep_W0, hΦ0, hΦ1]
  unfold Dat.owesAt
  rw [hO0, hO1]
  simp only [hidle, hfl]
  show _ ⊢ wp frame _ Set.univ (cc0_body (grid0.coords t) (win0_0.stage (cfg0.slots t 0)) _ (win0_1.stage (cfg0.slots t 1)) _ (Memref.whole cc0_scratch0) (Memref.isWhole_whole _) cc0_scratch1 cc0_scratch2) _
  simp only [cc0_body_eq_skeleton]; unfold cc0_body_skel
  simp only [cond1_mid t ht, cond2_mid t ht, cond3_mid t ht, ↓reduceDIte]
  simp only [Prog.lift, Prog.bind_op, Prog.bind_ret, Prog.pure_eq_ret, wp_deviceId]
  generalize cfg0.slots t 0 = s0
  have hst : stage0_0 s0 = Memref.whole cc0_stg0_0 ∨ stage0_0 s0 = Memref.whole cc0_stg0_1 := by
    match s0 with
    | ⟨0, _⟩ => exact .inl rfl
    | ⟨1, _⟩ => exact .inr rfl
    | ⟨_ + 2, h⟩ => exact absurd h (Nat.not_lt.2 (Nat.le_add_left _ _))
  rcases hst with h | h
  ·
    rw [h]; simp only [owns_whole_eq]
    iintro ⟨⟨Hg, Hrow⟩, Ho, ⟨%d, %X, %hX, Hx⟩, Hout⟩
    iapply (acc_block0 m c n X (hX.trans (hb d))) $$ [Hrow Hx Hg Ho Hout]
    isplitl [Hrow]; · iexact Hrow
    isplitl [Hx]; · iexact Hx
    iintro ⟨Hrow, Hx⟩
    iapply (le_wp_ret _ _ _ ⟨⟩ _)
    isplitl [Hg Hrow]
    · isplitl [Hg]; · iexact Hg
      iexact Hrow
    isplitl [Ho]; · iexact Ho
    isplitl [Hx]
    · iexists X; isplitr; · ipureintro; exact hX.trans ((hb d).trans ha.symm)
      iexact Hx
    · iexact Hout
  ·
    rw [h]; simp only [owns_whole_eq]
    iintro ⟨⟨Hg, Hrow⟩, Ho, ⟨%d, %X, %hX, Hx⟩, Hout⟩
    iapply (acc_block1 m c n X (hX.trans (hb d))) $$ [Hrow Hx Hg Ho Hout]
    isplitl [Hrow]; · iexact Hrow
    isplitl [Hx]; · iexact Hx
    iintro ⟨Hrow, Hx⟩
    iapply (le_wp_ret _ _ _ ⟨⟩ _)
    isplitl [Hg Hrow]
    · isplitl [Hg]; · iexact Hg
      iexact Hrow
    isplitl [Ho]; · iexact Ho
    isplitl [Hx]
    · iexists X; isplitr; · ipureintro; exact hX.trans ((hb d).trans ha.symm)
      iexact Hx
    · iexact Hout

/-- info: 'Cert.Kernel.AllSum.body_mid' depends on axioms: [propext, Classical.choice, Quot.sound] -/
#guard_msgs in #print axioms body_mid

end Cert.Kernel.AllSum

end
-- ==== Proof.K.BodyLast.lean ====
/-
  The body at the last grid point.

  At point 7 the first branch of the body is skipped and the other two run: the eighth block's column sums are added
  into row 0 of the table, and then the exchange.  The device waits for the 31 units of its barrier cell, which bring
  it, from each peer, the row of that peer's table it is to write; it starts its 31 transfers, each reading row 0 through
  a share split off the remainder and writing row `d` of the device `d` places on; the waits on its 31 send cells bring
  the shares back, the waits on its 31 receive cells bring rows 1 … 31 of its own table, each at the partial sum of the
  device that many places before it.  Row 0 whole again, the 32 rows are the final table; its column sums are the
  result, stored into the output block.  The 62 own cells are left closed at zero.
-/
import proofs.«901084_g7700000000001085_dist_sum_ax0_shard0_i_m2048_n1024_v7x_i32_bf16_1_alg».proof.Proof.K.Chains
import proofs.«901084_g7700000000001085_dist_sum_ax0_shard0_i_m2048_n1024_v7x_i32_bf16_1_alg».proof.Proof.K.RowVals
import proofs.«901084_g7700000000001085_dist_sum_ax0_shard0_i_m2048_n1024_v7x_i32_bf16_1_alg».proof.Proof.K.AccBlock

noncomputable section

namespace Cert.Kernel.AllSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

namespace BodyLast

/-! ## The last point: its conditions, its staging buffers -/

theorem cond1_7 : ¬ (k0_cond1 (grid0.coords t0_7) = 1#1) := by decide
theorem cond3_7 : k0_cond3 (grid0.coords t0_7) = 1#1 := by decide
theorem slot0_7 : cfg0.slots t0_7 (0 : Fin 2) = (⟨1, by decide⟩ : Fin (cfg0.win 0).nbuf) := by decide +kernel
theorem slot1_7 : cfg0.slots t0_7 (1 : Fin 2) = (⟨0, by decide⟩ : Fin (cfg0.win 1).nbuf) := by decide +kernel
theorem idle0_7 : cfg0.idle 0 (cfg0.grid.coords t0_7) = false := rfl
theorem idle1_7 : cfg0.idle 1 (cfg0.grid.coords t0_7) = false := by
  show (!(k0_cond3 (grid0.coords t0_7) == 1#1)) = false
  rw [cond3_7]; rfl

/-! ## The program at the last point -/

theorem cond2_7 : Scalar.cmpi CmpIPredicate.ne (Scalar.extui (Scalar.cmpi CmpIPredicate.ne (BitVec.ofNat 32 (grid0.coords t0_7 0).val) 0#32)) 0#32 = 1#1 := by decide

/-- The accumulation block, then the exchange, as the body runs them at the last point. -/
def prog7 (c : Dev nD) (xM : Memref sig .tc .vmem S256x1024 .f32) (oM : Memref sig .tc .vmem S1x1024 .f32) : Prog (TpuEff nD τ sig (Elt F) Λ₀ .tc) PUnit :=
  .op (.load scrM r0.toLoadRect (View.loadsAt_vmem h_S1x1024)) fun v13 =>
  .op (.load xM rIn.toLoadRect (View.loadsAt_vmem h_S256x1024)) fun v15 =>
  .op (.load scrM r0.toLoadRect (View.loadsAt_vmem h_S1x1024)) fun v19 =>
  .op (.store scrM r0 (k0_pay2 v13 v15) Finset.univ (View.stores_vmem_bits_univ h_S1x1024 rfl) (.inl rfl)) fun _ =>
  .op (.semWait barS 31) fun _ =>
  sendsChain (xferDev c) ds fun (_ : PUnit.{1}) =>
  waitSChain ds fun (_ : PUnit.{1}) =>
  waitRChain ds fun (_ : PUnit.{1}) =>
  .op (.load scrM rAll.toLoadRect (View.loadsAt_vmem h_S32x1024)) fun v633 =>
  .op (.load oM rOut.toLoadRect (View.loadsAt_vmem h_S1x1024)) fun v635 =>
  .op (.store oM rOut (k0_pay3 (k0_pay4 v633)) Finset.univ (View.stores_vmem_bits_univ h_S1x1024 rfl) (.inl rfl)) fun _ =>
  .ret ⟨⟩

set_option maxRecDepth 65536 in
theorem body7_eq (xM : Memref sig .tc .vmem S256x1024 .f32) (hx : xM.IsWhole) (oM : Memref sig .tc .vmem S1x1024 .f32) (ho : oM.IsWhole) :
    cc0_body (F := F) (grid0.coords t0_7) xM hx oM ho scrM (Memref.isWhole_whole _) cc0_scratch1 cc0_scratch2
      = .op .deviceId fun d0 => prog7 d0 xM oM := by
  simp only [cc0_body_eq_skeleton]
  unfold cc0_body_skel
  simp only [dif_neg cond1_7, dif_pos cond2_7, dif_pos cond3_7]
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel
  simp only [Prog.lift, Prog.bind_op, Prog.bind_ret, Prog.pure_eq_ret, semSignalWord, semWaitWord]
  rfl

/-! ## Two lists of assertions side by side -/

theorem bigSepL_zip {I : Type} (l : List I) (Φ Ψ : I → sProp 𝕄) :
    iprop(bigSepL l Φ ∗ bigSepL l Ψ) ⊢ bigSepL l (fun i => iprop(Φ i ∗ Ψ i)) := by
  induction l with
  | nil => iintro ⟨H, -⟩; iexact H
  | cons i l ih =>
    rw [show bigSepL (i :: l) Φ = iprop(Φ i ∗ bigSepL l Φ) from bigSepL_cons _ _ _,
      show bigSepL (i :: l) Ψ = iprop(Ψ i ∗ bigSepL l Ψ) from bigSepL_cons _ _ _,
      show bigSepL (i :: l) (fun i => iprop(Φ i ∗ Ψ i)) = iprop((Φ i ∗ Ψ i) ∗ bigSepL l (fun i => iprop(Φ i ∗ Ψ i))) from bigSepL_cons _ _ _]
    iintro ⟨⟨H1, H2⟩, H3, H4⟩
    isplitl [H1 H3]
    · isplitl [H1]; · iexact H1
      iexact H3
    iapply ih
    isplitl [H2]; · iexact H2
    iexact H4

theorem bigSepL_unzip {I : Type} (l : List I) (Φ Ψ : I → sProp 𝕄) :
    bigSepL l (fun i => iprop(Φ i ∗ Ψ i)) ⊢ iprop(bigSepL l Φ ∗ bigSepL l Ψ) := by
  induction l with
  | nil => iintro H; isplitl [H]; · iexact H
           iempintro
  | cons i l ih =>
    rw [show bigSepL (i :: l) Φ = iprop(Φ i ∗ bigSepL l Φ) from bigSepL_cons _ _ _,
      show bigSepL (i :: l) Ψ = iprop(Ψ i ∗ bigSepL l Ψ) from bigSepL_cons _ _ _,
      show bigSepL (i :: l) (fun i => iprop(Φ i ∗ Ψ i)) = iprop((Φ i ∗ Ψ i) ∗ bigSepL l (fun i => iprop(Φ i ∗ Ψ i))) from bigSepL_cons _ _ _]
    iintro ⟨⟨H1, H3⟩, H⟩
    ihave H' := ih $$ H
    icases H' with ⟨H2, H4⟩
    isplitl [H1 H2]
    · isplitl [H1]; · iexact H1
      iexact H2
    isplitl [H3]; · iexact H3
    iexact H4

/-! ## The run -/

theorem ds_bounds : ∀ d ∈ ds, 1 ≤ d ∧ d ≤ 31 := by decide

/-- The last point's run: the eighth block is added into row 0; the barrier wait brings the 31 peers' rows; the 31
    transfers go out through shares of row 0; the send waits bring the shares back and the receive waits the 31 rows
    at the peers' partial sums; the table is whole again at its final contents, and its column sums are stored. -/
theorem run_prog7 (m : (ℓ : Loc nD τ sig) → Buf (Elt F) ℓ) (c : Dev nD) (X : (cc0_stg0_1 : Ref sig .tc).ty.Contents (Elt F)) (hX : X = xb m c 7)
    (Y : (cc0_stg1_0 : Ref sig .tc).ty.Contents (Elt F)) (W : Waits sig Unit) (Q : PUnit → sProp 𝕄) :
    iprop(Φmid m c 7 ∗ owes (c : Thread nD τ) (O₁ c) W ∗ (((c : Thread nD τ).loc cc0_stg0_1) ↦{fullShare} X) ∗ (((c : Thread nD τ).loc cc0_stg1_0) ↦{fullShare} Y)
        ∗ (iprop(Φend m c ∗ owesSome c 0 ∗ (((c : Thread nD τ).loc cc0_stg0_1) ↦{fullShare} X) ∗ (((c : Thread nD τ).loc cc0_stg1_0) ↦{fullShare} outRow (xb m) c)) -∗ Q ⟨⟩))
      ⊢ wp frame (wpE (defs₀ (F := F)) 𝒱₀ (c : Thread nD τ) none) Set.univ (prog7 c (Memref.whole cc0_stg0_1) (Memref.whole cc0_stg1_0)) Q := by
  unfold Φmid ghost carried prog7
  iintro ⟨⟨⟨%K, #Hrec, Hbar, Hsp, Hrp, Htok, Hcb, Hcr, #Hlev⟩, Hrow⟩, HO, Hx, Hy, Hk⟩
  -- the accumulation block: row 0 goes to the sum after the eighth point
  iapply (acc_block1 m c 6 X hX)
  isplitl [Hrow]; · iexact Hrow
  isplitl [Hx]; · iexact Hx
  iintro ⟨Hrow, Hx⟩
  ihave Hrow := (Entails.of_eq (acc_fin m c fullShare)) $$ Hrow
  -- the wait on the own barrier cell: the 31 peers' rows
  iapply (bar_wait m K c 31 rfl) $$ [Hcb HO Hbar]
  · isplitr; · iexact Hrec
    isplitl [Hcb]; · iexact Hcb
    isplitl [HO]; · unfold owesSome; iexists W; iexact HO
    isplitr; · iexact Hlev
    iexact Hbar
  iintro ⟨HO, Hpay⟩
  -- the 31 transfers
  iapply (sendsChain_spec m K c (xferDev c) ds [] 0 rfl (by decide) (fun d hd => xferDev_eq c d (ds_bounds d hd))) $$ [Hrow Hpay HO Htok]
  · isplitr; · iexact Hrec
    isplitl [Hrow]; · iexact Hrow
    isplitl [Hpay]; · iexact Hpay
    isplitl [HO]; · rw [List.append_nil]; iexact HO
    iexact Htok
  iintro ⟨Hrem, Hcs, HO⟩
  -- the waits on the send cells
  iapply (waitSChain_spec m K c ds ds_bounds) $$ [HO Hcs Hsp]
  · isplitr; · iexact Hrec
    isplitl [HO]; · iexact HO
    iapply (bigSepL_zip ds _ _)
    isplitl [Hcs]; · iexact Hcs
    iexact Hsp
  iintro ⟨HO, Hs⟩
  ihave Hs := (bigSepL_unzip ds _ _) $$ Hs
  icases Hs with ⟨Hqs, Hsv⟩
  -- the waits on the receive cells
  iapply (waitRChain_spec m K c ds ds_bounds) $$ [HO Hcr Hrp]
  · isplitr; · iexact Hrec
    isplitl [HO]; · iexact HO
    iapply (bigSepL_zip ds _ _)
    isplitl [Hcr]; · iexact Hcr
    iexact Hrp
  iintro ⟨HO, Hr⟩
  ihave Hr := (bigSepL_unzip ds _ _) $$ Hr
  icases Hr with ⟨Hrows, Hrv⟩
  -- the table whole again
  ihave Hrow0 := (join_shares c (tblFin m c)) $$ [Hrem Hqs]
  · isplitl [Hrem]; · iexact Hrem
    iexact Hqs
  ihave Htbl := (join_rows c (tblFin m c)) $$ [Hrow0 Hrows]
  · isplitl [Hrow0]; · iexact Hrow0
    iexact Hrows
  -- the final loads and the store, run symbolically from the two buffers held whole
  ihave Htbl := (show (scrWhole c (tblFin m c) : sProp 𝕄) ⊢ ((scrM : Memref sig .tc .vmem S32x1024 .f32).view.loc (c : Thread nD τ) ↦{fullShare} tblFin m c) from BI.Entails.refl _) $$ Htbl
  ihave Hy := (show ((((c : Thread nD τ).loc cc0_stg1_0) ↦{fullShare} Y : sProp 𝕄)) ⊢ ((Memref.whole cc0_stg1_0 : Memref sig .tc .vmem S1x1024 .f32).view.loc (c : Thread nD τ) ↦{fullShare} Y) from BI.Entails.refl _) $$ Hy
  sl_exec
  -- what was stored is the column sums of the final table
  rw [show (Memref.whole cc0_stg1_0 : Memref sig .tc .vmem S1x1024 .f32).view.writes (Elt F) Y
        [⟨rOut, k0_pay3 (k0_pay4 ((scrM : Memref sig .tc .vmem S32x1024 .f32).view.readAt (Elt F) rAll.toLoadRect (tblFin m c)))⟩]
      = outRow (xb m) c from by rw [read_all m c]; exact write_out Y _]
  iapply (le_wp_ret _ _ _ _ _)
  iapply Hk
  unfold Φend scrWhole
  isplitl [Htbl Hsv Hrv]
  · isplitl [Htbl]; · iexact Htbl
    isplitl [Hsv]; · iexact Hsv
    iexact Hrv
  isplitl [HO]; · iexact HO
  isplitl [Hx]; · iexact Hx
  iexact Hy

end BodyLast

open BodyLast

/-- The body obligation at the last grid point. -/
theorem body_last (m : (ℓ : Loc nD τ sig) → Buf (Elt F) ℓ) (c : Dev nD) : ObAt m c t0_7 := by
  unfold ObAt
  rw [Gen.bigSep_W0, Gen.bigSep_W0]
  rw [idle0_7, idle1_7, slot0_7, slot1_7]
  show iprop(Φmid m c 7 ∗ (dats m 0 c).owesAt () t0_7.castSucc
        ∗ (∃ d, owns (c : Thread nD τ) (Memref.whole cc0_stg0_1) fullShare ((dats m 0 c).before 0 t0_7 d))
        ∗ (∃ d, owns (c : Thread nD τ) (Memref.whole cc0_stg1_0) fullShare ((dats m 0 c).before 1 t0_7 d)))
    ⊢ wp frame (wpE (defs₀ (F := F)) 𝒱₀ (c : Thread nD τ) none) Set.univ
        (cc0_body (grid0.coords t0_7) (Memref.whole cc0_stg0_1) (Memref.isWhole_whole _) (Memref.whole cc0_stg1_0) (Memref.isWhole_whole _)
          scrM (Memref.isWhole_whole _) cc0_scratch1 cc0_scratch2)
        (fun _ => iprop(Φend m c ∗ (dats m 0 c).owesAt () t0_7.succ
          ∗ owns (c : Thread nD τ) (Memref.whole cc0_stg0_1) fullShare (iblk m c 0 t0_7)
          ∗ owns (c : Thread nD τ) (Memref.whole cc0_stg1_0) fullShare (outRow (xb m) c)))
  rw [body7_eq, wp_deviceId]
  have hbefore : ∀ d, (dats m 0 c).before (0 : Fin 2) t0_7 d = xb m c 7 := fun d => by
    unfold Dat.before; rw [if_pos (Gen.fetch0_0 t0_7)]; rfl
  have hblk : iblk m c 0 t0_7 = xb m c 7 := rfl
  simp only [Idealize.ShloMosaic.owns_whole_eq, hbefore, hblk]
  iintro ⟨HΦ, ⟨%W, %hW, HO⟩, ⟨%d0, %X, %hX, Hx⟩, ⟨%d1, %Y, %hY, Hy⟩⟩
  iapply (run_prog7 m c X hX Y W _)
  isplitl [HΦ]; · iexact HΦ
  isplitl [HO]; · iexact HO
  isplitl [Hx]; · iexact Hx
  isplitl [Hy]; · iexact Hy
  unfold owesSome
  iintro ⟨HΦ, ⟨%W', HO⟩, Hx, Hy⟩
  isplitl [HΦ]; · iexact HΦ
  isplitl [HO]
  · iexists W'
    isplitr; · ipureintro; exact fun x _ => Or.inl (Set.mem_univ x)
    iexact HO
  isplitl [Hx]
  · iexists X; isplitr; · ipureintro; exact hX
    iexact Hx
  iexists _; isplitr; · ipureintro; rfl
  iexact Hy

end Cert.Kernel.AllSum

end

/-- info: 'Cert.Kernel.AllSum.body_last' depends on axioms: [propext, Classical.choice, Quot.sound] -/
#guard_msgs in #print axioms Cert.Kernel.AllSum.body_last
-- ==== Proof.K.LaunchDefs.lean ====
/-
  What the launch hands each device: the names of the kernel's own semaphores, and the ghost state before its credits and levels arrive.
-/
import proofs.«901084_g7700000000001085_dist_sum_ax0_shard0_i_m2048_n1024_v7x_i32_bf16_1_alg».proof.Proof.K.Data

noncomputable section

namespace Cert.Kernel.AllSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kernel's own (scoped) semaphores: the 31 send semaphores, then the 31 receive semaphores. -/
def osem (k : Fin 62) : SemLoc sig := if k.val < 31 then .dma (sendS (k.val + 1)) else .dma (recvS (k.val - 30))

/-- A device's positions at round 0 of its 63 cells. -/
def positions (c : Dev nD) : sProp 𝕄 :=
  iprop(atPos ER (barCell c) 0 ∅ 0 ∗ bigSepL ds (fun d => atPos ER (sendCell c d) 0 ∅ 0) ∗ bigSepL ds (fun d => atPos ER (recvCell c d) 0 ∅ 0))
/-- The tokens of the duties its transfers pay: on its own send cell and on the destination's receive cell. -/
def xferToks (c : Dev nD) : sProp 𝕄 :=
  bigSepL ds (fun d => iprop(dutyTok ER (sendCell c d) 0 (0 : Dev nD) ∗ dutyTok ER (recvCell (peer c d) d) 0 (0 : Dev nD)))

/-- What the launch's global step leaves each device: every cell's invariant and reached mark, its positions, the tokens
    of the duties it pays. -/
def G' (c : Dev nD) : sProp 𝕄 := iprop(∃ K, records m K ∗ positions c ∗ xferToks c ∗ sigToks c ds)

/-- What a device's body starts from, the table apart. -/
def startX (c : Dev nD) : sProp 𝕄 := iprop((∃ K, ghost m K c) ∗ sigToks c ds)

end Cert.Kernel.AllSum

end
-- ==== Proof.K.LaunchA.lean ====
/-
  The launch of the protocol's ghost state: the launch element of the algebra dealt to the 32 devices, every device's
  63 cells given their invariants from the counters at zero in one step, and the tokens of the duties handed to the
  devices that pay them.
-/
import proofs.«901084_g7700000000001085_dist_sum_ax0_shard0_i_m2048_n1024_v7x_i32_bf16_1_alg».proof.Proof.K.Tables
import proofs.«901084_g7700000000001085_dist_sum_ax0_shard0_i_m2048_n1024_v7x_i32_bf16_1_alg».proof.Proof.K.LaunchDefs
import Idealize.ShloMosaic.Lib.Pipeline.Launch
import Idealize.ShloMosaic.Lib.Pipeline.Kit
import Idealize.ShloMosaic.Lib.Tactic

noncomputable section

namespace Cert.Kernel.AllSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-! ## The payloads can be stored in an invariant -/

namespace LaunchA

instance rowPts_storable (c : Dev nD) (d : ℕ) (q : PosShare TreeShare) (f : Buf (Elt F) ((rowM d).view.loc (c : Thread nD τ))) :
    BI.Storable (upEmb : UEmb _ 𝕄) (rowPts c d q f) := by
  unfold rowPts; infer_instance

instance sendPay_storable (m : (ℓ : Loc nD τ sig) → Buf (Elt F) ℓ) (c : Dev nD) (d : ℕ) : BI.Storable (upEmb : UEmb _ 𝕄) (sendPay m c d) :=
  rowPts_storable c 0 (qs d) (tblFin m c)
instance recvPay_storable (m : (ℓ : Loc nD τ sig) → Buf (Elt F) ℓ) (c : Dev nD) (d : ℕ) : BI.Storable (upEmb : UEmb _ 𝕄) (recvPay m c d) :=
  rowPts_storable c d fullShare (tblFin m c)

end LaunchA
open LaunchA

instance Rd_payload_storable (m : (ℓ : Loc nD τ sig) → Buf (Elt F) ℓ) (g : GSem nD τ sig) (r : ℕ) (d : Dev nD) :
    BI.Storable (upEmb : UEmb _ 𝕄) ((Rd (F := F) m).payload g r d) := by
  show BI.Storable upEmb (if g.2 = .reg barS then barPay g.1.1 d else xferPay m g.1.1 g.2)
  unfold barPay xferPay
  (repeat' split) <;> infer_instance

/-! ## Enumerations -/

namespace LaunchA

/-- A conjunction over the 31 offsets, indexed from 0, is the chain over `1 … 31`. -/
theorem bigSep_offsets (Φ : ℕ → sProp 𝕄) : bigSep (Finset.univ : Finset (Fin 31)) (fun j => Φ (j.val + 1)) = bigSepL ds Φ := by
  rw [bigSep_univ_eq_bigSepL (List.finRange 31) (by ext j; simp) (List.nodup_finRange 31),
    ← bigSepL_map (fun j : Fin 31 => j.val + 1) (List.finRange 31) Φ]
  exact congrArg (fun l => bigSepL l Φ) (by decide)

theorem bigSep_fin3 (Φ : Fin 3 → sProp 𝕄) : bigSep Finset.univ Φ = iprop(Φ 0 ∗ Φ 1 ∗ Φ 2) :=
  bigSep_univ_eq_bigSepL [0, 1, 2] (by decide) (by decide) Φ

/-! ## The launch -/

/-- A cell's place in the indexing, read off its semaphore. -/
theorem csemIdx_send {d : ℕ} (hd : 1 ≤ d ∧ d ≤ 31) : csemIdx (.dma (sendS d) : SemLoc sig) = d := by
  show (2 + d) % 65 - 2 = d
  omega
theorem csemIdx_recv {d : ℕ} (hd : 1 ≤ d ∧ d ≤ 31) : csemIdx (.dma (recvS d) : SemLoc sig) = d + 31 := by
  show (33 + d) % 65 - 2 = d + 31
  omega

theorem osem_idx (k : Fin 62) : csemIdx (osem k) = k.val + 1 := by
  have hk := k.isLt
  unfold osem
  by_cases h : k.val < 31
  · rw [if_pos h]; exact csemIdx_send ⟨by omega, by omega⟩
  · rw [if_neg h]; exact (csemIdx_recv ⟨by omega, by omega⟩).trans (by omega)

end LaunchA

theorem ownSemFacts : Pipeline.OwnSemFacts cfg0.spec osem := by
  have hsc : ∀ q : DmaSem sig, (SemLoc.dma q : SemLoc sig).isScoped .tc = true := by decide
  refine ⟨fun k => ?_, fun k k' h => ?_, fun k w s h => ?_⟩
  · unfold osem; split <;> exact hsc _
  · exact Fin.ext (by have h1 := osem_idx k; have h2 := osem_idx k'; rw [h] at h1; omega)
  · have h1 := osem_idx k
    rw [h] at h1
    have h2 : ∀ (w : Fin cfg0.W) (s : Fin (cfg0.spec w).nbuf), ((cfg0.spec w).sem s).val - 2 = 0 := by decide
    have h3 : csemIdx (.dma ((cfg0.spec w).sem s) : SemLoc sig) = ((cfg0.spec w).sem s).val - 2 := rfl
    rw [h3, h2 w s] at h1
    omega

theorem share_eq (m : (ℓ : Loc nD τ sig) → Buf (Elt F) ℓ) (c : Dev nD) (w : Fin cfg0.W) : (dats m 0 c).share w = fullShare := by
  unfold Dat.share; split <;> rfl

namespace LaunchA

/-- The protocol's cells: the 63 of each device. -/
def protoCells : Finset (GSem nD τ sig) := Finset.univ.map ⟨kcell, kcell_injective⟩

/-- The duties of round 0 of a device's own cells, by kind (0 the barrier cell, 1 the send cells, 2 the receive cells)
    and offset: the barrier cell's duty of the device `j + 1` places before it, and the one duty of the send and of the
    receive cell of transfer `j + 1`. -/
def tokOf (x : Dev nD × Fin 3 × Fin 31) : GSem nD τ sig × ℕ × Dev nD :=
  if x.2.1.val = 0 then (barCell x.1, 0, back x.1 (x.2.2.val + 1))
  else if x.2.1.val = 1 then (sendCell x.1 (x.2.2.val + 1), 0, (0 : Dev nD))
  else (recvCell x.1 (x.2.2.val + 1), 0, (0 : Dev nD))

theorem tokOf_dev (x : Dev nD × Fin 3 × Fin 31) : (tokOf x).1.1.1 = x.1 := by
  unfold tokOf
  by_cases h0 : x.2.1.val = 0
  · rw [if_pos h0]
  · rw [if_neg h0]
    by_cases h1 : x.2.1.val = 1
    · rw [if_pos h1]
    · rw [if_neg h1]

theorem tokOf_idx (x : Dev nD × Fin 3 × Fin 31) :
    csemIdx (tokOf x).1.2 = if x.2.1.val = 0 then 0 else if x.2.1.val = 1 then x.2.2.val + 1 else x.2.2.val + 32 := by
  have hj := x.2.2.isLt
  unfold tokOf
  by_cases h0 : x.2.1.val = 0
  · rw [if_pos h0, if_pos h0]; rfl
  · rw [if_neg h0, if_neg h0]
    by_cases h1 : x.2.1.val = 1
    · rw [if_pos h1, if_pos h1]; exact csemIdx_send ⟨by omega, by omega⟩
    · rw [if_neg h1, if_neg h1]; exact (csemIdx_recv ⟨by omega, by omega⟩).trans (by omega)

theorem tokOf_duty (x : Dev nD × Fin 3 × Fin 31) :
    (tokOf x).2.2.val = if x.2.1.val = 0 then (x.1.val + (32 - (x.2.2.val + 1) % 32)) % 32 else 0 := by
  unfold tokOf
  by_cases h0 : x.2.1.val = 0
  · rw [if_pos h0, if_pos h0]; rfl
  · rw [if_neg h0, if_neg h0]
    by_cases h1 : x.2.1.val = 1
    · rw [if_pos h1]; rfl
    · rw [if_neg h1]; rfl

theorem tokOf_injective : Function.Injective (tokOf : Dev nD × Fin 3 × Fin 31 → GSem nD τ sig × ℕ × Dev nD) := by
  rintro ⟨c, k, j⟩ ⟨c', k', j'⟩ h
  have hd : c = c' :=
    (tokOf_dev (c, k, j)).symm.trans ((congrArg (fun z : GSem nD τ sig × ℕ × Dev nD => z.1.1.1) h).trans (tokOf_dev (c', k', j')))
  subst hd
  have hi := (tokOf_idx (c, k, j)).symm.trans ((congrArg (fun z : GSem nD τ sig × ℕ × Dev nD => csemIdx z.1.2) h).trans (tokOf_idx (c, k', j')))
  have hu := (tokOf_duty (c, k, j)).symm.trans ((congrArg (fun z : GSem nD τ sig × ℕ × Dev nD => z.2.2.val) h).trans (tokOf_duty (c, k', j')))
  have hc : c.val < 32 := c.isLt
  have hk := k.isLt
  have hk' := k'.isLt
  have hj := j.isLt
  have hj' := j'.isLt
  have key : k.val = k'.val ∧ j.val = j'.val := by
    simp only at hi hu
    split_ifs at hi hu <;> omega
  obtain rfl : k = k' := Fin.ext key.1
  obtain rfl : j = j' := Fin.ext key.2
  rfl

/-- Every duty of round 0 of every cell of the protocol. -/
def protoToks : Finset (GSem nD τ sig × ℕ × Dev nD) := Finset.univ.map ⟨tokOf, tokOf_injective⟩

end LaunchA

def u₀ : UU := (initOf (Pipeline.cells cfgs cellOf_inj) (Pipeline.launchToks cfgs cellOf_inj), initOf protoCells protoToks)

namespace LaunchA

/-- The tokens of the duties of device `c`'s own cells. -/
def toks (c : Dev nD) : sProp 𝕄 :=
  iprop(bigSepL ds (fun d => dutyTok ER (barCell c) 0 (back c d))
    ∗ bigSepL ds (fun d => dutyTok ER (sendCell c d) 0 (0 : Dev nD))
    ∗ bigSepL ds (fun d => dutyTok ER (recvCell c d) 0 (0 : Dev nD)))

end LaunchA

/-- What the launch element deals device `c`: the round state, position and reached mark of each of its 63 cells, and
    the tokens of their duties. -/
def G (m : (ℓ : Loc nD τ sig) → Buf (Elt F) ℓ) (c : Dev nD) : sProp 𝕄 :=
  iprop((bigSep Finset.univ fun k : Fin 63 => roundState ER (Rd m) (kcell (c, k)) 0)
    ∗ (bigSep Finset.univ fun k : Fin 63 => iprop(atPos ER (kcell (c, k)) 0 ∅ 0 ∗ reached ER (kcell (c, k)) 0)) ∗ toks c)

namespace LaunchA

/-- The minted tokens, device by device. -/
theorem protoToks_eq : bigSep protoToks (fun x => (dutyTok ER x.1 x.2.1 x.2.2 : sProp 𝕄)) = bigSep Finset.univ fun c : Dev nD => toks c := by
  unfold protoToks
  rw [bigSep_map, bigSep_univ_prod]
  refine bigSep_congr fun c _ => ?_
  unfold toks
  rw [bigSep_univ_prod, bigSep_fin3, ← bigSep_offsets, ← bigSep_offsets, ← bigSep_offsets]
  rfl

theorem fund_proto (m : (ℓ : Loc nD τ sig) → Buf (Elt F) ℓ) :
    BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 63 => Φ (kcell (c, k)) := by
    unfold protoCells; rw [bigSep_map, bigSep_univ_prod]; rfl
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq (protoToks_eq (F := F))) $$ Htok
  unfold G; simp only [bigSep_sep']
  isplitl [Hst']; · iexact Hst'
  isplitl [Hat' Hr']
  · isplitl [Hat'] <;> iassumption
  iexact Htok'

end LaunchA

theorem hu0 (m : (ℓ : Loc nD τ sig) → Buf (Elt F) ℓ) :
    (ownU (u₀ : UU) : sProp 𝕄)
      ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_proto m) $$ HX with HG
  imodintro
  isplitl [HP] <;> iassumption

/-! ### A device's 63 cells, by kind -/

namespace LaunchA

/-- 63 = 1 + 31 + 31: the barrier cell, the send cells, the receive cells. -/
def e63 : (Fin 1 ⊕ Fin 31) ⊕ Fin 31 ≃ Fin 63 := (Equiv.sumCongr finSumFinEquiv (Equiv.refl (Fin 31))).trans finSumFinEquiv

theorem e63_bar : (e63 (.inl (.inl 0))).val = 0 := rfl
theorem e63_send (j : Fin 31) : (e63 (.inl (.inr j))).val = 1 + j.val := rfl
theorem e63_recv (j : Fin 31) : (e63 (.inr j)).val = 32 + j.val := rfl

theorem kcell_of_bar (c : Dev nD) (k : Fin 63) (hk : k.val = 0) : kcell (c, k) = barCell c := by
  obtain rfl : k = 0 := Fin.ext hk
  exact kcell_bar c
theorem kcell_of_send (c : Dev nD) (k : Fin 63) (d : ℕ) (hd : 1 ≤ d ∧ d ≤ 31) (hk : k.val = d) : kcell (c, k) = sendCell c d :=
  (congrArg (fun k' : Fin 63 => kcell (c, k')) (Fin.ext hk)).trans (kcell_send c hd)
theorem kcell_of_recv (c : Dev nD) (k : Fin 63) (d : ℕ) (hd : 1 ≤ d ∧ d ≤ 31) (hk : k.val = d + 31) : kcell (c, k) = recvCell c d :=
  (congrArg (fun k' : Fin 63 => kcell (c, k')) (Fin.ext hk)).trans (kcell_recv c hd)

/-- A conjunction over a device's 63 cells: the barrier cell's, the send cells', the receive cells'. -/
theorem cells63 (c : Dev nD) (Φ : GSem nD τ sig → sProp 𝕄) :
    bigSep Finset.univ (fun k : Fin 63 => Φ (kcell (c, k)))
      = iprop(Φ (barCell c) ∗ bigSepL ds (fun d => Φ (sendCell c d)) ∗ bigSepL ds (fun d => Φ (recvCell c d))) := by
  calc bigSep Finset.univ (fun k : Fin 63 => Φ (kcell (c, k)))
      = bigSep Finset.univ (fun a : (Fin 1 ⊕ Fin 31) ⊕ Fin 31 => Φ (kcell (c, e63 a))) := bigSep_univ_equiv e63 _
    _ = iprop((bigSep Finset.univ (fun a : Fin 1 => Φ (kcell (c, e63 (.inl (.inl a))))) ∗ bigSep Finset.univ (fun j : Fin 31 => Φ (kcell (c, e63 (.inl (.inr j))))))
          ∗ bigSep Finset.univ (fun j : Fin 31 => Φ (kcell (c, e63 (.inr j))))) := by
        rw [bigSep_univ_sum, bigSep_univ_sum]
        rfl
    _ = iprop((Φ (barCell c) ∗ bigSep Finset.univ (fun j : Fin 31 => Φ (sendCell c (j.val + 1)))) ∗ bigSep Finset.univ (fun j : Fin 31 => Φ (recvCell c (j.val + 1)))) := by
        rw [bigSep_univ_of_subsingleton (0 : Fin 1), kcell_of_bar c _ e63_bar,
          bigSep_congr (fun (j : Fin 31) _ => congrArg Φ (kcell_of_send c (e63 (.inl (.inr j))) (j.val + 1) ⟨by omega, by have := j.isLt; omega⟩ ((e63_send j).trans (Nat.add_comm _ _)))),
          bigSep_congr (fun (j : Fin 31) _ => congrArg Φ (kcell_of_recv c (e63 (.inr j)) (j.val + 1) ⟨by omega, by have := j.isLt; omega⟩ ((e63_recv j).trans (by omega))))]
    _ = _ := by
        rw [bigSep_offsets (fun d => Φ (sendCell c d)), bigSep_offsets (fun d => Φ (recvCell c d))]
        exact Idealize.SL.BI.sep_assoc.antisymm Idealize.SL.BI.sep_assoc'

/-! ### The counters at zero -/

theorem osem_send (j : Fin 31) : osem ((finSumFinEquiv : Fin 31 ⊕ Fin 31 ≃ Fin 62) (Sum.inl j)) = .dma (sendS (j.val + 1)) := by
  unfold osem
  rw [if_pos (show (((finSumFinEquiv : Fin 31 ⊕ Fin 31 ≃ Fin 62) (Sum.inl j))).val < 31 from j.isLt)]
  rfl
theorem osem_recv (j : Fin 31) : osem ((finSumFinEquiv : Fin 31 ⊕ Fin 31 ≃ Fin 62) (Sum.inr j)) = .dma (recvS (j.val + 1)) := by
  unfold osem
  rw [if_neg (show ¬ (((finSumFinEquiv : Fin 31 ⊕ Fin 31 ≃ Fin 62) (Sum.inr j))).val < 31 from by show ¬ 31 + j.val < 31; omega)]
  show SemLoc.dma (recvS (31 + j.val - 30)) = _
  rw [show 31 + j.val - 30 = j.val + 1 by omega]

/-- The kernel's own semaphores at zero are the send and the receive cells' counters; -/
theorem ownSems0_eq (c : Dev nD) :
    (Pipeline.ownSems0 (Ix := Unit) (Name := ℕ) (U := UU) (Lvl := ℕ) (Val := Elt F) (τ := τ) osem c : sProp 𝕄)
      = iprop(bigSepL ds (fun d => semVal (sendCell c d) 0) ∗ bigSepL ds (fun d => semVal (recvCell c d) 0)) := by
  unfold Pipeline.ownSems0
  rw [bigSep_univ_equiv (finSumFinEquiv : Fin 31 ⊕ Fin 31 ≃ Fin 62), bigSep_univ_sum,
    ← bigSep_offsets (fun d => (semVal (sendCell c d) 0 : sProp 𝕄)), ← bigSep_offsets (fun d => (semVal (recvCell c d) 0 : sProp 𝕄))]
  simp only [osem_send, osem_recv]
  rfl

/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 63 => semVal (kcell (c, k)) 0 : sProp 𝕄) := by
  rw [ownSems0_eq, unscopedSems0_eq, cells63 c (fun g => semVal g 0)]
  iintro ⟨⟨HS, HV⟩, HB⟩
  isplitl [HB]; · iexact HB
  isplitl [HS] <;> iassumption

/-- A device's 63 cells get their invariants, from its counters at zero and their round states. -/
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 63 => iprop(∃ κ : ℕ, cellInv ER (Rd m) κ (kcell (c, k))))
          ∗ (bigSep Finset.univ fun k : Fin 63 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 63 => semVal (kcell (c, k)) 0) ∗ bigSep Finset.univ fun k : Fin 63 => roundState ER (Rd m) (kcell (c, k)) 0)
      ⊢ (|={Set.univ}=> bigSep Finset.univ fun k : Fin 63 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens to the devices that pay -/

/-- The ring turned by `d` places. -/
def turn (d : ℕ) : Dev nD ≃ Dev nD := ⟨fun c => peer c d, fun c => back c d, fun c => back_peer c d, fun c => peer_back c d⟩

/-- A conjunction over devices and offsets, each device's summand at offset `d` taken from the device `d` places on. -/
theorem around (Ψ : Dev nD → ℕ → sProp 𝕄) :
    bigSep Finset.univ (fun c : Dev nD => bigSep Finset.univ fun j : Fin 31 => Ψ c (j.val + 1))
      = bigSep Finset.univ (fun c : Dev nD => bigSep Finset.univ fun j : Fin 31 => Ψ (peer c (j.val + 1)) (j.val + 1)) := by
  rw [bigSep_univ_comm (fun (c : Dev nD) (j : Fin 31) => Ψ c (j.val + 1)),
    bigSep_univ_comm (fun (c : Dev nD) (j : Fin 31) => Ψ (peer c (j.val + 1)) (j.val + 1))]
  exact bigSep_congr fun j _ => bigSep_univ_equiv (turn (j.val + 1)) (fun c => Ψ c (j.val + 1))

/-- Each device's barrier tokens go to the devices that signal it, each receive token to the device whose transfer pays it. -/
theorem toks_around : (bigSep Finset.univ fun c : Dev nD => (toks c : sProp 𝕄)) ⊢ bigSep Finset.univ fun c : Dev nD => iprop(xferToks c ∗ sigToks c ds) := by
  have hB := around (F := F) (fun c d => dutyTok ER (barCell c) 0 (back c d))
  have hR := around (F := F) (fun c d => dutyTok ER (recvCell c d) 0 (0 : Dev nD))
  simp only [back_peer] at hB
  unfold toks xferToks sigToks
  simp only [← bigSep_offsets, bigSep_sep']
  rw [hB, hR]
  iintro ⟨H1, H2, H3⟩
  isplitl [H2 H3]
  · isplitl [H2] <;> iassumption
  iexact H1

theorem ghost_intro (m : (ℓ : Loc nD τ sig) → Buf (Elt F) ℓ) (K : Dev nD × Fin 63 → ℕ) (c : Dev nD) :
    iprop(records m K ∗ positions c ∗ xferToks c ∗ sigToks c ds) ⊢ G' m c := by
  unfold G'
  iintro ⟨HR, HP, HX, HS⟩
  iexists K
  isplitl [HR]; · iexact HR
  isplitl [HP]; · iexact HP
  isplitl [HX] <;> iassumption

theorem regroup (m : (ℓ : Loc nD τ sig) → Buf (Elt F) ℓ) :
    (bigSep Finset.univ fun c : Dev nD => iprop((bigSep Finset.univ fun k : Fin 63 => iprop(∃ κ : ℕ, cellInv ER (Rd m) κ (kcell (c, k))))
          ∗ (bigSep Finset.univ fun k : Fin 63 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 63 => iprop(∃ κ : ℕ, cellInv ER (Rd m) κ (kcell ck))),
    bigSep_congr (s := Finset.univ) (fun (c : Dev nD) _ => bigSep_sep' Finset.univ (fun k : Fin 63 => (atPos ER (kcell (c, k)) 0 ∅ 0 : sProp 𝕄)) (fun k => reached ER (kcell (c, k)) 0)),
    bigSep_sep', ← bigSep_univ_prod (fun ck : Dev nD × Fin 63 => (reached ER (kcell ck) 0 : sProp 𝕄))]
  iintro ⟨HI, ⟨Hat, #HR⟩, Htok⟩
  ihave HK := (BI.bigSep_exists_pi Finset.univ (fun (ck : Dev nD × Fin 63) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 63 => (atPos ER (kcell (c, k)) 0 ∅ 0 : sProp 𝕄)) (fun c => iprop(xferToks c ∗ sigToks c ds))).symm).trans
      (bigSep_mono fun c _ => show _ ⊢ iprop(positions c ∗ xferToks c ∗ sigToks c ds) from Entails.of_eq (by unfold positions; rw [cells63 c (fun g => atPos ER g 0 ∅ 0)])))
    isplitl [Hat]; · iexact Hat
    iexact Htk

end LaunchA

/-- The global step: the own and the unscoped semaphores of every device at once. -/
theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-- info: 'Cert.Kernel.AllSum.hu0' depends on axioms: [propext, Classical.choice, Quot.sound] -/
#guard_msgs in #print axioms hu0

/-- info: 'Cert.Kernel.AllSum.glob' depends on axioms: [propext, Classical.choice, Quot.sound] -/
#guard_msgs in #print axioms glob

end Cert.Kernel.AllSum

end
-- ==== Proof.K.LaunchB.lean ====
/-
  The second half of the launch: each device's launch credit (31 units on its barrier cell, a row's credit on each of
  its receive cells), what it starts from once its credit and the level facts arrive, the proof data's first and last
  assertions against the scoped buffers and the own semaphores, and the levels under the pipeline's own waits.
-/
import proofs.«901084_g7700000000001085_dist_sum_ax0_shard0_i_m2048_n1024_v7x_i32_bf16_1_alg».proof.Proof.K.StepsA
import proofs.«901084_g7700000000001085_dist_sum_ax0_shard0_i_m2048_n1024_v7x_i32_bf16_1_alg».proof.Proof.K.LaunchDefs
import Idealize.ShloMosaic.Lib.Pipeline.Launch
import Idealize.ShloMosaic.Lib.Pipeline.Kit
import Idealize.ShloMosaic.Lib.Tactic

noncomputable section

namespace Cert.Kernel.AllSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

namespace LaunchB

/-! ## Chains -/

/-- A chain over two lists in a row. -/
theorem bigSepL_append {I : Type} (l₁ l₂ : List I) (Φ : I → sProp 𝕄) :
    bigSepL (l₁ ++ l₂) Φ = iprop(bigSepL l₁ Φ ∗ bigSepL l₂ Φ) := by
  induction l₁ with
  | nil => exact (Idealize.SL.BI.equiv_iff.mp Idealize.SL.BI.emp_sep).symm
  | cons a l ih =>
    rw [List.cons_append, bigSepL_cons, bigSepL_cons, ih]
    exact Idealize.SL.BI.equiv_iff.mp ⟨Idealize.SL.BI.sep_assoc', Idealize.SL.BI.sep_assoc⟩

/-- Chains over one list agree when their entries do at its members. -/
theorem bigSepL_congr {I : Type} (l : List I) {Φ Ψ : I → sProp 𝕄} (h : ∀ x ∈ l, Φ x = Ψ x) : bigSepL l Φ = bigSepL l Ψ := by
  induction l with
  | nil => rfl
  | cons a l ih =>
    rw [bigSepL_cons, bigSepL_cons, h a List.mem_cons_self, ih (fun x hx => h x (List.mem_cons_of_mem _ hx))]

/-! ## The launch credit -/

/-- The receive credits the transfers `l` of every device owe, seen from device `c`: transfer `d` of the device `d`
    places back pays `c`'s receive cell `d`. -/
theorem cred_xfer (c : Dev nD) : ∀ l : List ℕ,
    (Pipeline.launchCred (fun p => owedXfer p l) c : sProp 𝕄) ⊢ bigSepL l (fun d => cred (tallyAt (recvCell c d) () N))
  | [] => by
    rw [show (fun p : Dev nD => owedXfer p []) = fun _ => 0 from rfl, Pipeline.launchCred_zero]
    exact Idealize.SL.BI.Entails.refl _
  | d :: l => by
    rw [show (fun p : Dev nD => owedXfer p (d :: l)) = fun p => owedXfer p l + tallyAt (recvCell (peer p d) d) () N from rfl,
      Pipeline.launchCred_add,
      show bigSepL (d :: l) (fun d => (cred (tallyAt (recvCell c d) () N) : sProp 𝕄))
        = iprop(cred (tallyAt (recvCell c d) () N) ∗ bigSepL l (fun d => cred (tallyAt (recvCell c d) () N))) from bigSepL_cons _ _ _]
    iintro ⟨Hl, Hd⟩
    isplitl [Hd]
    · iapply (Pipeline.launchCred_tallyAt (SemLoc.dma (recvS d)) (fun p => peer p d) (fun o => back o d)
        (fun o => peer_back o d) (fun p => back_peer p d) () N c)
      iexact Hd
    · iapply (cred_xfer c l); iexact Hl

/-- The units the signals `l` of every device owe, seen from device `c`: signal `j` of the device `j` places back
    pays `c`'s barrier cell, one unit each. -/
theorem cred_sig (c : Dev nD) (base : Dev nD → CellTallies nD τ sig Unit) : ∀ l : List ℕ,
    (Pipeline.launchCred (fun p => owedSig p (base p) l) c : sProp 𝕄)
      ⊢ iprop(Pipeline.launchCred base c ∗ cred (tallyAt (barCell c) () l.length))
  | [] => by
    rw [show (fun p : Dev nD => owedSig p (base p) []) = base from rfl, List.length_nil, tallyAt_zero, cred_zero]
    exact Idealize.SL.BI.sep_emp_intro
  | j :: l => by
    rw [show (fun p : Dev nD => owedSig p (base p) (j :: l)) = fun p => owedSig p (base p) l + tallyAt (barCell (peer p j)) () 1 from rfl,
      Pipeline.launchCred_add, List.length_cons, ← tallyAt_add]
    iintro ⟨Hl, Hj⟩
    ihave H := (cred_sig c base l) $$ Hl
    icases H with ⟨Hb, Hn⟩
    isplitl [Hb]; · iexact Hb
    iapply (cred_add _ _).2
    isplitl [Hn]; · iexact Hn
    iapply (Pipeline.launchCred_tallyAt (SemLoc.reg barS) (fun p => peer p j) (fun o => back o j)
      (fun o => peer_back o j) (fun p => back_peer p j) () 1 c)
    iexact Hj

end LaunchB

open LaunchB

/-- A device's launch credit: 31 units on its barrier cell, one from every other device, and a row's credit on the
    receive cell of each transfer, from the device that many places back. -/
theorem creds (c : Dev nD) :
    (Pipeline.launchCred O₀ c : sProp 𝕄)
      ⊢ iprop(cred (tallyAt (barCell c) () 31) ∗ bigSepL ds (fun d => cred (tallyAt (recvCell c d) () N))) := by
  show (Pipeline.launchCred (fun p => owedSig p (O₁ p) ds) c : sProp 𝕄) ⊢ _
  iintro H
  ihave H' := (cred_sig c (fun p => O₁ p) ds) $$ H
  icases H' with ⟨Hb, Hn⟩
  isplitl [Hn]
  · rw [show ds.length = 31 from rfl]; iexact Hn
  · iapply (cred_xfer c ds); iexact Hb

/-! ## The theorem's side conditions -/

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startX m c ∗ emp) := by
  unfold G' startX ghost carried positions xferToks
  iintro ⟨-, Hlev, Hcr, -, ⟨%K, Hrec, ⟨Hb, Hs, Hr⟩, Hx, Hsig⟩⟩
  ihave Hc := (creds (F := F) c) $$ Hcr
  icases Hc with ⟨H1, HN⟩
  imodintro
  isplitl
  · isplitr [Hsig]
    · iexists K
      isplitl [Hrec]; · iexact Hrec
      isplitl [Hb]; · iexact Hb
      isplitl [Hs]; · iexact Hs
      isplitl [Hr]; · iexact Hr
      isplitl [Hx]; · iexact Hx
      isplitl [H1]; · iexact H1
      isplitl [HN]; · iexact HN
      iexact Hlev
    · iexact Hsig
  · iempintro

theorem phi0_intro (m : (ℓ : Loc nD τ sig) → Buf (Elt F) ℓ) (c : Dev nD) :
    iprop(startX m c ∗ Pipeline.prefHeld Pipeline.Prefetch.none c (fun _ => fullShare.right) (fun k => k.elim0) ∗ Pipeline.scopedRest cfg0.spec c)
      ⊢ (dats m 0 c).Φ 0 := by
  have hΦ : (dats m 0 c).Φ 0 = Φstart m c := by
    show (if (0 : Fin (cfg0.N + 1)).val = 0 then Φstart m c
      else if (0 : Fin (cfg0.N + 1)).val = 8 then Φend m c else Φmid m c (0 : Fin (cfg0.N + 1)).val) = Φstart m c
    exact if_pos (Fin.val_zero _)
  rw [hΦ, scopedRest0_eq]
  unfold Φstart startX scrWhole
  iintro ⟨⟨HG, Hs⟩, -, ⟨%f, Hr⟩⟩
  isplitl [HG]; · iexact HG
  isplitl [Hs]; · iexact Hs
  iexists f; iexact Hr

namespace LaunchB

/-- The place of send semaphore `d` and of receive semaphore `d` among the kernel's own 62. -/
def sK (d : ℕ) : Fin 62 := ⟨(d - 1) % 62, Nat.mod_lt _ (by decide)⟩
def rK (d : ℕ) : Fin 62 := ⟨(d + 30) % 62, Nat.mod_lt _ (by decide)⟩

theorem osem_sK {d : ℕ} (hd : 1 ≤ d ∧ d ≤ 31) : osem (sK d) = (.dma (sendS d) : SemLoc sig) := by
  have h : (d - 1) % 62 = d - 1 := Nat.mod_eq_of_lt (by omega)
  show (if (d - 1) % 62 < 31 then SemLoc.dma (sendS ((d - 1) % 62 + 1)) else SemLoc.dma (recvS ((d - 1) % 62 - 30))) = _
  rw [h, if_pos (by omega), Nat.sub_add_cancel hd.1]

theorem osem_rK {d : ℕ} (hd : 1 ≤ d ∧ d ≤ 31) : osem (rK d) = (.dma (recvS d) : SemLoc sig) := by
  have h : (d + 30) % 62 = d + 30 := Nat.mod_eq_of_lt (by omega)
  show (if (d + 30) % 62 < 31 then SemLoc.dma (sendS ((d + 30) % 62 + 1)) else SemLoc.dma (recvS ((d + 30) % 62 - 30))) = _
  rw [h, if_neg (by omega), Nat.add_sub_cancel]

/-- The 62 own semaphores are the 31 send semaphores, then the 31 receive semaphores. -/
theorem own_univ : (Finset.univ : Finset (Fin 62)) = (ds.map sK ++ ds.map rK).toFinset := by
  ext k
  have hk : k.val < 62 := k.isLt
  rw [List.mem_toFinset, List.mem_append, List.mem_map, List.mem_map]
  refine ⟨fun _ => ?_, fun _ => Finset.mem_univ _⟩
  by_cases h : k.val < 31
  · refine Or.inl ⟨k.val + 1, List.mem_range'_1.mpr (by omega), Fin.ext ?_⟩
    show (k.val + 1 - 1) % 62 = k.val
    omega
  · refine Or.inr ⟨k.val - 30, List.mem_range'_1.mpr (by omega), Fin.ext ?_⟩
    show (k.val - 30 + 30) % 62 = k.val
    omega

theorem own_nodup : (ds.map sK ++ ds.map rK).Nodup := by
  refine List.Nodup.append ?_ ?_ ?_
  · refine List.Nodup.map_on ?_ (List.nodup_range' (s := 1) (n := 31))
    intro x hx y hy h
    have hx' := List.mem_range'_1.mp hx
    have hy' := List.mem_range'_1.mp hy
    have h' : (x - 1) % 62 = (y - 1) % 62 := congrArg Fin.val h
    omega
  · refine List.Nodup.map_on ?_ (List.nodup_range' (s := 1) (n := 31))
    intro x hx y hy h
    have hx' := List.mem_range'_1.mp hx
    have hy' := List.mem_range'_1.mp hy
    have h' : (x + 30) % 62 = (y + 30) % 62 := congrArg Fin.val h
    omega
  · intro k hs hr
    obtain ⟨x, hx, rfl⟩ := List.mem_map.mp hs
    obtain ⟨y, hy, h⟩ := List.mem_map.mp hr
    have hx' := List.mem_range'_1.mp hx
    have hy' := List.mem_range'_1.mp hy
    have h' : (y + 30) % 62 = (x - 1) % 62 := congrArg Fin.val h
    omega

theorem ownSems0_eq (c : Dev nD) :
    (Pipeline.ownSems0 (Ix := Unit) (Name := ℕ) (U := UU) (Lvl := ℕ) (Val := Elt F) (τ := τ) osem c : sProp 𝕄)
      = iprop(bigSepL ds (fun d => semVal (sendCell c d) 0) ∗ bigSepL ds (fun d => semVal (recvCell c d) 0)) := by
  rw [Pipeline.ownSems0_eq_of_list c osem (ds.map sK ++ ds.map rK) own_univ own_nodup, bigSepL_append, bigSepL_map, bigSepL_map,
    show bigSepL ds (fun x => (semVal ((c : Thread nD τ), osem (sK x)) 0 : sProp 𝕄)) = bigSepL ds (fun d => semVal (sendCell c d) 0) from
      bigSepL_congr ds fun d hd => by rw [osem_sK (StepsA.mem_ds hd)],
    show bigSepL ds (fun x => (semVal ((c : Thread nD τ), osem (rK x)) 0 : sProp 𝕄)) = bigSepL ds (fun d => semVal (recvCell c d) 0) from
      bigSepL_congr ds fun d hd => by rw [osem_rK (StepsA.mem_ds hd)]]

end LaunchB

theorem phi_exit (m : (ℓ : Loc nD τ sig) → Buf (Elt F) ℓ) (c : Dev nD) :
    (dats m 0 c).Φ (Fin.last cfg0.N) ⊢ iprop(emp ∗ Pipeline.ownSems0 osem c ∗ Pipeline.scopedRest cfg0.spec c) := by
  have hN : (Fin.last cfg0.N).val = 8 := by rw [Fin.val_last]; exact N_0
  have hΦ : (dats m 0 c).Φ (Fin.last cfg0.N) = Φend m c := by
    show (if (Fin.last cfg0.N).val = 0 then Φstart m c
      else if (Fin.last cfg0.N).val = 8 then Φend m c else Φmid m c (Fin.last cfg0.N).val) = Φend m c
    rw [if_neg (by rw [hN]; decide), if_pos hN]
  rw [hΦ, scopedRest0_eq, ownSems0_eq]
  unfold Φend scrWhole
  iintro ⟨Hr, HzS, HzR⟩
  isplitr; · iempintro
  isplitl [HzS HzR]
  · isplitl [HzS]; · iexact HzS
    iexact HzR
  iexists (tblFin m c); iexact Hr

theorem waits (m : (ℓ : Loc nD τ sig) → Buf (Elt F) ℓ) (c : Dev nD) :
    (levAts L lv : sProp 𝕄) ⊢ Pipeline.cellsWaits cfgs (dats m) () 0 c :=
  Pipeline.cellsWaits_intro cfgs (dats m) () 0 c fun w s t =>
    StepsA.mayWait_stage c _ (by fin_cases w <;> fin_cases s <;> decide) _ (by
      show (if t.val = 0 then O₀ c else if t.val = 8 then 0 else O₁ c) = O₀ c
          ∨ (if t.val = 0 then O₀ c else if t.val = 8 then 0 else O₁ c) = O₁ c
          ∨ (if t.val = 0 then O₀ c else if t.val = 8 then 0 else O₁ c) = 0
      by_cases h0 : t.val = 0
      · rw [if_pos h0]; exact Or.inl rfl
      · rw [if_neg h0]
        by_cases h8 : t.val = 8
        · rw [if_pos h8]; exact Or.inr (Or.inr rfl)
        · rw [if_neg h8]; exact Or.inr (Or.inl rfl))

end Cert.Kernel.AllSum

end

/-- info: 'Cert.Kernel.AllSum.creds' depends on axioms: [propext, Classical.choice, Quot.sound] -/
#guard_msgs in #print axioms Cert.Kernel.AllSum.creds

/-- info: 'Cert.Kernel.AllSum.phi0_intro' depends on axioms: [propext, Classical.choice, Quot.sound] -/
#guard_msgs in #print axioms Cert.Kernel.AllSum.phi0_intro

/-- info: 'Cert.Kernel.AllSum.phi_exit' depends on axioms: [propext, Classical.choice, Quot.sound] -/
#guard_msgs in #print axioms Cert.Kernel.AllSum.phi_exit

/-- info: 'Cert.Kernel.AllSum.waits' depends on axioms: [propext, Classical.choice, Quot.sound] -/
#guard_msgs in #print axioms Cert.Kernel.AllSum.waits

/-- info: 'Cert.Kernel.AllSum.start_intro' depends on axioms: [propext, Classical.choice, Quot.sound] -/
#guard_msgs in #print axioms Cert.Kernel.AllSum.start_intro
-- ==== Proof.K.FinalArrays.lean ====
/-
  The windowed arrays after the run.  The argument's window is an input: its array is never written back and ends as
  launched.  The result's window is one block, the whole [1, 1024] array, written back once, after the last grid point:
  the array ends holding what that point left, the column sums of the device's 32-row table.
-/
import proofs.«901084_g7700000000001085_dist_sum_ax0_shard0_i_m2048_n1024_v7x_i32_bf16_1_alg».proof.Proof.K.Data
import Idealize.ShloMosaic.Lib.Pipeline.Value
import Idealize.ShloMosaic.Lib.Pipeline.Cells
import Idealize.ShloMosaic.Lib.Pipeline.Kit

noncomputable section

namespace Cert.Kernel.AllSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-- The argument's array is never written back: it ends as launched. -/
theorem final_in (m : (ℓ : Loc nD τ sig) → Buf (Elt F) ℓ) (c : Dev nD) :
    (dats m 0 c).arrAt (0 : Fin 2) cfg0.N = m ((c : Thread nD τ).loc main_arg0) :=
  (dats m 0 c).arrAt_in 0 rfl _

/-- The result window's block index is (0, 0) at every grid point: its block sits at zero offsets in the array. -/
theorem out_off_zero (t : Fin cfg0.N) : (fun a => win0_1.index t a * main_v1.ty.shape.size a) = fun _ => 0 :=
  funext fun a => by fin_cases a <;> rfl

/-- So that block is the whole array: every index of the array lies in it, -/
theorem mem_blk_out (t : Fin cfg0.N) (i : main_v1.ty.shape.Idx) : i ∈ ((cfg0.win 1).blk t).view.set := by
  show i ∈ ((View.whole main_v1).slice (win0_1.rect t)).set
  rw [View.set_slice_whole]
  exact View.mem_set_unit_zero (out_off_zero t) _ i

/-- and what a write-back at any point writes — the column sums of the table, which is what every point's data names
    for the result's staging buffer — is the block of the array holding them. -/
theorem flushed_out (m : (ℓ : Loc nD τ sig) → Buf (Elt F) ℓ) (c : Dev nD) (t : Fin cfg0.N) :
    (dats m 0 c).flushed 1 t = ((cfg0.win 1).blk t).view.read (Elt F) (outRow (xb m) c) :=
  (Memref.read_access_unit_zero (Elt F) main_v1 (out_off_zero t) (fun a => by rw [congrFun (out_off_zero t) a]; simp)
    (outRow (xb m) c)).symm

/-- The result's array ends holding the column sums of the device's table: the write-back after the last point
    covers it. -/
theorem final_out (m : (ℓ : Loc nD τ sig) → Buf (Elt F) ℓ) (c : Dev nD) :
    (dats m 0 c).arrAt (1 : Fin 2) cfg0.N = outRow (xb m) c :=
  (dats m 0 c).arrAt_eq_of_cover 1 (outRow (xb m) c) (fun t _ => flushed_out m c t) fun i =>
    ⟨t0_7, (flush0_1 t0_7).mpr rfl, mem_blk_out t0_7 i⟩

end Cert.Kernel.AllSum

end

/-- info: 'Cert.Kernel.AllSum.final_out' depends on axioms: [propext, Classical.choice, Quot.sound] -/
#guard_msgs in #print axioms Cert.Kernel.AllSum.final_out

/-- info: 'Cert.Kernel.AllSum.final_in' depends on axioms: [propext, Classical.choice, Quot.sound] -/
#guard_msgs in #print axioms Cert.Kernel.AllSum.final_in
-- ==== Proof.K.RunMain.lean ====
/-
  The launch of the protocol on the 32 devices: every device's body obligation at its eight grid points, the launch
  theorem for a kernel whose devices owe units at launch and share the runtime's barrier semaphore, and the run with the
  values named.
-/
import proofs.«901084_g7700000000001085_dist_sum_ax0_shard0_i_m2048_n1024_v7x_i32_bf16_1_alg».proof.Proof.K.BodyFirst
import proofs.«901084_g7700000000001085_dist_sum_ax0_shard0_i_m2048_n1024_v7x_i32_bf16_1_alg».proof.Proof.K.BodyMid
import proofs.«901084_g7700000000001085_dist_sum_ax0_shard0_i_m2048_n1024_v7x_i32_bf16_1_alg».proof.Proof.K.BodyLast
import proofs.«901084_g7700000000001085_dist_sum_ax0_shard0_i_m2048_n1024_v7x_i32_bf16_1_alg».proof.Proof.K.LaunchA
import proofs.«901084_g7700000000001085_dist_sum_ax0_shard0_i_m2048_n1024_v7x_i32_bf16_1_alg».proof.Proof.K.LaunchB
import proofs.«901084_g7700000000001085_dist_sum_ax0_shard0_i_m2048_n1024_v7x_i32_bf16_1_alg».proof.Proof.K.FinalArrays
import Idealize.ShloMosaic.Lib.Pipeline.Launch
import Idealize.ShloMosaic.Lib.Pipeline.Kit

noncomputable section

namespace Cert.Kernel.AllSum

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline (Dat Cfg Window BodyObligation cellOf)

variable {F : FTy → Type} [FloatOps F]

local notation "𝕄" => MT nD τ sig Unit (Elt F) ℕ UU ℕ

/-! ## The body obligation at every point -/

theorem body_obligation (m : (ℓ : Loc nD τ sig) → Buf (Elt F) ℓ) (c : Dev nD) :
    BodyObligation (dats (F := F) m 0 c) (defs₀ (F := F)) 𝒱₀ () Set.univ :=
  bodyObligation_of m c fun t => by
    rcases Gen.fin_N0 t with rfl | rfl | rfl | rfl | rfl | rfl | rfl | rfl
    · exact body_first m c
    · exact body_mid m c t0_1 ⟨by decide, by decide⟩
    · exact body_mid m c t0_2 ⟨by decide, by decide⟩
    · exact body_mid m c t0_3 ⟨by decide, by decide⟩
    · exact body_mid m c t0_4 ⟨by decide, by decide⟩
    · exact body_mid m c t0_5 ⟨by decide, by decide⟩
    · exact body_mid m c t0_6 ⟨by decide, by decide⟩
    · exact body_last m c

/-! ## The run -/

theorem L_of_ne (g : GSem nD τ sig) (h : g.1.2 ≠ .tc) : L g = ∅ := if_neg h

/-- Each device's windowed arrays after the run. -/
def finalA (m : (ℓ : Loc nD τ sig) → Buf (Elt F) ℓ) (c : Dev nD) (w : Fin cfg0.W) : Buf (Elt F) ((cfg0.win w).arr.view.loc (c : Thread nD τ)) :=
  (dats m 0 c).arrAt w cfg0.N

set_option maxRecDepth 8000 in
/-- At the compiled mesh of 32 devices, for any float values, from any memory with every counter at zero: every weakly
    fair execution of @main terminates, and in every final state each device's windowed arrays are what the proof data
    compute. -/
theorem run_main (m : (ℓ : Loc nD τ sig) → Buf (Elt F) ℓ) (ρ : Dev nD → PrngReg) :
    θ_run defs (onTc (τ := τ) (main (F := F))) ⟨m, fun _ => 0, ρ⟩
      (fun r => ∀ c : Dev nD, ∀ w : Fin cfg0.W, r.2.mem ((cfg0.win w).arr.view.loc (c : Thread nD τ)) = finalA m c w) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu0 m)
    (hglob := glob m)
    (hA := fun _ _ => rfl) (hpf := fun _ k => k.elim0)
    (X := startX m) (Y := fun _ => iprop(emp)) (Z := fun _ => iprop(emp))
    (hX := start_intro m ρ) (hin := phi0_intro m) (hout := phi_exit m)
    (QY := fun _ _ => True)
    (hY := fun c s' => by
      iintro ⟨-, -, HSI⟩
      imodintro
      isplitr; · ipureintro; trivial
      iexact HSI)
    (hQ := fun _ h c w => (h c).1 w)

/-- The run with the values named: the argument array unchanged, the result array at the column sums of the devices'
    table. -/
theorem run_values (m : (ℓ : Loc nD τ sig) → Buf (Elt F) ℓ) (ρ : Dev nD → PrngReg) :
    θ_run defs (onTc (τ := τ) (main (F := F))) ⟨m, fun _ => 0, ρ⟩
      (fun r => ∀ c : Dev nD,
        r.2.mem ((c.tc : Thread nD τ).loc main_v1) = outRow (xb m) c
        ∧ r.2.mem ((c.tc : Thread nD τ).loc main_arg0) = m ((c.tc : Thread nD τ).loc main_arg0)) :=
  (θ_run defs _ _).mono (fun _ h c => ⟨(h c 1).trans (final_out m c), (h c 0).trans (final_in m c)⟩) (run_main m ρ)

/-- info: 'Cert.Kernel.AllSum.run_values' depends on axioms: [propext, Classical.choice, Quot.sound] -/
#guard_msgs in #print axioms run_values

end Cert.Kernel.AllSum

end
-- ==== Proof.lean ====
/-
  The five conjuncts.

  Both kernel programs run to the end with their argument arrays unchanged and each device's result array at the column
  sums of its 32-row table of partial sums (the launch of the 32-device protocol, once per float instance); the reference
  runs to the column sums of the whole array (its generated run).  At the ideal instance the two results agree: a
  device's table holds the partial sums of all 32 devices, each the sum of the rows of that device's block, and the
  blocks tile the whole array, so the sum of the table's rows is the sum of all rows; addition of extended reals is
  commutative and associative, so the grouping does not matter.  The idealization rewrote nothing.
-/
import proofs.«901084_g7700000000001085_dist_sum_ax0_shard0_i_m2048_n1024_v7x_i32_bf16_1_alg».proof.Defs
import proofs.«901084_g7700000000001085_dist_sum_ax0_shard0_i_m2048_n1024_v7x_i32_bf16_1_alg».proof.Proof.Gen.Kernel
import proofs.«901084_g7700000000001085_dist_sum_ax0_shard0_i_m2048_n1024_v7x_i32_bf16_1_alg».proof.Proof.Gen.KernelIdeal
import proofs.«901084_g7700000000001085_dist_sum_ax0_shard0_i_m2048_n1024_v7x_i32_bf16_1_alg».proof.Proof.Gen.ReferenceIdeal
import proofs.«901084_g7700000000001085_dist_sum_ax0_shard0_i_m2048_n1024_v7x_i32_bf16_1_alg».proof.Proof.Gen.Pre_finite_inputs_Kernel
import proofs.«901084_g7700000000001085_dist_sum_ax0_shard0_i_m2048_n1024_v7x_i32_bf16_1_alg».proof.Proof.Gen.Pre_finite_inputs_ReferenceIdeal
import proofs.«901084_g7700000000001085_dist_sum_ax0_shard0_i_m2048_n1024_v7x_i32_bf16_1_alg».proof.Proof.Gen.ReferenceIdeal.Run
import proofs.«901084_g7700000000001085_dist_sum_ax0_shard0_i_m2048_n1024_v7x_i32_bf16_1_alg».proof.Proof.Bridge
import proofs.«901084_g7700000000001085_dist_sum_ax0_shard0_i_m2048_n1024_v7x_i32_bf16_1_alg».proof.Proof.RunMain
import proofs.«901084_g7700000000001085_dist_sum_ax0_shard0_i_m2048_n1024_v7x_i32_bf16_1_alg».proof.Proof.K.RunMain
import Idealize.ShloMosaic.Adequacy
import Idealize.ShloMosaic.Init

noncomputable section

namespace Cert.Proof

open Idealize.ShloMosaic Idealize.ShloMosaic.TcCoe Idealize.SL.Sem

/-- The word-level kernel runs and leaves its argument array as it was. -/
theorem frame_k : Cert.frame_Kernel (hKernel := Cert.Kernel.Gen.facts) (hPre_finite_inputs_Kernel := Cert.Pre_finite_inputs_Kernel.Gen.facts) :=
  fun m ρ _ => (θ_run Cert.Kernel.defs _ _).mono (fun _ h c => (h c).2) (Cert.Kernel.AllSum.run_values (F := Bits) m ρ)

/-- The idealized kernel runs and leaves its argument array as it was. -/
theorem frame_ki : Cert.frame_KernelIdeal (hKernelIdeal := Cert.KernelIdeal.Gen.facts) (hPre_finite_inputs_Kernel := Cert.Pre_finite_inputs_Kernel.Gen.facts) :=
  fun m ρ _ => (θ_run Cert.KernelIdeal.defs _ _).mono (fun _ h c => (h c).2) (Cert.KernelIdeal.AllSum.run_values (F := Ideal) m ρ)

/-- The reference runs and leaves its argument array as it was: its run with the result dropped. -/
theorem frame_ri : Cert.frame_ReferenceIdeal (hReferenceIdeal := Cert.ReferenceIdeal.Gen.facts) (hPre_finite_inputs_ReferenceIdeal := Cert.Pre_finite_inputs_ReferenceIdeal.Gen.facts) :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories in which each device holds its block of the whole array, every device's result is the reference's:
    the column sums of the whole array. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h c).1.trans ?_, (h c).2⟩) (Cert.KernelIdeal.AllSum.run_values (F := Ideal) m ρ)
  exact Cert.KernelIdeal.AllSum.kernel_eq_reference m _ hagree c

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
